-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x3x256 : Shape := ⟨3, ![100000, 3, 256]⟩
abbrev S256x256 : Shape := ⟨2, ![256, 256]⟩
abbrev S256 : Shape := ⟨1, ![256]⟩
abbrev S256x32 : Shape := ⟨2, ![256, 32]⟩
abbrev S32 : Shape := ⟨1, ![32]⟩
abbrev S32x1 : Shape := ⟨2, ![32, 1]⟩
abbrev S1 : Shape := ⟨1, ![1]⟩
abbrev S100000 : Shape := ⟨1, ![100000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x3x256 : S_.BroadcastsInDim S100000x3x256 (![] : Fin 0 → Fin S100000x3x256.rank)
  reducesTo_S100000x3x256_S_d0_1_2 : S100000x3x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S256x32 .f32) (main_arg12 : FVec F S32 .f32) (main_arg13 : FVec F S32x1 .f32) (main_arg14 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x32 .f32 := Host.absf main_arg11
  let main_cst_20 : FVec F S_ .f32 := constant S_ .f32 0x7F800000#32
  let main_v55 : FVec F S256x32 .f32 := broadcastInDim S256x32 ![] bcast_S_S256x32 main_cst_20
  let main_v56 : IVec S256x32 1 := cmpf .olt main_v54 main_v55
  let main_c_21 : IVec S_ 1 := constantI S_ 1 1#1
  let main_v57 : IVec S_ 1 := (fun x v => Host.reduce IntOp.andi x v reducesTo_S256x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x1 .f32 := Host.absf main_arg13
  let main_cst_24 : FVec F S_ .f32 := constant S_ .f32 0x7F800000#32
  let main_v65 : FVec F S32x1 .f32 := broadcastInDim S32x1 ![] bcast_S_S32x1 main_cst_24
  let main_v66 : IVec S32x1 1 := cmpf .olt main_v64 main_v65
  let main_c_25 : IVec S_ 1 := constantI S_ 1 1#1
  let main_v67 : IVec S_ 1 := (fun x v => Host.reduce IntOp.andi x v reducesTo_S32x1_S_d0_1 h_S_) main_v66 main_c_25
  fn_part4 (F := F) main_arg14 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256x32 .f32) (main_arg12 : FVec F S32 .f32) (main_arg13 : FVec F S32x1 .f32) (main_arg14 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_v48 main_v49 main_v50

def fn_part1 {F : FTy → Type} [FloatOps F] (main_arg4 : FVec F S256x256 .f32) (main_arg5 : FVec F S256 .f32) (main_arg6 : FVec F S256 .f32) (main_arg7 : FVec F S256 .f32) (main_arg8 : FVec F S256x256 .f32) (main_arg9 : FVec F S256 .f32) (main_arg10 : FVec F S256x256 .f32) (main_arg11 : FVec F S256x32 .f32) (main_arg12 : FVec F S32 .f32) (main_arg13 : FVec F S32x1 .f32) (main_arg14 : FVec F S1 .f32) (main_v13 : IVec S_ 1) (main_v16 : IVec S100000x3x256 1) : IVec S_ 1 :=
  let main_c_5 : IVec S_ 1 := constantI S_ 1 1#1
  let main_v17 : IVec S_ 1 := (fun x v => Host.reduce IntOp.andi x v reducesTo_S100000x3x256_S_d0_1_2 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x256 .f32) (main_arg1 : FVec F S100000x256 .f32) (main_arg2 : FVec F S100000x3x256 .f32) (main_arg3 : FVec F S100000x3x256 .f32) (main_arg4 : FVec F S256x256 .f32) (main_arg5 : FVec F S256 .f32) (main_arg6 : FVec F S256 .f32) (main_arg7 : FVec F S256 .f32) (main_arg8 : FVec F S256x256 .f32) (main_arg9 : FVec F S256 .f32) (main_arg10 : FVec F S256x256 .f32) (main_arg11 : FVec F S256x32 .f32) (main_arg12 : FVec F S32 .f32) (main_arg13 : FVec F S32x1 .f32) (main_arg14 : FVec F S1 .f32) (main_arg15 : IVec S100000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S100000x3x256 .f32 := Host.absf main_arg2
  let main_cst_2 : FVec F S_ .f32 := constant S_ .f32 0x7F800000#32
  let main_v10 : FVec F S100000x3x256 .f32 := broadcastInDim S100000x3x256 ![] bcast_S_S100000x3x256 main_cst_2
  let main_v11 : IVec S100000x3x256 1 := cmpf .olt main_v9 main_v10
  let main_c_3 : IVec S_ 1 := constantI S_ 1 1#1
  let main_v12 : IVec S_ 1 := (fun x v => Host.reduce IntOp.andi x v reducesTo_S100000x3x256_S_d0_1_2 h_S_) main_v11 main_c_3
  let main_v13 : IVec S_ 1 := andi main_v8 main_v12
  let main_v14 : FVec F S100000x3x256 .f32 := Host.absf main_arg3
  let main_cst_4 : FVec F S_ .f32 := constant S_ .f32 0x7F800000#32
  let main_v15 : FVec F S100000x3x256 .f32 := broadcastInDim S100000x3x256 ![] bcast_S_S100000x3x256 main_cst_4
  let main_v16 : IVec S100000x3x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x256 : Shape := ⟨2, ![100000, 256]⟩
abbrev S100000x3x256 : Shape := ⟨3, ![100000, 3, 256]⟩
abbrev S256x256 : Shape := ⟨2, ![256, 256]⟩
abbrev S256 : Shape := ⟨1, ![256]⟩
abbrev S256x32 : Shape := ⟨2, ![256, 32]⟩
abbrev S32 : Shape := ⟨1, ![32]⟩
abbrev S32x1 : Shape := ⟨2, ![32, 1]⟩
abbrev S1 : Shape := ⟨1, ![1]⟩
abbrev S100000 : Shape := ⟨1, ![100000]⟩
abbrev S100000x1 : Shape := ⟨2, ![100000, 1]⟩
abbrev S100000x768 : Shape := ⟨2, ![100000, 768]⟩
abbrev S1x256 : Shape := ⟨2, ![1, 256]⟩
abbrev S1x32 : Shape := ⟨2, ![1, 32]⟩
abbrev S1x1 : Shape := ⟨2, ![1, 1]⟩
abbrev S2x2048x384 : Shape := ⟨3, ![2, 2048, 384]⟩
abbrev S1000x256 : Shape := ⟨2, ![1000, 256]⟩
abbrev S1000x768 : Shape := ⟨2, ![1000, 768]⟩
abbrev S1000x1 : Shape := ⟨2, ![1000, 1]⟩
abbrev S1x2048x384 : Shape := ⟨3, ![1, 2048, 384]⟩
abbrev S2048x384 : Shape := ⟨2, ![2048, 384]⟩
abbrev S1000 : Shape := ⟨1, ![1000]⟩
abbrev S1000x4 : Shape := ⟨2, ![1000, 4]⟩
abbrev S1000x124 : Shape := ⟨2, ![1000, 124]⟩
abbrev S1000x128 : Shape := ⟨2, ![1000, 128]⟩
abbrev S1000x384 : Shape := ⟨2, ![1000, 384]⟩
abbrev S1000x2048 : Shape := ⟨2, ![1000, 2048]⟩
abbrev S_ : Shape := ⟨0, ![]⟩
abbrev S2048x256 : Shape := ⟨2, ![2048, 256]⟩
abbrev S2048x1 : Shape := ⟨2, ![2048, 1]⟩
abbrev S2048 : Shape := ⟨1, ![2048]⟩
abbrev S2048x32 : Shape := ⟨2, ![2048, 32]⟩
abbrev S2x1x1 : Shape := ⟨3, ![2, 1, 1]⟩
abbrev S512x256 : Shape := ⟨2, ![512, 256]⟩
abbrev S1x1x1 : Shape := ⟨3, ![1, 1, 1]⟩
abbrev S512x2048 : Shape := ⟨2, ![512, 2048]⟩
abbrev S1x512x2048 : Shape := ⟨3, ![1, 512, 2048]⟩

abbrev nBuf : Space → Nat
  | .hbm => 72
  | .vmem => 36
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S100000x3x256, .f32⟩
  | .hbm, ⟨3, _⟩ => ⟨S100000x3x256, .f32⟩
  | .hbm, ⟨4, _⟩ => ⟨S256x256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S100000, .i32⟩
  | .hbm, ⟨16, _⟩ => ⟨S100000x1, .i32⟩
  | .hbm, ⟨17, _⟩ => ⟨S100000x768, .f32⟩
  | .hbm, ⟨18, _⟩ => ⟨S100000x768, .f32⟩
  | .hbm, ⟨19, _⟩ => ⟨S256x256, .bf16⟩
  | .hbm, ⟨20, _⟩ => ⟨S256x256, .bf16⟩
  | .hbm, ⟨21, _⟩ => ⟨S256x32, .bf16⟩
  | .hbm, ⟨22, _⟩ => ⟨S32x1, .bf16⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x32, .f32⟩
  | .hbm, ⟨28, _⟩ => ⟨S1x1, .f32⟩
  | .hbm, ⟨29, _⟩ => ⟨S2x2048x384, .f32⟩
  | .hbm, ⟨30, _⟩ => ⟨S1x2048x384, .f32⟩
  | .hbm, ⟨31, _⟩ => ⟨S2048x384, .f32⟩
  | .hbm, ⟨32, _⟩ => ⟨S1x2048x384, .f32⟩
  | .hbm, ⟨33, _⟩ => ⟨S2048x384, .f32⟩
  | .hbm, ⟨34, _⟩ => ⟨S2048x384, .f32⟩
  | .hbm, ⟨35, _⟩ => ⟨S_, .f32⟩
  | .hbm, ⟨36, _⟩ => ⟨S256, .f32⟩
  | .hbm, ⟨37, _⟩ => ⟨S256, .f32⟩
  | .hbm, ⟨38, _⟩ => ⟨S_, .f32⟩
  | .hbm, ⟨39, _⟩ => ⟨S_, .f32⟩
  | .hbm, ⟨40, _⟩ => ⟨S1x1, .f32⟩
  | .hbm, ⟨41, _⟩ => ⟨S2048x256, .f32⟩
  | .hbm, ⟨42, _⟩ => ⟨S1x1, .f32⟩
  | .hbm, ⟨43, _⟩ => ⟨S1x1, .f32⟩
  | .hbm, ⟨44, _⟩ => ⟨S1x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1x1, .f32⟩
  | .hbm, ⟨49, _⟩ => ⟨S2x1x1, .f32⟩
  | .hbm, ⟨50, _⟩ => ⟨S2x1x1, .f32⟩
  | .hbm, ⟨51, _⟩ => ⟨S1x1x1, .f32⟩
  | .hbm, ⟨52, _⟩ => ⟨S_, .f32⟩
  | .hbm, ⟨53, _⟩ => ⟨S1x1x1, .f32⟩
  | .hbm, ⟨54, _⟩ => ⟨S_, .f32⟩
  | .hbm, ⟨55, _⟩ => ⟨S_, .f32⟩
  | .hbm, ⟨56, _⟩ => ⟨S1x1x1, .f32⟩
  | .hbm, ⟨57, _⟩ => ⟨S_, .f32⟩
  | .hbm, ⟨58, _⟩ => ⟨S1x1x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S1000x768, .f32⟩
  | .local _ .vmem, ⟨5, _⟩ => ⟨S1000x768, .f32⟩
  | .local _ .vmem, ⟨6, _⟩ => ⟨S1000x768, .f32⟩
  | .local _ .vmem, ⟨7, _⟩ => ⟨S1000x768, .f32⟩
  | .local _ .vmem, ⟨8, _⟩ => ⟨S1000x1, .i32⟩
  | .local _ .vmem, ⟨9, _⟩ => ⟨S1000x1, .i32⟩
  | .local _ .vmem, ⟨10, _⟩ => ⟨S256x256, .bf16⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S256x256, .bf16⟩
  | .local _ .vmem, ⟨15, _⟩ => ⟨S1x256, .f32⟩
  | .local _ .vmem, ⟨16, _⟩ => ⟨S1x2048x384, .f32⟩
  | .local _ .vmem, ⟨17, _⟩ => ⟨S1x2048x384, .f32⟩
  | .local _ .vmem, ⟨18, _⟩ => ⟨S2048x384, .f32⟩
  | .local _ .vmem, ⟨19, _⟩ => ⟨S256x32, .bf16⟩
  | .local _ .vmem, ⟨20, _⟩ => ⟨S1x32, .f32⟩
  | .local _ .vmem, ⟨21, _⟩ => ⟨S32x1, .bf16⟩
  | .local _ .vmem, ⟨22, _⟩ => ⟨S1x1, .f32⟩
  | .local _ .vmem, ⟨23, _⟩ => ⟨S1x1, .f32⟩
  | .local _ .vmem, ⟨24, _⟩ => ⟨S2048x256, .f32⟩
  | .local _ .vmem, ⟨25, _⟩ => ⟨S1x1, .f32⟩
  | .local _ .vmem, ⟨26, _⟩ => ⟨S1x1, .f32⟩
  | .local _ .vmem, ⟨27, _⟩ => ⟨S1x1, .f32⟩
  | .local _ .vmem, ⟨28, _⟩ => ⟨S512x256, .f32⟩
  | .local _ .vmem, ⟨29, _⟩ => ⟨S512x256, .f32⟩
  | .local _ .vmem, ⟨30, _⟩ => ⟨S2048x256, .f32⟩
  | .local _ .vmem, ⟨31, _⟩ => ⟨S1x1, .f32⟩
  | .local _ .vmem, ⟨32, _⟩ => ⟨S1x1x1, .f32⟩
  | .local _ .vmem, ⟨33, _⟩ => ⟨S1x1x1, .f32⟩
  | .local _ .vmem, ⟨34, _⟩ => ⟨S1x1x1, .f32⟩
  | .local _ .vmem, ⟨35, _⟩ => ⟨S1x1x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_cst_0 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_v23_2 : Ref sig .tc := ⟨.hbm, 43, rfl⟩
abbrev main_v23_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28_0 : Ref sig .tc := ⟨.hbm, 49, rfl⟩
abbrev main_v28_1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_1 : Ref sig .tc := ⟨.hbm, 62, rfl⟩
abbrev main_v40 : Ref sig .tc := ⟨.hbm, 63, rfl⟩
abbrev main_cst_2 : Ref sig .tc := ⟨.hbm, 64, rfl⟩
abbrev main_v41 : Ref sig .tc := ⟨.hbm, 65, rfl⟩
abbrev main_v42 : Ref sig .tc := ⟨.hbm, 66, rfl⟩
abbrev main_cst_3 : Ref sig .tc := ⟨.hbm, 67, rfl⟩
abbrev main_v43 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc1_sem0_0 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem3_1 : DmaSem sig := 33
abbrev cc2_sem4_0 : DmaSem sig := 34
abbrev cc2_sem4_1 : DmaSem sig := 35

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1000x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1000x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1000x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2048x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S2048x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  shapeCasts_S100000_S100000x1 : S100000.ShapeCasts S100000x1
  shapeCasts_S100000x3x256_S100000x768 : S100000x3x256.ShapeCasts S100000x768
  bitsLt_bf16_f32 : FTy.bits .bf16 < FTy.bits .f32
  shapeCasts_S256_S1x256 : S256.ShapeCasts S1x256
  shapeCasts_S32_S1x32 : S32.ShapeCasts S1x32
  shapeCasts_S1_S1x1 : S1.ShapeCasts S1x1
  inb_S1x2048x384_S1x2048x384_0_0_0 : ∀ a, (![0, 0, 0] : Fin 3 → Nat) a + S1x2048x384.size a ≤ S1x2048x384.size a
  h_S1x2048x384 : 0 < S1x2048x384.numel
  shapeCasts_S1x2048x384_S2048x384 : S1x2048x384.ShapeCasts S2048x384
  shapeCasts_S2048x384_S1x2048x384 : S2048x384.ShapeCasts S1x2048x384
  inb_S1000x256_S1000x256_0_0 : ∀ a, (![0, 0] : Fin 2 → Nat) a + S1000x256.size a ≤ S1000x256.size a
  h_S1000x256 : 0 < S1000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  reduces_S1000x256_S1000 : S1000x256.Reduces [1] S1000
  shapeCasts_S1000_S1000x1 : S1000.ShapeCasts S1000x1
  broadcasts_S1000x1_S1000x256 : S1000x1.Broadcasts S1000x256
  inb_S1000x768_S1000x256_0_0 : ∀ a, (![0, 0] : Fin 2 → Nat) a + S1000x256.size a ≤ S1000x768.size a
  shapeCasts_S1000x256_S1000x256 : S1000x256.ShapeCasts S1000x256
  inb_S1000x768_S1000x256_0_256 : ∀ a, (![0, 256] : Fin 2 → Nat) a + S1000x256.size a ≤ S1000x768.size a
  inb_S1000x768_S1000x256_0_512 : ∀ a, (![0, 512] : Fin 2 → Nat) a + S1000x256.size a ≤ S1000x768.size a
  concatenates_S1000x1_S1000x1_S1000x1_S1000x1_S1000x4_d1 : Shape.Concatenates [S1000x1, S1000x1, S1000x1, S1000x1] S1000x4 1
  concatenates_S1000x4_S1000x124_S1000x128_d1 : Shape.Concatenates [S1000x4, S1000x124] S1000x128 1
  concatenates_S1000x256_S1000x128_S1000x384_d1 : Shape.Concatenates [S1000x256, S1000x128] S1000x384 1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x2048_d1_w32 : S1000x2048.Iotas .tc 32 [1]
  broadcasts_S1000x1_S1000x2048 : S1000x1.Broadcasts S1000x2048
  natLt_1_32 : 1 < 32
  slices_S2x2048x384_S1x2048x384_0_0_0 : S2x2048x384.Slices ![0, 0, 0] S1x2048x384
  slices_S2x2048x384_S1x2048x384_1_0_0 : S2x2048x384.Slices ![1, 0, 0] S1x2048x384
  reducesTo_S256x256_S256_d0 : S256x256.ReducesTo [0] S256
  h_S_ : 0 < S_.numel
  reducesTo_S256_S_d0 : S256.ReducesTo [0] S_
  shapeCasts_S_S1x1 : S_.ShapeCasts S1x1
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  slices_S2048x384_o0_0_S2048x256 : S2048x384.Slices ![0, 0] S2048x256
  slices_S2048x384_o0_256_S2048x1 : S2048x384.Slices ![0, 256] S2048x1
  slices_S2048x384_o0_257_S2048x1 : S2048x384.Slices ![0, 257] S2048x1
  slices_S2048x384_o0_258_S2048x1 : S2048x384.Slices ![0, 258] S2048x1
  slices_S2048x384_o0_259_S2048x1 : S2048x384.Slices ![0, 259] S2048x1
  broadcasts_S2048x1_S2048x256 : S2048x1.Broadcasts S2048x256
  reduces_S2048x256_S2048 : S2048x256.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S2048x1_S1 : S2048x1.Reduces [0] S1
  inb_S2048x256_S2048x256_0_0 : ∀ a, (![0, 0] : Fin 2 → Nat) a + S2048x256.size a ≤ S2048x256.size a
  h_S2048x256 : 0 < S2048x256.numel
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S1x1_S1x1 : S1x1.ShapeCasts S1x1
  broadcasts_S1x1_S2048x1 : S1x1.Broadcasts S2048x1
  shapeCasts_S1x1_S_ : S1x1.ShapeCasts S_
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S2048x256_S2048x256 : S2048x256.ShapeCasts S2048x256
  iota_S512x2048_d0_w32 : S512x2048.Iotas .tc 32 [0]
  iota_S512x2048_d1_w32 : S512x2048.Iotas .tc 32 [1]
  shapeCasts_S512x2048_S1x512x2048 : S512x2048.ShapeCasts S1x512x2048
  reduces_S1x512x2048_S1 : S1x512x2048.Reduces [1, 2] S1
  shapeCasts_S1_S1x1x1 : S1.ShapeCasts S1x1x1
  inpos_S1x1x1_p0_0_0 : ∀ a, (![0, 0, 0] : Fin 3 → Nat) a < S1x1x1.size a
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  dot_S1000x256_S256x256_S1000x256_1_0_0_1_n_n_wf : DotDims.WF S1000x256 S256x256 S1000x256 [1] [0] [0] [1] [] []
  dot_S1000x2048_S1000x384_S2048x384_0_0_1_1_n_n_wf : DotDims.WF S1000x2048 S1000x384 S2048x384 [0] [0] [1] [1] [] []
  dot_S2048x256_S256x32_S2048x32_1_0_0_1_n_n_wf : DotDims.WF S2048x256 S256x32 S2048x32 [1] [0] [0] [1] [] []
  dot_S2048x32_S32x1_S2048x1_1_0_0_1_n_n_wf : DotDims.WF S2048x32 S32x1 S2048x1 [1] [0] [0] [1] [] []
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S100000x256.size a
  hwx0_0 : ∀ i : grid0.Coords, EltTy.bits .f32 = 32 ∨ (Rect.block (s := S100000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S100000x256.size a
  hwx0_1 : ∀ i : grid0.Coords, EltTy.bits .f32 = 32 ∨ (Rect.block (s := S100000x256) S1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x768.size a ≤ S100000x768.size a
  hwx0_2 : ∀ i : grid0.Coords, EltTy.bits .f32 = 32 ∨ (Rect.block (s := S100000x768) S1000x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x768.size a ≤ S100000x768.size a
  hwx0_3 : ∀ i : grid0.Coords, EltTy.bits .f32 = 32 ∨ (Rect.block (s := S100000x768) S1000x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x1.size a ≤ S100000x1.size a
  hwx0_4 : ∀ i : grid0.Coords, EltTy.bits .i32 = 32 ∨ (Rect.block (s := S100000x1) S1000x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x2048x384.size a ≤ S2x2048x384.size a
  hwx0_11 : ∀ i : grid0.Coords, EltTy.bits .f32 = 32 ∨ (Rect.block (s := S2x2048x384) S1x2048x384.size (cc0_transform_11 i) (hinb0_11 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x384.size a ≤ S2048x384.size a
  hwx1_0 : ∀ i : grid1.Coords, EltTy.bits .f32 = 32 ∨ (Rect.block (s := S2048x384) S2048x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x32.size a ≤ S256x32.size a
  hwx1_1 : ∀ i : grid1.Coords, EltTy.bits .bf16 = 32 ∨ (Rect.block (s := S256x32) S256x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x1.size a ≤ S32x1.size a
  hwx1_3 : ∀ i : grid1.Coords, EltTy.bits .bf16 = 32 ∨ (Rect.block (s := S32x1) S32x1.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2048x256.size a ≤ S2048x256.size a
  hwx1_6 : ∀ i : grid1.Coords, EltTy.bits .f32 = 32 ∨ (Rect.block (s := S2048x256) S2048x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S2048x256.size a
  hwx2_0 : ∀ i : grid2.Coords, EltTy.bits .f32 = 32 ∨ (Rect.block (s := S2048x256) S512x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S2048x256.size a
  hwx2_1 : ∀ i : grid2.Coords, EltTy.bits .f32 = 32 ∨ (Rect.block (s := S2048x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x1.size a ≤ S2x1x1.size a
  hwx2_3 : ∀ i : grid2.Coords, EltTy.bits .f32 = 32 ∨ (Rect.block (s := S2x1x1) S1x1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x1.size a ≤ S2x1x1.size a
  hwx2_4 : ∀ i : grid2.Coords, EltTy.bits .f32 = 32 ∨ (Rect.block (s := S2x1x1) S1x1x1.size (cc2_transform_4 i) (hinb2_4 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x2048_S1000x384_S2048x384_0_0_1_1_n_n : DotDims S1000x2048 S1000x384 S2048x384 where
  lhsContracting := [0]
  rhsContracting := [0]
  lhsNonContracting := [1]
  rhsNonContracting := [1]
  lhsBatch := []
  rhsBatch := []
  wf := dot_S1000x2048_S1000x384_S2048x384_0_0_1_1_n_n_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1000x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x2048x384.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v18) S2048x384.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S256x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S32x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23_0) S2048x256.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23_1) S1x1.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23_2) S1x1.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23_3) S1x1.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v23_0) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23_0) S2048x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28_0) S1x1x1.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v28_1) S1x1x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x256 : Shape := ⟨2, ![100000, 256]⟩
abbrev S100000x3x256 : Shape := ⟨3, ![100000, 3, 256]⟩
abbrev S256x256 : Shape := ⟨2, ![256, 256]⟩
abbrev S256 : Shape := ⟨1, ![256]⟩
abbrev S256x32 : Shape := ⟨2, ![256, 32]⟩
abbrev S32 : Shape := ⟨1, ![32]⟩
abbrev S32x1 : Shape := ⟨2, ![32, 1]⟩
abbrev S1 : Shape := ⟨1, ![1]⟩
abbrev S100000 : Shape := ⟨1, ![100000]⟩
abbrev S_ : Shape := ⟨0, ![]⟩
abbrev S1x256 : Shape := ⟨2, ![1, 256]⟩
abbrev S100000x1 : Shape := ⟨2, ![100000, 1]⟩
abbrev S2048 : Shape := ⟨1, ![2048]⟩
abbrev S2048x256 : Shape := ⟨2, ![2048, 256]⟩
abbrev S2048x1 : Shape := ⟨2, ![2048, 1]⟩
abbrev S2048x32 : Shape := ⟨2, ![2048, 32]⟩
abbrev S1x32 : Shape := ⟨2, ![1, 32]⟩
abbrev S1x1 : Shape := ⟨2, ![1, 1]⟩
abbrev S256x2048 : Shape := ⟨2, ![256, 2048]⟩
abbrev S2048x2048 : Shape := ⟨2, ![2048, 2048]⟩
abbrev S100000x3 : Shape := ⟨2, ![100000, 3]⟩

abbrev nBuf : Space → Nat
  | .hbm => 321
  | .vmem => 0
  | .smem => 0
  | _ => 0

abbrev hbmTy0_0 (i : Nat) : BufTy := match i % 128 with
  | 0 => ⟨S100000x256, .f32⟩
  | 1 => ⟨S100000x256, .f32⟩
  | 2 => ⟨S100000x3x256, .f32⟩
  | 3 => ⟨S100000x3x256, .f32⟩
  | 4 => ⟨S256x256, .f32⟩
  | 5 => ⟨S256, .f32⟩
  | 6 => ⟨S256, .f32⟩
  | 7 => ⟨S256, .f32⟩
  | 8 => ⟨S256x256, .f32⟩
  | 9 => ⟨S256, .f32⟩
  | 10 => ⟨S256x256, .f32⟩
  | 11 => ⟨S256x32, .f32⟩
  | 12 => ⟨S32, .f32⟩
  | 13 => ⟨S32x1, .f32⟩
  | 14 => ⟨S1, .f32⟩
  | 15 => ⟨S100000, .i32⟩
  | 16 => ⟨S_, .f32⟩
  | 17 => ⟨S100000x256, .f32⟩
  | 18 => ⟨S100000x256, .f32⟩
  | 19 => ⟨S_, .f32⟩
  | 20 => ⟨S100000x256, .f32⟩
  | 21 => ⟨S100000x256, .f32⟩
  | 22 => ⟨S100000x256, .f32⟩
  | 23 => ⟨S100000x256, .f32⟩
  | 24 => ⟨S1x256, .f32⟩
  | 25 => ⟨S100000x256, .f32⟩
  | 26 => ⟨S100000x256, .f32⟩
  | 27 => ⟨S_, .f32⟩
  | 28 => ⟨S100000, .f32⟩
  | 29 => ⟨S100000x1, .f32⟩
  | 30 => ⟨S_, .f32⟩
  | 31 => ⟨S100000x1, .f32⟩
  | 32 => ⟨S100000x1, .f32⟩
  | 33 => ⟨S100000x256, .f32⟩
  | 34 => ⟨S100000x256, .f32⟩
  | 35 => ⟨S100000x256, .f32⟩
  | 36 => ⟨S_, .f32⟩
  | 37 => ⟨S100000, .f32⟩
  | 38 => ⟨S100000x1, .f32⟩
  | 39 => ⟨S_, .f32⟩
  | 40 => ⟨S100000x1, .f32⟩
  | 41 => ⟨S100000x1, .f32⟩
  | 42 => ⟨S100000x256, .f32⟩
  | 43 => ⟨S100000x256, .f32⟩
  | 44 => ⟨S_, .f32⟩
  | 45 => ⟨S100000x1, .f32⟩
  | 46 => ⟨S100000x1, .f32⟩
  | 47 => ⟨S100000x1, .f32⟩
  | 48 => ⟨S100000x256, .f32⟩
  | 49 => ⟨S100000x256, .f32⟩
  | 50 => ⟨S1x256, .f32⟩
  | 51 => ⟨S100000x256, .f32⟩
  | 52 => ⟨S100000x256, .f32⟩
  | 53 => ⟨S1x256, .f32⟩
  | 54 => ⟨S100000x256, .f32⟩
  | 55 => ⟨S100000x256, .f32⟩
  | 56 => ⟨S100000x256, .f32⟩
  | 57 => ⟨S100000x256, .f32⟩
  | 58 => ⟨S_, .f32⟩
  | 59 => ⟨S100000x256, .f32⟩
  | 60 => ⟨S100000x256, .f32⟩
  | 61 => ⟨S_, .f32⟩
  | 62 => ⟨S100000x256, .f32⟩
  | 63 => ⟨S100000x256, .f32⟩
  | 64 => ⟨S100000x256, .f32⟩
  | 65 => ⟨S100000x256, .f32⟩
  | 66 => ⟨S1x256, .f32⟩
  | 67 => ⟨S100000x256, .f32⟩
  | 68 => ⟨S100000x256, .f32⟩
  | 69 => ⟨S_, .f32⟩
  | 70 => ⟨S100000, .f32⟩
  | 71 => ⟨S_, .f32⟩
  | 72 => ⟨S2048, .f32⟩
  | 73 => ⟨S100000x1, .i32⟩
  | 74 => ⟨S2048, .f32⟩
  | 75 => ⟨S_, .f32⟩
  | 76 => ⟨S2048x256, .f32⟩
  | 77 => ⟨S100000x1, .i32⟩
  | 78 => ⟨S2048x256, .f32⟩
  | 79 => ⟨S_, .f32⟩
  | 80 => ⟨S2048, .f32⟩
  | 81 => ⟨S2048, .f32⟩
  | 82 => ⟨S2048x1, .f32⟩
  | 83 => ⟨S2048x256, .f32⟩
  | 84 => ⟨S2048x256, .f32⟩
  | 85 => ⟨S_, .f32⟩
  | 86 => ⟨S100000, .f32⟩
  | 87 => ⟨S_, .f32⟩
  | 88 => ⟨S2048, .f32⟩
  | 89 => ⟨S100000x1, .i32⟩
  | 90 => ⟨S2048, .f32⟩
  | 91 => ⟨S_, .f32⟩
  | 92 => ⟨S2048, .f32⟩
  | 93 => ⟨S2048, .f32⟩
  | 94 => ⟨S_, .f32⟩
  | 95 => ⟨S2048x256, .f32⟩
  | 96 => ⟨S100000x1, .i32⟩
  | 97 => ⟨S2048x256, .f32⟩
  | 98 => ⟨S2048x1, .f32⟩
  | 99 => ⟨S2048x256, .f32⟩
  | 100 => ⟨S2048x256, .f32⟩
  | 101 => ⟨S_, .i32⟩
  | 102 => ⟨S100000, .i32⟩
  | 103 => ⟨S100000, .i1⟩
  | 104 => ⟨S_, .i32⟩
  | 105 => ⟨S100000, .i32⟩
  | 106 => ⟨S100000, .i32⟩
  | 107 => ⟨S100000, .i32⟩
  | 108 => ⟨S100000x1, .i32⟩
  | 109 => ⟨S100000x256, .f32⟩
  | 110 => ⟨S100000x256, .f32⟩
  | 111 => ⟨S100000x256, .f32⟩
  | 112 => ⟨S_, .f32⟩
  | 113 => ⟨S100000, .f32⟩
  | 114 => ⟨S_, .f32⟩
  | 115 => ⟨S2048, .f32⟩
  | 116 => ⟨S100000x1, .i32⟩
  | 117 => ⟨S2048, .f32⟩
  | 118 => ⟨S2048, .f32⟩
  | 119 => ⟨S_, .f32⟩
  | 120 => ⟨S2048, .f32⟩
  | 121 => ⟨S2048, .i1⟩
  | 122 => ⟨S_, .f32⟩
  | 123 => ⟨S2048, .f32⟩
  | 124 => ⟨S2048, .f32⟩
  | 125 => ⟨S2048, .f32⟩
  | 126 => ⟨S_, .f32⟩
  | 127 => ⟨S_, .f32⟩
  | _ => ⟨S100000x256, .f32⟩

abbrev hbmTy0_1 (i : Nat) : BufTy := match i % 128 with
  | 0 => ⟨S2048, .f32⟩
  | 1 => ⟨S2048, .f32⟩
  | 2 => ⟨S_, .f32⟩
  | 3 => ⟨S_, .f32⟩
  | 4 => ⟨S2048, .f32⟩
  | 5 => ⟨S_, .f32⟩
  | 6 => ⟨S_, .f32⟩
  | 7 => ⟨S_, .f32⟩
  | 8 => ⟨S_, .i1⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S2048x32, .f32⟩
  | 16 => ⟨S1x32, .f32⟩
  | 17 => ⟨S2048x32, .f32⟩
  | 18 => ⟨S2048x32, .f32⟩
  | 19 => ⟨S2048x32, .f32⟩
  | 20 => ⟨S2048x32, .f32⟩
  | 21 => ⟨S_, .f32⟩
  | 22 => ⟨S2048x32, .f32⟩
  | 23 => ⟨S2048x32, .f32⟩
  | 24 => ⟨S_, .f32⟩
  | 25 => ⟨S2048x32, .f32⟩
  | 26 => ⟨S2048x32, .f32⟩
  | 27 => ⟨S2048x32, .f32⟩
  | 28 => ⟨S2048x1, .f32⟩
  | 29 => ⟨S1x1, .f32⟩
  | 30 => ⟨S2048x1, .f32⟩
  | 31 => ⟨S2048x1, .f32⟩
  | 32 => ⟨S2048, .f32⟩
  | 33 => ⟨S2048, .f32⟩
  | 34 => ⟨S2048, .f32⟩
  | 35 => ⟨S_, .f32⟩
  | 36 => ⟨S2048, .f32⟩
  | 37 => ⟨S2048, .f32⟩
  | 38 => ⟨S_, .f32⟩
  | 39 => ⟨S2048, .f32⟩
  | 40 => ⟨S2048, .f32⟩
  | 41 => ⟨S_, .f32⟩
  | 42 => ⟨S_, .f32⟩
  | 43 => ⟨S_, .f32⟩
  | 44 => ⟨S2048, .f32⟩
  | 45 => ⟨S2048, .f32⟩
  | 46 => ⟨S_, .f32⟩
  | 47 => ⟨S2048, .f32⟩
  | 48 => ⟨S2048, .f32⟩
  | 49 => ⟨S_, .f32⟩
  | 50 => ⟨S_, .f32⟩
  | 51 => ⟨S_, .f32⟩
  | 52 => ⟨S_, .f32⟩
  | 53 => ⟨S2048x256, .f32⟩
  | 54 => ⟨S_, .f32⟩
  | 55 => ⟨S2048, .f32⟩
  | 56 => ⟨S2048x1, .f32⟩
  | 57 => ⟨S2048x1, .f32⟩
  | 58 => ⟨S_, .f32⟩
  | 59 => ⟨S2048x1, .f32⟩
  | 60 => ⟨S2048x1, .f32⟩
  | 61 => ⟨S2048x256, .f32⟩
  | 62 => ⟨S2048x256, .f32⟩
  | 63 => ⟨S256x2048, .f32⟩
  | 64 => ⟨S2048x2048, .f32⟩
  | 65 => ⟨S_, .f32⟩
  | 66 => ⟨S2048x2048, .f32⟩
  | 67 => ⟨S2048x2048, .f32⟩
  | 68 => ⟨S_, .i1⟩
  | 69 => ⟨S2048x2048, .i1⟩
  | 70 => ⟨S2048x2048, .i32⟩
  | 71 => ⟨S_, .i32⟩
  | 72 => ⟨S2048x2048, .i32⟩
  | 73 => ⟨S2048x2048, .i32⟩
  | 74 => ⟨S2048x2048, .i32⟩
  | 75 => ⟨S2048x2048, .i1⟩
  | 76 => ⟨S_, .i1⟩
  | 77 => ⟨S2048x2048, .i1⟩
  | 78 => ⟨S2048x2048, .i1⟩
  | 79 => ⟨S2048x2048, .f32⟩
  | 80 => ⟨S2048x2048, .f32⟩
  | 81 => ⟨S2048x2048, .f32⟩
  | 82 => ⟨S_, .f32⟩
  | 83 => ⟨S2048x2048, .f32⟩
  | 84 => ⟨S2048x2048, .i1⟩
  | 85 => ⟨S_, .f32⟩
  | 86 => ⟨S2048x2048, .f32⟩
  | 87 => ⟨S2048x2048, .f32⟩
  | 88 => ⟨S2048x2048, .f32⟩
  | 89 => ⟨S_, .f32⟩
  | 90 => ⟨S2048x2048, .f32⟩
  | 91 => ⟨S2048x2048, .f32⟩
  | 92 => ⟨S_, .f32⟩
  | 93 => ⟨S2048x2048, .f32⟩
  | 94 => ⟨S2048x2048, .f32⟩
  | 95 => ⟨S2048x2048, .f32⟩
  | 96 => ⟨S_, .f32⟩
  | 97 => ⟨S_, .f32⟩
  | 98 => ⟨S2048x2048, .f32⟩
  | 99 => ⟨S2048x2048, .f32⟩
  | 100 => ⟨S_, .f32⟩
  | 101 => ⟨S_, .f32⟩
  | 102 => ⟨S2048x2048, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S100000x3x256, .f32⟩
  | 113 => ⟨S100000x3x256, .f32⟩
  | 114 => ⟨S_, .f32⟩
  | 115 => ⟨S100000x3x256, .f32⟩
  | 116 => ⟨S100000x3x256, .f32⟩
  | 117 => ⟨S100000x3x256, .f32⟩
  | 118 => ⟨S100000x3x256, .f32⟩
  | 119 => ⟨S_, .f32⟩
  | 120 => ⟨S100000x3, .f32⟩
  | 121 => ⟨S100000x3, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x256, .f32⟩

abbrev hbmTy0_2 (i : Nat) : BufTy := match i % 128 with
  | 0 => ⟨S100000x256, .f32⟩
  | 1 => ⟨S100000x256, .f32⟩
  | 2 => ⟨S_, .f32⟩
  | 3 => ⟨S100000, .f32⟩
  | 4 => ⟨S_, .f32⟩
  | 5 => ⟨S2048, .f32⟩
  | 6 => ⟨S100000x1, .i32⟩
  | 7 => ⟨S2048, .f32⟩
  | 8 => ⟨S_, .f32⟩
  | 9 => ⟨S2048, .f32⟩
  | 10 => ⟨S2048, .f32⟩
  | 11 => ⟨S_, .f32⟩
  | 12 => ⟨S2048x256, .f32⟩
  | 13 => ⟨S100000x1, .i32⟩
  | 14 => ⟨S2048x256, .f32⟩
  | 15 => ⟨S2048x1, .f32⟩
  | 16 => ⟨S2048x256, .f32⟩
  | 17 => ⟨S2048x256, .f32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x256, .f32⟩
  | 27 => ⟨S100000x256, .f32⟩
  | 28 => ⟨S100000x256, .f32⟩
  | 29 => ⟨S_, .f32⟩
  | 30 => ⟨S100000, .f32⟩
  | 31 => ⟨S_, .f32⟩
  | 32 => ⟨S2048, .f32⟩
  | 33 => ⟨S100000x1, .i32⟩
  | 34 => ⟨S2048, .f32⟩
  | 35 => ⟨S2048, .f32⟩
  | 36 => ⟨S_, .f32⟩
  | 37 => ⟨S2048, .f32⟩
  | 38 => ⟨S2048, .i1⟩
  | 39 => ⟨S_, .f32⟩
  | 40 => ⟨S2048, .f32⟩
  | 41 => ⟨S2048, .f32⟩
  | 42 => ⟨S2048, .f32⟩
  | 43 => ⟨S_, .f32⟩
  | 44 => ⟨S_, .f32⟩
  | 45 => ⟨S2048, .f32⟩
  | 46 => ⟨S2048, .f32⟩
  | 47 => ⟨S_, .f32⟩
  | 48 => ⟨S_, .f32⟩
  | 49 => ⟨S2048, .f32⟩
  | 50 => ⟨S_, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_6 : Ref sig .tc := ⟨.hbm, 69, rfl⟩
abbrev main_v38 : Ref sig .tc := ⟨.hbm, 70, rfl⟩
abbrev main_cst_7 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_8 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_9 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_10 : Ref sig .tc := ⟨.hbm, 85, rfl⟩
abbrev main_v50 : Ref sig .tc := ⟨.hbm, 86, rfl⟩
abbrev main_cst_11 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_12 : Ref sig .tc := ⟨.hbm, 91, rfl⟩
abbrev main_v54 : Ref sig .tc := ⟨.hbm, 92, rfl⟩
abbrev main_v55 : Ref sig .tc := ⟨.hbm, 93, rfl⟩
abbrev main_cst_13 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_c : Ref sig .tc := ⟨.hbm, 101, rfl⟩
abbrev main_v62 : Ref sig .tc := ⟨.hbm, 102, rfl⟩
abbrev main_v63 : Ref sig .tc := ⟨.hbm, 103, rfl⟩
abbrev main_c_14 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_15 : Ref sig .tc := ⟨.hbm, 112, rfl⟩
abbrev main_v71 : Ref sig .tc := ⟨.hbm, 113, rfl⟩
abbrev main_cst_16 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_17 : Ref sig .tc := ⟨.hbm, 119, rfl⟩
abbrev main_v76 : Ref sig .tc := ⟨.hbm, 120, rfl⟩
abbrev main_v77 : Ref sig .tc := ⟨.hbm, 121, rfl⟩
abbrev main_cst_18 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_19 : Ref sig .tc := ⟨.hbm, 126, rfl⟩
abbrev main_call1_v0 : Ref sig .tc := ⟨.hbm, 127, rfl⟩
abbrev main_call1_v1 : Ref sig .tc := ⟨.hbm, 128, rfl⟩
abbrev main_v81 : Ref sig .tc := ⟨.hbm, 129, rfl⟩
abbrev main_cst_20 : Ref sig .tc := ⟨.hbm, 130, rfl⟩
abbrev main_v82 : Ref sig .tc := ⟨.hbm, 131, rfl⟩
abbrev main_v83 : Ref sig .tc := ⟨.hbm, 132, rfl⟩
abbrev main_cst_21 : Ref sig .tc := ⟨.hbm, 133, rfl⟩
abbrev main_v84 : Ref sig .tc := ⟨.hbm, 134, rfl⟩
abbrev main_cst_22 : Ref sig .tc := ⟨.hbm, 135, rfl⟩
abbrev main_v85 : Ref sig .tc := ⟨.hbm, 136, rfl⟩
abbrev main_cst_23 : Ref sig .tc := ⟨.hbm, 137, rfl⟩
abbrev main_v86 : Ref sig .tc := ⟨.hbm, 138, rfl⟩
abbrev main_v87 : Ref sig .tc := ⟨.hbm, 139, rfl⟩
abbrev main_cst_24 : Ref sig .tc := ⟨.hbm, 140, rfl⟩
abbrev main_call2_v0 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_call3_v0 : Ref sig .tc := ⟨.hbm, 147, rfl⟩
abbrev main_call3_v1 : Ref sig .tc := ⟨.hbm, 148, rfl⟩
abbrev main_call3_cst : Ref sig .tc := ⟨.hbm, 149, rfl⟩
abbrev main_call3_v2 : Ref sig .tc := ⟨.hbm, 150, rfl⟩
abbrev main_call3_v3 : Ref sig .tc := ⟨.hbm, 151, rfl⟩
abbrev main_call3_cst_0 : Ref sig .tc := ⟨.hbm, 152, rfl⟩
abbrev main_call3_v4 : Ref sig .tc := ⟨.hbm, 153, rfl⟩
abbrev main_call3_v5 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_25 : Ref sig .tc := ⟨.hbm, 163, rfl⟩
abbrev main_v101 : Ref sig .tc := ⟨.hbm, 164, rfl⟩
abbrev main_v102 : Ref sig .tc := ⟨.hbm, 165, rfl⟩
abbrev main_cst_26 : Ref sig .tc := ⟨.hbm, 166, rfl⟩
abbrev main_v103 : Ref sig .tc := ⟨.hbm, 167, rfl⟩
abbrev main_v104 : Ref sig .tc := ⟨.hbm, 168, rfl⟩
abbrev main_cst_27 : Ref sig .tc := ⟨.hbm, 169, rfl⟩
abbrev main_cst_28 : Ref sig .tc := ⟨.hbm, 170, rfl⟩
abbrev main_call4_v0 : Ref sig .tc := ⟨.hbm, 171, rfl⟩
abbrev main_call4_v1 : Ref sig .tc := ⟨.hbm, 172, rfl⟩
abbrev main_call4_v2 : Ref sig .tc := ⟨.hbm, 173, rfl⟩
abbrev main_call4_v3 : Ref sig .tc := ⟨.hbm, 174, rfl⟩
abbrev main_call4_v4 : Ref sig .tc := ⟨.hbm, 175, rfl⟩
abbrev main_v105 : Ref sig .tc := ⟨.hbm, 176, rfl⟩
abbrev main_cst_29 : Ref sig .tc := ⟨.hbm, 177, rfl⟩
abbrev main_v106 : Ref sig .tc := ⟨.hbm, 178, rfl⟩
abbrev main_cst_30 : Ref sig .tc := ⟨.hbm, 179, rfl⟩
abbrev main_v107 : Ref sig .tc := ⟨.hbm, 180, rfl⟩
abbrev main_call5_v0 : Ref sig .tc := ⟨.hbm, 181, rfl⟩
abbrev main_call5_cst : Ref sig .tc := ⟨.hbm, 182, rfl⟩
abbrev main_call5_v1 : Ref sig .tc := ⟨.hbm, 183, rfl⟩
abbrev main_call5_v2 : Ref sig .tc := ⟨.hbm, 184, rfl⟩
abbrev main_v108 : Ref sig .tc := ⟨.hbm, 185, rfl⟩
abbrev main_cst_31 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_cst_32 : Ref sig .tc := ⟨.hbm, 193, rfl⟩
abbrev main_v115 : Ref sig .tc := ⟨.hbm, 194, rfl⟩
abbrev main_v116 : Ref sig .tc := ⟨.hbm, 195, rfl⟩
abbrev main_c_33 : Ref sig .tc := ⟨.hbm, 196, rfl⟩
abbrev main_v117 : Ref sig .tc := ⟨.hbm, 197, rfl⟩
abbrev main_call6_v0 : Ref sig .tc := ⟨.hbm, 198, rfl⟩
abbrev main_call6_c : Ref sig .tc := ⟨.hbm, 199, rfl⟩
abbrev main_call6_v1 : Ref sig .tc := ⟨.hbm, 200, rfl⟩
abbrev main_call6_v2 : Ref sig .tc := ⟨.hbm, 201, rfl⟩
abbrev main_call6_v3 : Ref sig .tc := ⟨.hbm, 202, rfl⟩
abbrev main_call6_v4 : Ref sig .tc := ⟨.hbm, 203, rfl⟩
abbrev main_call6_c_0 : Ref sig .tc := ⟨.hbm, 204, rfl⟩
abbrev main_call6_v5 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_cst_34 : Ref sig .tc := ⟨.hbm, 210, rfl⟩
abbrev main_v122 : Ref sig .tc := ⟨.hbm, 211, rfl⟩
abbrev main_v123 : Ref sig .tc := ⟨.hbm, 212, rfl⟩
abbrev main_cst_35 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_cst_36 : Ref sig .tc := ⟨.hbm, 217, rfl⟩
abbrev main_v127 : Ref sig .tc := ⟨.hbm, 218, rfl⟩
abbrev main_v128 : Ref sig .tc := ⟨.hbm, 219, rfl⟩
abbrev main_cst_37 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_cst_38 : Ref sig .tc := ⟨.hbm, 224, rfl⟩
abbrev main_call8_v0 : Ref sig .tc := ⟨.hbm, 225, rfl⟩
abbrev main_call8_v1 : Ref sig .tc := ⟨.hbm, 226, rfl⟩
abbrev main_v132 : Ref sig .tc := ⟨.hbm, 227, rfl⟩
abbrev main_cst_39 : Ref sig .tc := ⟨.hbm, 228, rfl⟩
abbrev main_v133 : Ref sig .tc := ⟨.hbm, 229, rfl⟩
abbrev main_v134 : Ref sig .tc := ⟨.hbm, 230, rfl⟩
abbrev main_cst_40 : Ref sig .tc := ⟨.hbm, 231, rfl⟩
abbrev main_v135 : Ref sig .tc := ⟨.hbm, 232, rfl⟩
abbrev main_v136 : Ref sig .tc := ⟨.hbm, 233, rfl⟩
abbrev main_cst_41 : Ref sig .tc := ⟨.hbm, 234, rfl⟩
abbrev main_v137 : Ref sig .tc := ⟨.hbm, 235, rfl⟩
abbrev main_cst_42 : Ref sig .tc := ⟨.hbm, 236, rfl⟩
abbrev main_v138 : Ref sig .tc := ⟨.hbm, 237, rfl⟩
abbrev main_v139 : Ref sig .tc := ⟨.hbm, 238, rfl⟩
abbrev main_cst_43 : Ref sig .tc := ⟨.hbm, 239, rfl⟩
abbrev main_v140 : Ref sig .tc := ⟨.hbm, 240, rfl⟩
abbrev main_v141 : Ref sig .tc := ⟨.hbm, 241, rfl⟩
abbrev main_cst_44 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_call9_v0 : Ref sig .tc := ⟨.hbm, 246, rfl⟩
abbrev main_call9_cst : Ref sig .tc := ⟨.hbm, 247, rfl⟩
abbrev main_call9_v1 : Ref sig .tc := ⟨.hbm, 248, rfl⟩
abbrev main_v145 : Ref sig .tc := ⟨.hbm, 249, rfl⟩
abbrev main_cst_45 : Ref sig .tc := ⟨.hbm, 250, rfl⟩
abbrev main_v146 : Ref sig .tc := ⟨.hbm, 251, rfl⟩
abbrev main_cst_46 : Ref sig .tc := ⟨.hbm, 252, rfl⟩
abbrev main_v147 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_v151 : Ref sig .tc := ⟨.hbm, 257, rfl⟩
abbrev main_cst_47 : Ref sig .tc := ⟨.hbm, 258, rfl⟩
abbrev main_v152 : Ref sig .tc := ⟨.hbm, 259, rfl⟩
abbrev main_cst_48 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_cst_49 : Ref sig .tc := ⟨.hbm, 264, rfl⟩
abbrev main_v156 : Ref sig .tc := ⟨.hbm, 265, rfl⟩
abbrev main_v157 : Ref sig .tc := ⟨.hbm, 266, rfl⟩
abbrev main_cst_50 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_c_51 : Ref sig .tc := ⟨.hbm, 274, rfl⟩
abbrev main_v164 : Ref sig .tc := ⟨.hbm, 275, rfl⟩
abbrev main_v165 : Ref sig .tc := ⟨.hbm, 276, rfl⟩
abbrev main_c_52 : Ref sig .tc := ⟨.hbm, 277, rfl⟩
abbrev main_v166 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_v170 : Ref sig .tc := ⟨.hbm, 282, rfl⟩
abbrev main_v171 : Ref sig .tc := ⟨.hbm, 283, rfl⟩
abbrev main_v172 : Ref sig .tc := ⟨.hbm, 284, rfl⟩
abbrev main_cst_53 : Ref sig .tc := ⟨.hbm, 285, rfl⟩
abbrev main_v173 : Ref sig .tc := ⟨.hbm, 286, rfl⟩
abbrev main_cst_54 : Ref sig .tc := ⟨.hbm, 287, rfl⟩
abbrev main_v174 : Ref sig .tc := ⟨.hbm, 288, rfl⟩
abbrev main_v175 : Ref sig .tc := ⟨.hbm, 289, rfl⟩
abbrev main_v176 : Ref sig .tc := ⟨.hbm, 290, rfl⟩
abbrev main_v177 : Ref sig .tc := ⟨.hbm, 291, rfl⟩
abbrev main_cst_55 : Ref sig .tc := ⟨.hbm, 292, rfl⟩
abbrev main_v178 : Ref sig .tc := ⟨.hbm, 293, rfl⟩
abbrev main_v179 : Ref sig .tc := ⟨.hbm, 294, rfl⟩
abbrev main_cst_56 : Ref sig .tc := ⟨.hbm, 295, rfl⟩
abbrev main_v180 : Ref sig .tc := ⟨.hbm, 296, rfl⟩
abbrev main_v181 : Ref sig .tc := ⟨.hbm, 297, rfl⟩
abbrev main_v182 : Ref sig .tc := ⟨.hbm, 298, rfl⟩
abbrev main_cst_57 : Ref sig .tc := ⟨.hbm, 299, rfl⟩
abbrev main_call10_v0 : Ref sig .tc := ⟨.hbm, 300, rfl⟩
abbrev main_call10_v1 : Ref sig .tc := ⟨.hbm, 301, rfl⟩
abbrev main_v183 : Ref sig .tc := ⟨.hbm, 302, rfl⟩
abbrev main_cst_58 : Ref sig .tc := ⟨.hbm, 303, rfl⟩
abbrev main_v184 : Ref sig .tc := ⟨.hbm, 304, rfl⟩
abbrev main_v185 : Ref sig .tc := ⟨.hbm, 305, rfl⟩
abbrev main_cst_59 : Ref sig .tc := ⟨.hbm, 306, rfl⟩
abbrev main_v186 : Ref sig .tc := ⟨.hbm, 307, rfl⟩
abbrev main_cst_60 : Ref sig .tc := ⟨.hbm, 308, rfl⟩
abbrev main_v187 : Ref sig .tc := ⟨.hbm, 309, rfl⟩
abbrev main_cst_61 : Ref sig .tc := ⟨.hbm, 310, rfl⟩
abbrev main_v188 : Ref sig .tc := ⟨.hbm, 311, rfl⟩
abbrev main_v189 : Ref sig .tc := ⟨.hbm, 312, rfl⟩
abbrev main_cst_62 : Ref sig .tc := ⟨.hbm, 313, rfl⟩
abbrev main_call11_v0 : Ref sig .tc := ⟨.hbm, 314, rfl⟩
abbrev main_v190 : Ref sig .tc := ⟨.hbm, 315, rfl⟩
abbrev main_cst_63 : Ref sig .tc := ⟨.hbm, 316, rfl⟩
abbrev main_v191 : Ref sig .tc := ⟨.hbm, 317, rfl⟩
abbrev main_v192 : Ref sig .tc := ⟨.hbm, 318, rfl⟩
abbrev main_cst_64 : Ref sig .tc := ⟨.hbm, 319, rfl⟩
abbrev main_v193 : Ref sig .tc := ⟨.hbm, 320, rfl⟩

abbrev nD : Nat := 1
abbrev τ : Topo := Topo.v7x

variable {F : FTy → Type} [FloatOps F]

class Facts₀ : Prop where
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S_S100000 : S_.BroadcastsInDim S100000 (![] : Fin 0 → Fin S100000.rank)
  bcast_S_S2048 : S_.BroadcastsInDim S2048 (![] : Fin 0 → Fin S2048.rank)
  bcast_S_S2048x256 : S_.BroadcastsInDim S2048x256 (![] : Fin 0 → Fin S2048x256.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  reducesTo_S2048_S_d0 : S2048.ReducesTo [0] S_
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  bcast_S_S2048x32 : S_.BroadcastsInDim S2048x32 (![] : Fin 0 → Fin S2048x32.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  shapeCasts_S2048x1_S2048 : S2048x1.ShapeCasts S2048
  reducesTo_S2048x256_S2048_d1 : S2048x256.ReducesTo [1] S2048
  bcast_S_S2048x1 : S_.BroadcastsInDim S2048x1 (![] : Fin 0 → Fin S2048x1.rank)
  transposes_S2048x256_S256x2048_1_0 : S2048x256.Transposes [1, 0] S256x2048
  bcast_S_S2048x2048 : S_.BroadcastsInDim S2048x2048 (![] : Fin 0 → Fin S2048x2048.rank)
  reducesTo_S2048x2048_S_d0_1 : S2048x2048.ReducesTo [0, 1] S_
  bcast_S_S100000x3x256 : S_.BroadcastsInDim S100000x3x256 (![] : Fin 0 → Fin S100000x3x256.rank)
  reducesTo_S100000x3x256_S100000x3_d2 : S100000x3x256.ReducesTo [2] S100000x3
  reducesTo_S100000x3_S100000_d1 : S100000x3.ReducesTo [1] S100000
  dot_S100000x256_S256x256_S100000x256_1_0_0_1_n_n_wf : DotDims.WF S100000x256 S256x256 S100000x256 [1] [0] [0] [1] [] []
  scatter_S2048_S100000x1_S100000_n_0_0_1_wf : ScatterDims.WF S2048 S100000x1 S100000 [] [0] [0] 1
  scatter_S2048x256_S100000x1_S100000x256_1_0_0_1_wf : ScatterDims.WF S2048x256 S100000x1 S100000x256 [1] [0] [0] 1
  gather_S2048x256_S100000x1_S100000x256_1_0_n_n_0_1_1256_wf : GatherDims.WF S2048x256 S100000x1 S100000x256 [1] [0] [] [0] [] 1 ![1, 256]
  dot_S2048x256_S256x32_S2048x32_1_0_0_1_n_n_wf : DotDims.WF S2048x256 S256x32 S2048x32 [1] [0] [0] [1] [] []
  dot_S2048x32_S32x1_S2048x1_1_0_0_1_n_n_wf : DotDims.WF S2048x32 S32x1 S2048x1 [1] [0] [0] [1] [] []
  dot_S2048x256_S256x2048_S2048x2048_1_0_0_1_n_n_wf : DotDims.WF S2048x256 S256x2048 S2048x2048 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S2048_S100000x1_S100000_n_0_0_1 : ScatterDims S2048 S100000x1 S100000 where
  updateWindowDims := []
  insertedWindowDims := [0]
  scatterDimsToOperandDims := [0]
  indexVectorDim := 1
  wf := scatter_S2048_S100000x1_S100000_n_0_0_1_wf
def scatter_S2048x256_S100000x1_S100000x256_1_0_0_1 : ScatterDims S2048x256 S100000x1 S100000x256 where
  updateWindowDims := [1]
  insertedWindowDims := [0]
  scatterDimsToOperandDims := [0]
  indexVectorDim := 1
  wf := scatter_S2048x256_S100000x1_S100000x256_1_0_0_1_wf
def gather_S2048x256_S100000x1_S100000x256_1_0_n_n_0_1_1256 : GatherDims S2048x256 S100000x1 S100000x256 where
  offsetDims := [1]
  collapsedSliceDims := [0]
  operandBatchingDims := []
  startIndicesBatchingDims := []
  startIndexMap := [0]
  indexVectorDim := 1
  sliceSizes := ![1, 256]
  wf := gather_S2048x256_S100000x1_S100000x256_1_0_n_n_0_1_1256_wf
def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf
def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf

class Facts : Prop extends Facts₀ where

variable [Facts]
-- ==== Proof.KI.Terms.lean ====
/-
  What each of the three kernel launches leaves behind, as pure terms over the bodies' arithmetic.

  Launch 0 (grid 2 × 50, a tile of 1000 atoms per point): the point's contribution is the product of the transposed
  one-hot fragment matrix of the tile with the tile's 384 feature columns (256 projected channels, then the squared
  norm of the projection, a one, the centred vector magnitude and its square, then zeros), added to what the block
  [2048, 384] of the point's core half held before; the first point of each half (point number divisible by 50)
  starts from zeros.  Launch 1 (one point) computes from the summed table the normalised group means, the adaptive
  target and the two averaged spreads.  Launch 2 (grid 2 × 2, 512 rows of the similarity matrix per point) adds the
  tile's masked loss sum and its mask count to two one-element accumulators per core half, reset at the first point
  of each half (even point numbers).
-/
import proofs.«412127_j15607911153865_3_alg».proof.Proof.Gen.KernelIdeal.Skeleton
import proofs.«412127_j15607911153865_3_alg».proof.Proof.Gen.KernelIdeal.Points
import proofs.«412127_j15607911153865_3_alg».proof.Proof.Gen.KernelIdeal.Launch
import Idealize.ShloMosaic.Lib.Pipeline.FrameBody

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F] [Named F]

/-! ## Launch 0 -/

/-- The three 256-column thirds of a [1000, 768] tile of flattened vector features. -/
abbrev rV0 : Rect S1000x768 := Rect.unit (s := S1000x768) ![0, 0] S1000x256.size inb_S1000x768_S1000x256_0_0
abbrev rV1 : Rect S1000x768 := Rect.unit (s := S1000x768) ![0, 256] S1000x256.size inb_S1000x768_S1000x256_0_256
abbrev rV2 : Rect S1000x768 := Rect.unit (s := S1000x768) ![0, 512] S1000x256.size inb_S1000x768_S1000x256_0_512

/-- The projected features of a tile: mixed scalars, first layer, layer norm, gate, second layer. -/
def proj0 (x0 x1 : Vec F S1000x256 .f32) (w1 : Vec F S256x256 .bf16) (b1 g be : Vec F S1x256 .f32)
    (w2 : Vec F S256x256 .bf16) (b2 : Vec F S1x256 .f32) : Vec F S1000x256 .f32 :=
  k0_pay4 (k0_pay3 x0 x1 w1 b1) g be w2 b2

/-- The tile's 384 feature columns (as the matrix unit takes them). -/
def rhs0 (x0 x1 : Vec F S1000x256 .f32) (x2 x3 : Vec F S1000x768 .f32) (w1 : Vec F S256x256 .bf16)
    (b1 g be : Vec F S1x256 .f32) (w2 : Vec F S256x256 .bf16) (b2 : Vec F S1x256 .f32) : Vec F S1000x384 .bf16 :=
  k0_pay10 (proj0 x0 x1 w1 b1 g be w2 b2) (k0_pay5 (View.ld x2 rV0) (View.ld x3 rV0)) (k0_pay6 (View.ld x3 rV1))
    (k0_pay7 (View.ld x2 rV1)) (k0_pay8 (F := F)) (View.ld x2 rV2) (View.ld x3 rV2)

/-- One grid point of launch 0: the accumulator block after the point, from the point's input blocks and the block before. -/
def step0 (x0 x1 : Vec F S1000x256 .f32) (x2 x3 : Vec F S1000x768 .f32) (x4 : Vec F S1000x1 .i32)
    (w1 : Vec F S256x256 .bf16) (b1 g be : Vec F S1x256 .f32) (w2 : Vec F S256x256 .bf16) (b2 : Vec F S1x256 .f32)
    (prev : Vec F S1x2048x384 .f32) : Vec F S1x2048x384 .f32 :=
  k0_pay1 (k0_pay9 x4) (rhs0 x0 x1 x2 x3 w1 b1 g be w2 b2) (constant S2048x384 .f32 0x00000000#32) prev

/-! ## Launch 1 -/

def nrm1 (x0 : Vec F S2048x384 .f32) : Vec F S2048x256 .f32 := k1_pay13 (k1_pay5 x0)
def target1 (x0 : Vec F S2048x384 .f32) (wt1 : Vec F S256x32 .bf16) (bt1 : Vec F S1x32 .f32) (wt2 : Vec F S32x1 .bf16)
    (bt2 : Vec F S1x1 .f32) : Vec F S1x1 .f32 := k1_pay1 (k1_pay14 (k1_pay5 x0) wt1 bt1) wt2 bt2
def intra1 (x0 : Vec F S2048x384 .f32) : Vec F S1x1 .f32 :=
  k1_pay11 (k1_pay9 x0) (k1_pay10 x0) (Scalar.ofBits .f32 0x00000000#32)
def vecloss1 (x0 : Vec F S2048x384 .f32) (nw : Vec F S1x1 .f32) : Vec F S1x1 .f32 :=
  k1_pay12 (k1_pay6 x0 nw) (k1_pay7 x0) (k1_pay8 x0)

/-! ## Launch 2 -/

def sum2 (i : grid2.Coords) (rows : Vec F S512x256 .f32) (full : Vec F S2048x256 .f32) (tg : Vec F S1x1 .f32)
    (prev : Vec F S1x1x1 .f32) : Vec F S1x1x1 .f32 := k2_pay1 (k2_pay6 i rows full tg) (k2_pay7 prev)
def cnt2 (i : grid2.Coords) (prev : Vec F S1x1x1 .f32) : Vec F S1x1x1 .f32 := k2_pay2 (k2_pay5 i) prev

/-! ## The launches at the contents `V` a launch is entered with -/

section AtV
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Launch 0's accumulator block after point `t`, over the block `prev` it found. -/
def point0 (c : Dev nD) (t : Fin cfg0.N) (prev : Vec F S1x2048x384 .f32) : Vec F S1x2048x384 .f32 :=
  step0 (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) prev

/-- Launch 0's accumulator block after each point: zeros taken up at the first point of a core half. -/
def outsAt0 (c : Dev nD) : (n : ℕ) → n < cfg0.N → Vec F S1x2048x384 .f32
  | 0, hn => point0 V c ⟨0, hn⟩ (k0_pay2 (F := F))
  | n + 1, hn =>
    if (n + 1) % 50 = 0 then point0 V c ⟨n + 1, hn⟩ (k0_pay2 (F := F))
    else point0 V c ⟨n + 1, hn⟩ (outsAt0 c n (Nat.lt_of_succ_lt hn))

/-- Launch 2's two accumulators after point `t`, over what it found. -/
def point2 (c : Dev nD) (t : Fin cfg2.N) (prev : Vec F S1x1x1 .f32 × Vec F S1x1x1 .f32) : Vec F S1x1x1 .f32 × Vec F S1x1x1 .f32 :=
  (sum2 (grid2.coords t) (iblk2 V c 0 t) (iblk2 V c 1 t) (iblk2 V c 2 t) prev.1, cnt2 (grid2.coords t) prev.2)

/-- Launch 2's two accumulators after each point: zeros taken up at the first point of a core half. -/
def outsAt2 (c : Dev nD) : (n : ℕ) → n < cfg2.N → Vec F S1x1x1 .f32 × Vec F S1x1x1 .f32
  | 0, hn => point2 V c ⟨0, hn⟩ (k2_pay3 (F := F), k2_pay4 (F := F))
  | n + 1, hn =>
    if (n + 1) % 2 = 0 then point2 V c ⟨n + 1, hn⟩ (k2_pay3 (F := F), k2_pay4 (F := F))
    else point2 V c ⟨n + 1, hn⟩ (outsAt2 c n (Nat.lt_of_succ_lt hn))

end AtV

end Cert.KernelIdeal.Hand

end
-- ==== Proof.KI.Data.lean ====
/-
  The proof data of the three launches on a core, at the contents `V` the launch is entered with: each input
  window's staging buffer holds its block of the array at every point; launch 0's output buffer holds the running
  sum of its core half's tiles; launch 1's four outputs hold its four results; launch 2's two output buffers hold
  the running loss sum and mask count of the core half.  Nothing is owed to another core, and the only shares that
  are not whole are those of launch 2's two input windows that read one and the same array (the normalised group
  means, once tile by tile and once whole): they take the two halves of that array's share.
-/
import proofs.«412127_j15607911153865_3_alg».proof.Proof.KI.Terms
import Idealize.ShloMosaic.Lib.Pipeline.Kit
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation)
open Cert.KernelIdeal Cert.KernelIdeal.Gen

variable {F : FTy → Type} [FloatOps F] [Named F]
variable (V : (c : Dev nD) → (b : Ref sig .tc) → Buf (Elt F) ((c : Thread nD τ).loc b))

/-- Launch 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = outsAt0 V c t.val t.isLt := by dsimp only [dat0]

/-- Launch 1 on core `c` (one point). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => nrm1 (iblk1 V c 0 t)
    | ⟨7, _⟩ => target1 (iblk1 V c 0 t) (iblk1 V c 1 t) (iblk1 V c 2 t) (iblk1 V c 3 t) (iblk1 V c 4 t)
    | ⟨8, _⟩ => intra1 (iblk1 V c 0 t)
    | ⟨9, _⟩ => vecloss1 (iblk1 V c 0 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = nrm1 (iblk1 V c 0 t) := by dsimp only [dat1]
theorem after1_7 (c : Dev nD) (t : Fin cfg1.N) : (dat1 V c).after 7 t
    = target1 (iblk1 V c 0 t) (iblk1 V c 1 t) (iblk1 V c 2 t) (iblk1 V c 3 t) (iblk1 V c 4 t) := by dsimp only [dat1]
theorem after1_8 (c : Dev nD) (t : Fin cfg1.N) : (dat1 V c).after 8 t = intra1 (iblk1 V c 0 t) := by dsimp only [dat1]
theorem after1_9 (c : Dev nD) (t : Fin cfg1.N) : (dat1 V c).after 9 t = vecloss1 (iblk1 V c 0 t) (iblk1 V c 5 t) := by dsimp only [dat1]

/-- Launch 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
    | ⟨4, _⟩ => (outsAt2 V c t.val t.isLt).2
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem after2_4 (c : Dev nD) (t : Fin cfg2.N) : (dat2 V c).after 4 t = (outsAt2 V c t.val t.isLt).2 := by dsimp only [dat2]

end Cert.KernelIdeal.Hand

end
-- ==== Proof.KI.Body0.lean ====
/-
  Launch 0 at one grid point.  The body first looks at the second grid coordinate: where it is zero (the first tile
  of a core half) it fills the accumulator block with zeros; in every case it then loads the eleven input blocks,
  forms the tile's contribution (the transposed one-hot fragment matrix times the tile's 384 feature columns), loads
  the accumulator block, adds, and stores the sum over the whole block.  So the block ends at `step0` of the inputs
  over zeros at a first tile, and over what the point before left at every other tile; the accumulator buffer is
  written back only after the last tile of a half, so between two tiles of a half it keeps what the body left.
-/
import proofs.«412127_j15607911153865_3_alg».proof.Proof.KI.Data
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The branch condition -/

/-- The condition of the body's one conditional, from the grid coordinates: the second coordinate is zero. -/
abbrev cond0 (i : grid0.Coords) : Prop :=
  (Scalar.cmpi .ne (Scalar.extui (Scalar.cmpi .eq (BitVec.ofNat 32 (i 1).val) 0#32)) 0#32) = 1#1

/-- It holds exactly at the first tile of each core half. -/
theorem hcond0 : ∀ t : Fin cfg0.N, cond0 (grid0.coords t) ↔ t.val % 50 = 0 :=
  (by decide +kernel : ∀ t : Fin grid0.N, cond0 (grid0.coords t) ↔ t.val % 50 = 0)

private theorem hz2 : (![0, 0] : Fin 2 → Nat) = fun _ => 0 := funext fun a => by fin_cases a <;> rfl
private theorem hz3 : (![0, 0, 0] : Fin 3 → Nat) = fun _ => 0 := funext fun a => by fin_cases a <;> rfl

/-! ## The body's triple, in each of its two cases -/

set_option maxHeartbeats 4000000 in
/-- THE RESET CASE (second grid coordinate zero).  On whole staging memrefs, the eleven inputs' at contents `x0 … x10`
    and the accumulator's at anything, the body runs to the continuation with the inputs' as they were and the
    accumulator's at `step0 x0 … x10` over zeros: the zero fill covers the block, so the load after it reads the
    zeros back, and the last store covers the block again. -/
theorem sound_kernel0_A (c : Dev nD) (E : Set ℕ) (i : grid0.Coords) (arg2 : Memref sig .tc .vmem S1000x256 .f32) (harg2 : arg2.IsWhole) (arg3 : Memref sig .tc .vmem S1000x256 .f32) (harg3 : arg3.IsWhole) (arg4 : Memref sig .tc .vmem S1000x768 .f32) (harg4 : arg4.IsWhole) (arg5 : Memref sig .tc .vmem S1000x768 .f32) (harg5 : arg5.IsWhole) (arg6 : Memref sig .tc .vmem S1000x1 .i32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x2048x384 .f32) (harg13 : arg13.IsWhole)
    (hc : cond0 i) (x0 x1 : Vec F S1000x256 .f32) (x2 x3 : Vec F S1000x768 .f32) (x4 : Vec F S1000x1 .i32) (x5 : Vec F S256x256 .bf16) (x6 x7 x8 : Vec F S1x256 .f32) (x9 : Vec F S256x256 .bf16) (x10 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (step0 x0 x1 x2 x3 x4 x5 x6 x7 x8 x9 x10 (k0_pay2 (F := F)))) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0; subst hf1; subst hf2; subst hf3; subst hf4; subst hf5; subst hf6; subst hf7; subst hf8; subst hf9; subst hf10
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  sl_unfold_words
  rw [View.read_writes_eq_canon _ _ _ (fun y =>
    ⟨_, List.mem_cons.mpr (Or.inl rfl),
      View.mem_set_unit_zero (S := S1x2048x384) hz3 inb_S1x2048x384_S1x2048x384_0_0_0 y⟩)]
  rw [View.canon_cons_unit_zero (S := S1x2048x384) hz3, View.readCov_unit_zero (S := S1x2048x384) _ hz3]
  unfold step0 rhs0 proj0
  simp only [View.readAt_eq_ld, View.ld_unit_zero (S := S1000x256) hz2, View.ld_unit_zero (S := S1000x1) hz2,
    View.ld_unit_zero (S := S256x256) hz2, View.ld_unit_zero (S := S1x256) hz2, View.ld_unit_zero (S := S1x2048x384) hz3]

set_option maxHeartbeats 4000000 in
/-- THE CARRIED CASE (second grid coordinate not zero).  The same with the accumulator's memref at contents `xo`:
    nothing is stored before the load, which reads `xo`, and the one covering store leaves `step0 x0 … x10 xo`. -/
theorem sound_kernel0_B (c : Dev nD) (E : Set ℕ) (i : grid0.Coords) (arg2 : Memref sig .tc .vmem S1000x256 .f32) (harg2 : arg2.IsWhole) (arg3 : Memref sig .tc .vmem S1000x256 .f32) (harg3 : arg3.IsWhole) (arg4 : Memref sig .tc .vmem S1000x768 .f32) (harg4 : arg4.IsWhole) (arg5 : Memref sig .tc .vmem S1000x768 .f32) (harg5 : arg5.IsWhole) (arg6 : Memref sig .tc .vmem S1000x1 .i32) (harg6 : arg6.IsWhole) (arg7 : Memref sig .tc .vmem S256x256 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x256 .bf16) (harg11 : arg11.IsWhole) (arg12 : Memref sig .tc .vmem S1x256 .f32) (harg12 : arg12.IsWhole) (arg13 : Memref sig .tc .vmem S1x2048x384 .f32) (harg13 : arg13.IsWhole)
    (hc : ¬cond0 i) (x0 x1 : Vec F S1000x256 .f32) (x2 x3 : Vec F S1000x768 .f32) (x4 : Vec F S1000x1 .i32) (x5 : Vec F S256x256 .bf16) (x6 x7 x8 : Vec F S1x256 .f32) (x9 : Vec F S256x256 .bf16) (x10 : Vec F S1x256 .f32) (xo : Vec F S1x2048x384 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (step0 x0 x1 x2 x3 x4 x5 x6 x7 x8 x9 x10 xo)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13) K := by
  simp only [cc0__fused_kernel_eq_skeleton]; unfold cc0__fused_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf0; subst hf1; subst hf2; subst hf3; subst hf4; subst hf5; subst hf6; subst hf7; subst hf8; subst hf9; subst hf10; subst hf11
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  sl_unfold_words
  rw [View.read_writes_eq_canon _ _ _ (fun y =>
    ⟨_, List.mem_singleton_self _,
      View.mem_set_unit_zero (S := S1x2048x384) hz3 inb_S1x2048x384_S1x2048x384_0_0_0 y⟩)]
  rw [View.canon_unit_zero (S := S1x2048x384) hz3]
  unfold step0 rhs0 proj0
  simp only [View.readAt_eq_ld, View.ld_unit_zero (S := S1000x256) hz2, View.ld_unit_zero (S := S1000x1) hz2,
    View.ld_unit_zero (S := S256x256) hz2, View.ld_unit_zero (S := S1x256) hz2, View.ld_unit_zero (S := S1x2048x384) hz3]

section AtV
variable (V : (c : Dev nD) → (b : Ref sig .tc) → Buf (Elt F) ((c : Thread nD τ).loc b))

/-! ## The accumulator, point by point -/

/-- At the first tile of a core half the accumulator restarts from zeros. -/
theorem outsAt0_A (c : Dev nD) (t : Fin cfg0.N) (h0 : t.val % 50 = 0) :
    outsAt0 V c t.val t.isLt = point0 V c t (k0_pay2 (F := F)) := by
  obtain ⟨n, hn⟩ := t
  cases n with
  | zero => exact rfl
  | succ n => exact (if_pos h0).trans rfl

/-- At every other tile it goes on from what the tile before left. -/
theorem outsAt0_B (c : Dev nD) (t : Fin cfg0.N) (h0 : ¬t.val % 50 = 0) :
    outsAt0 V c t.val t.isLt
      = point0 V c t (outsAt0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## What the body finds in each staging buffer -/

/-- Each input's current staging buffer holds its block of the array at every point, fetched there or not (an input
    that is not fetched at a point has not moved its block index since the point before). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)

/-- Away from the first tile of a half the accumulator's buffer holds what the body left at the tile before: it
    is written back only after a half's last tile. -/
theorem before0_11_B (c : Dev nD) (t : Fin cfg0.N) (h0 : ¬t.val % 50 = 0) (d) :
    (dat0 V c).before 11 t d = outsAt0 V c (t.val - 1) (Nat.lt_of_le_of_lt (Nat.sub_le _ _) t.isLt) := by
  have hN : t.val < 100 := lt_of_lt_of_eq t.isLt (show cfg0.N = 100 from N_0)
  rw [Dat.before_out_kept _ 11 rfl t (by omega)
    (Bool.eq_false_iff.mpr fun h => by have := (flush0_11 _).mp h; dsimp only at this; omega)
    (fun _ => rfl) (fun _ _ => rfl)]
  dsimp only [dat0]

/-! ## The body obligation, at a generic point -/

/-- What the body is called with at point `t`: the invariant, nothing owed, and every window's current staging
    buffer at what the pipeline has put there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- What it returns: the same with every buffer at what the proof data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

set_option maxHeartbeats 1600000 in
/-- The body at any point.  The eleven inputs' buffers hold their blocks; the point's number modulo 50 says which
    case of the conditional it is in; away from a half's first tile the accumulator's buffer holds the running sum
    up to the tile before.  The matching triple applies; the invariant and the (empty) debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  by_cases h0 : t.val % 50 = 0
  · rw [outsAt0_A V c t h0]
    unfold point0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel0_A c Set.univ (grid0.coords t) _ _ _ _ _ _ _ _ _ _ _ _ _ _ _ _ _ _ _ _ _ _ _ _ ((hcond0 t).mpr h0) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [outsAt0_B V c t h0]
    simp only [before0_11_B V c t h0]
    unfold point0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (sound_kernel0_B c Set.univ (grid0.coords t) _ _ _ _ _ _ _ _ _ _ _ _ _ _ _ _ _ _ _ _ _ _ _ _ (fun h => h0 ((hcond0 t).mp h)) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The library's body obligation for launch 0, at every point. -/
theorem body_obligation0 (c : Dev nD) :
    BodyObligation (dat0 (F := F) V c) (defs₀ (F := F)) Variants.none () Set.univ := fun t => by
  rw [bigSep_W0, bigSep_W0]
  exact sound_body0 V c t

end AtV

end Cert.KernelIdeal.Hand

end
-- ==== Proof.KI.Body1.lean ====
/-
  Launch 1 (one grid point, ten windows).  The body reads its six input blocks whole and writes each of its four
  output blocks whole, exactly once (it also reads each output block once before writing it, and does nothing with
  what it read).  Hence after the body every input buffer holds what it held, and every output buffer holds the one
  value written to it: the normalised group means, the adaptive target, and the two averaged spreads, as functions of
  the input blocks.  The pipeline's invariant and the core's debts pass through the body untouched.
-/
import proofs.«412127_j15607911153865_3_alg».proof.Proof.KI.Data
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The offset of a whole rank-2 block: zero along both axes. -/
theorem zeros1 : (![0, 0] : Fin 2 → Nat) = fun _ => 0 := funext fun a => by fin_cases a <;> rfl

/-! ## The body on whole staging buffers -/
set_option maxHeartbeats 1000000 in
/-- The body on whole staging buffers, the inputs' holding `x0 … x5` and the outputs' holding anything, runs to a state
    where the inputs' hold what they held and each output's holds its one written value. -/
theorem sound_kernel1 (c : Dev nD) (E : Set ℕ) (i : grid1.Coords)
    (arg1 : Memref sig .tc .vmem S2048x384 .f32) (harg1 : arg1.IsWhole)
    (arg2 : Memref sig .tc .vmem S256x32 .bf16) (harg2 : arg2.IsWhole)
    (arg3 : Memref sig .tc .vmem S1x32 .f32) (harg3 : arg3.IsWhole)
    (arg4 : Memref sig .tc .vmem S32x1 .bf16) (harg4 : arg4.IsWhole)
    (arg5 : Memref sig .tc .vmem S1x1 .f32) (harg5 : arg5.IsWhole)
    (arg6 : Memref sig .tc .vmem S1x1 .f32) (harg6 : arg6.IsWhole)
    (arg7 : Memref sig .tc .vmem S2048x256 .f32) (harg7 : arg7.IsWhole)
    (arg8 : Memref sig .tc .vmem S1x1 .f32) (harg8 : arg8.IsWhole)
    (arg9 : Memref sig .tc .vmem S1x1 .f32) (harg9 : arg9.IsWhole)
    (arg10 : Memref sig .tc .vmem S1x1 .f32) (harg10 : arg10.IsWhole)
    (x0 : Vec F S2048x384 .f32) (x1 : Vec F S256x32 .bf16) (x2 : Vec F S1x32 .f32) (x3 : Vec F S32x1 .bf16)
    (x4 : Vec F S1x1 .f32) (x5 : Vec F S1x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (nrm1 x0)
            ∗ owns (c : Thread nD τ) arg8 fullShare (target1 x0 x1 x2 x3 x4)
            ∗ owns (c : Thread nD τ) arg9 fullShare (intra1 x0)
            ∗ owns (c : Thread nD τ) arg10 fullShare (vecloss1 x0 x5)) -∗ K ⟨⟩))
      ⊢ wp frame (wpE (defs₀ (F := F)) Variants.none c none) E
          (cc1__finish_kernel i arg1 harg1 arg2 harg2 arg3 harg3 arg4 harg4 arg5 harg5 arg6 harg6 arg7 harg7 arg8 harg8 arg9 harg9 arg10 harg10) K := by
  simp only [cc1__finish_kernel_eq_skeleton]; unfold cc1__finish_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_eq_canon _ _ _ (fun y => ⟨_, List.mem_singleton_self _, View.mem_set_unit_zero zeros1 inb_S2048x256_S2048x256_0_0 y⟩),
      View.canon_unit_zero zeros1]
    sl_unfold_run_names
    simp only [nrm1, target1, intra1, vecloss1, View.readAt_eq_ld, View.ld_unit_zero (S := S2048x384) zeros1, View.ld_unit_zero (S := S256x32) zeros1, View.ld_unit_zero (S := S1x32) zeros1, View.ld_unit_zero (S := S32x1) zeros1, View.ld_unit_zero (S := S1x1) zeros1, View.ld_unit_zero (S := S2048x256) zeros1]
  isplitl [H7]
  · iexists _; isplitr
    swap; · iexact H7
    ipureintro
    rw [View.read_writes_eq_canon _ _ _ (fun y => ⟨_, List.mem_singleton_self _, View.mem_set_unit_zero zeros1 inb_S1x1_S1x1_0_0 y⟩),
      View.canon_unit_zero zeros1]
    sl_unfold_run_names
    simp only [nrm1, target1, intra1, vecloss1, View.readAt_eq_ld, View.ld_unit_zero (S := S2048x384) zeros1, View.ld_unit_zero (S := S256x32) zeros1, View.ld_unit_zero (S := S1x32) zeros1, View.ld_unit_zero (S := S32x1) zeros1, View.ld_unit_zero (S := S1x1) zeros1, View.ld_unit_zero (S := S2048x256) zeros1]
  isplitl [H8]
  · iexists _; isplitr
    swap; · iexact H8
    ipureintro
    rw [View.read_writes_eq_canon _ _ _ (fun y => ⟨_, List.mem_singleton_self _, View.mem_set_unit_zero zeros1 inb_S1x1_S1x1_0_0 y⟩),
      View.canon_unit_zero zeros1]
    sl_unfold_run_names
    simp only [nrm1, target1, intra1, vecloss1, View.readAt_eq_ld, View.ld_unit_zero (S := S2048x384) zeros1, View.ld_unit_zero (S := S256x32) zeros1, View.ld_unit_zero (S := S1x32) zeros1, View.ld_unit_zero (S := S32x1) zeros1, View.ld_unit_zero (S := S1x1) zeros1, View.ld_unit_zero (S := S2048x256) zeros1]
  iexists _; isplitr
  swap; · iexact H9
  ipureintro
  rw [View.read_writes_eq_canon _ _ _ (fun y => ⟨_, List.mem_singleton_self _, View.mem_set_unit_zero zeros1 inb_S1x1_S1x1_0_0 y⟩),
    View.canon_unit_zero zeros1]
  sl_unfold_run_names
  simp only [nrm1, target1, intra1, vecloss1, View.readAt_eq_ld, View.ld_unit_zero (S := S2048x384) zeros1, View.ld_unit_zero (S := S256x32) zeros1, View.ld_unit_zero (S := S1x32) zeros1, View.ld_unit_zero (S := S32x1) zeros1, View.ld_unit_zero (S := S1x1) zeros1, View.ld_unit_zero (S := S2048x256) zeros1]

/-! ## The input buffers at a point -/

section AtV
variable (V : (c : Dev nD) → (b : Ref sig .tc) → Buf (Elt F) ((c : Thread nD τ).loc b))

/-- Input window 0's current staging buffer holds its block of the array, fetched at this point or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Input window 1's current staging buffer holds its block of the array, fetched at this point or not. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- Input window 2's current staging buffer holds its block of the array, fetched at this point or not. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- Input window 3's current staging buffer holds its block of the array, fetched at this point or not. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
/-- Input window 4's current staging buffer holds its block of the array, fetched at this point or not. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
/-- Input window 5's current staging buffer holds its block of the array, fetched at this point or not. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body obligation -/

/-- What the body is called with at point `t`: the invariant, the debts, and every window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns: the same, each buffer holding what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 1000000 in
/-- The body at the point: the input buffers hold their blocks, so the body's triple applies; the invariant and the
    debts are not read. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end AtV

/-- The library's body obligation for launch 1, at its one point. -/
theorem body_obligation1 (V : (c : Dev nD) → (b : Ref sig .tc) → Buf (Elt F) ((c : Thread nD τ).loc b)) (c : Dev nD) :
    BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Launch 2's body obligation: at every point of the 2 x 2 grid the similarity-loss body, handed each input
  window's block and the two one-element accumulators, leaves the accumulators at the running masked loss sum
  and mask count of the core half (reset to zero at the even points, carried over at the odd ones).
-/
import proofs.«412127_j15607911153865_3_alg».proof.Proof.KI.Data
import Idealize.ShloMosaic.Lib.Pipeline.FrameBody
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F] [Named F]

local notation "𝕄" => MT nD τ sig Unit (Elt F) ℕ (UR sig nD τ) ℕ

/-! ## The reset condition -/

/-- The body's one conditional, as the grid coordinates decide it: the second coordinate is zero. -/
abbrev cond2 (i : grid2.Coords) : Prop :=
  (Scalar.cmpi .ne (Scalar.extui (Scalar.cmpi .eq (BitVec.ofNat 32 (i 1).val) 0#32)) 0#32) = 1#1

/-- It holds exactly at the even points (the first point of each core half). -/
theorem hcond2 : ∀ t : Fin cfg2.N, cond2 (grid2.coords t) ↔ t.val % 2 = 0 :=
  (by decide +kernel : ∀ t : Fin grid2.N, cond2 (grid2.coords t) ↔ t.val % 2 = 0)

/-! ## Offsets that are all zero -/

private theorem hz2 : (![0, 0] : Fin 2 → Nat) = fun _ => 0 := funext fun a => by fin_cases a <;> rfl
private theorem hz3 : (![0, 0, 0] : Fin 3 → Nat) = fun _ => 0 := funext fun a => by fin_cases a <;> rfl

/-! ## The one-element accumulator block -/

/-- The whole one-element block, as the body's loads and stores name it. -/
abbrev rO : Rect S1x1x1 := Rect.unit (s := S1x1x1) ![0, 0, 0] S1x1x1.size inb_S1x1x1_S1x1x1_0_0_0

/-- The whole block holds every index. -/
theorem coverO (p : Vec F S1x1x1 .f32) (L : List (View.Piece (Elt F) S1x1x1 .f32)) (y : S1x1x1.Idx) :
    ∃ pc ∈ ((⟨rO, p⟩ : View.Piece (Elt F) S1x1x1 .f32) :: L), y ∈ pc.1.set :=
  ⟨⟨rO, p⟩, List.mem_cons_self, View.mem_set_unit_zero (S := S1x1x1) hz3 inb_S1x1x1_S1x1x1_0_0_0 y⟩

/-- A last store through the whole block leaves its payload, whatever was stored before. -/
theorem read_writes_lastO (v : View sig .tc .vmem S1x1x1 .f32) (f : v.ty.Contents (Elt F))
    (p : Vec F S1x1x1 .f32) (L : List (View.Piece (Elt F) S1x1x1 .f32)) :
    v.read (Elt F) (v.writes (Elt F) f ((⟨rO, p⟩ : View.Piece (Elt F) S1x1x1 .f32) :: L)) = p := by
  rw [View.read_writes_eq_canon v f _ (coverO p L)]
  exact View.canon_cons_unit_zero (S := S1x1x1) hz3 inb_S1x1x1_S1x1x1_0_0_0 p L

/-! ## The body on any whole staging memrefs, case by case -/

set_option maxHeartbeats 1000000 in
/-- At a point whose second coordinate is zero the two accumulators, whatever they held, are first set to
    zero; then the tile's masked loss sum and mask count are added to them. -/
theorem sound_kernel2_reset (c : Dev nD) (E : Set ℕ) (i : grid2.Coords)
    (arg2 : Memref sig .tc .vmem S512x256 .f32) (harg2 : arg2.IsWhole)
    (arg3 : Memref sig .tc .vmem S2048x256 .f32) (harg3 : arg3.IsWhole)
    (arg4 : Memref sig .tc .vmem S1x1 .f32) (harg4 : arg4.IsWhole)
    (arg5 : Memref sig .tc .vmem S1x1x1 .f32) (harg5 : arg5.IsWhole)
    (arg6 : Memref sig .tc .vmem S1x1x1 .f32) (harg6 : arg6.IsWhole)
    (hc : cond2 i)
    (x0 : Vec F S512x256 .f32) (x1 : Vec F S2048x256 .f32) (x2 : Vec F S1x1 .f32) (K : PUnit → sProp 𝕄) :
    iprop(owns (c : Thread nD τ) arg2 fullShare x0 ∗ owns (c : Thread nD τ) arg3 fullShare x1
        ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (sum2 i x0 x1 x2 (k2_pay3 (F := F)))
            ∗ owns (c : Thread nD τ) arg6 fullShare (cnt2 i (k2_pay4 (F := F)))) -∗ K ⟨⟩))
      ⊢ wp frame (wpE (defs₀ (F := F)) Variants.none c none) E
          (cc2__sim_kernel i arg2 harg2 arg3 harg3 arg4 harg4 arg5 harg5 arg6 harg6) K := by
  simp only [cc2__sim_kernel_eq_skeleton]; unfold cc2__sim_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_lastO _ _ _ _).trans ?_
    sl_unfold_words
    unfold sum2 k2_pay6 k2_pay7 k2_pay5 k2_pay3
    simp only [View.readAt_eq_ld, View.ld_unit_zero (S := S512x256) hz2, View.ld_unit_zero (S := S2048x256) hz2,
      View.ld_unit_zero (S := S1x1) hz2, View.readCov_unit_zero (S := S1x1x1) _ hz3]
  · iexists _; isplitr
    swap; · iexact H4
    ipureintro
    refine (read_writes_lastO _ _ _ _).trans ?_
    sl_unfold_words
    unfold cnt2 k2_pay5 k2_pay4
    simp only [View.readCov_unit_zero (S := S1x1x1) _ hz3]

set_option maxHeartbeats 1000000 in
/-- At a point whose second coordinate is not zero the tile's masked loss sum and mask count are added to what
    the two accumulators hold. -/
theorem sound_kernel2_acc (c : Dev nD) (E : Set ℕ) (i : grid2.Coords)
    (arg2 : Memref sig .tc .vmem S512x256 .f32) (harg2 : arg2.IsWhole)
    (arg3 : Memref sig .tc .vmem S2048x256 .f32) (harg3 : arg3.IsWhole)
    (arg4 : Memref sig .tc .vmem S1x1 .f32) (harg4 : arg4.IsWhole)
    (arg5 : Memref sig .tc .vmem S1x1x1 .f32) (harg5 : arg5.IsWhole)
    (arg6 : Memref sig .tc .vmem S1x1x1 .f32) (harg6 : arg6.IsWhole)
    (hc : ¬cond2 i)
    (x0 : Vec F S512x256 .f32) (x1 : Vec F S2048x256 .f32) (x2 : Vec F S1x1 .f32)
    (p3 p4 : Vec F S1x1x1 .f32) (K : PUnit → sProp 𝕄) :
    iprop(owns (c : Thread nD τ) arg2 fullShare x0 ∗ owns (c : Thread nD τ) arg3 fullShare x1
        ∗ owns (c : Thread nD τ) arg4 fullShare x2
        ∗ owns (c : Thread nD τ) arg5 fullShare p3 ∗ owns (c : Thread nD τ) arg6 fullShare p4
        ∗ (iprop(owns (c : Thread nD τ) arg2 fullShare x0 ∗ owns (c : Thread nD τ) arg3 fullShare x1
            ∗ owns (c : Thread nD τ) arg4 fullShare x2
            ∗ owns (c : Thread nD τ) arg5 fullShare (sum2 i x0 x1 x2 p3)
            ∗ owns (c : Thread nD τ) arg6 fullShare (cnt2 i p4)) -∗ K ⟨⟩))
      ⊢ wp frame (wpE (defs₀ (F := F)) Variants.none c none) E
          (cc2__sim_kernel i arg2 harg2 arg3 harg3 arg4 harg4 arg5 harg5 arg6 harg6) K := by
  simp only [cc2__sim_kernel_eq_skeleton]; unfold cc2__sim_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_lastO _ _ _ _).trans ?_
    sl_unfold_words
    unfold sum2 k2_pay6 k2_pay7 k2_pay5
    simp only [View.readAt_eq_ld, View.ld_unit_zero (S := S512x256) hz2, View.ld_unit_zero (S := S2048x256) hz2,
      View.ld_unit_zero (S := S1x1) hz2, View.ld_unit_zero (S := S1x1x1) hz3]
  · iexists _; isplitr
    swap; · iexact H4
    ipureintro
    refine (read_writes_lastO _ _ _ _).trans ?_
    sl_unfold_words
    unfold cnt2 k2_pay5
    simp only [View.readAt_eq_ld, View.ld_unit_zero (S := S1x1x1) hz3]

/-! ## The accumulators point by point -/

section AtV
variable (V : (c : Dev nD) → (b : Ref sig .tc) → Buf (Elt F) ((c : Thread nD τ).loc b))

/-- At an even point the pair restarts from zeros. -/
theorem outsAt2_reset (c : Dev nD) (t : Fin cfg2.N) (h0 : t.val % 2 = 0) :
    outsAt2 V c t.val t.isLt = point2 V c t (k2_pay3 (F := F), k2_pay4 (F := F)) := by
  obtain ⟨n, hn⟩ := t
  cases n with
  | zero => exact rfl
  | succ n => exact (if_pos h0).trans rfl

/-- At an odd point the pair continues from what the point before left. -/
theorem outsAt2_acc (c : Dev nD) (t : Fin cfg2.N) (h0 : ¬t.val % 2 = 0) :
    outsAt2 V c t.val t.isLt
      = point2 V c t (outsAt2 V c (t.val - 1) (Nat.lt_of_le_of_lt (Nat.sub_le _ _) t.isLt)) := by
  obtain ⟨n, hn⟩ := t
  cases n with
  | zero => exact absurd (Nat.zero_mod _) h0
  | succ n => exact (if_neg h0).trans rfl

/-- The two components at an even point, -/
theorem outs2_fst_reset (c : Dev nD) (t : Fin cfg2.N) (h0 : t.val % 2 = 0) :
    (outsAt2 V c t.val t.isLt).1
      = sum2 (grid2.coords t) (iblk2 V c 0 t) (iblk2 V c 1 t) (iblk2 V c 2 t) (k2_pay3 (F := F)) := by
  rw [outsAt2_reset V c t h0]; rfl
theorem outs2_snd_reset (c : Dev nD) (t : Fin cfg2.N) (h0 : t.val % 2 = 0) :
    (outsAt2 V c t.val t.isLt).2 = cnt2 (grid2.coords t) (k2_pay4 (F := F)) := by
  rw [outsAt2_reset V c t h0]; rfl

/-- and at an odd point. -/
theorem outs2_fst_acc (c : Dev nD) (t : Fin cfg2.N) (h0 : ¬t.val % 2 = 0) :
    (outsAt2 V c t.val t.isLt).1
      = sum2 (grid2.coords t) (iblk2 V c 0 t) (iblk2 V c 1 t) (iblk2 V c 2 t)
          (outsAt2 V c (t.val - 1) (Nat.lt_of_le_of_lt (Nat.sub_le _ _) t.isLt)).1 := by
  rw [outsAt2_acc V c t h0]; rfl
theorem outs2_snd_acc (c : Dev nD) (t : Fin cfg2.N) (h0 : ¬t.val % 2 = 0) :
    (outsAt2 V c t.val t.isLt).2
      = cnt2 (grid2.coords t) (outsAt2 V c (t.val - 1) (Nat.lt_of_le_of_lt (Nat.sub_le _ _) t.isLt)).2 := by
  rw [outsAt2_acc V c t h0]; rfl

/-! ## What the body finds in the staging buffers -/

/-- Each input window's current staging buffer holds its block of the array at every point, whether the block was
    fetched at that point or is still there from an earlier one (the block index has then not moved). -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

/-- At an odd point each accumulator's staging buffer holds what the body left at the point before: the point is
    not the first, and the buffer is written back at odd points only, so not at the even point before it. -/
theorem before2_3_acc (c : Dev nD) (t : Fin cfg2.N) (h0 : ¬t.val % 2 = 0) (d) :
    (dat2 V c).before 3 t d = (outsAt2 V c (t.val - 1) (Nat.lt_of_le_of_lt (Nat.sub_le _ _) t.isLt)).1 := by
  have hN : t.val < 4 := lt_of_lt_of_eq t.isLt (show cfg2.N = 4 from N_2)
  rw [Dat.before_out_kept _ 3 rfl t (by omega)
    (Bool.eq_false_iff.mpr fun h => by have := (flush2_3 _).mp h; dsimp only at this; omega)
    (fun _ => rfl) (fun _ _ => rfl)]
  exact after2_3 V c _
theorem before2_4_acc (c : Dev nD) (t : Fin cfg2.N) (h0 : ¬t.val % 2 = 0) (d) :
    (dat2 V c).before 4 t d = (outsAt2 V c (t.val - 1) (Nat.lt_of_le_of_lt (Nat.sub_le _ _) t.isLt)).2 := by
  have hN : t.val < 4 := lt_of_lt_of_eq t.isLt (show cfg2.N = 4 from N_2)
  rw [Dat.before_out_kept _ 4 rfl t (by omega)
    (Bool.eq_false_iff.mpr fun h => by have := (flush2_4 _).mp h; dsimp only at this; omega)
    (fun _ => rfl) (fun _ _ => rfl)]
  exact after2_4 V c _

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 800000 in
/-- The body at any point: the inputs' buffers hold their blocks; the parity of the point says which case it is
    in; at an odd point the accumulators hold what the point before left; so the case's run applies. The
    invariant and what the core owes pass through untouched. -/
theorem sound_body2 (c : Dev nD) (t : Fin cfg2.N) :
    bodyPre2 V c t ⊢ wp frame (wpE (defs₀ (F := F)) Variants.none c none) Set.univ (bodyAt2 t)
      (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  by_cases h0 : t.val % 2 = 0
  · rw [outs2_fst_reset V c t h0, outs2_snd_reset V c t h0]
    iintro ⟨HΦ, Ho, ⟨%d0, H0⟩, ⟨%d1, H1⟩, ⟨%d2, H2⟩, ⟨%d3, H3⟩, ⟨%d4, H4⟩⟩
    iapply (sound_kernel2_reset c Set.univ (grid2.coords t) _ _ _ _ _ _ _ _ _ _ ((hcond2 t).mpr h0)
      (iblk2 V c 0 t) (iblk2 V c 1 t) (iblk2 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outs2_fst_acc V c t h0, outs2_snd_acc V c t h0]
    simp only [before2_3_acc V c t h0, before2_4_acc V c t h0]
    iintro ⟨HΦ, Ho, ⟨%d0, H0⟩, ⟨%d1, H1⟩, ⟨%d2, H2⟩, ⟨%d3, H3⟩, ⟨%d4, H4⟩⟩
    iapply (sound_kernel2_acc c Set.univ (grid2.coords t) _ _ _ _ _ _ _ _ _ _ (fun h => h0 ((hcond2 t).mp h))
      (iblk2 V c 0 t) (iblk2 V c 1 t) (iblk2 V c 2 t) _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation of launch 2, at every point. -/
theorem body_obligation2 (c : Dev nD) :
    BodyObligation (dat2 (F := F) V c) (defs₀ (F := F)) Variants.none () Set.univ := fun t => by
  rw [bigSep_W2, bigSep_W2]
  exact sound_body2 V c t

end AtV

end Cert.KernelIdeal.Hand

end
-- ==== Proof.KI.Chain.lean ====
/-
  What a core's buffers hold at each of the eight boundaries between the seven items of the entry function — four
  stretches of host operations with the three kernel launches between them — as a fold from the launch memory.  A host
  stretch rewrites exactly the buffers its operations write.  A launch leaves in each of its arrays what its write-backs
  have made of it by the last grid point (an input array is never written back, so it holds what it held), and every
  other buffer as it found it.  The third launch reads one array through two windows, so its exit contents are written
  by overwriting its two output arrays only.  No item writes an argument of the entry function: each argument's buffer
  is read back through the fold to the launch memory.
-/
import proofs.«412127_j15607911153865_3_alg».proof.Proof.KI.Data
import proofs.«412127_j15607911153865_3_alg».proof.Proof.Gen.KernelIdeal.Regions
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation)
open Cert.KernelIdeal Cert.KernelIdeal.Gen

variable {F : FTy → Type} [FloatOps F] [Named F]
variable (m : (ℓ : Loc nD τ sig) → Buf (Elt F) ℓ)

/-! ## The fold -/

/-- Core `c`'s buffers at launch. -/
abbrev W0 (c : Dev nD) : Valuation τ sig (Elt F) := fun b => m (c, b)
/-- After the first host stretch: what the first launch is entered with. -/
abbrev W1 (c : Dev nD) : Valuation τ sig (Elt F) := StableHlo.after hostOps0 (W0 m c)
/-- The same, read at the TensorCore's references. -/
abbrev V1 : (c : Dev nD) → (b : Ref sig .tc) → Buf (Elt F) ((c : Thread nD τ).loc b) := fun c b => W1 m c b

/-- After the first launch: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
/-- At the first launch's exit each of its arrays holds what the pipeline leaves, -/
theorem hF0 (c : Dev nD) (w : Fin cfg0.W) : (dat0 (V1 m) c).arrAt w cfg0.N = V2 m c (Pipeline.arrRef spec0 w) :=
  (W2_arr m c w).symm
/-- and every other buffer what it held at entry. -/
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: what the second launch is entered with. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b

/-- After the second launch. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch: what the third launch is entered with. -/
abbrev W5 (c : Dev nD) : Valuation τ sig (Elt F) := StableHlo.after hostOps2 (W4 m c)
abbrev V5 : (c : Dev nD) → (b : Ref sig .tc) → Buf (Elt F) ((c : Thread nD τ).loc b) := fun c b => W5 m c b

/-- After the third launch: its two output arrays (windows 3 and 4) at what its write-backs leave; every other buffer
    as entered — the three input windows' arrays among them, two of which are one and the same array. -/
def W6 (c : Dev nD) : Valuation τ sig (Elt F) :=
  Function.update (Function.update (W5 m c) (Proc.devRef .tc main_v28_0) ((dat2 (V5 m) c).arrAt 3 cfg2.N))
    (Proc.devRef .tc main_v28_1) ((dat2 (V5 m) c).arrAt 4 cfg2.N)
theorem W6_out3 (c : Dev nD) : W6 m c (Proc.devRef .tc main_v28_0) = (dat2 (V5 m) c).arrAt 3 cfg2.N := by
  unfold W6
  rw [Function.update_of_ne (StableHlo.devRef_ne_of_ne (by decide)), Function.update_self]
theorem W6_out4 (c : Dev nD) : W6 m c (Proc.devRef .tc main_v28_1) = (dat2 (V5 m) c).arrAt 4 cfg2.N := by
  unfold W6
  rw [Function.update_self]
theorem W6_of_ne (c : Dev nD) (b : Ref sig .tc) (h3 : b ≠ main_v28_0) (h4 : b ≠ main_v28_1) :
    W6 m c (Proc.devRef .tc b) = W5 m c (Proc.devRef .tc b) := by
  unfold W6
  rw [Function.update_of_ne (StableHlo.devRef_ne_of_ne h4), Function.update_of_ne (StableHlo.devRef_ne_of_ne h3)]
abbrev V6 : (c : Dev nD) → (b : Ref sig .tc) → Buf (Elt F) ((c : Thread nD τ).loc b) := fun c b => W6 m c b

/-- After the last host stretch: the contents the entry function returns with. -/
abbrev W7 (c : Dev nD) : Valuation τ sig (Elt F) := StableHlo.after hostOps3 (W6 m c)

/-! ## At the third launch's exit

Each window's array holds what the pipeline leaves: the three inputs' what they held at entry, the two outputs' their
write-backs; a buffer that is no window's array holds what it held at entry. -/

theorem hF2 (c : Dev nD) : ∀ w : Fin cfg2.W, (dat2 (V5 m) c).arrAt w cfg2.N = V6 m c (Pipeline.arrRef spec2 w)
  | 0 => ((dat2 (V5 m) c).arrAt_in 0 rfl _).trans ((A_eq2 (V5 m) c 0).trans (W6_of_ne m c main_v23_0 (by decide) (by decide)).symm)
  | 1 => ((dat2 (V5 m) c).arrAt_in 1 rfl _).trans ((A_eq2 (V5 m) c 1).trans (W6_of_ne m c main_v23_0 (by decide) (by decide)).symm)
  | 2 => ((dat2 (V5 m) c).arrAt_in 2 rfl _).trans ((A_eq2 (V5 m) c 2).trans (W6_of_ne m c main_v27 (by decide) (by decide)).symm)
  | 3 => (W6_out3 m c).symm
  | 4 => (W6_out4 m c).symm
  | ⟨_ + 5, h⟩ => absurd h (Nat.not_lt.2 (Nat.le_add_left _ _))
theorem hrest2 (c : Dev nD) : ∀ b, b ∉ Finset.univ.image (Pipeline.arrRef spec2) → V6 m c b = V5 m c b :=
  fun b hb => W6_of_ne m c b
    (fun e => hb (Finset.mem_image.mpr ⟨3, Finset.mem_univ _, e.symm⟩))
    (fun e => hb (Finset.mem_image.mpr ⟨4, Finset.mem_univ _, e.symm⟩))

/-! ## What each item leaves unchanged -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W7_of (c : Dev nD) (r : Ref sig .tc) (h : r ∉ hostOps3_W) : W7 m c (Proc.devRef .tc r) = W6 m c (Proc.devRef .tc r) :=
  StableHlo.after_of_writes_sub hostOps3 _ hostOps3_writes h

/-- A buffer no host operation writes and no launch has for an array ends as launched. -/
theorem W7_of_bypassing (c : Dev nD) (r : Ref sig .tc) (h0 : r ∉ hostOps0_W) (h1 : r ∉ hostOps1_W) (h2 : r ∉ hostOps2_W)
    (h3 : r ∉ hostOps3_W) (ha0 : ∀ w, Pipeline.arrRef spec0 w ≠ r) (ha1 : ∀ w, Pipeline.arrRef spec1 w ≠ r)
    (ho3 : r ≠ main_v28_0) (ho4 : r ≠ main_v28_1) :
    W7 m c (Proc.devRef .tc r) = m ((c : Thread nD τ).loc r) :=
  calc W7 m c (Proc.devRef .tc r)
    _ = W6 m c (Proc.devRef .tc r) := W7_of m c r h3
    _ = W5 m c (Proc.devRef .tc r) := W6_of_ne m c r ho3 ho4
    _ = W4 m c (Proc.devRef .tc r) := W5_of m c r h2
    _ = W3 m c (Proc.devRef .tc r) := W4_of_ne m c r ha1
    _ = W2 m c (Proc.devRef .tc r) := W3_of m c r h1
    _ = W1 m c (Proc.devRef .tc r) := W2_of_ne m c r ha0
    _ = W0 m c (Proc.devRef .tc r) := W1_of m c r h0
    _ = m ((c : Thread nD τ).loc r) := rfl

/-- An input array of the first launch that nothing else touches ends as launched: the launch never writes it back. -/
theorem W7_of_input0 (c : Dev nD) (w : Fin cfg0.W) (hin : (cfg0.win w).isOut = false)
    (h0 : Pipeline.arrRef spec0 w ∉ hostOps0_W) (h1 : Pipeline.arrRef spec0 w ∉ hostOps1_W)
    (h2 : Pipeline.arrRef spec0 w ∉ hostOps2_W) (h3 : Pipeline.arrRef spec0 w ∉ hostOps3_W)
    (ha1 : ∀ w', Pipeline.arrRef spec1 w' ≠ Pipeline.arrRef spec0 w)
    (ho3 : Pipeline.arrRef spec0 w ≠ main_v28_0) (ho4 : Pipeline.arrRef spec0 w ≠ main_v28_1) :
    W7 m c (Proc.devRef .tc (Pipeline.arrRef spec0 w)) = m ((c : Thread nD τ).loc (Pipeline.arrRef spec0 w)) :=
  calc W7 m c (Proc.devRef .tc (Pipeline.arrRef spec0 w))
    _ = W6 m c (Proc.devRef .tc (Pipeline.arrRef spec0 w)) := W7_of m c _ h3
    _ = W5 m c (Proc.devRef .tc (Pipeline.arrRef spec0 w)) := W6_of_ne m c _ ho3 ho4
    _ = W4 m c (Proc.devRef .tc (Pipeline.arrRef spec0 w)) := W5_of m c _ h2
    _ = W3 m c (Proc.devRef .tc (Pipeline.arrRef spec0 w)) := W4_of_ne m c _ ha1
    _ = W2 m c (Proc.devRef .tc (Pipeline.arrRef spec0 w)) := W3_of m c _ h1
    _ = W1 m c (Proc.devRef .tc (Pipeline.arrRef spec0 w)) :=
        (W2_arr m c w).trans (((dat0 (V1 m) c).arrAt_in w hin _).trans (A_eq0 (V1 m) c w))
    _ = W0 m c (Proc.devRef .tc (Pipeline.arrRef spec0 w)) := W1_of m c _ h0
    _ = m ((c : Thread nD τ).loc (Pipeline.arrRef spec0 w)) := rfl

/-! ## The arguments end as launched -/

theorem W7_main_arg0 (c : Dev nD) : W7 m c (Proc.devRef .tc main_arg0) = m ((c : Thread nD τ).loc main_arg0) :=
  W7_of_input0 m c 0 rfl (by decide) (by decide) (by decide) (by decide) (by decide) (by decide) (by decide)
theorem W7_main_arg1 (c : Dev nD) : W7 m c (Proc.devRef .tc main_arg1) = m ((c : Thread nD τ).loc main_arg1) :=
  W7_of_input0 m c 1 rfl (by decide) (by decide) (by decide) (by decide) (by decide) (by decide) (by decide)
theorem W7_main_arg2 (c : Dev nD) : W7 m c (Proc.devRef .tc main_arg2) = m ((c : Thread nD τ).loc main_arg2) :=
  W7_of_bypassing m c main_arg2 (by decide) (by decide) (by decide) (by decide) (by decide) (by decide) (by decide) (by decide)
theorem W7_main_arg3 (c : Dev nD) : W7 m c (Proc.devRef .tc main_arg3) = m ((c : Thread nD τ).loc main_arg3) :=
  W7_of_bypassing m c main_arg3 (by decide) (by decide) (by decide) (by decide) (by decide) (by decide) (by decide) (by decide)
theorem W7_main_arg4 (c : Dev nD) : W7 m c (Proc.devRef .tc main_arg4) = m ((c : Thread nD τ).loc main_arg4) :=
  W7_of_bypassing m c main_arg4 (by decide) (by decide) (by decide) (by decide) (by decide) (by decide) (by decide) (by decide)
theorem W7_main_arg5 (c : Dev nD) : W7 m c (Proc.devRef .tc main_arg5) = m ((c : Thread nD τ).loc main_arg5) :=
  W7_of_bypassing m c main_arg5 (by decide) (by decide) (by decide) (by decide) (by decide) (by decide) (by decide) (by decide)
theorem W7_main_arg6 (c : Dev nD) : W7 m c (Proc.devRef .tc main_arg6) = m ((c : Thread nD τ).loc main_arg6) :=
  W7_of_bypassing m c main_arg6 (by decide) (by decide) (by decide) (by decide) (by decide) (by decide) (by decide) (by decide)
theorem W7_main_arg7 (c : Dev nD) : W7 m c (Proc.devRef .tc main_arg7) = m ((c : Thread nD τ).loc main_arg7) :=
  W7_of_bypassing m c main_arg7 (by decide) (by decide) (by decide) (by decide) (by decide) (by decide) (by decide) (by decide)
theorem W7_main_arg8 (c : Dev nD) : W7 m c (Proc.devRef .tc main_arg8) = m ((c : Thread nD τ).loc main_arg8) :=
  W7_of_bypassing m c main_arg8 (by decide) (by decide) (by decide) (by decide) (by decide) (by decide) (by decide) (by decide)
theorem W7_main_arg9 (c : Dev nD) : W7 m c (Proc.devRef .tc main_arg9) = m ((c : Thread nD τ).loc main_arg9) :=
  W7_of_bypassing m c main_arg9 (by decide) (by decide) (by decide) (by decide) (by decide) (by decide) (by decide) (by decide)
theorem W7_main_arg10 (c : Dev nD) : W7 m c (Proc.devRef .tc main_arg10) = m ((c : Thread nD τ).loc main_arg10) :=
  W7_of_bypassing m c main_arg10 (by decide) (by decide) (by decide) (by decide) (by decide) (by decide) (by decide) (by decide)
theorem W7_main_arg11 (c : Dev nD) : W7 m c (Proc.devRef .tc main_arg11) = m ((c : Thread nD τ).loc main_arg11) :=
  W7_of_bypassing m c main_arg11 (by decide) (by decide) (by decide) (by decide) (by decide) (by decide) (by decide) (by decide)
theorem W7_main_arg12 (c : Dev nD) : W7 m c (Proc.devRef .tc main_arg12) = m ((c : Thread nD τ).loc main_arg12) :=
  W7_of_bypassing m c main_arg12 (by decide) (by decide) (by decide) (by decide) (by decide) (by decide) (by decide) (by decide)
theorem W7_main_arg13 (c : Dev nD) : W7 m c (Proc.devRef .tc main_arg13) = m ((c : Thread nD τ).loc main_arg13) :=
  W7_of_bypassing m c main_arg13 (by decide) (by decide) (by decide) (by decide) (by decide) (by decide) (by decide) (by decide)
theorem W7_main_arg14 (c : Dev nD) : W7 m c (Proc.devRef .tc main_arg14) = m ((c : Thread nD τ).loc main_arg14) :=
  W7_of_bypassing m c main_arg14 (by decide) (by decide) (by decide) (by decide) (by decide) (by decide) (by decide) (by decide)
theorem W7_main_arg15 (c : Dev nD) : W7 m c (Proc.devRef .tc main_arg15) = m ((c : Thread nD τ).loc main_arg15) :=
  W7_of_bypassing m c main_arg15 (by decide) (by decide) (by decide) (by decide) (by decide) (by decide) (by decide) (by decide)

end Cert.KernelIdeal.Hand

end
-- ==== Proof.KI.Run.lean ====
/-
  The run of the entry function as seven segments — four stretches of host operations and the three kernel launches
  between them — over one thread state per core: every unscoped buffer whole at the contents of the boundary reached, the
  core's generator register at some state, nothing owed.  A host stretch takes the buffers to what its operations leave.  A
  launch takes its arrays out of the unscoped buffers, runs its pipeline from the body's obligation, and puts the arrays
  back at their last contents.  The third launch reads one array through two windows: that array's full share is dealt to
  the two windows as its two halves and joined back at the exit.  At the end every unscoped buffer is read against the
  final memory, the result buffer at the last contents of the fold and each argument, which nothing writes, as launched.
-/
import proofs.«412127_j15607911153865_3_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The third launch's arrays, two windows on one array

Windows 0 and 1 read the array of window 1 through the two halves of its full share; windows 2, 3 and 4 hold theirs whole.
So the pipeline's arrays, at contents that are one valuation read at each window's array, are exactly the four distinct
buffers behind them held whole at that valuation: the full share of the shared one splits into its halves and joins
back. -/

section Shared
variable (V : (c : Dev nD) → (b : Ref sig .tc) → Buf (Elt F) ((c : Thread nD τ).loc b))

theorem share2_0 (c : Dev nD) : (dat2 V c).share 0 = fullShare.left := rfl
theorem share2_1 (c : Dev nD) : (dat2 V c).share 1 = fullShare.right := rfl
theorem share2_2 (c : Dev nD) : (dat2 V c).share 2 = fullShare := rfl
theorem share2_3 (c : Dev nD) : (dat2 V c).share 3 = fullShare := rfl
theorem share2_4 (c : Dev nD) : (dat2 V c).share 4 = fullShare := rfl

/-- The arrays window by window, each a whole buffer at its window's share. -/
theorem arrays2_eq (c : Dev nD) (G : (w : Fin cfg2.W) → Buf (Elt F) ((cfg2.win w).arr.view.loc (c : Thread nD τ))) :
    ((dat2 V c).arrays G : sProp 𝕄)
      = bigSep Finset.univ fun w : Fin cfg2.W => (((c : Thread nD τ).loc (Pipeline.arrRef spec2 w)) ↦{(dat2 V c).share w} G w : sProp 𝕄) := by
  unfold Dat.arrays
  exact bigSep_congr fun w _ => by rw [(arr_whole2 w).set_eq_univ]

/-- One window's array at its share and contents, both renamed. -/
theorem pt2 (c : Dev nD) (V' : (b : Ref sig .tc) → Buf (Elt F) ((c : Thread nD τ).loc b))
    (G : (w : Fin cfg2.W) → Buf (Elt F) ((cfg2.win w).arr.view.loc (c : Thread nD τ))) (w : Fin cfg2.W) (q : PosShare TreeShare)
    (hq : (dat2 V c).share w = q) (hG : G w = V' (Pipeline.arrRef spec2 w)) :
    ((((c : Thread nD τ).loc (Pipeline.arrRef spec2 w)) ↦{(dat2 V c).share w} G w) : sProp 𝕄)
      = (((c : Thread nD τ).loc (Pipeline.arrRef spec2 w)) ↦{q} V' (Pipeline.arrRef spec2 w)) := by
  rw [hq, hG]

theorem sep_eq {A A' B B' : sProp 𝕄} (h : A = A') (h' : B = B') : (iprop(A ∗ B) : sProp 𝕄) = iprop(A' ∗ B') := by rw [h, h']

/-- The arrays at one valuation read window by window: the shared array's two halves, then the three whole ones. -/
theorem arrays2_W (c : Dev nD) (V' : (b : Ref sig .tc) → Buf (Elt F) ((c : Thread nD τ).loc b))
    (G : (w : Fin cfg2.W) → Buf (Elt F) ((cfg2.win w).arr.view.loc (c : Thread nD τ))) (hG : ∀ w, G w = V' (Pipeline.arrRef spec2 w)) :
    ((dat2 V c).arrays G : sProp 𝕄)
      = iprop((((c : Thread nD τ).loc (Pipeline.arrRef spec2 1)) ↦{fullShare.left} V' (Pipeline.arrRef spec2 1))
          ∗ (((c : Thread nD τ).loc (Pipeline.arrRef spec2 1)) ↦{fullShare.right} V' (Pipeline.arrRef spec2 1))
          ∗ (((c : Thread nD τ).loc (Pipeline.arrRef spec2 2)) ↦{fullShare} V' (Pipeline.arrRef spec2 2))
          ∗ (((c : Thread nD τ).loc (Pipeline.arrRef spec2 3)) ↦{fullShare} V' (Pipeline.arrRef spec2 3))
          ∗ (((c : Thread nD τ).loc (Pipeline.arrRef spec2 4)) ↦{fullShare} V' (Pipeline.arrRef spec2 4))) := by
  rw [arrays2_eq]
  refine (bigSep_W2 _).trans ?_
  exact sep_eq (pt2 V c V' G 0 _ (share2_0 V c) (hG 0)) (sep_eq (pt2 V c V' G 1 _ (share2_1 V c) (hG 1))
    (sep_eq (pt2 V c V' G 2 _ (share2_2 V c) (hG 2)) (sep_eq (pt2 V c V' G 3 _ (share2_3 V c) (hG 3)) (pt2 V c V' G 4 _ (share2_4 V c) (hG 4)))))

/-- The distinct buffers behind the five windows are those of windows 1 to 4. -/
theorem himg2 : Finset.univ.image (Pipeline.arrRef spec2)
    = {Pipeline.arrRef spec2 1, Pipeline.arrRef spec2 2, Pipeline.arrRef spec2 3, Pipeline.arrRef spec2 4} := by decide

theorem arrBufs2_eq (c : Dev nD) (V' : (b : Ref sig .tc) → Buf (Elt F) ((c : Thread nD τ).loc b)) :
    (Pipeline.arrBufs spec2 c V' : sProp 𝕄)
      = iprop((((c : Thread nD τ).loc (Pipeline.arrRef spec2 1)) ↦{fullShare} V' (Pipeline.arrRef spec2 1))
          ∗ (((c : Thread nD τ).loc (Pipeline.arrRef spec2 2)) ↦{fullShare} V' (Pipeline.arrRef spec2 2))
          ∗ (((c : Thread nD τ).loc (Pipeline.arrRef spec2 3)) ↦{fullShare} V' (Pipeline.arrRef spec2 3))
          ∗ (((c : Thread nD τ).loc (Pipeline.arrRef spec2 4)) ↦{fullShare} V' (Pipeline.arrRef spec2 4))) := by
  unfold Pipeline.arrBufs
  rw [himg2, BI.bigSep_insert (by decide), BI.bigSep_insert (by decide), BI.bigSep_insert (by decide), BI.bigSep_singleton]
  rfl

/-- The arrays at one valuation read window by window are the buffers behind them whole at it, and back. -/
theorem arrays2_iff (c : Dev nD) (V' : (b : Ref sig .tc) → Buf (Elt F) ((c : Thread nD τ).loc b))
    (G : (w : Fin cfg2.W) → Buf (Elt F) ((cfg2.win w).arr.view.loc (c : Thread nD τ))) (hG : ∀ w, G w = V' (Pipeline.arrRef spec2 w)) :
    ((dat2 V c).arrays G : sProp 𝕄) ⊣⊢ Pipeline.arrBufs spec2 c V' := by
  have hhalves : ((((c : Thread nD τ).loc (Pipeline.arrRef spec2 1)) ↦{fullShare} V' (Pipeline.arrRef spec2 1)) : sProp 𝕄)
      ⊣⊢ iprop((((c : Thread nD τ).loc (Pipeline.arrRef spec2 1)) ↦{fullShare.left} V' (Pipeline.arrRef spec2 1))
          ∗ (((c : Thread nD τ).loc (Pipeline.arrRef spec2 1)) ↦{fullShare.right} V' (Pipeline.arrRef spec2 1))) :=
    pointsTo_share (PosShare.mem_left_op_right fullShare)
  rw [arrays2_W V c V' G hG, arrBufs2_eq]
  constructor
  · iintro ⟨H0, H1, H2, H3, H4⟩
    isplitl [H0 H1]
    · iapply hhalves.2
      isplitl [H0]; · iexact H0
      iexact H1
    isplitl [H2]; · iexact H2
    isplitl [H3]; · iexact H3
    iexact H4
  · iintro ⟨H01, H2, H3, H4⟩
    ihave H := hhalves.1 $$ H01
    icases H with ⟨H0, H1⟩
    isplitl [H0]; · iexact H0
    isplitl [H1]; · iexact H1
    isplitl [H2]; · iexact H2
    isplitl [H3]; · iexact H3
    iexact H4

/-- ENTRY: a core's unscoped buffers at the entry contents are the third launch's arrays at those contents and the rest. -/
theorem arrays_of_unscopedBufs2 (c : Dev nD) :
    (unscopedBufs c (V c) : sProp 𝕄)
      ⊢ iprop((dat2 V c).arrays ((dat2 V c).arrAt · 0) ∗ Pipeline.unscopedRest spec2 c (V c)) := by
  rw [Pipeline.unscopedBufs_split₀ cfgs 2 winFacts₀2.arr_unscoped c (V c)]
  exact sep_mono (arrays2_iff V c (V c) _ fun w => A_eq2 V c w).2 .rfl

/-- EXIT: the arrays at their last contents and the rest as entered are the core's unscoped buffers at any valuation that
    has each window's array at its last contents and agrees with the entry contents off the arrays. -/
theorem unscopedBufs_of_arrays2 (c : Dev nD) (V' : (b : Ref sig .tc) → Buf (Elt F) ((c : Thread nD τ).loc b))
    (G : (w : Fin cfg2.W) → Buf (Elt F) ((cfg2.win w).arr.view.loc (c : Thread nD τ))) (hG : ∀ w, G w = V' (Pipeline.arrRef spec2 w))
    (hrest : ∀ b, b ∉ Finset.univ.image (Pipeline.arrRef spec2) → V' b = V c b) :
    iprop((dat2 V c).arrays G ∗ Pipeline.unscopedRest spec2 c (V c)) ⊢ (unscopedBufs c V' : sProp 𝕄) := by
  rw [Pipeline.unscopedBufs_split₀ cfgs 2 winFacts₀2.arr_unscoped c V']
  refine sep_mono (arrays2_iff V c V' G hG).1 (Entails.of_eq ?_)
  unfold Pipeline.unscopedRest
  exact bigSep_congr fun b hb => by rw [hrest b (Finset.mem_sdiff.mp hb).2]

end Shared

/-! ## The proof data family and the thread state -/

section Run
variable (m : (ℓ : Loc nD τ sig) → Buf (Elt F) ℓ)

/-- The prefetched tables' admissible contents: no launch has a table. -/
abbrev adm : (p : Fin 3) → (pcfgs (F := F) p).Adm := fun p => (cfgs p).toPCfg_adm
/-- Every launch's proof data, each at the contents its launch is entered with. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W7 m c) ∗ ∃ r, prngReg c r)

/-! ## The launches as segments -/

variable (hb0 : ∀ V c, BodyObligation (dat0 (F := F) V c) (defs₀ (F := F)) Variants.none () Set.univ)
    (hb1 : ∀ V c, BodyObligation (dat1 (F := F) V c) (defs₀ (F := F)) Variants.none () Set.univ)
    (hb2 : ∀ V c, BodyObligation (dat2 (F := F) V c) (defs₀ (F := F)) Variants.none () Set.univ)

set_option backward.isDefEq.respectTransparency.types false in
/-- Launch 0 as a segment: entered from every unscoped buffer at the contents before it, left at those after it.  Its arrays
    are split out of the unscoped buffers on the way in and put back at their last contents on the way out; the generator
    register goes into the launch's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered from every unscoped buffer at the contents before it, left at those after it.  Its arrays
    are split out of the unscoped buffers on the way in and put back at their last contents on the way out; the generator
    register goes into the launch's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment.  Two of its input windows read one array: on the way in that array's full share is dealt to
    them as its two halves, on the way out — both windows ending at the contents they were entered with — the halves are
    joined back; the two output arrays go back at their last contents. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (hb2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := arrays_of_unscopedBufs2 (V5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (V5 m) c (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The entry function as segments, and the launch -/

/-- The seven segments in order: a host segment per stretch from its boundary's contents, a region per launch. -/
abbrev segs : List (Pipeline.Seg (pcfgs (F := F)) adm (pdats m) () defs₀ 𝒱₀ L lv) :=
  [ .host (hseg hostOps0 hostOps0_sub hostOps0_fresh (W0 m)),
    .region (reg0 m hb0),
    .host (hseg hostOps1 hostOps1_sub hostOps1_fresh (W2 m)),
    .region (reg1 m hb1),
    .host (hseg hostOps2 hostOps2_sub hostOps2_fresh (W4 m)),
    .region (reg2 m hb2),
    .host (hseg hostOps3 hostOps3_sub hostOps3_fresh (W6 m)) ]
/-- The entry function is the run of the segments. -/
theorem main_run (c : Dev nD) : main (F := F) c = Pipeline.Seg.run (segs m hb0 hb1 hb2) := (main_chain c).trans (by chain_rfl)

end Run

set_option backward.isDefEq.respectTransparency.types false in
/-- From any memory with zero counters every weakly fair execution of the entry function terminates, nothing faulting, and
    every final memory holds the result buffer at the last contents of the fold and each argument as launched. -/
theorem run_all (m : (ℓ : Loc nD τ sig) → Buf (Elt F) ℓ) (ρ : Dev nD → PrngReg)
    (hb0 : ∀ V c, BodyObligation (dat0 (F := F) V c) (defs₀ (F := F)) Variants.none () Set.univ)
    (hb1 : ∀ V c, BodyObligation (dat1 (F := F) V c) (defs₀ (F := F)) Variants.none () Set.univ)
    (hb2 : ∀ V c, BodyObligation (dat2 (F := F) V c) (defs₀ (F := F)) Variants.none () Set.univ) :
    θ_run (defs (F := F)) (onTc (τ := τ) (main (F := F))) ⟨m, fun _ => 0, ρ⟩ (fun r => ∀ c : Dev nD,
        r.2.mem ((c.tc : Thread nD τ).loc main_v45) = W7 m c (Proc.devRef .tc main_v45)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)) :=
  Pipeline.θ_run_regions_kit (pcfgs (F := F)) adm (pdats m) () cellOf_inj emb₁ defs₀ 𝒱₀ L lv m ρ main (segs m hb0 hb1 hb2)
    (fun c Q => by rw [main_run m hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      change iprop(StableHlo.held (c : Thread nD τ) (Pipeline.ucRefs τ sig) (W7 m c) ∗ (∃ r, prngReg c r)
          ∗ ∃ W, owes (c : Thread nD τ) (0 : CellTallies nD τ sig Unit) W) ⊢ _
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c =>
      ⟨h c _ (mem_uc main_v45 (by decide)),
        (h c _ (mem_uc main_arg0 (by decide))).trans (W7_main_arg0 m c),
        (h c _ (mem_uc main_arg1 (by decide))).trans (W7_main_arg1 m c),
        (h c _ (mem_uc main_arg2 (by decide))).trans (W7_main_arg2 m c),
        (h c _ (mem_uc main_arg3 (by decide))).trans (W7_main_arg3 m c),
        (h c _ (mem_uc main_arg4 (by decide))).trans (W7_main_arg4 m c),
        (h c _ (mem_uc main_arg5 (by decide))).trans (W7_main_arg5 m c),
        (h c _ (mem_uc main_arg6 (by decide))).trans (W7_main_arg6 m c),
        (h c _ (mem_uc main_arg7 (by decide))).trans (W7_main_arg7 m c),
        (h c _ (mem_uc main_arg8 (by decide))).trans (W7_main_arg8 m c),
        (h c _ (mem_uc main_arg9 (by decide))).trans (W7_main_arg9 m c),
        (h c _ (mem_uc main_arg10 (by decide))).trans (W7_main_arg10 m c),
        (h c _ (mem_uc main_arg11 (by decide))).trans (W7_main_arg11 m c),
        (h c _ (mem_uc main_arg12 (by decide))).trans (W7_main_arg12 m c),
        (h c _ (mem_uc main_arg13 (by decide))).trans (W7_main_arg13 m c),
        (h c _ (mem_uc main_arg14 (by decide))).trans (W7_main_arg14 m c),
        (h c _ (mem_uc main_arg15 (by decide))).trans (W7_main_arg15 m c)⟩)

/-- The frame alone: every argument ends as launched. -/
theorem frame_all (m : (ℓ : Loc nD τ sig) → Buf (Elt F) ℓ) (ρ : Dev nD → PrngReg)
    (hb0 : ∀ V c, BodyObligation (dat0 (F := F) V c) (defs₀ (F := F)) Variants.none () Set.univ)
    (hb1 : ∀ V c, BodyObligation (dat1 (F := F) V c) (defs₀ (F := F)) Variants.none () Set.univ)
    (hb2 : ∀ V c, BodyObligation (dat2 (F := F) V c) (defs₀ (F := F)) Variants.none () Set.univ) :
    θ_run (defs (F := F)) (onTc (τ := τ) (main (F := F))) ⟨m, fun _ => 0, ρ⟩ (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)) :=
  (θ_run _ _ _).mono (fun _ h c => (h c).2) (run_all m ρ hb0 hb1 hb2)

end Cert.KernelIdeal.Hand

end
-- ==== Proof.KI.Struct0.lean ====
/-
  The first kernel launch and the host operations around it, read structurally on a core.  Each input block of the
  launch at a grid point is a rectangle of an argument of the entry function: tile `t` of the per-atom arrays is rows
  `1000 t … 1000 t + 999` (the vector features flattened from three components of 256 channels to 768 columns, the
  fragment ids as a column), the weights and the row parameters are whole at every point (the weights narrowed to
  bf16, which over the reals is the identity).  The launch's result array holds, in core half `h`, what point
  `50 h + 49` left in the accumulator block, and the table the second launch reads is the sum of the two halves.
-/
import proofs.«412127_j15607911153865_3_alg».proof.Proof.KI.Chain
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

variable (m : (ℓ : Loc nD τ sig) → Buf (Elt Ideal) ℓ)

/-! ## Grid arithmetic -/

theorem lt_N0 {n : ℕ} (h : n < 100) : n < cfg0.N := by
  show n < grid0.N
  rw [N_0]; exact h

theorem N0_lt (t : Fin cfg0.N) : t.val < 100 := by
  have h : t.val < grid0.N := t.isLt
  rw [N_0] at h; exact h

/-! ## The block index of each window of the first launch at every grid point

Windows 0 to 4 take block row `t` at point `t` (core half times fifty plus the step), windows 5 to 10 are one block,
and the accumulator window takes block `t / 50` on its leading axis. -/

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx0_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx0_4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx0_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx0_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx0_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx0_11 : ∀ t : Fin cfg0.N, win0_11.index t (0 : Fin 3) = t.val / 50 ∧ win0_11.index t (1 : Fin 3) = 0
    ∧ win0_11.index t (2 : Fin 3) = 0 :=
  (by decide +kernel : ∀ t : Fin grid0.N, win0_11.index t (0 : Fin 3) = t.val / 50 ∧ win0_11.index t (1 : Fin 3) = 0
    ∧ win0_11.index t (2 : Fin 3) = 0)

/-! ## What the first host stretch leaves in the buffers the first launch reads

The two scalar-feature arguments are not written; the vector features, the fragment ids, the biases and the
layer-norm parameters are reshaped; the two weight matrices are narrowed to bf16, which over the reals changes
nothing. -/

theorem V1_main_arg0 (c : Dev nD) : V1 m c main_arg0 = m ((c : Thread nD τ).loc main_arg0) :=
  W1_of m c main_arg0 (by decide)
theorem V1_main_arg1 (c : Dev nD) : V1 m c main_arg1 = m ((c : Thread nD τ).loc main_arg1) :=
  W1_of m c main_arg1 (by decide)

theorem V1_main_v1 (c : Dev nD) : (V1 m c main_v1 : Vec Ideal S100000x768 .f32)
    = shapeCast S100000x768 (m ((c : Thread nD τ).loc main_arg2) : Vec Ideal S100000x3x256 .f32) shapeCasts_S100000x3x256_S100000x768 := by
  show StableHlo.after hostOps0 (W0 m c) (Proc.devRef .tc main_v1) = _
  after_results
  rfl
theorem V1_main_v2 (c : Dev nD) : (V1 m c main_v2 : Vec Ideal S100000x768 .f32)
    = shapeCast S100000x768 (m ((c : Thread nD τ).loc main_arg3) : Vec Ideal S100000x3x256 .f32) shapeCasts_S100000x3x256_S100000x768 := by
  show StableHlo.after hostOps0 (W0 m c) (Proc.devRef .tc main_v2) = _
  after_results
  rfl
theorem V1_main_v0 (c : Dev nD) : (V1 m c main_v0 : Vec Ideal S100000x1 .i32)
    = shapeCast S100000x1 (m ((c : Thread nD τ).loc main_arg15) : Vec Ideal S100000 .i32) shapeCasts_S100000_S100000x1 := by
  show StableHlo.after hostOps0 (W0 m c) (Proc.devRef .tc main_v0) = _
  after_results
  rfl
theorem V1_main_v3 (c : Dev nD) : @Eq (Vec Ideal S256x256 .bf16) (V1 m c main_v3)
    (truncf (F := Ideal) (s := S256x256) (φ := .f32) .bf16 (m ((c : Thread nD τ).loc main_arg4)) bitsLt_bf16_f32) := by
  show StableHlo.after hostOps0 (W0 m c) (Proc.devRef .tc main_v3) = _
  after_results
theorem V1_main_v4 (c : Dev nD) : @Eq (Vec Ideal S256x256 .bf16) (V1 m c main_v4)
    (truncf (F := Ideal) (s := S256x256) (φ := .f32) .bf16 (m ((c : Thread nD τ).loc main_arg8)) bitsLt_bf16_f32) := by
  show StableHlo.after hostOps0 (W0 m c) (Proc.devRef .tc main_v4) = _
  after_results
theorem V1_main_v7 (c : Dev nD) : (V1 m c main_v7 : Vec Ideal S1x256 .f32)
    = shapeCast S1x256 (m ((c : Thread nD τ).loc main_arg5) : Vec Ideal S256 .f32) shapeCasts_S256_S1x256 := by
  show StableHlo.after hostOps0 (W0 m c) (Proc.devRef .tc main_v7) = _
  after_results
  rfl
theorem V1_main_v8 (c : Dev nD) : (V1 m c main_v8 : Vec Ideal S1x256 .f32)
    = shapeCast S1x256 (m ((c : Thread nD τ).loc main_arg9) : Vec Ideal S256 .f32) shapeCasts_S256_S1x256 := by
  show StableHlo.after hostOps0 (W0 m c) (Proc.devRef .tc main_v8) = _
  after_results
  rfl
theorem V1_main_v9 (c : Dev nD) : (V1 m c main_v9 : Vec Ideal S1x256 .f32)
    = shapeCast S1x256 (m ((c : Thread nD τ).loc main_arg6) : Vec Ideal S256 .f32) shapeCasts_S256_S1x256 := by
  show StableHlo.after hostOps0 (W0 m c) (Proc.devRef .tc main_v9) = _
  after_results
  rfl
theorem V1_main_v10 (c : Dev nD) : (V1 m c main_v10 : Vec Ideal S1x256 .f32)
    = shapeCast S1x256 (m ((c : Thread nD τ).loc main_arg7) : Vec Ideal S256 .f32) shapeCasts_S256_S1x256 := by
  show StableHlo.after hostOps0 (W0 m c) (Proc.devRef .tc main_v10) = _
  after_results
  rfl

/-! ## The reshapes read at an index: equal row-major positions -/

theorem flat_vec_apply (x : Vec Ideal S100000x3x256 .f32) (n : Fin 100000) (k : Fin 3) (j : Fin 256) :
    shapeCast S100000x768 x shapeCasts_S100000x3x256_S100000x768 (ix2 n ⟨256 * k.val + j.val, by omega⟩) = x (ix3 n k j) :=
  shapeCast_apply x shapeCasts_S100000x3x256_S100000x768 _ _
    (by rewrite [Shape.rowMajor_val_three, Shape.rowMajor_val_two]
        show (n.val * 3 + k.val) * 256 + j.val = n.val * 768 + (256 * k.val + j.val); omega)

theorem col_ids_apply (x : Vec Ideal S100000 .i32) (n : Fin 100000) :
    shapeCast S100000x1 x shapeCasts_S100000_S100000x1 (ix2 n (0 : Fin 1)) = x (ix1 n) :=
  shapeCast_apply x shapeCasts_S100000_S100000x1 _ _
    (by rewrite [Shape.rowMajor_val_one, Shape.rowMajor_val_two]
        show n.val = n.val * 1 + 0; omega)

theorem row_apply (x : Vec Ideal S256 .f32) (j : Fin 256) :
    shapeCast S1x256 x shapeCasts_S256_S1x256 (ix2 (0 : Fin 1) j) = x (ix1 j) :=
  shapeCast_apply x shapeCasts_S256_S1x256 _ _
    (by rewrite [Shape.rowMajor_val_one, Shape.rowMajor_val_two]
        show j.val = 0 * 256 + j.val; omega)

/-! ## Each input block of the first launch, read at an index

A block's element sits in its array, on each axis, at the block index times the block's size plus the element's own
coordinate; the array is then read back through the first host stretch to the launch memory. -/

/-- Scalar features (first argument): tile `t` is rows `1000 t … 1000 t + 999`. -/
theorem blk0_scalar (c : Dev nD) (t : Fin cfg0.N) (r : Fin 1000) (j : Fin 256) :
    (iblk0 (F := Ideal) (V1 m) c 0 t : Vec Ideal S1000x256 .f32) (ix2 r j)
      = (m ((c : Thread nD τ).loc main_arg0) : Vec Ideal S100000x256 .f32)
          (ix2 ⟨1000 * t.val + r.val, by have := N0_lt t; omega⟩ j) := by
  obtain ⟨e0, e1⟩ := idx0_0 t
  unfold iblk0
  rw [View.read_apply]
  show V1 m c main_arg0 _ = _
  rw [V1_main_arg0]
  congr 1
  funext a
  apply Fin.ext
  match a with
  | ⟨0, _⟩ => show win0_0.index t (0 : Fin 2) * 1000 + 1 * r.val = 1000 * t.val + r.val; rw [e0]; omega
  | ⟨1, _⟩ => show win0_0.index t (1 : Fin 2) * 256 + 1 * j.val = j.val; rw [e1]; omega

/-- Scalar features (second argument). -/
theorem blk0_scalar' (c : Dev nD) (t : Fin cfg0.N) (r : Fin 1000) (j : Fin 256) :
    (iblk0 (F := Ideal) (V1 m) c 1 t : Vec Ideal S1000x256 .f32) (ix2 r j)
      = (m ((c : Thread nD τ).loc main_arg1) : Vec Ideal S100000x256 .f32)
          (ix2 ⟨1000 * t.val + r.val, by have := N0_lt t; omega⟩ j) := by
  obtain ⟨e0, e1⟩ := idx0_1 t
  unfold iblk0
  rw [View.read_apply]
  show V1 m c main_arg1 _ = _
  rw [V1_main_arg1]
  congr 1
  funext a
  apply Fin.ext
  match a with
  | ⟨0, _⟩ => show win0_1.index t (0 : Fin 2) * 1000 + 1 * r.val = 1000 * t.val + r.val; rw [e0]; omega
  | ⟨1, _⟩ => show win0_1.index t (1 : Fin 2) * 256 + 1 * j.val = j.val; rw [e1]; omega

/-- Vector features (third argument), flattened to 768 columns: column `256 k + j` is component `k`, channel `j`. -/
theorem blk0_vec (c : Dev nD) (t : Fin cfg0.N) (r : Fin 1000) (k : Fin 3) (j : Fin 256) :
    (iblk0 (F := Ideal) (V1 m) c 2 t : Vec Ideal S1000x768 .f32) (ix2 r ⟨256 * k.val + j.val, by omega⟩)
      = (m ((c : Thread nD τ).loc main_arg2) : Vec Ideal S100000x3x256 .f32)
          (ix3 ⟨1000 * t.val + r.val, by have := N0_lt t; omega⟩ k j) := by
  obtain ⟨e0, e1⟩ := idx0_2 t
  unfold iblk0
  rw [View.read_apply]
  show (V1 m c main_v1 : Vec Ideal S100000x768 .f32) _ = _
  rw [V1_main_v1]
  refine Eq.trans ?_ (flat_vec_apply _ ⟨1000 * t.val + r.val, by have := N0_lt t; omega⟩ k j)
  congr 1
  funext a
  apply Fin.ext
  match a with
  | ⟨0, _⟩ => show win0_2.index t (0 : Fin 2) * 1000 + 1 * r.val = 1000 * t.val + r.val; rw [e0]; omega
  | ⟨1, _⟩ => show win0_2.index t (1 : Fin 2) * 768 + 1 * (256 * k.val + j.val) = 256 * k.val + j.val; rw [e1]; omega

/-- Vector features (fourth argument). -/
theorem blk0_vec' (c : Dev nD) (t : Fin cfg0.N) (r : Fin 1000) (k : Fin 3) (j : Fin 256) :
    (iblk0 (F := Ideal) (V1 m) c 3 t : Vec Ideal S1000x768 .f32) (ix2 r ⟨256 * k.val + j.val, by omega⟩)
      = (m ((c : Thread nD τ).loc main_arg3) : Vec Ideal S100000x3x256 .f32)
          (ix3 ⟨1000 * t.val + r.val, by have := N0_lt t; omega⟩ k j) := by
  obtain ⟨e0, e1⟩ := idx0_3 t
  unfold iblk0
  rw [View.read_apply]
  show (V1 m c main_v2 : Vec Ideal S100000x768 .f32) _ = _
  rw [V1_main_v2]
  refine Eq.trans ?_ (flat_vec_apply _ ⟨1000 * t.val + r.val, by have := N0_lt t; omega⟩ k j)
  congr 1
  funext a
  apply Fin.ext
  match a with
  | ⟨0, _⟩ => show win0_3.index t (0 : Fin 2) * 1000 + 1 * r.val = 1000 * t.val + r.val; rw [e0]; omega
  | ⟨1, _⟩ => show win0_3.index t (1 : Fin 2) * 768 + 1 * (256 * k.val + j.val) = 256 * k.val + j.val; rw [e1]; omega

/-- Fragment ids, as a column. -/
theorem blk0_ids (c : Dev nD) (t : Fin cfg0.N) (r : Fin 1000) :
    (iblk0 (F := Ideal) (V1 m) c 4 t : Vec Ideal S1000x1 .i32) (ix2 r (0 : Fin 1))
      = (m ((c : Thread nD τ).loc main_arg15) : Vec Ideal S100000 .i32)
          (ix1 ⟨1000 * t.val + r.val, by have := N0_lt t; omega⟩) := by
  obtain ⟨e0, e1⟩ := idx0_4 t
  unfold iblk0
  rw [View.read_apply]
  show (V1 m c main_v0 : Vec Ideal S100000x1 .i32) _ = _
  rw [V1_main_v0]
  refine Eq.trans ?_ (col_ids_apply _ ⟨1000 * t.val + r.val, by have := N0_lt t; omega⟩)
  congr 1
  funext a
  apply Fin.ext
  match a with
  | ⟨0, _⟩ => show win0_4.index t (0 : Fin 2) * 1000 + 1 * r.val = 1000 * t.val + r.val; rw [e0]; omega
  | ⟨1, _⟩ => show win0_4.index t (1 : Fin 2) * 1 + 1 * 0 = 0; omega

/-- First-layer weights: the whole matrix at every point; narrowing to bf16 is the identity over the reals. -/
theorem blk0_w1 (c : Dev nD) (t : Fin cfg0.N) (k j : Fin 256) :
    ((iblk0 (F := Ideal) (V1 m) c 5 t : Vec Ideal S256x256 .bf16) (ix2 k j) : EReal)
      = (m ((c : Thread nD τ).loc main_arg4) : Vec Ideal S256x256 .f32) (ix2 k j) := by
  obtain ⟨e0, e1⟩ := idx0_5 t
  unfold iblk0
  rw [View.read_apply]
  show (V1 m c main_v3 : Vec Ideal S256x256 .bf16) _ = _
  rw [V1_main_v3]
  refine Eq.trans (truncf_apply _ _ _) ?_
  congr 1
  funext a
  apply Fin.ext
  match a with
  | ⟨0, _⟩ => show win0_5.index t (0 : Fin 2) * 256 + 1 * k.val = k.val; rw [e0]; omega
  | ⟨1, _⟩ => show win0_5.index t (1 : Fin 2) * 256 + 1 * j.val = j.val; rw [e1]; omega

/-- Second-layer weights. -/
theorem blk0_w2 (c : Dev nD) (t : Fin cfg0.N) (k j : Fin 256) :
    ((iblk0 (F := Ideal) (V1 m) c 9 t : Vec Ideal S256x256 .bf16) (ix2 k j) : EReal)
      = (m ((c : Thread nD τ).loc main_arg8) : Vec Ideal S256x256 .f32) (ix2 k j) := by
  obtain ⟨e0, e1⟩ := idx0_9 t
  unfold iblk0
  rw [View.read_apply]
  show (V1 m c main_v4 : Vec Ideal S256x256 .bf16) _ = _
  rw [V1_main_v4]
  refine Eq.trans (truncf_apply _ _ _) ?_
  congr 1
  funext a
  apply Fin.ext
  match a with
  | ⟨0, _⟩ => show win0_9.index t (0 : Fin 2) * 256 + 1 * k.val = k.val; rw [e0]; omega
  | ⟨1, _⟩ => show win0_9.index t (1 : Fin 2) * 256 + 1 * j.val = j.val; rw [e1]; omega

/-- First-layer bias, as a row. -/
theorem blk0_b1 (c : Dev nD) (t : Fin cfg0.N) (j : Fin 256) :
    (iblk0 (F := Ideal) (V1 m) c 6 t : Vec Ideal S1x256 .f32) (ix2 (0 : Fin 1) j)
      = (m ((c : Thread nD τ).loc main_arg5) : Vec Ideal S256 .f32) (ix1 j) := by
  obtain ⟨e0, e1⟩ := idx0_6 t
  unfold iblk0
  rw [View.read_apply]
  show (V1 m c main_v7 : Vec Ideal S1x256 .f32) _ = _
  rw [V1_main_v7]
  refine Eq.trans ?_ (row_apply _ j)
  congr 1
  funext a
  apply Fin.ext
  match a with
  | ⟨0, _⟩ => show win0_6.index t (0 : Fin 2) * 1 + 1 * 0 = 0; omega
  | ⟨1, _⟩ => show win0_6.index t (1 : Fin 2) * 256 + 1 * j.val = j.val; rw [e1]; omega

/-- Layer-norm scale, as a row. -/
theorem blk0_lng (c : Dev nD) (t : Fin cfg0.N) (j : Fin 256) :
    (iblk0 (F := Ideal) (V1 m) c 7 t : Vec Ideal S1x256 .f32) (ix2 (0 : Fin 1) j)
      = (m ((c : Thread nD τ).loc main_arg6) : Vec Ideal S256 .f32) (ix1 j) := by
  obtain ⟨e0, e1⟩ := idx0_7 t
  unfold iblk0
  rw [View.read_apply]
  show (V1 m c main_v9 : Vec Ideal S1x256 .f32) _ = _
  rw [V1_main_v9]
  refine Eq.trans ?_ (row_apply _ j)
  congr 1
  funext a
  apply Fin.ext
  match a with
  | ⟨0, _⟩ => show win0_7.index t (0 : Fin 2) * 1 + 1 * 0 = 0; omega
  | ⟨1, _⟩ => show win0_7.index t (1 : Fin 2) * 256 + 1 * j.val = j.val; rw [e1]; omega

/-- Layer-norm shift, as a row. -/
theorem blk0_lnb (c : Dev nD) (t : Fin cfg0.N) (j : Fin 256) :
    (iblk0 (F := Ideal) (V1 m) c 8 t : Vec Ideal S1x256 .f32) (ix2 (0 : Fin 1) j)
      = (m ((c : Thread nD τ).loc main_arg7) : Vec Ideal S256 .f32) (ix1 j) := by
  obtain ⟨e0, e1⟩ := idx0_8 t
  unfold iblk0
  rw [View.read_apply]
  show (V1 m c main_v10 : Vec Ideal S1x256 .f32) _ = _
  rw [V1_main_v10]
  refine Eq.trans ?_ (row_apply _ j)
  congr 1
  funext a
  apply Fin.ext
  match a with
  | ⟨0, _⟩ => show win0_8.index t (0 : Fin 2) * 1 + 1 * 0 = 0; omega
  | ⟨1, _⟩ => show win0_8.index t (1 : Fin 2) * 256 + 1 * j.val = j.val; rw [e1]; omega

/-- Second-layer bias, as a row. -/
theorem blk0_b2 (c : Dev nD) (t : Fin cfg0.N) (j : Fin 256) :
    (iblk0 (F := Ideal) (V1 m) c 10 t : Vec Ideal S1x256 .f32) (ix2 (0 : Fin 1) j)
      = (m ((c : Thread nD τ).loc main_arg9) : Vec Ideal S256 .f32) (ix1 j) := by
  obtain ⟨e0, e1⟩ := idx0_10 t
  unfold iblk0
  rw [View.read_apply]
  show (V1 m c main_v8 : Vec Ideal S1x256 .f32) _ = _
  rw [V1_main_v8]
  refine Eq.trans ?_ (row_apply _ j)
  congr 1
  funext a
  apply Fin.ext
  match a with
  | ⟨0, _⟩ => show win0_10.index t (0 : Fin 2) * 1 + 1 * 0 = 0; omega
  | ⟨1, _⟩ => show win0_10.index t (1 : Fin 2) * 256 + 1 * j.val = j.val; rw [e1]; omega

/-! ## The summed table the second launch reads -/

theorem outsAt0_congr (V : (c : Dev nD) → (b : Ref sig .tc) → Buf (Elt Ideal) ((c : Thread nD τ).loc b)) (c : Dev nD)
    {n n' : ℕ} (e : n = n') (h : n < cfg0.N) (h' : n' < cfg0.N) :
    outsAt0 (F := Ideal) V c n h = outsAt0 (F := Ideal) V c n' h' := by
  subst e; rfl

/-- Where the first launch's result array ends: core half `h` holds what the last point of the half left. -/
def acc0 (c : Dev nD) : Vec Ideal S2x2048x384 .f32 := fun i =>
  outsAt0 (F := Ideal) (V1 m) c (50 * (i 0).val + 49)
    (lt_N0 (by have h : (i 0).val < 2 := (i 0).isLt; omega)) (ix3 (n0 := 1) (n1 := 2048) (n2 := 384) 0 (i 1) (i 2))

/-- An index of the result array is in point `t`'s block iff each coordinate is in the block's range on its axis. -/
theorem mem_blk11 (t : Fin cfg0.N) (i : S2x2048x384.Idx) :
    i ∈ ((cfg0.win 11).blk t).view.set ↔ ∀ a : Fin 3, win0_11.index t a * S1x2048x384.size a ≤ (i a).val
      ∧ (i a).val < win0_11.index t a * S1x2048x384.size a + S1x2048x384.size a := by
  show i ∈ ((View.whole main_v13).slice (win0_11.rect t)).set ↔ _
  rw [View.set_slice_whole, Rect.mem_set_unit]
  exact Iff.rfl

/-- What a point that writes back writes is its block of `acc0`. -/
theorem flushed_acc0 (c : Dev nD) (t : Fin cfg0.N) (hf : (cfg0.win 11).flush t = true) :
    (dat0 (V1 m) c).flushed 11 t = ((cfg0.win 11).blk t).view.read (Elt Ideal) (acc0 m c) := by
  have h49 : t.val % 50 = 49 := (flush0_11 t).mp hf
  obtain ⟨e0, e1, e2⟩ := idx0_11 t
  show (cfg0.win 11).cut (grid0.coords t) ((dat0 (V1 m) c).after 11 t) = _
  rw [after0_11]
  funext y
  rw [View.read_apply]
  have hy0 : (y 0).val < 1 := (y 0).isLt
  have k0 : ((((cfg0.win 11).blk t).view.emb y) 0).val = t.val / 50 := by
    show win0_11.index t (0 : Fin 3) * 1 + 1 * (y 0).val = _
    rw [e0]; omega
  show outsAt0 (F := Ideal) (V1 m) c t.val t.isLt ((cfg0.win 11).xinj (grid0.coords t) y)
    = outsAt0 (F := Ideal) (V1 m) c (50 * ((((cfg0.win 11).blk t).view.emb y) 0).val + 49) _
        (ix3 (n0 := 1) (n1 := 2048) (n2 := 384) 0 ((((cfg0.win 11).blk t).view.emb y) 1) ((((cfg0.win 11).blk t).view.emb y) 2))
  refine Eq.trans ?_ (congrFun (outsAt0_congr (V1 m) c
    (show t.val = 50 * ((((cfg0.win 11).blk t).view.emb y) 0).val + 49 from by rw [k0]; omega) t.isLt _) _)
  refine congrArg (outsAt0 (F := Ideal) (V1 m) c t.val t.isLt) ?_
  funext a
  apply Fin.ext
  match a with
  | ⟨0, _⟩ => show (y 0).val = 0; omega
  | ⟨1, _⟩ => show (y 1).val = win0_11.index t (1 : Fin 3) * 2048 + 1 * (y 1).val; rw [e1]; omega
  | ⟨2, _⟩ => show (y 2).val = win0_11.index t (2 : Fin 3) * 384 + 1 * (y 2).val; rw [e2]; omega

theorem arr11_apply (c : Dev nD) (h : Fin 2) (f : Fin 2048) (col : Fin 384) :
    ((dat0 (V1 m) c).arrAt 11 cfg0.N : Vec Ideal S2x2048x384 .f32) (ix3 h f col)
      = outsAt0 (F := Ideal) (V1 m) c (50 * h.val + 49) (lt_N0 (by omega)) (ix3 (0 : Fin 1) f col) := by
  have ht : 50 * h.val + 49 < cfg0.N := lt_N0 (by omega)
  have hf : (cfg0.win 11).flush ⟨50 * h.val + 49, ht⟩ = true :=
    (flush0_11 _).mpr (by show (50 * h.val + 49) % 50 = 49; omega)
  refine ((dat0 (V1 m) c).arrAt_apply_of_mem 11 (acc0 m c) (flushed_acc0 m c) cfg0.N ⟨50 * h.val + 49, ht⟩
    (ix3 h f col) ht hf ?_).trans rfl
  obtain ⟨e0, e1, e2⟩ := idx0_11 ⟨50 * h.val + 49, ht⟩
  rw [mem_blk11]
  intro a
  match a with
  | ⟨0, _⟩ =>
    show win0_11.index ⟨50 * h.val + 49, ht⟩ (0 : Fin 3) * 1 ≤ h.val ∧ h.val < win0_11.index ⟨50 * h.val + 49, ht⟩ (0 : Fin 3) * 1 + 1
    rw [e0]; show (50 * h.val + 49) / 50 * 1 ≤ h.val ∧ h.val < (50 * h.val + 49) / 50 * 1 + 1; omega
  | ⟨1, _⟩ =>
    show win0_11.index ⟨50 * h.val + 49, ht⟩ (1 : Fin 3) * 2048 ≤ f.val ∧ f.val < win0_11.index ⟨50 * h.val + 49, ht⟩ (1 : Fin 3) * 2048 + 2048
    rw [e1]; omega
  | ⟨2, _⟩ =>
    show win0_11.index ⟨50 * h.val + 49, ht⟩ (2 : Fin 3) * 384 ≤ col.val ∧ col.val < win0_11.index ⟨50 * h.val + 49, ht⟩ (2 : Fin 3) * 384 + 384
    rw [e2]; omega

/-- The two core halves of the first launch's result array, each taken as a table, added. -/
def halves (x : Vec Ideal S2x2048x384 .f32) : Vec Ideal S2048x384 .f32 :=
  addf (F := Ideal) (s := S2048x384) (φ := .f32)
    (shapeCast S2048x384 (extractStridedSlice S1x2048x384 ![0, 0, 0] x slices_S2x2048x384_S1x2048x384_0_0_0) shapeCasts_S1x2048x384_S2048x384)
    (shapeCast S2048x384 (extractStridedSlice S1x2048x384 ![1, 0, 0] x slices_S2x2048x384_S1x2048x384_1_0_0) shapeCasts_S1x2048x384_S2048x384)

/-- The second host stretch slices the result array into its two halves, reshapes each to a table and adds them. -/
theorem V3_main_v18 (c : Dev nD) :
    (V3 m c main_v18 : Vec Ideal S2048x384 .f32) = halves (W2 m c (Proc.devRef .tc main_v13)) := by
  show StableHlo.after hostOps1 (W2 m c) (Proc.devRef .tc main_v18) = _
  after_results
  rfl

theorem half_apply (x : Vec Ideal S2x2048x384 .f32) (f : Fin 2048) (col : Fin 384) :
    shapeCast S2048x384 (extractStridedSlice S1x2048x384 ![0, 0, 0] x slices_S2x2048x384_S1x2048x384_0_0_0) shapeCasts_S1x2048x384_S2048x384 (ix2 f col)
      = x (ix3 (0 : Fin 2) f col) := by
  refine (shapeCast_apply _ shapeCasts_S1x2048x384_S2048x384 (ix2 f col) (ix3 (0 : Fin 1) f col)
    (by rewrite [Shape.rowMajor_val_three, Shape.rowMajor_val_two]
        show (0 * 2048 + f.val) * 384 + col.val = f.val * 384 + col.val; omega)).trans ?_
  refine extractStridedSlice_apply _ x _ _ (ix3 (0 : Fin 2) f col) fun a => ?_
  match a with
  | ⟨0, _⟩ => rfl
  | ⟨1, _⟩ => show f.val = 0 + f.val; omega
  | ⟨2, _⟩ => show col.val = 0 + col.val; omega

theorem half_apply' (x : Vec Ideal S2x2048x384 .f32) (f : Fin 2048) (col : Fin 384) :
    shapeCast S2048x384 (extractStridedSlice S1x2048x384 ![1, 0, 0] x slices_S2x2048x384_S1x2048x384_1_0_0) shapeCasts_S1x2048x384_S2048x384 (ix2 f col)
      = x (ix3 (1 : Fin 2) f col) := by
  refine (shapeCast_apply _ shapeCasts_S1x2048x384_S2048x384 (ix2 f col) (ix3 (0 : Fin 1) f col)
    (by rewrite [Shape.rowMajor_val_three, Shape.rowMajor_val_two]
        show (0 * 2048 + f.val) * 384 + col.val = f.val * 384 + col.val; omega)).trans ?_
  refine extractStridedSlice_apply _ x _ _ (ix3 (1 : Fin 2) f col) fun a => ?_
  match a with
  | ⟨0, _⟩ => rfl
  | ⟨1, _⟩ => show f.val = 0 + f.val; omega
  | ⟨2, _⟩ => show col.val = 0 + col.val; omega

/-- An entry of the sum of the halves is the sum of the two halves' entries. -/
theorem halves_apply (x : Vec Ideal S2x2048x384 .f32) (f : Fin 2048) (col : Fin 384) :
    halves x (ix2 f col) = x (ix3 (0 : Fin 2) f col) + x (ix3 (1 : Fin 2) f col) := by
  unfold halves
  rw [addf_apply, half_apply, half_apply']

/-- The table the second launch reads is, entry by entry, the sum of what the two core halves' last points left. -/
theorem comb_eq (c : Dev nD) (f : Fin 2048) (col : Fin 384) :
    (V3 m c main_v18 : Vec Ideal S2048x384 .f32) (ix2 f col)
      = outsAt0 (F := Ideal) (V1 m) c 49 (lt_N0 (by omega)) (ix3 (0 : Fin 1) f col)
        + outsAt0 (F := Ideal) (V1 m) c 99 (lt_N0 (by omega)) (ix3 (0 : Fin 1) f col) := by
  rw [V3_main_v18, halves_apply]
  have hW : W2 m c (Proc.devRef .tc main_v13) = (dat0 (V1 m) c).arrAt 11 cfg0.N := W2_arr m c 11
  rw [hW, arr11_apply m c 0 f col, arr11_apply m c 1 f col]
  rfl

end Cert.KernelIdeal.Hand

end
-- ==== Proof.KI.Spec.lean ====
/-
  The quantities the kernel and the reference are both compared with, on the extended reals.

  Atoms are numbered 0 … 99999, fragments 0 … 2047, channels 0 … 255.  An atom belongs to fragment `f` when its
  32-bit label is the word of `f`; a label that is the word of no fragment belongs to none, and such an atom
  contributes to no sum below (both programs drop it: the reference's scatter skips an index outside the table,
  the kernel's one-hot row is zero).

  `spread` is the reference's two-pass quantity for a feature table `x`: per fragment the mean of the squared
  distances of its atoms' rows to the fragment's mean row, its square root (after adding a small constant) averaged
  over the fragments with at least two atoms.  `spreadOfMoments` is the one-pass form the kernel uses: from the
  fragment's count, the sum of its rows and the sum of their squared norms, the mean squared norm minus the squared
  norm of the mean, clipped below at zero.  Over real-valued features the two agree (proved elsewhere).
-/
import Idealize.ShloMosaic.PureOps.Ideal
import Mathlib.Algebra.BigOperators.Group.Finset.Basic

noncomputable section

namespace Cert.Spec

open Idealize.ShloMosaic

/-- The words of the float constants both programs carry. -/
abbrev c0 : EReal := Ideal.ofBits .f32 0x00000000#32     -- 0
abbrev c1 : EReal := Ideal.ofBits .f32 0x3F800000#32     -- 1
abbrev c2 : EReal := Ideal.ofBits .f32 0x40000000#32     -- 2
abbrev cEps8 : EReal := Ideal.ofBits .f32 0x322BCC77#32  -- the small constant under the square roots
abbrev cEps12 : EReal := Ideal.ofBits .f32 0x2B8CBCCC#32 -- the floor of a norm
abbrev cHalf : EReal := Ideal.ofBits .f32 0x3F000000#32  -- 1/2
abbrev cDelta : EReal := Ideal.ofBits .f32 0x3DCCCCCD#32 -- the Huber threshold
abbrev cHalfDelta : EReal := Ideal.ofBits .f32 0x3D4CCCCD#32
abbrev cShift : EReal := Ideal.ofBits .f32 0x413504F3#32 -- the kernel's centring constant for the vector magnitude

/-- Atom `i` belongs to fragment `f`: 1 or 0. -/
def hot (ids : Fin 100000 → BitVec 32) (i : Fin 100000) (f : Fin 2048) : EReal :=
  if ids i = BitVec.ofNat 32 f.val then 1 else 0

/-- The sum of `a` over the atoms of fragment `f`. -/
def mom (ids : Fin 100000 → BitVec 32) (a : Fin 100000 → EReal) (f : Fin 2048) : EReal :=
  ∑ i, hot ids i f * a i

def cnt (ids : Fin 100000 → BitVec 32) (f : Fin 2048) : EReal := mom ids (fun _ => 1) f
def safe (ids : Fin 100000 → BitVec 32) (f : Fin 2048) : EReal := max (cnt ids f) c1
def segsum (ids : Fin 100000 → BitVec 32) (x : Fin 100000 → Fin 256 → EReal) (f : Fin 2048) (j : Fin 256) : EReal :=
  mom ids (fun i => x i j) f
/-- The fragment's mean row (the sum of its rows over max(count, 1)). -/
def mean (ids : Fin 100000 → BitVec 32) (x : Fin 100000 → Fin 256 → EReal) (f : Fin 2048) (j : Fin 256) : EReal :=
  Ideal.div (segsum ids x f j) (safe ids f)

/-- A fragment counts when it has at least two atoms. -/
def valid (ids : Fin 100000 → BitVec 32) (f : Fin 2048) : Prop := Ideal.cmp .oge (cnt ids f) c2 = 1#1
instance (ids : Fin 100000 → BitVec 32) (f : Fin 2048) : Decidable (valid ids f) := by unfold valid; infer_instance
def nvalid (ids : Fin 100000 → BitVec 32) : EReal := ∑ f : Fin 2048, if valid ids f then (1 : EReal) else 0

/-- The average over the counting fragments of `term`, zero when no fragment counts. -/
def avgValid (ids : Fin 100000 → BitVec 32) (term : Fin 2048 → EReal) : EReal :=
  if Ideal.cmp .ogt (nvalid ids) c0 = 1#1 then
    Ideal.div (∑ f : Fin 2048, if valid ids f then term f else c0) (max (nvalid ids) c1)
  else c0

/-- Two-pass: the mean squared distance to the fragment's mean row. -/
def var2 (ids : Fin 100000 → BitVec 32) (x : Fin 100000 → Fin 256 → EReal) (f : Fin 2048) : EReal :=
  Ideal.div (mom ids (fun i => ∑ j, (x i j - mean ids x f j) * (x i j - mean ids x f j)) f) (safe ids f)
def spread (ids : Fin 100000 → BitVec 32) (x : Fin 100000 → Fin 256 → EReal) : EReal :=
  avgValid ids fun f => Ideal.sqrt (var2 ids x f + cEps8)

/-- One-pass, from the fragment's moments: `q f` the sum of its rows' squared norms, `s f j` the sum of its rows. -/
def var1 (ids : Fin 100000 → BitVec 32) (s : Fin 2048 → Fin 256 → EReal) (q : Fin 2048 → EReal) (f : Fin 2048) : EReal :=
  Ideal.div (q f) (safe ids f) - ∑ j, Ideal.div (s f j) (safe ids f) * Ideal.div (s f j) (safe ids f)
def spreadOfMoments (ids : Fin 100000 → BitVec 32) (s : Fin 2048 → Fin 256 → EReal) (q : Fin 2048 → EReal) : EReal :=
  avgValid ids fun f => Ideal.sqrt (max (var1 ids s q f) c0 + cEps8)

/-- The kernel's one-pass form for the vector branch: from the sums of the centred magnitudes and of their squares,
    scaled by the squared norm `nw` of the column sums of the vector weight. -/
def varVec (ids : Fin 100000 → BitVec 32) (u1 u2 : Fin 2048 → EReal) (nw : EReal) (f : Fin 2048) : EReal :=
  (Ideal.div (u2 f) (safe ids f) - Ideal.div (u1 f) (safe ids f) * Ideal.div (u1 f) (safe ids f)) * nw
def spreadVec (ids : Fin 100000 → BitVec 32) (u1 u2 : Fin 2048 → EReal) (nw : EReal) : EReal :=
  avgValid ids fun f => Ideal.sqrt (max (varVec ids u1 u2 nw f) c0 + cEps8)

/-! ## The similarity loss of a table of normalised rows against a target -/

def huber (d : EReal) : EReal :=
  if Ideal.cmp .olt d cDelta = 1#1 then (cHalf * d) * d else cDelta * (d - cHalfDelta)
def simEntry (N : Fin 2048 → Fin 256 → EReal) (tg : EReal) (a b : Fin 2048) : EReal :=
  huber (max ((∑ j, N a j * N b j) - tg) (-((∑ j, N a j * N b j) - tg)))
/-- The sum of the loss over the pairs `a < b`. -/
def simSum (N : Fin 2048 → Fin 256 → EReal) (tg : EReal) : EReal :=
  ∑ a : Fin 2048, ∑ b : Fin 2048, if a.val < b.val then simEntry N tg a b else c0
/-- The number of pairs `a < b`, as the programs count it (a sum of ones). -/
def pairCount : EReal := ∑ a : Fin 2048, ∑ b : Fin 2048, if a.val < b.val then (1 : EReal) else 0

end Cert.Spec

end
-- ==== Proof.KI.K0Point.lean ====
/-
  One grid point of the fused launch read at an index, on the extended reals.

  The tile's 384 feature columns are: the 256 projected channels; the squared norm of the projection; a one; the
  mean vector magnitude of the row minus the centring constant; the square of that; 124 zeros.  The accumulator row
  of a fragment after the point is what it held before plus the sum, over the tile's rows whose label is the
  fragment's word, of the row's feature columns (the transposed one-hot matrix times the columns).
-/
import proofs.«412127_j15607911153865_3_alg».proof.Proof.KI.Terms
import proofs.«412127_j15607911153865_3_alg».proof.Proof.KI.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.KernelIdeal.Hand

open Idealize.ShloMosaic Idealize.ShloMosaic.TcCoe Idealize.ShloMosaic.ValueIdx
open Cert.KernelIdeal Cert.KernelIdeal.Gen
open Cert.Spec

/-! ## The three column concatenations read at an index -/

section Columns
variable {α : Type}

/-- The first 256 of the 384 columns are the first block's. -/
theorem cat384_lo (P : S1000x256.Idx → α) (T : S1000x128.Idx → α) (r : Fin 1000) (j : Fin 256) :
    concatenate S1000x384 1 [⟨S1000x256, P⟩, ⟨S1000x128, T⟩] concatenates_S1000x256_S1000x128_S1000x384_d1
      (ix2 r (Fin.castLE (by decide) j)) = P (ix2 r j) :=
  concatenate_pair_apply_left (t := S1000x384) 1 P T concatenates_S1000x256_S1000x128_S1000x384_d1
    (ix2 r (Fin.castLE (by decide) j)) rfl (ix2 r j) fun b => match b with | ⟨0, _⟩ => rfl | ⟨1, _⟩ => rfl

/-- Column 256 + c of the 384 is column c of the second block. -/
theorem cat384_hi (P : S1000x256.Idx → α) (T : S1000x128.Idx → α) (r : Fin 1000) (k : Fin 384) (c : Fin 128)
    (hc : c.val + 256 = k.val) :
    concatenate S1000x384 1 [⟨S1000x256, P⟩, ⟨S1000x128, T⟩] concatenates_S1000x256_S1000x128_S1000x384_d1
      (ix2 r k) = T (ix2 r c) :=
  concatenate_pair_apply_right (t := S1000x384) 1 P T concatenates_S1000x256_S1000x128_S1000x384_d1 (ix2 r k) rfl rfl
    (ix2 r c) (fun b hb => match b, hb with | ⟨0, _⟩, _ => rfl | ⟨1, _⟩, hb => absurd rfl hb) hc

/-- The first 4 of the 128 columns are the four-column block's. -/
theorem cat128_lo (Q : S1000x4.Idx → α) (Z : S1000x124.Idx → α) (r : Fin 1000) (k : Fin 128) (c : Fin 4)
    (hc : c.val = k.val) :
    concatenate S1000x128 1 [⟨S1000x4, Q⟩, ⟨S1000x124, Z⟩] concatenates_S1000x4_S1000x124_S1000x128_d1
      (ix2 r k) = Q (ix2 r c) :=
  concatenate_pair_apply_left (t := S1000x128) 1 Q Z concatenates_S1000x4_S1000x124_S1000x128_d1 (ix2 r k) rfl
    (ix2 r c) fun b => match b with | ⟨0, _⟩ => rfl | ⟨1, _⟩ => hc

/-- Column 4 + c of the 128 is column c of the padding. -/
theorem cat128_hi (Q : S1000x4.Idx → α) (Z : S1000x124.Idx → α) (r : Fin 1000) (k : Fin 128) (c : Fin 124)
    (hc : c.val + 4 = k.val) :
    concatenate S1000x128 1 [⟨S1000x4, Q⟩, ⟨S1000x124, Z⟩] concatenates_S1000x4_S1000x124_S1000x128_d1
      (ix2 r k) = Z (ix2 r c) :=
  concatenate_pair_apply_right (t := S1000x128) 1 Q Z concatenates_S1000x4_S1000x124_S1000x128_d1 (ix2 r k) rfl rfl
    (ix2 r c) (fun b hb => match b, hb with | ⟨0, _⟩, _ => rfl | ⟨1, _⟩, hb => absurd rfl hb) hc

/-- Column n of the four-column block is the n-th single column (n = 0, 1, 2, 3 below). -/
theorem cat4_0 (a0 a1 a2 a3 : S1000x1.Idx → α) (r : Fin 1000) (k : Fin 4) (hk : k.val = 0) :
    concatenate S1000x4 1 [⟨S1000x1, a0⟩, ⟨S1000x1, a1⟩, ⟨S1000x1, a2⟩, ⟨S1000x1, a3⟩]
      concatenates_S1000x1_S1000x1_S1000x1_S1000x1_S1000x4_d1 (ix2 r k) = a0 (ix2 r (0 : Fin 1)) :=
  concatenate_apply_piece (t := S1000x4) 1 [⟨S1000x1, a0⟩, ⟨S1000x1, a1⟩, ⟨S1000x1, a2⟩, ⟨S1000x1, a3⟩]
    concatenates_S1000x1_S1000x1_S1000x1_S1000x1_S1000x4_d1 (ix2 r k) 0
    (by show 0 < 4; omega) S1000x1 a0 rfl rfl 0 rfl (ix2 r (0 : Fin 1))
    (fun b hb => match b, hb with | ⟨0, _⟩, _ => rfl | ⟨1, _⟩, hb => absurd rfl hb) (by show 0 + 0 = k.val; omega)

theorem cat4_1 (a0 a1 a2 a3 : S1000x1.Idx → α) (r : Fin 1000) (k : Fin 4) (hk : k.val = 1) :
    concatenate S1000x4 1 [⟨S1000x1, a0⟩, ⟨S1000x1, a1⟩, ⟨S1000x1, a2⟩, ⟨S1000x1, a3⟩]
      concatenates_S1000x1_S1000x1_S1000x1_S1000x1_S1000x4_d1 (ix2 r k) = a1 (ix2 r (0 : Fin 1)) :=
  concatenate_apply_piece (t := S1000x4) 1 [⟨S1000x1, a0⟩, ⟨S1000x1, a1⟩, ⟨S1000x1, a2⟩, ⟨S1000x1, a3⟩]
    concatenates_S1000x1_S1000x1_S1000x1_S1000x1_S1000x4_d1 (ix2 r k) 1
    (by show 1 < 4; omega) S1000x1 a1 rfl rfl 1 rfl (ix2 r (0 : Fin 1))
    (fun b hb => match b, hb with | ⟨0, _⟩, _ => rfl | ⟨1, _⟩, hb => absurd rfl hb) (by show 1 + 0 = k.val; omega)

theorem cat4_2 (a0 a1 a2 a3 : S1000x1.Idx → α) (r : Fin 1000) (k : Fin 4) (hk : k.val = 2) :
    concatenate S1000x4 1 [⟨S1000x1, a0⟩, ⟨S1000x1, a1⟩, ⟨S1000x1, a2⟩, ⟨S1000x1, a3⟩]
      concatenates_S1000x1_S1000x1_S1000x1_S1000x1_S1000x4_d1 (ix2 r k) = a2 (ix2 r (0 : Fin 1)) :=
  concatenate_apply_piece (t := S1000x4) 1 [⟨S1000x1, a0⟩, ⟨S1000x1, a1⟩, ⟨S1000x1, a2⟩, ⟨S1000x1, a3⟩]
    concatenates_S1000x1_S1000x1_S1000x1_S1000x1_S1000x4_d1 (ix2 r k) 2
    (by show 2 < 4; omega) S1000x1 a2 rfl rfl 2 rfl (ix2 r (0 : Fin 1))
    (fun b hb => match b, hb with | ⟨0, _⟩, _ => rfl | ⟨1, _⟩, hb => absurd rfl hb) (by show 2 + 0 = k.val; omega)

theorem cat4_3 (a0 a1 a2 a3 : S1000x1.Idx → α) (r : Fin 1000) (k : Fin 4) (hk : k.val = 3) :
    concatenate S1000x4 1 [⟨S1000x1, a0⟩, ⟨S1000x1, a1⟩, ⟨S1000x1, a2⟩, ⟨S1000x1, a3⟩]
      concatenates_S1000x1_S1000x1_S1000x1_S1000x1_S1000x4_d1 (ix2 r k) = a3 (ix2 r (0 : Fin 1)) :=
  concatenate_apply_piece (t := S1000x4) 1 [⟨S1000x1, a0⟩, ⟨S1000x1, a1⟩, ⟨S1000x1, a2⟩, ⟨S1000x1, a3⟩]
    concatenates_S1000x1_S1000x1_S1000x1_S1000x1_S1000x4_d1 (ix2 r k) 3
    (by show 3 < 4; omega) S1000x1 a3 rfl rfl 3 rfl (ix2 r (0 : Fin 1))
    (fun b hb => match b, hb with | ⟨0, _⟩, _ => rfl | ⟨1, _⟩, hb => absurd rfl hb) (by show 3 + 0 = k.val; omega)

end Columns

/-! ## A row's lane sum, the three thirds of a vector tile, and the constants' values -/

/-- The keep-dims lane sum of a [1000, 256] table at row r is the sum of the row. -/
theorem rowSum_apply (v : FVec Ideal S1000x256 .f32) (r : Fin 1000) (u : Fin 1) :
    shapeCast S1000x1 (multiReduction (F := Ideal) .add [1] S1000 v 0x00000000#32 reduces_S1000x256_S1000 (.inl rfl) rfl)
      shapeCasts_S1000_S1000x1 (ix2 r u) = ∑ j : Fin 256, v (ix2 r j) := by
  refine (shapeCast_apply _ shapeCasts_S1000_S1000x1 (ix2 r u) (ix1 r) ?_).trans ?_
  · rw [Shape.rowMajor_val_one, Shape.rowMajor_val_two]
    show r.val = r.val * 1 + u.val
    omega
  · refine (Ideal.multiReduction_add_single v 0x00000000#32 reduces_S1000x256_S1000 (.inl rfl) rfl (ix1 r)).trans ?_
    exact Finset.sum_congr rfl fun k _ => congrArg v (funext fun a => match a with | ⟨0, _⟩ => rfl | ⟨1, _⟩ => rfl)

/-- The word of one is one. -/
theorem c1_eq_one : Ideal.ofBits .f32 0x3F800000#32 = 1 := Ideal.ofBits_one_f32

/-- The integer zero converted is zero. -/
theorem sitofp_zero : Scalar.sitofp (F := Ideal) .f32 (0#32) = (0 : EReal) := by
  show (((0#32 : BitVec 32).toInt : ℝ) : EReal) = 0
  have h : (0#32 : BitVec 32).toInt = 0 := by decide
  rw [h, Int.cast_zero, EReal.coe_zero]

/-- Adding to the word of zero changes nothing. -/
theorem zero_word_add (x : EReal) : Ideal.ofBits .f32 0x00000000#32 + x = x := by rw [Ideal.ofBits_zero_f32, zero_add]

/-- A norm added to a start value: the keep-dims lane sum of the squares under the root, read at a row. -/
theorem norm_apply (a : FVec Ideal S1000x256 .f32) (z : EReal) (r : Fin 1000) (u : Fin 1) :
    addf (F := Ideal) (broadcast S1000x1 z) (sqrt (shapeCast S1000x1
        (multiReduction (F := Ideal) .add [1] S1000 a 0x00000000#32 reduces_S1000x256_S1000 (.inl rfl) rfl) shapeCasts_S1000_S1000x1)) (ix2 r u)
      = z + Ideal.sqrt (∑ j : Fin 256, a (ix2 r j)) := by
  show z + Ideal.sqrt (shapeCast S1000x1 (multiReduction (F := Ideal) .add [1] S1000 a 0x00000000#32 reduces_S1000x256_S1000 (.inl rfl) rfl)
      shapeCasts_S1000_S1000x1 (ix2 r u)) = _
  rw [rowSum_apply a r u]

/-- The column of centred mean magnitudes read at a row: the first norm `s0`, then the norms of the tables of squares
    `a` and `b`, summed, times `n`, minus `c`. -/
theorem vmcol_apply (s0 : FVec Ideal S1000x1 .f32) (a b : FVec Ideal S1000x256 .f32) (n c : EReal) (r : Fin 1000) (u : Fin 1) :
    subf (F := Ideal) (mulf (addf (addf s0 (sqrt (shapeCast S1000x1
        (multiReduction (F := Ideal) .add [1] S1000 a 0x00000000#32 reduces_S1000x256_S1000 (.inl rfl) rfl) shapeCasts_S1000_S1000x1)))
        (sqrt (shapeCast S1000x1
        (multiReduction (F := Ideal) .add [1] S1000 b 0x00000000#32 reduces_S1000x256_S1000 (.inl rfl) rfl) shapeCasts_S1000_S1000x1)))
        (broadcast S1000x1 n)) (broadcast S1000x1 c) (ix2 r u)
      = (s0 (ix2 r u) + Ideal.sqrt (∑ j : Fin 256, a (ix2 r j)) + Ideal.sqrt (∑ j : Fin 256, b (ix2 r j))) * n - c := by
  show (s0 (ix2 r u)
      + Ideal.sqrt (shapeCast S1000x1 (multiReduction (F := Ideal) .add [1] S1000 a 0x00000000#32 reduces_S1000x256_S1000 (.inl rfl) rfl)
          shapeCasts_S1000_S1000x1 (ix2 r u))
      + Ideal.sqrt (shapeCast S1000x1 (multiReduction (F := Ideal) .add [1] S1000 b 0x00000000#32 reduces_S1000x256_S1000 (.inl rfl) rfl)
          shapeCasts_S1000_S1000x1 (ix2 r u))) * n - c = _
  rw [rowSum_apply a r u, rowSum_apply b r u]

/-- Column 256 k + j of a vector tile, through the k-th third's rectangle. -/
theorem ld_rV0 (x : Vec Ideal S1000x768 .f32) (r : Fin 1000) (j : Fin 256) :
    View.ld x rV0 (ix2 r j) = x (ix2 r ⟨256 * 0 + j.val, by omega⟩) :=
  congrArg x (funext fun a => Fin.ext (match a with
    | ⟨0, _⟩ => by show 0 + 1 * r.val = r.val; omega
    | ⟨1, _⟩ => by show 0 + 1 * j.val = 256 * 0 + j.val; omega))
theorem ld_rV1 (x : Vec Ideal S1000x768 .f32) (r : Fin 1000) (j : Fin 256) :
    View.ld x rV1 (ix2 r j) = x (ix2 r ⟨256 * 1 + j.val, by omega⟩) :=
  congrArg x (funext fun a => Fin.ext (match a with
    | ⟨0, _⟩ => by show 0 + 1 * r.val = r.val; omega
    | ⟨1, _⟩ => by show 256 + 1 * j.val = 256 * 1 + j.val; omega))
theorem ld_rV2 (x : Vec Ideal S1000x768 .f32) (r : Fin 1000) (j : Fin 256) :
    View.ld x rV2 (ix2 r j) = x (ix2 r ⟨256 * 2 + j.val, by omega⟩) :=
  congrArg x (funext fun a => Fin.ext (match a with
    | ⟨0, _⟩ => by show 0 + 1 * r.val = r.val; omega
    | ⟨1, _⟩ => by show 512 + 1 * j.val = 256 * 2 + j.val; omega))

/-! ## The payloads at an index -/

section Pay
variable (A B : Vec Ideal S1000x256 .f32)

private theorem pay5_apply (r : Fin 1000) (u : Fin 1) :
    k0_pay5 (F := Ideal) A B (ix2 r u)
      = Ideal.sqrt (∑ j : Fin 256, (A (ix2 r j) * cHalf + B (ix2 r j) * cHalf) * (A (ix2 r j) * cHalf + B (ix2 r j) * cHalf)) := by
  unfold k0_pay5
  simp only [shapeCast_self]
  refine (norm_apply _ _ r u).trans ?_
  refine (zero_word_add _).trans ?_
  rfl

private theorem pay6_eq : k0_pay6 (F := Ideal) A = A := by
  unfold k0_pay6
  exact shapeCast_self _ _

private theorem pay7_apply (r : Fin 1000) (j : Fin 256) : k0_pay7 (F := Ideal) A (ix2 r j) = A (ix2 r j) * cHalf := by
  unfold k0_pay7
  simp only [shapeCast_self]
  rfl

private theorem pay8_apply (r : Fin 1000) (j : Fin 256) : k0_pay8 (F := Ideal) (ix2 r j) = cHalf := rfl

end Pay

section Pay10
variable (v53 : FVec Ideal S1000x256 .f32) (v68 : FVec Ideal S1000x1 .f32) (v72 v74 v75 : FVec Ideal S1000x256 .f32)
  (v83 v85 : Vec Ideal S1000x256 .f32)

theorem pay10_lo (r : Fin 1000) (j : Fin 256) :
    k0_pay10 (F := Ideal) v53 v68 v72 v74 v75 v83 v85 (ix2 r (Fin.castLE (by decide) j)) = v53 (ix2 r j) := by
  unfold k0_pay10
  exact cat384_lo _ _ r j

theorem pay10_sq (r : Fin 1000) :
    k0_pay10 (F := Ideal) v53 v68 v72 v74 v75 v83 v85 (ix2 r (256 : Fin 384)) = ∑ j : Fin 256, v53 (ix2 r j) * v53 (ix2 r j) := by
  unfold k0_pay10
  refine (truncf_apply (φ := .f32) (ψ := .bf16) _ bitsLt_bf16_f32 _).trans ?_
  refine (cat384_hi _ _ r 256 0 rfl).trans ?_
  refine (cat128_lo _ _ r 0 0 rfl).trans ?_
  refine (cat4_0 _ _ _ _ r 0 rfl).trans ?_
  exact rowSum_apply (mulf v53 v53) r 0

theorem pay10_one (r : Fin 1000) :
    k0_pay10 (F := Ideal) v53 v68 v72 v74 v75 v83 v85 (ix2 r (257 : Fin 384)) = 1 := by
  unfold k0_pay10
  refine (truncf_apply (φ := .f32) (ψ := .bf16) _ bitsLt_bf16_f32 _).trans ?_
  refine (cat384_hi _ _ r 257 1 rfl).trans ?_
  refine (cat128_lo _ _ r 1 1 rfl).trans ?_
  refine (cat4_1 _ _ _ _ r 1 rfl).trans ?_
  exact c1_eq_one

/-- Column 258: the three norms (the first one `n0` arrives computed; the squared lengths `s1`, `s2` of the other two
    components are summed here), times the named third, minus the centring constant. -/
theorem pay10_vm (r : Fin 1000) (n0 s1 s2 : EReal) (h0 : v68 (ix2 r (0 : Fin 1)) = n0)
    (h1 : ∑ j : Fin 256, (v74 (ix2 r j) + v72 (ix2 r j) * v75 (ix2 r j)) * (v74 (ix2 r j) + v72 (ix2 r j) * v75 (ix2 r j)) = s1)
    (h2 : ∑ j : Fin 256, (v83 (ix2 r j) * cHalf + v85 (ix2 r j) * cHalf) * (v83 (ix2 r j) * cHalf + v85 (ix2 r j) * cHalf) = s2) :
    k0_pay10 (F := Ideal) v53 v68 v72 v74 v75 v83 v85 (ix2 r (258 : Fin 384))
      = (n0 + Ideal.sqrt s1 + Ideal.sqrt s2) * Named.named (F := Ideal) Cert.KernelIdeal.κ "inv_3" (φ := .f32) 0x3EAAAAAB#32 - cShift := by
  subst h0 h1 h2
  unfold k0_pay10
  refine (truncf_apply (φ := .f32) (ψ := .bf16) _ bitsLt_bf16_f32 _).trans ?_
  refine (cat384_hi _ _ r 258 2 rfl).trans ?_
  refine (cat128_lo _ _ r 2 2 rfl).trans ?_
  refine (cat4_2 _ _ _ _ r 2 rfl).trans ?_
  refine (vmcol_apply _ _ _ _ _ r 0).trans ?_
  rw [shapeCast_self v83, shapeCast_self v85]
  rfl

/-- Column 259: the square of column 258. -/
theorem pay10_vm2 (r : Fin 1000) (n0 s1 s2 : EReal) (h0 : v68 (ix2 r (0 : Fin 1)) = n0)
    (h1 : ∑ j : Fin 256, (v74 (ix2 r j) + v72 (ix2 r j) * v75 (ix2 r j)) * (v74 (ix2 r j) + v72 (ix2 r j) * v75 (ix2 r j)) = s1)
    (h2 : ∑ j : Fin 256, (v83 (ix2 r j) * cHalf + v85 (ix2 r j) * cHalf) * (v83 (ix2 r j) * cHalf + v85 (ix2 r j) * cHalf) = s2) :
    k0_pay10 (F := Ideal) v53 v68 v72 v74 v75 v83 v85 (ix2 r (259 : Fin 384))
      = ((n0 + Ideal.sqrt s1 + Ideal.sqrt s2) * Named.named (F := Ideal) Cert.KernelIdeal.κ "inv_3" (φ := .f32) 0x3EAAAAAB#32 - cShift)
        * ((n0 + Ideal.sqrt s1 + Ideal.sqrt s2) * Named.named (F := Ideal) Cert.KernelIdeal.κ "inv_3" (φ := .f32) 0x3EAAAAAB#32 - cShift) := by
  subst h0 h1 h2
  unfold k0_pay10
  refine (truncf_apply (φ := .f32) (ψ := .bf16) _ bitsLt_bf16_f32 _).trans ?_
  refine (cat384_hi _ _ r 259 3 rfl).trans ?_
  refine (cat128_lo _ _ r 3 3 rfl).trans ?_
  refine (cat4_3 _ _ _ _ r 3 rfl).trans ?_
  refine (mulf_apply _ _ (ix2 r (0 : Fin 1))).trans ?_
  refine congrArg₂ (fun a b : EReal => a * b) ?_ ?_
  · refine (vmcol_apply _ _ _ _ _ r 0).trans ?_
    rw [shapeCast_self v83, shapeCast_self v85]
    rfl
  · refine (vmcol_apply _ _ _ _ _ r 0).trans ?_
    rw [shapeCast_self v83, shapeCast_self v85]
    rfl

/-- Columns 260 and up: the converted integer zero. -/
theorem pay10_pad (r : Fin 1000) (k : Fin 384) (hk : 260 ≤ k.val) :
    k0_pay10 (F := Ideal) v53 v68 v72 v74 v75 v83 v85 (ix2 r k) = 0 := by
  unfold k0_pay10
  refine (truncf_apply (φ := .f32) (ψ := .bf16) _ bitsLt_bf16_f32 _).trans ?_
  refine (cat384_hi _ _ r k ⟨k.val - 256, by omega⟩ (by show k.val - 256 + 256 = k.val; omega)).trans ?_
  refine (cat128_hi _ _ r ⟨k.val - 256, by omega⟩ ⟨k.val - 260, by omega⟩ (by show k.val - 260 + 4 = k.val - 256; omega)).trans ?_
  exact sitofp_zero

end Pay10

/-! ## The one-hot matrix -/

/-- Entry (r, f) of the one-hot matrix: one when row r's label is the word of f, else zero. -/
theorem pay9_apply (x4 : Vec Ideal S1000x1 .i32) (r : Fin 1000) (f : Fin 2048) :
    k0_pay9 (F := Ideal) x4 (ix2 r f)
      = if (x4 (ix2 r (0 : Fin 1)) : BitVec 32) = BitVec.ofNat 32 f.val then (1 : EReal) else 0 := by
  unfold k0_pay9
  simp only [shapeCast_self]
  have hb : broadcastTo S1000x2048 x4 broadcasts_S1000x1_S1000x2048 (ix2 r f) = x4 (ix2 r (0 : Fin 1)) :=
    broadcastTo_apply x4 broadcasts_S1000x1_S1000x2048 (ix2 r f) (ix2 r (0 : Fin 1)) fun a => match a with
      | ⟨0, _⟩ => by show r.val = if (1000 : Nat) = 1 then 0 else r.val; rw [if_neg (by decide)]
      | ⟨1, _⟩ => by show (0 : Nat) = if (1 : Nat) = 1 then 0 else f.val; rw [if_pos rfl]
  have hi : iota .tc S1000x2048 32 [1] iota_S1000x2048_d1_w32 (ix2 r f) = BitVec.ofNat 32 f.val :=
    iota_single_apply .tc S1000x2048 32 1 iota_S1000x2048_d1_w32 (ix2 r f)
  show ((((IntOp.cmpi .eq (broadcastTo S1000x2048 x4 broadcasts_S1000x1_S1000x2048 (ix2 r f))
    (iota .tc S1000x2048 32 [1] iota_S1000x2048_d1_w32 (ix2 r f))).setWidth 32).toInt : ℝ) : EReal) = _
  rw [hb, hi]
  have t1 : ((1#1 : BitVec 1).setWidth 32).toInt = 1 := by decide
  have t0 : ((0#1 : BitVec 1).setWidth 32).toInt = 0 := by decide
  by_cases h : (x4 (ix2 r (0 : Fin 1)) : BitVec 32) = BitVec.ofNat 32 f.val
  · have hc : IntOp.cmpi .eq (x4 (ix2 r (0 : Fin 1)) : BitVec 32) (BitVec.ofNat 32 f.val) = 1#1 := by
      simp [IntOp.cmpi, h]
    rw [if_pos h, hc, t1]
    norm_num
  · have hne : ((x4 (ix2 r (0 : Fin 1)) : BitVec 32) == BitVec.ofNat 32 f.val) = false := beq_eq_false_iff_ne.mpr h
    have hc : IntOp.cmpi .eq (x4 (ix2 r (0 : Fin 1)) : BitVec 32) (BitVec.ofNat 32 f.val) = 0#1 := by
      show BitVec.ofBool ((x4 (ix2 r (0 : Fin 1)) : BitVec 32) == BitVec.ofNat 32 f.val) = 0#1
      rw [hne]
      rfl
    rw [if_neg h, hc, t0]
    norm_num

/-! ## The contraction over the tile's rows -/

theorem dot0_lhs_0 (i : S2048x384.Idx) (q : dot_S1000x2048_S1000x384_S2048x384_0_0_1_1_n_n.contr.Idx) :
    (dot_S1000x2048_S1000x384_S2048x384_0_0_1_1_n_n.lhsIdx i q 0).val = (q ⟨0, by decide⟩).val :=
  dot_S1000x2048_S1000x384_S2048x384_0_0_1_1_n_n.lhsIdx_val_of_single rfl i q
theorem dot0_lhs_1 (i : S2048x384.Idx) (q : dot_S1000x2048_S1000x384_S2048x384_0_0_1_1_n_n.contr.Idx) :
    (dot_S1000x2048_S1000x384_S2048x384_0_0_1_1_n_n.lhsIdx i q 1).val = (i 0).val := by
  unfold DotDims.lhsIdx
  rw [dif_neg (show ¬(1 : Fin S1000x2048.rank) ∈ dot_S1000x2048_S1000x384_S2048x384_0_0_1_1_n_n.lhsBatch by decide), dif_pos (show (1 : Fin S1000x2048.rank) ∈ dot_S1000x2048_S1000x384_S2048x384_0_0_1_1_n_n.lhsNonContracting by decide)]
  rfl
theorem dot0_rhs_0 (i : S2048x384.Idx) (q : dot_S1000x2048_S1000x384_S2048x384_0_0_1_1_n_n.contr.Idx) :
    (dot_S1000x2048_S1000x384_S2048x384_0_0_1_1_n_n.rhsIdx i q 0).val = (q ⟨0, by decide⟩).val :=
  dot_S1000x2048_S1000x384_S2048x384_0_0_1_1_n_n.rhsIdx_val_of_single rfl i q
theorem dot0_rhs_1 (i : S2048x384.Idx) (q : dot_S1000x2048_S1000x384_S2048x384_0_0_1_1_n_n.contr.Idx) :
    (dot_S1000x2048_S1000x384_S2048x384_0_0_1_1_n_n.rhsIdx i q 1).val = (i 1).val := by
  unfold DotDims.rhsIdx
  rw [dif_neg (show ¬(1 : Fin S1000x384.rank) ∈ dot_S1000x2048_S1000x384_S2048x384_0_0_1_1_n_n.rhsBatch by decide), dif_pos (show (1 : Fin S1000x384.rank) ∈ dot_S1000x2048_S1000x384_S2048x384_0_0_1_1_n_n.rhsNonContracting by decide)]
  rfl

/-- The product contracting the row axis of both operands, onto zeros, at (f, col): the sum over the rows. -/
theorem matmul0_apply (lhs : FVec Ideal S1000x2048 .bf16) (rhs : FVec Ideal S1000x384 .bf16) (f : Fin 2048) (col : Fin 384) :
    matmul dot_S1000x2048_S1000x384_S2048x384_0_0_1_1_n_n none lhs rhs (constant (F := Ideal) S2048x384 .f32 0x00000000#32) (ix2 f col)
      = ∑ r : Fin 1000, lhs (ix2 r f) * rhs (ix2 r col) := by
  simp only [matmul]
  rw [Ideal.matmul_constant_zero_apply, ← Equiv.sum_comp (contrEquiv1 dot_S1000x2048_S1000x384_S2048x384_0_0_1_1_n_n 1000 rfl rfl).symm]
  refine Finset.sum_congr rfl fun k _ => ?_
  have hk := contrEquiv1_symm_val dot_S1000x2048_S1000x384_S2048x384_0_0_1_1_n_n 1000 rfl rfl k
  have el : dot_S1000x2048_S1000x384_S2048x384_0_0_1_1_n_n.lhsIdx (ix2 f col) ((contrEquiv1 dot_S1000x2048_S1000x384_S2048x384_0_0_1_1_n_n 1000 rfl rfl).symm k) = ix2 k f := funext fun a => Fin.ext (by
    match a with
    | ⟨0, _⟩ => exact (dot0_lhs_0 _ _).trans hk
    | ⟨1, _⟩ => exact dot0_lhs_1 _ _)
  have er : dot_S1000x2048_S1000x384_S2048x384_0_0_1_1_n_n.rhsIdx (ix2 f col) ((contrEquiv1 dot_S1000x2048_S1000x384_S2048x384_0_0_1_1_n_n 1000 rfl rfl).symm k) = ix2 k col := funext fun a => Fin.ext (by
    match a with
    | ⟨0, _⟩ => exact (dot0_rhs_0 _ _).trans hk
    | ⟨1, _⟩ => exact dot0_rhs_1 _ _)
  rw [el, er]

/-- The accumulator payload at (0, f, col): what was there plus the product's entry. -/
private theorem pay1_apply (v118 : FVec Ideal S1000x2048 .bf16) (v119 : FVec Ideal S1000x384 .bf16) (prev : Vec Ideal S1x2048x384 .f32)
    (f : Fin 2048) (col : Fin 384) :
    k0_pay1 (F := Ideal) v118 v119 (constant (F := Ideal) S2048x384 .f32 0x00000000#32) prev (ix3 (0 : Fin 1) f col)
      = prev (ix3 (0 : Fin 1) f col) + ∑ r : Fin 1000, v118 (ix2 r f) * v119 (ix2 r col) := by
  unfold k0_pay1
  refine (shapeCast_ab_1ab_apply _ shapeCasts_S2048x384_S1x2048x384 0 f col).trans ?_
  refine Eq.trans (b := shapeCast S2048x384 prev shapeCasts_S1x2048x384_S2048x384 (ix2 f col)
    + matmul dot_S1000x2048_S1000x384_S2048x384_0_0_1_1_n_n none v118 v119 (constant (F := Ideal) S2048x384 .f32 0x00000000#32) (ix2 f col)) rfl ?_
  rw [shapeCast_1ab_ab_apply prev shapeCasts_S1x2048x384_S2048x384 f col, matmul0_apply]

/-! ## The mean vector magnitude and the statements -/

/-- The squared length over the 256 lanes of component k of ½·x2 + ½·x3 in row r. -/
def vsq0 (x2 x3 : Vec Ideal S1000x768 .f32) (r : Fin 1000) (k : Fin 3) : EReal :=
  ∑ j : Fin 256,
    ((x2 (ix2 r ⟨256 * k.val + j.val, by omega⟩) : EReal) * cHalf + (x3 (ix2 r ⟨256 * k.val + j.val, by omega⟩) : EReal) * cHalf)
      * ((x2 (ix2 r ⟨256 * k.val + j.val, by omega⟩) : EReal) * cHalf + (x3 (ix2 r ⟨256 * k.val + j.val, by omega⟩) : EReal) * cHalf)

/-- The kernel's mean vector magnitude of tile row r (before centring): the three components' norms of ½·x2 + ½·x3,
    summed, times the named third. (The zero the payload's sum starts from is dropped.) -/
def vmag0 (x2 x3 : Vec Ideal S1000x768 .f32) (r : Fin 1000) : EReal :=
  (Ideal.sqrt (vsq0 x2 x3 r 0) + Ideal.sqrt (vsq0 x2 x3 r 1) + Ideal.sqrt (vsq0 x2 x3 r 2))
    * Named.named (F := Ideal) Cert.KernelIdeal.κ "inv_3" (φ := .f32) 0x3EAAAAAB#32

section Point
variable (x0 x1 : Vec Ideal S1000x256 .f32) (x2 x3 : Vec Ideal S1000x768 .f32) (x4 : Vec Ideal S1000x1 .i32)
  (w1 : Vec Ideal S256x256 .bf16) (b1 g be : Vec Ideal S1x256 .f32) (w2 : Vec Ideal S256x256 .bf16) (b2 : Vec Ideal S1x256 .f32)

/-- The first norm as the payload computes it (zero plus the root), on the first third of the two tiles. -/
theorem norm0_rhs0 (r : Fin 1000) :
    k0_pay5 (F := Ideal) (View.ld x2 rV0) (View.ld x3 rV0) (ix2 r (0 : Fin 1)) = Ideal.sqrt (vsq0 x2 x3 r 0) := by
  refine (pay5_apply _ _ r 0).trans (congrArg Ideal.sqrt ?_)
  unfold vsq0
  exact Finset.sum_congr rfl fun j _ =>
    congrArg₂ (fun a b : EReal => (a * cHalf + b * cHalf) * (a * cHalf + b * cHalf)) (ld_rV0 x2 r j) (ld_rV0 x3 r j)

/-- The second component's squared length, from the half-scaled second thirds. -/
theorem sq1_rhs0 (r : Fin 1000) :
    ∑ j : Fin 256, (k0_pay7 (F := Ideal) (View.ld x2 rV1) (ix2 r j)
          + k0_pay6 (F := Ideal) (View.ld x3 rV1) (ix2 r j) * k0_pay8 (F := Ideal) (ix2 r j))
        * (k0_pay7 (F := Ideal) (View.ld x2 rV1) (ix2 r j)
          + k0_pay6 (F := Ideal) (View.ld x3 rV1) (ix2 r j) * k0_pay8 (F := Ideal) (ix2 r j))
      = vsq0 x2 x3 r 1 := by
  unfold vsq0
  refine Finset.sum_congr rfl fun j _ => ?_
  have e2 : k0_pay7 (F := Ideal) (View.ld x2 rV1) (ix2 r j) = x2 (ix2 r ⟨256 * 1 + j.val, by omega⟩) * cHalf :=
    (pay7_apply _ r j).trans (congrArg (fun a : EReal => a * cHalf) (ld_rV1 x2 r j))
  have e3 : k0_pay6 (F := Ideal) (View.ld x3 rV1) (ix2 r j) * k0_pay8 (F := Ideal) (ix2 r j)
      = x3 (ix2 r ⟨256 * 1 + j.val, by omega⟩) * cHalf :=
    (congrArg (fun A : FVec Ideal S1000x256 .f32 => A (ix2 r j) * cHalf) (pay6_eq (View.ld x3 rV1))).trans
      (congrArg (fun a : EReal => a * cHalf) (ld_rV1 x3 r j))
  exact congrArg₂ (fun a b : EReal => (a + b) * (a + b)) e2 e3

/-- The third component's squared length, from the third thirds. -/
theorem sq2_rhs0 (r : Fin 1000) :
    ∑ j : Fin 256, (View.ld x2 rV2 (ix2 r j) * cHalf + View.ld x3 rV2 (ix2 r j) * cHalf)
        * (View.ld x2 rV2 (ix2 r j) * cHalf + View.ld x3 rV2 (ix2 r j) * cHalf)
      = vsq0 x2 x3 r 2 := by
  unfold vsq0
  exact Finset.sum_congr rfl fun j _ =>
    congrArg₂ (fun a b : EReal => (a * cHalf + b * cHalf) * (a * cHalf + b * cHalf)) (ld_rV2 x2 r j) (ld_rV2 x3 r j)

theorem rhs0_proj (r : Fin 1000) (j : Fin 256) :
    rhs0 (F := Ideal) x0 x1 x2 x3 w1 b1 g be w2 b2 (ix2 r (Fin.castLE (by decide) j))
      = proj0 (F := Ideal) x0 x1 w1 b1 g be w2 b2 (ix2 r j) := by
  unfold rhs0
  exact pay10_lo _ _ _ _ _ _ _ r j

theorem rhs0_sq (r : Fin 1000) :
    rhs0 (F := Ideal) x0 x1 x2 x3 w1 b1 g be w2 b2 (ix2 r (256 : Fin 384))
      = ∑ j : Fin 256, proj0 (F := Ideal) x0 x1 w1 b1 g be w2 b2 (ix2 r j) * proj0 (F := Ideal) x0 x1 w1 b1 g be w2 b2 (ix2 r j) := by
  unfold rhs0
  exact pay10_sq _ _ _ _ _ _ _ r

theorem rhs0_one (r : Fin 1000) : rhs0 (F := Ideal) x0 x1 x2 x3 w1 b1 g be w2 b2 (ix2 r (257 : Fin 384)) = 1 := by
  unfold rhs0
  exact pay10_one _ _ _ _ _ _ _ r

theorem rhs0_vm (r : Fin 1000) :
    rhs0 (F := Ideal) x0 x1 x2 x3 w1 b1 g be w2 b2 (ix2 r (258 : Fin 384)) = vmag0 x2 x3 r - cShift := by
  unfold rhs0 vmag0
  exact pay10_vm _ _ _ _ _ _ _ r (Ideal.sqrt (vsq0 x2 x3 r 0)) (vsq0 x2 x3 r 1) (vsq0 x2 x3 r 2)
    (norm0_rhs0 x2 x3 r) (sq1_rhs0 x2 x3 r) (sq2_rhs0 x2 x3 r)

theorem rhs0_vm2 (r : Fin 1000) :
    rhs0 (F := Ideal) x0 x1 x2 x3 w1 b1 g be w2 b2 (ix2 r (259 : Fin 384)) = (vmag0 x2 x3 r - cShift) * (vmag0 x2 x3 r - cShift) := by
  unfold rhs0 vmag0
  exact pay10_vm2 _ _ _ _ _ _ _ r (Ideal.sqrt (vsq0 x2 x3 r 0)) (vsq0 x2 x3 r 1) (vsq0 x2 x3 r 2)
    (norm0_rhs0 x2 x3 r) (sq1_rhs0 x2 x3 r) (sq2_rhs0 x2 x3 r)

theorem rhs0_pad (r : Fin 1000) (k : Fin 384) (hk : 260 ≤ k.val) :
    rhs0 (F := Ideal) x0 x1 x2 x3 w1 b1 g be w2 b2 (ix2 r k) = 0 := by
  unfold rhs0
  exact pay10_pad _ _ _ _ _ _ _ r k hk

/-- The tile's contribution lands on fragment f's row: a row of the transposed one-hot matrix times the feature columns. -/
theorem step0_apply (prev : Vec Ideal S1x2048x384 .f32) (f : Fin 2048) (col : Fin 384) :
    step0 (F := Ideal) x0 x1 x2 x3 x4 w1 b1 g be w2 b2 prev (ix3 (0 : Fin 1) f col)
      = prev (ix3 (0 : Fin 1) f col) + ∑ r : Fin 1000,
          (if (x4 (ix2 r (0 : Fin 1)) : BitVec 32) = BitVec.ofNat 32 f.val then (1 : EReal) else 0)
            * rhs0 (F := Ideal) x0 x1 x2 x3 w1 b1 g be w2 b2 (ix2 r col) := by
  unfold step0
  refine (pay1_apply _ _ prev f col).trans ?_
  refine congrArg (fun t : EReal => prev (ix3 (0 : Fin 1) f col) + t) ?_
  exact Finset.sum_congr rfl fun r _ =>
    congrArg (fun t : EReal => t * rhs0 (F := Ideal) x0 x1 x2 x3 w1 b1 g be w2 b2 (ix2 r col)) (pay9_apply x4 r f)

end Point

end Cert.KernelIdeal.Hand

end
-- ==== Proof.KI.Accum0.lean ====
/-
  Launch 0's accumulator over the fifty grid points of one core half, and the re-indexing of sums over tiles to
  sums over atoms.

  The accumulator block of a core half is set to zero at the half's first point and every point adds its own
  contribution to each entry.  Hence, once a point's contribution to the entry (f, col) is known as a function
  `T` of that point's eleven input blocks, the block after the half's last point holds, at (f, col), the sum of
  `T` over the half's fifty points.  The second part is pure counting: the atoms 0 … 99999 are the disjoint
  union of 100 consecutive tiles of 1000 atoms, and the 100 tiles are two halves of fifty.
-/
import proofs.«412127_j15607911153865_3_alg».proof.Proof.KI.Terms
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Algebra.BigOperators.Group.Finset.Basic
import Mathlib.Algebra.BigOperators.Group.Finset.Sigma
import Mathlib.Data.EReal.Basic

noncomputable section

namespace Cert.KernelIdeal.Hand

open scoped BigOperators
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## Sums over tiles -/

/-- Position `r` of block `t`, among `m` blocks of `n`, is a position below `m * n`. -/
theorem acc0_blk_lt {m n : ℕ} (t : Fin m) (r : Fin n) : n * t.val + r.val < m * n := by
  have h1 : n * t.val + r.val < n * (t.val + 1) := by rw [Nat.mul_succ]; exact Nat.add_lt_add_left r.isLt _
  have h2 : n * (t.val + 1) ≤ n * m := Nat.mul_le_mul_left n t.isLt
  rw [Nat.mul_comm m n]; exact lt_of_lt_of_le h1 h2

/-- A sum over `m * n` positions, taken block by block: the pair (block, offset) ↦ `n * block + offset` is a
    bijection onto the positions. -/
theorem acc0_sum_blocks {M : Type*} [AddCommMonoid M] (m n : ℕ) (g : Fin (m * n) → M) :
    (∑ t : Fin m, ∑ r : Fin n, g ⟨n * t.val + r.val, acc0_blk_lt t r⟩) = ∑ i : Fin (m * n), g i := by
  rw [← Finset.sum_product', Finset.univ_product_univ]
  refine Fintype.sum_equiv finProdFinEquiv _ _ (fun x => congrArg g (Fin.ext ?_))
  show n * x.1.val + x.2.val = x.2.val + n * x.1.val
  exact Nat.add_comm _ _

/-- The 100000 atoms, summed tile by tile (100 tiles of 1000). -/
theorem sum_tiles_tile (g : Fin 100000 → EReal) :
    (∑ t : Fin 100, ∑ r : Fin 1000, g ⟨1000 * t.val + r.val, by omega⟩) = ∑ i : Fin 100000, g i :=
  acc0_sum_blocks 100 1000 g

/-- The 100000 atoms, summed half by half (two halves of fifty tiles of 1000). -/
theorem sum_tiles (g : Fin 100000 → EReal) :
    (∑ h : Fin 2, ∑ k : Fin 50, ∑ r : Fin 1000, g ⟨1000 * (50 * h.val + k.val) + r.val, by omega⟩)
      = ∑ i : Fin 100000, g i := by
  rw [← sum_tiles_tile g]
  exact acc0_sum_blocks 2 50 (fun t : Fin 100 => ∑ r : Fin 1000, g ⟨1000 * t.val + r.val, by omega⟩)

/-! ## The accumulator's recursion, case by case -/

section Cases
variable {F : FTy → Type} [FloatOps F] [Named F]
variable (V : (c : Dev nD) → (b : Ref sig .tc) → Buf (Elt F) ((c : Thread nD τ).loc b))

/-- Launch 0 has a hundred grid points. -/
theorem acc0_N : cfg0.N = 100 := N_0

/-- At the first point of a core half the accumulator starts from the zero block. -/
theorem acc0_first (c : Dev nD) (n : ℕ) (hn : n < cfg0.N) (h0 : n % 50 = 0) :
    outsAt0 V c n hn = point0 V c ⟨n, hn⟩ (k0_pay2 (F := F)) := by
  cases n with
  | zero => rfl
  | succ n => simp only [outsAt0, if_pos h0]

/-- At every other point it goes on from the block the point before left. -/
theorem acc0_next (c : Dev nD) (n : ℕ) (hn : n + 1 < cfg0.N) (h0 : (n + 1) % 50 ≠ 0) :
    outsAt0 V c (n + 1) hn = point0 V c ⟨n + 1, hn⟩ (outsAt0 V c n (Nat.lt_of_succ_lt hn)) := by
  simp only [outsAt0, if_neg h0]

end Cases

/-! ## At the extended reals -/

/-- The block a core half starts from is zero at every entry: the zero word, splat and reshaped. -/
theorem acc0_zero_apply (f : Fin 2048) (col : Fin 384) : k0_pay2 (F := Ideal) (ix3 (0 : Fin 1) f col) = 0 := by
  unfold k0_pay2
  refine (shapeCast_ab_1ab_apply _ shapeCasts_S2048x384_S1x2048x384 (0 : Fin 1) f col).trans ?_
  exact Ideal.ofBits_zero_f32

section Sum
variable (V : (c : Dev nD) → (b : Ref sig .tc) → Buf (Elt Ideal) ((c : Thread nD τ).loc b))

/-- The type of a point's contribution to one entry, as a function of the point's eleven input blocks. -/
abbrev Acc0Contrib : Type :=
  Vec Ideal S1000x256 .f32 → Vec Ideal S1000x256 .f32 → Vec Ideal S1000x768 .f32 → Vec Ideal S1000x768 .f32 →
    Vec Ideal S1000x1 .i32 → Vec Ideal S256x256 .bf16 → Vec Ideal S1x256 .f32 → Vec Ideal S1x256 .f32 →
    Vec Ideal S1x256 .f32 → Vec Ideal S256x256 .bf16 → Vec Ideal S1x256 .f32 → Fin 2048 → Fin 384 → EReal

/-- Point number `n`'s contribution to the entry (f, col); zero for a number past the grid. -/
def acc0_term (c : Dev nD) (T : Acc0Contrib) (f : Fin 2048) (col : Fin 384) (n : ℕ) : EReal :=
  if hn : n < cfg0.N then
    T (iblk0 V c 0 ⟨n, hn⟩) (iblk0 V c 1 ⟨n, hn⟩) (iblk0 V c 2 ⟨n, hn⟩) (iblk0 V c 3 ⟨n, hn⟩) (iblk0 V c 4 ⟨n, hn⟩)
      (iblk0 V c 5 ⟨n, hn⟩) (iblk0 V c 6 ⟨n, hn⟩) (iblk0 V c 7 ⟨n, hn⟩) (iblk0 V c 8 ⟨n, hn⟩) (iblk0 V c 9 ⟨n, hn⟩)
      (iblk0 V c 10 ⟨n, hn⟩) f col
  else 0

/-- One point adds its contribution to the entry it found. -/
theorem acc0_point_apply (c : Dev nD) (T : Acc0Contrib)
    (hstep : ∀ x0 x1 x2 x3 x4 w1 b1 g be w2 b2 (prev : Vec Ideal S1x2048x384 .f32) (f : Fin 2048) (col : Fin 384),
      step0 (F := Ideal) x0 x1 x2 x3 x4 w1 b1 g be w2 b2 prev (ix3 (0 : Fin 1) f col)
        = prev (ix3 (0 : Fin 1) f col) + T x0 x1 x2 x3 x4 w1 b1 g be w2 b2 f col)
    (n : ℕ) (hn : n < cfg0.N) (prev : Vec Ideal S1x2048x384 .f32) (f : Fin 2048) (col : Fin 384) :
    point0 (F := Ideal) V c ⟨n, hn⟩ prev (ix3 (0 : Fin 1) f col) = prev (ix3 (0 : Fin 1) f col) + acc0_term V c T f col n := by
  rw [acc0_term, dif_pos hn]
  exact hstep (iblk0 V c 0 ⟨n, hn⟩) (iblk0 V c 1 ⟨n, hn⟩) (iblk0 V c 2 ⟨n, hn⟩) (iblk0 V c 3 ⟨n, hn⟩)
    (iblk0 V c 4 ⟨n, hn⟩) (iblk0 V c 5 ⟨n, hn⟩) (iblk0 V c 6 ⟨n, hn⟩) (iblk0 V c 7 ⟨n, hn⟩) (iblk0 V c 8 ⟨n, hn⟩)
    (iblk0 V c 9 ⟨n, hn⟩) (iblk0 V c 10 ⟨n, hn⟩) prev f col

/-- After `k + 1` points of a core half the entry holds the sum of their contributions: by induction on `k`,
    the first point adding to zero and every later one to the sum so far. -/
theorem acc0_partial (c : Dev nD) (T : Acc0Contrib)
    (hstep : ∀ x0 x1 x2 x3 x4 w1 b1 g be w2 b2 (prev : Vec Ideal S1x2048x384 .f32) (f : Fin 2048) (col : Fin 384),
      step0 (F := Ideal) x0 x1 x2 x3 x4 w1 b1 g be w2 b2 prev (ix3 (0 : Fin 1) f col)
        = prev (ix3 (0 : Fin 1) f col) + T x0 x1 x2 x3 x4 w1 b1 g be w2 b2 f col)
    (h : Fin 2) (f : Fin 2048) (col : Fin 384) (k : ℕ) (hk : k < 50) (hn : 50 * h.val + k < cfg0.N) :
    outsAt0 (F := Ideal) V c (50 * h.val + k) hn (ix3 (0 : Fin 1) f col)
      = ∑ j ∈ Finset.range (k + 1), acc0_term V c T f col (50 * h.val + j) := by
  induction k with
  | zero =>
    have e : outsAt0 (F := Ideal) V c (50 * h.val + 0) hn = point0 V c ⟨50 * h.val + 0, hn⟩ (k0_pay2 (F := Ideal)) :=
      acc0_first V c (50 * h.val + 0) hn (by omega)
    rw [e, acc0_point_apply V c T hstep (50 * h.val + 0) hn, acc0_zero_apply, zero_add, Finset.sum_range_one]
  | succ k ih =>
    have hn' : 50 * h.val + k < cfg0.N := Nat.lt_of_succ_lt hn
    have e : outsAt0 (F := Ideal) V c (50 * h.val + (k + 1)) hn
        = point0 V c ⟨50 * h.val + (k + 1), hn⟩ (outsAt0 V c (50 * h.val + k) hn') :=
      acc0_next V c (50 * h.val + k) hn (by omega)
    rw [e, acc0_point_apply V c T hstep (50 * h.val + (k + 1)) hn, ih (by omega) hn', Finset.sum_range_succ _ (k + 1)]

/-- What one grid point adds to row f, column col of the accumulator, as a function T of the point's eleven input
    blocks: after the last point of a core half the entry is the sum of T over the half's fifty points. -/
theorem outsAt0_sum (c : Dev nD)
    (T : Vec Ideal S1000x256 .f32 → Vec Ideal S1000x256 .f32 → Vec Ideal S1000x768 .f32 → Vec Ideal S1000x768 .f32 →
      Vec Ideal S1000x1 .i32 → Vec Ideal S256x256 .bf16 → Vec Ideal S1x256 .f32 → Vec Ideal S1x256 .f32 →
      Vec Ideal S1x256 .f32 → Vec Ideal S256x256 .bf16 → Vec Ideal S1x256 .f32 → Fin 2048 → Fin 384 → EReal)
    (hstep : ∀ x0 x1 x2 x3 x4 w1 b1 g be w2 b2 (prev : Vec Ideal S1x2048x384 .f32) (f : Fin 2048) (col : Fin 384),
      step0 (F := Ideal) x0 x1 x2 x3 x4 w1 b1 g be w2 b2 prev (ix3 (0 : Fin 1) f col)
        = prev (ix3 (0 : Fin 1) f col) + T x0 x1 x2 x3 x4 w1 b1 g be w2 b2 f col)
    (h : Fin 2) (f : Fin 2048) (col : Fin 384) :
    outsAt0 (F := Ideal) V c (50 * h.val + 49) (by have := acc0_N; omega) (ix3 (0 : Fin 1) f col)
      = ∑ k : Fin 50,
          T (iblk0 V c 0 ⟨50 * h.val + k.val, by have := acc0_N; omega⟩) (iblk0 V c 1 ⟨50 * h.val + k.val, by have := acc0_N; omega⟩)
            (iblk0 V c 2 ⟨50 * h.val + k.val, by have := acc0_N; omega⟩) (iblk0 V c 3 ⟨50 * h.val + k.val, by have := acc0_N; omega⟩)
            (iblk0 V c 4 ⟨50 * h.val + k.val, by have := acc0_N; omega⟩) (iblk0 V c 5 ⟨50 * h.val + k.val, by have := acc0_N; omega⟩)
            (iblk0 V c 6 ⟨50 * h.val + k.val, by have := acc0_N; omega⟩) (iblk0 V c 7 ⟨50 * h.val + k.val, by have := acc0_N; omega⟩)
            (iblk0 V c 8 ⟨50 * h.val + k.val, by have := acc0_N; omega⟩) (iblk0 V c 9 ⟨50 * h.val + k.val, by have := acc0_N; omega⟩)
            (iblk0 V c 10 ⟨50 * h.val + k.val, by have := acc0_N; omega⟩) f col := by
  refine (acc0_partial V c T hstep h f col 49 (by omega) _).trans ?_
  refine (Finset.sum_range (n := 50) (fun j => acc0_term V c T f col (50 * h.val + j))).trans ?_
  refine Finset.sum_congr rfl (fun k _ => ?_)
  exact dif_pos _

end Sum

end Cert.KernelIdeal.Hand

end
-- ==== Proof.KI.ProjRef.lean ====
/-
  The kernel's projected features of one tile of 1000 atoms are the reference's projected table on those atoms.

  Both programs compute, row by row, from an atom's two scalar feature rows a and b:
    the mix  m = a·½ + b·½;  the first layer  h = m·W1 + b1;  the row mean  μ = (Σ h)/256;  the centred row  h − μ;
    the row variance  v = (Σ (h − μ)²)/256;  the normalised row  ((h − μ)·rsqrt(v + ε))·g + β;  the gate  y·logistic y;
    the second layer  ·W2 + b2.
  The row formula below spells this once over plain functions.  The kernel works on a [1000, 256] tile with the biases
  as [1, 256] rows, the means as [1000, 1] columns and the weights in a narrower format (a change of format is the
  identity on extended reals); the reference works on the whole [100000, 256] table, starts its sums from the zero
  word and writes the logistic out as 1/(1 + exp(−y)).  Each side is read at an index stage by stage and lands on the
  same formula; the operands come in the same order on both sides, so no algebra is needed beyond 0 + x = x.
-/
import proofs.«412127_j15607911153865_3_alg».proof.Proof.KI.Terms
import proofs.«412127_j15607911153865_3_alg».proof.Proof.RefReadP
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.Hand.ProjRef

open Idealize.ShloMosaic Idealize.ShloMosaic.ValueIdx
open Cert.KernelIdeal Cert.KernelIdeal.Gen

/-! ## One row of the projection, over plain functions -/

abbrev wHalf : EReal := Ideal.ofBits .f32 0x3F000000#32
abbrev w256 : EReal := Ideal.ofBits .f32 0x43800000#32
abbrev wEps : EReal := Ideal.ofBits .f32 0x3727C5AC#32

def mix (a b : Fin 256 → EReal) (k : Fin 256) : EReal := a k * wHalf + b k * wHalf
def lin (v : Fin 256 → EReal) (W : Fin 256 → Fin 256 → EReal) (b : Fin 256 → EReal) (j : Fin 256) : EReal :=
  (∑ k : Fin 256, v k * W k j) + b j
def avg (h : Fin 256 → EReal) : EReal := Ideal.div (∑ k : Fin 256, h k) w256
def ctr (h : Fin 256 → EReal) (j : Fin 256) : EReal := h j - avg h
def nrm (h g be : Fin 256 → EReal) (j : Fin 256) : EReal :=
  (ctr h j * Ideal.rsqrt (avg (fun k => ctr h k * ctr h k) + wEps)) * g j + be j
def gate (y : EReal) : EReal := y * Ideal.logistic y
def rowOut (a b : Fin 256 → EReal) (W1 : Fin 256 → Fin 256 → EReal) (b1 g be : Fin 256 → EReal)
    (W2 : Fin 256 → Fin 256 → EReal) (b2 : Fin 256 → EReal) (j : Fin 256) : EReal :=
  lin (fun k => gate (nrm (lin (mix a b) W1 b1) g be k)) W2 b2 j

/-! ## Layout steps at an index -/

theorem col_bcast_apply {α : Type} (v : S1000x1.Idx → α) (h : S1000x1.Broadcasts S1000x256) (r : Fin 1000) (j : Fin 256) :
    broadcastTo S1000x256 v h (ix2 r j) = v (ix2 r (0 : Fin 1)) := by
  refine broadcastTo_apply v h (ix2 r j) (ix2 r (0 : Fin 1)) fun ax => ?_
  match ax with
  | ⟨0, _⟩ => rfl
  | ⟨1, _⟩ => rfl

theorem keep_col_apply {α : Type} (v : S1000.Idx → α) (h : S1000.ShapeCasts S1000x1) (r : Fin 1000) :
    shapeCast S1000x1 v h (ix2 r (0 : Fin 1)) = v (ix1 r) :=
  shapeCast_apply v h _ _ (by
    rw [Shape.rowMajor_val_two, Shape.rowMajor_val_one]
    show r.val = r.val * 1 + 0
    omega)

theorem lane_sum_apply (v : FVec Ideal S1000x256 .f32) (h : S1000x256.Reduces [1] S1000) (hφ : FKind.Formats .f32)
    (hacc : (0x00000000#32 : BitVec 32) = FKind.add.neutral .f32 hφ) (r : Fin 1000) :
    multiReduction .add [1] S1000 v 0x00000000#32 h hφ hacc (ix1 r) = ∑ k : Fin 256, v (ix2 r k) := by
  refine (Ideal.multiReduction_add_single v 0x00000000#32 h hφ hacc (ix1 r)).trans ?_
  refine Finset.sum_congr rfl fun k _ => congrArg v ?_
  exact funext fun a => Fin.ext (by match a with | ⟨0, _⟩ => rfl | ⟨1, _⟩ => rfl)

/-! ## The matrix product of a tile with a square weight, at an index -/

theorem lhs_mm_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
theorem lhs_mm_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
theorem rhs_mm_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
theorem rhs_mm_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

theorem mm_apply (a : FVec Ideal S1000x256 .bf16) (w : FVec Ideal S256x256 .bf16) (r : Fin 1000) (j : Fin 256) :
    matmul dot_S1000x256_S256x256_S1000x256_1_0_0_1_n_n none a w (constant (F := Ideal) S1000x256 .f32 0x00000000#32) (ix2 r j)
      = ∑ k : Fin 256, a (ix2 r k) * w (ix2 k j) := by
  simp only [matmul]
  rw [Ideal.matmul_constant_zero_apply, ← Equiv.sum_comp (ValueIdx.contrEquiv1 dot_S1000x256_S256x256_S1000x256_1_0_0_1_n_n 256 rfl rfl).symm]
  refine Finset.sum_congr rfl fun k _ => ?_
  have hk := ValueIdx.contrEquiv1_symm_val dot_S1000x256_S256x256_S1000x256_1_0_0_1_n_n 256 rfl rfl k
  have el : dot_S1000x256_S256x256_S1000x256_1_0_0_1_n_n.lhsIdx (ix2 r j) ((ValueIdx.contrEquiv1 dot_S1000x256_S256x256_S1000x256_1_0_0_1_n_n 256 rfl rfl).symm k) = ix2 r k := funext fun a => Fin.ext (by
    match a with
    | ⟨0, _⟩ => exact lhs_mm_0 _ _
    | ⟨1, _⟩ => exact (lhs_mm_1 _ _).trans hk)
  have er : dot_S1000x256_S256x256_S1000x256_1_0_0_1_n_n.rhsIdx (ix2 r j) ((ValueIdx.contrEquiv1 dot_S1000x256_S256x256_S1000x256_1_0_0_1_n_n 256 rfl rfl).symm k) = ix2 k j := funext fun a => Fin.ext (by
    match a with
    | ⟨0, _⟩ => exact (rhs_mm_0 _ _).trans hk
    | ⟨1, _⟩ => exact rhs_mm_1 _ _)
  rw [el, er]

/-! ## The tile's stages, each a function of variables -/

/-- A dense layer on a tile: the product with the weight plus the bias row. -/
def linT (a : FVec Ideal S1000x256 .bf16) (w : FVec Ideal S256x256 .bf16) (b : FVec Ideal S1x256 .f32) : FVec Ideal S1000x256 .f32 :=
  addf (matmul dot_S1000x256_S256x256_S1000x256_1_0_0_1_n_n none a (shapeCast S256x256 w shapeCasts_S256x256_S256x256)
      (constant S1000x256 .f32 0x00000000#32))
    (broadcastTo S1000x256 (shapeCast S1x256 b shapeCasts_S1x256_S1x256) broadcasts_S1x256_S1000x256)

theorem linT_apply (a : FVec Ideal S1000x256 .bf16) (w : FVec Ideal S256x256 .bf16) (b : FVec Ideal S1x256 .f32) (r : Fin 1000) (j : Fin 256) :
    linT a w b (ix2 r j) = lin (fun k => a (ix2 r k)) (fun k j => w (ix2 k j)) (fun j => b (ix2 (0 : Fin 1) j)) j := by
  unfold linT lin
  rw [addf_apply, mm_apply, broadcastTo_1b_ab_apply, shapeCast_self, shapeCast_self]

/-- The row means of a tile, as a column. -/
def meanT (v : FVec Ideal S1000x256 .f32) : FVec Ideal S1000x1 .f32 :=
  divf (shapeCast S1000x1 (multiReduction .add [1] S1000 v 0x00000000#32 reduces_S1000x256_S1000 (.inl rfl) rfl) shapeCasts_S1000_S1000x1)
    (broadcast S1000x1 (Scalar.ofBits .f32 0x43800000#32))

theorem meanT_apply (v : FVec Ideal S1000x256 .f32) (r : Fin 1000) :
    meanT v (ix2 r (0 : Fin 1)) = avg (fun k => v (ix2 r k)) := by
  unfold meanT avg
  rw [divf_apply, keep_col_apply]
  exact congrArg (fun s => Ideal.div s w256) (lane_sum_apply v _ _ _ r)

/-- A tile minus its row means. -/
def ctrT (v : FVec Ideal S1000x256 .f32) : FVec Ideal S1000x256 .f32 :=
  subf v (broadcastTo S1000x256 (meanT v) broadcasts_S1000x1_S1000x256)

theorem ctrT_apply (v : FVec Ideal S1000x256 .f32) (r : Fin 1000) (j : Fin 256) :
    ctrT v (ix2 r j) = ctr (fun k => v (ix2 r k)) j := by
  unfold ctrT ctr
  rw [subf_apply, col_bcast_apply, meanT_apply]

/-- The mixed scalar features of a tile (the change of format is the identity on extended reals). -/
def mixT (x0 x1 : Vec Ideal S1000x256 .f32) : FVec Ideal S1000x256 .bf16 :=
  truncf .bf16 (addf (mulf x0 (broadcast S1000x256 (Scalar.ofBits .f32 0x3F000000#32)))
    (mulf x1 (broadcast S1000x256 (Scalar.ofBits .f32 0x3F000000#32)))) bitsLt_bf16_f32

theorem mixT_apply (x0 x1 : Vec Ideal S1000x256 .f32) (r : Fin 1000) (k : Fin 256) :
    mixT x0 x1 (ix2 r k) = mix (fun k => x0 (ix2 r k)) (fun k => x1 (ix2 r k)) k := rfl

/-- The centred tile scaled by the reciprocal root of its row variances. -/
def scaleT (h : FVec Ideal S1000x256 .f32) : FVec Ideal S1000x256 .f32 :=
  mulf (ctrT h) (broadcastTo S1000x256
    (rsqrt (addf (meanT (mulf (ctrT h) (ctrT h))) (broadcast S1000x1 (Scalar.ofBits .f32 0x3727C5AC#32))))
    broadcasts_S1000x1_S1000x256)

theorem k0_pay3_eq (x0 x1 : Vec Ideal S1000x256 .f32) (w1 : Vec Ideal S256x256 .bf16) (b1 : Vec Ideal S1x256 .f32) :
    k0_pay3 (F := Ideal) x0 x1 w1 b1 = scaleT (linT (mixT x0 x1) w1 b1) := rfl

theorem scaleT_apply (h : FVec Ideal S1000x256 .f32) (r : Fin 1000) (j : Fin 256) :
    scaleT h (ix2 r j) = ctr (fun k => h (ix2 r k)) j
      * Ideal.rsqrt (avg (fun k => ctr (fun k => h (ix2 r k)) k * ctr (fun k => h (ix2 r k)) k) + wEps) := by
  unfold scaleT
  rw [mulf_apply, col_bcast_apply, ctrT_apply]
  show _ * Ideal.rsqrt (meanT (mulf (ctrT h) (ctrT h)) (ix2 r (0 : Fin 1)) + wEps) = _
  rw [meanT_apply]
  simp only [mulf_apply, ctrT_apply]

/-- A tile scaled and shifted by two rows. -/
def affT (v : FVec Ideal S1000x256 .f32) (g be : FVec Ideal S1x256 .f32) : FVec Ideal S1000x256 .f32 :=
  addf (mulf v (broadcastTo S1000x256 (shapeCast S1x256 g shapeCasts_S1x256_S1x256) broadcasts_S1x256_S1000x256))
    (broadcastTo S1000x256 (shapeCast S1x256 be shapeCasts_S1x256_S1x256) broadcasts_S1x256_S1000x256)

theorem affT_apply (v : FVec Ideal S1000x256 .f32) (g be : FVec Ideal S1x256 .f32) (r : Fin 1000) (j : Fin 256) :
    affT v g be (ix2 r j) = v (ix2 r j) * g (ix2 (0 : Fin 1) j) + be (ix2 (0 : Fin 1) j) := by
  unfold affT
  rw [addf_apply, mulf_apply, broadcastTo_1b_ab_apply, broadcastTo_1b_ab_apply, shapeCast_self, shapeCast_self]

/-- The gated tile: each entry times its logistic (again through a change of format). -/
def gateT (y : FVec Ideal S1000x256 .f32) : FVec Ideal S1000x256 .bf16 :=
  truncf .bf16 (mulf y (logistic y)) bitsLt_bf16_f32

theorem gateT_apply (y : FVec Ideal S1000x256 .f32) (r : Fin 1000) (k : Fin 256) :
    gateT y (ix2 r k) = gate (y (ix2 r k)) := rfl

theorem k0_pay4_eq (v : FVec Ideal S1000x256 .f32) (g be : Vec Ideal S1x256 .f32) (w2 : Vec Ideal S256x256 .bf16)
    (b2 : Vec Ideal S1x256 .f32) : k0_pay4 (F := Ideal) v g be w2 b2 = linT (gateT (affT v g be)) w2 b2 := rfl

/-- The kernel's projected tile at (r, j) is the row formula of row r. -/
theorem proj0_row (x0 x1 : Vec Ideal S1000x256 .f32) (w1 w2 : Vec Ideal S256x256 .bf16) (b1 g be b2 : Vec Ideal S1x256 .f32)
    (r : Fin 1000) (j : Fin 256) :
    proj0 (F := Ideal) x0 x1 w1 b1 g be w2 b2 (ix2 r j)
      = rowOut (fun k => x0 (ix2 r k)) (fun k => x1 (ix2 r k)) (fun k j => w1 (ix2 k j)) (fun j => b1 (ix2 (0 : Fin 1) j))
          (fun j => g (ix2 (0 : Fin 1) j)) (fun j => be (ix2 (0 : Fin 1) j)) (fun k j => w2 (ix2 k j))
          (fun j => b2 (ix2 (0 : Fin 1) j)) j := by
  unfold proj0
  rw [k0_pay3_eq, k0_pay4_eq, linT_apply]
  unfold rowOut
  have hh : (fun k => linT (mixT x0 x1) w1 b1 (ix2 r k))
      = lin (mix (fun k => x0 (ix2 r k)) (fun k => x1 (ix2 r k))) (fun k j => w1 (ix2 k j)) (fun j => b1 (ix2 (0 : Fin 1) j)) :=
    funext fun k => by rw [linT_apply]; rfl
  simp only [gateT_apply, affT_apply, scaleT_apply, hh]
  rfl

/-! ## The reference's stages on one row -/

section Ref
open Cert.ReferenceIdeal.Read

abbrev RTab := (⟨Cert.ReferenceIdeal.S100000x256, .f32⟩ : BufTy).Contents (Elt Ideal)
abbrev RMat := (⟨Cert.ReferenceIdeal.S256x256, .f32⟩ : BufTy).Contents (Elt Ideal)
abbrev RVec := (⟨Cert.ReferenceIdeal.S256, .f32⟩ : BufTy).Contents (Elt Ideal)

variable (X0 X1 : RTab) (X4 : RMat) (X5 X6 X7 : RVec) (X8 : RMat) (X9 : RVec)

/-- The mixed scalar features of atom i. -/
theorem ref_mix (i : Fin 100000) (k : Fin 256) :
    val_main_v4 (F := Ideal) X0 X1 (ix2 i k) = mix (fun k => X0 (ix2 i k)) (fun k => X1 (ix2 i k)) k := by
  rewrite [val_main_v4_apply, val_main_v1_apply, val_main_v3_apply, val_main_v0_apply, val_main_v2_apply, val_main_cst_apply,
    val_main_cst_0_apply]
  rfl

/-- The first layer's row. -/
theorem ref_hid (i : Fin 100000) (j : Fin 256) :
    val_main_v8 (F := Ideal) X0 X1 X4 X5 (ix2 i j)
      = lin (mix (fun k => X0 (ix2 i k)) (fun k => X1 (ix2 i k))) (fun k j => X4 (ix2 k j)) (fun j => X5 (ix1 j)) j := by
  have el : ∀ k : Fin 256, lidx_main_v5 (ix2 i j) k = ix2 i k := fun k =>
    funext fun a => Fin.ext (by match a with | ⟨0, _⟩ => rfl | ⟨1, _⟩ => rfl)
  have er : ∀ k : Fin 256, ridx_main_v5 (ix2 i j) k = ix2 k j := fun k =>
    funext fun a => Fin.ext (by match a with | ⟨0, _⟩ => rfl | ⟨1, _⟩ => rfl)
  have eb : idx_main_v6 (idx_main_v7 (ix2 i j)) = ix1 j :=
    funext fun a => Fin.ext (by match a with | ⟨0, _⟩ => rfl)
  rewrite [val_main_v8_apply, val_main_v5_apply, val_main_v7_apply, val_main_v6_apply, eb]
  show (∑ k : Fin 256, val_main_v4 (F := Ideal) X0 X1 (lidx_main_v5 (ix2 i j) k) * X4 (ridx_main_v5 (ix2 i j) k)) + X5 (ix1 j) = _
  unfold lin
  refine congrArg (· + X5 (ix1 j)) (Finset.sum_congr rfl fun k _ => ?_)
  rewrite [el k, er k, ref_mix]
  rfl

/-- The row's mean (the sum starts from the zero word). -/
theorem ref_mean (i : Fin 100000) :
    val_main_v12 (F := Ideal) X0 X1 X4 X5 (ix2 i (0 : Fin 1)) = avg (fun k => val_main_v8 (F := Ideal) X0 X1 X4 X5 (ix2 i k)) := by
  have e : ∀ k : Fin 256, idx_main_v9 (idx_main_v10 (ix2 i (0 : Fin 1))) k = ix2 i k := fun k =>
    funext fun a => Fin.ext (by match a with | ⟨0, _⟩ => rfl | ⟨1, _⟩ => rfl)
  rewrite [val_main_v12_apply, val_main_v10_apply, val_main_v9_apply, val_main_v11_apply, val_main_cst_2_apply, val_main_cst_1_apply]
  show Ideal.div (Ideal.ofBits .f32 0x00000000#32
      + ∑ k : Fin 256, val_main_v8 (F := Ideal) X0 X1 X4 X5 (idx_main_v9 (idx_main_v10 (ix2 i (0 : Fin 1))) k)) w256 = _
  rewrite [Ideal.ofBits_zero_f32, zero_add]
  unfold avg
  refine congrArg (fun s => Ideal.div s w256) (Finset.sum_congr rfl fun k _ => ?_)
  rewrite [e k]
  rfl

/-- The row minus its mean (the reference forms it twice, from the same mean). -/
theorem ref_ctr (i : Fin 100000) (j : Fin 256) :
    val_main_v14 (F := Ideal) X0 X1 X4 X5 (ix2 i j) = ctr (fun k => val_main_v8 (F := Ideal) X0 X1 X4 X5 (ix2 i k)) j := by
  have e : idx_main_v13 (ix2 i j) = ix2 i (0 : Fin 1) :=
    funext fun a => Fin.ext (by match a with | ⟨0, _⟩ => rfl | ⟨1, _⟩ => rfl)
  rewrite [val_main_v14_apply, val_main_v13_apply, e, ref_mean]
  rfl
theorem ref_ctr' (i : Fin 100000) (j : Fin 256) :
    val_main_v21 (F := Ideal) X0 X1 X4 X5 (ix2 i j) = ctr (fun k => val_main_v8 (F := Ideal) X0 X1 X4 X5 (ix2 i k)) j := by
  have e : idx_main_v20 (ix2 i j) = ix2 i (0 : Fin 1) :=
    funext fun a => Fin.ext (by match a with | ⟨0, _⟩ => rfl | ⟨1, _⟩ => rfl)
  rewrite [val_main_v21_apply, val_main_v20_apply, e, ref_mean]
  rfl

/-- The row's variance. -/
theorem ref_var (i : Fin 100000) :
    val_main_v19 (F := Ideal) X0 X1 X4 X5 (ix2 i (0 : Fin 1))
      = avg (fun k => ctr (fun k => val_main_v8 (F := Ideal) X0 X1 X4 X5 (ix2 i k)) k
          * ctr (fun k => val_main_v8 (F := Ideal) X0 X1 X4 X5 (ix2 i k)) k) := by
  have e : ∀ k : Fin 256, idx_main_v16 (idx_main_v17 (ix2 i (0 : Fin 1))) k = ix2 i k := fun k =>
    funext fun a => Fin.ext (by match a with | ⟨0, _⟩ => rfl | ⟨1, _⟩ => rfl)
  rewrite [val_main_v19_apply, val_main_v17_apply, val_main_v16_apply, val_main_v18_apply, val_main_cst_4_apply, val_main_cst_3_apply]
  show Ideal.div (Ideal.ofBits .f32 0x00000000#32
      + ∑ k : Fin 256, val_main_v15 (F := Ideal) X0 X1 X4 X5 (idx_main_v16 (idx_main_v17 (ix2 i (0 : Fin 1))) k)) w256 = _
  rewrite [Ideal.ofBits_zero_f32, zero_add]
  unfold avg
  refine congrArg (fun s => Ideal.div s w256) (Finset.sum_congr rfl fun k _ => ?_)
  rewrite [e k, val_main_v15_apply, ref_ctr]
  rfl

/-- The normalised row, scaled and shifted. -/
theorem ref_nrm (i : Fin 100000) (j : Fin 256) :
    val_main_v32 (F := Ideal) X0 X1 X4 X5 X6 X7 (ix2 i j)
      = nrm (fun k => val_main_v8 (F := Ideal) X0 X1 X4 X5 (ix2 i k)) (fun j => X6 (ix1 j)) (fun j => X7 (ix1 j)) j := by
  have e25 : idx_main_v25 (ix2 i j) = ix2 i (0 : Fin 1) :=
    funext fun a => Fin.ext (by match a with | ⟨0, _⟩ => rfl | ⟨1, _⟩ => rfl)
  have eg : idx_main_v27 (idx_main_v28 (ix2 i j)) = ix1 j :=
    funext fun a => Fin.ext (by match a with | ⟨0, _⟩ => rfl)
  have ebe : idx_main_v30 (idx_main_v31 (ix2 i j)) = ix1 j :=
    funext fun a => Fin.ext (by match a with | ⟨0, _⟩ => rfl)
  rewrite [val_main_v32_apply, val_main_v29_apply, val_main_v26_apply, val_main_v25_apply, e25, val_main_v24_apply,
    val_main_v23_apply, val_main_v22_apply, val_main_cst_5_apply, val_main_v28_apply, val_main_v27_apply, eg,
    val_main_v31_apply, val_main_v30_apply, ebe, ref_ctr', ref_var]
  rfl

/-- The gate: the row times its logistic (written out as one over one plus the exponential of the negated entry). -/
theorem ref_gate (i : Fin 100000) (j : Fin 256) :
    val_main_v33 (F := Ideal) X0 X1 X4 X5 X6 X7 (ix2 i j) = gate (val_main_v32 (F := Ideal) X0 X1 X4 X5 X6 X7 (ix2 i j)) := by
  rewrite [val_main_v33_apply, val_main_call0_v5_apply, val_main_call0_v4_apply, val_main_call0_cst_0_apply, val_main_call0_v3_apply,
    val_main_call0_v2_apply, val_main_call0_cst_apply, val_main_call0_v1_apply, val_main_call0_v0_apply]
  show _ * Ideal.div (Ideal.ofBits .f32 0x3F800000#32) (Ideal.ofBits .f32 0x3F800000#32 + Ideal.exp (-_)) = _
  rewrite [Ideal.ofBits_one_f32]
  rfl

/-- The second layer's row. -/
theorem ref_out (i : Fin 100000) (j : Fin 256) :
    val_main_v37 (F := Ideal) X0 X1 X4 X5 X6 X7 X8 X9 (ix2 i j)
      = lin (fun k => val_main_v33 (F := Ideal) X0 X1 X4 X5 X6 X7 (ix2 i k)) (fun k j => X8 (ix2 k j)) (fun j => X9 (ix1 j)) j := by
  have el : ∀ k : Fin 256, lidx_main_v34 (ix2 i j) k = ix2 i k := fun k =>
    funext fun a => Fin.ext (by match a with | ⟨0, _⟩ => rfl | ⟨1, _⟩ => rfl)
  have er : ∀ k : Fin 256, ridx_main_v34 (ix2 i j) k = ix2 k j := fun k =>
    funext fun a => Fin.ext (by match a with | ⟨0, _⟩ => rfl | ⟨1, _⟩ => rfl)
  have eb : idx_main_v35 (idx_main_v36 (ix2 i j)) = ix1 j :=
    funext fun a => Fin.ext (by match a with | ⟨0, _⟩ => rfl)
  rewrite [val_main_v37_apply, val_main_v34_apply, val_main_v36_apply, val_main_v35_apply, eb]
  show (∑ k : Fin 256, val_main_v33 (F := Ideal) X0 X1 X4 X5 X6 X7 (lidx_main_v34 (ix2 i j) k) * X8 (ridx_main_v34 (ix2 i j) k))
      + X9 (ix1 j) = _
  unfold lin
  refine congrArg (· + X9 (ix1 j)) (Finset.sum_congr rfl fun k _ => ?_)
  rewrite [el k, er k]
  rfl

/-- The reference's projected table at atom i is the row formula of atom i's features. -/
theorem ref_row (i : Fin 100000) (j : Fin 256) :
    val_main_v37 (F := Ideal) X0 X1 X4 X5 X6 X7 X8 X9 (ix2 i j)
      = rowOut (fun k => X0 (ix2 i k)) (fun k => X1 (ix2 i k)) (fun k j => X4 (ix2 k j)) (fun j => X5 (ix1 j))
          (fun j => X6 (ix1 j)) (fun j => X7 (ix1 j)) (fun k j => X8 (ix2 k j)) (fun j => X9 (ix1 j)) j := by
  have hh : (fun k => val_main_v8 (F := Ideal) X0 X1 X4 X5 (ix2 i k))
      = lin (mix (fun k => X0 (ix2 i k)) (fun k => X1 (ix2 i k))) (fun k j => X4 (ix2 k j)) (fun j => X5 (ix1 j)) :=
    funext fun k => ref_hid X0 X1 X4 X5 i k
  rewrite [ref_out]
  unfold rowOut
  refine congrArg (fun v => lin v (fun k j => X8 (ix2 k j)) (fun j => X9 (ix1 j)) j) (funext fun k => ?_)
  rewrite [ref_gate, ref_nrm]
  exact congrArg (fun h => gate (nrm h (fun j => X6 (ix1 j)) (fun j => X7 (ix1 j)) k)) hh

end Ref

/-! ## The two agree on the tile's atoms -/

/-- Tile t of the kernel's projected features is the reference's projected table on atoms 1000·t … 1000·t + 999:
    both are the row formula, read off the same features and the same weights. -/
theorem proj0_eq_ref
    (X0 X1 : (⟨Cert.ReferenceIdeal.S100000x256, .f32⟩ : BufTy).Contents (Elt Ideal))
    (X4 : (⟨Cert.ReferenceIdeal.S256x256, .f32⟩ : BufTy).Contents (Elt Ideal))
    (X5 X6 X7 : (⟨Cert.ReferenceIdeal.S256, .f32⟩ : BufTy).Contents (Elt Ideal))
    (X8 : (⟨Cert.ReferenceIdeal.S256x256, .f32⟩ : BufTy).Contents (Elt Ideal))
    (X9 : (⟨Cert.ReferenceIdeal.S256, .f32⟩ : BufTy).Contents (Elt Ideal))
    (x0 x1 : Vec Ideal S1000x256 .f32) (w1 w2 : Vec Ideal S256x256 .bf16) (b1 g be b2 : Vec Ideal S1x256 .f32) (t : Fin 100)
    (h0 : ∀ (r : Fin 1000) (j : Fin 256), x0 (ix2 r j) = X0 (ix2 (⟨1000 * t.val + r.val, by omega⟩ : Fin 100000) j))
    (h1 : ∀ (r : Fin 1000) (j : Fin 256), x1 (ix2 r j) = X1 (ix2 (⟨1000 * t.val + r.val, by omega⟩ : Fin 100000) j))
    (hw1 : ∀ k j : Fin 256, w1 (ix2 k j) = X4 (ix2 k j)) (hw2 : ∀ k j : Fin 256, w2 (ix2 k j) = X8 (ix2 k j))
    (hb1 : ∀ j : Fin 256, b1 (ix2 (0 : Fin 1) j) = X5 (ix1 j)) (hg : ∀ j : Fin 256, g (ix2 (0 : Fin 1) j) = X6 (ix1 j))
    (hbe : ∀ j : Fin 256, be (ix2 (0 : Fin 1) j) = X7 (ix1 j)) (hb2 : ∀ j : Fin 256, b2 (ix2 (0 : Fin 1) j) = X9 (ix1 j))
    (r : Fin 1000) (j : Fin 256) :
    proj0 (F := Ideal) x0 x1 w1 b1 g be w2 b2 (ix2 r j)
      = Cert.ReferenceIdeal.Read.val_main_v37 (F := Ideal) X0 X1 X4 X5 X6 X7 X8 X9
          (ix2 (⟨1000 * t.val + r.val, by omega⟩ : Fin 100000) j) := by
  have e0 := funext fun k => h0 r k
  have e1 := funext fun k => h1 r k
  have ew1 := funext fun k => funext fun j => hw1 k j
  have ew2 := funext fun k => funext fun j => hw2 k j
  have eb1 := funext hb1
  have eg := funext hg
  have ebe := funext hbe
  have eb2 := funext hb2
  rewrite [proj0_row, ref_row, e0, e1, ew1, ew2, eb1, eg, ebe, eb2]
  rfl

end Cert.KernelIdeal.Hand.ProjRef

end
-- ==== Proof.KI.VmagRef.lean ====
/-
  The kernel's mean vector magnitude of a tile row is the reference's mean vector magnitude of the tile's atom.

  For an atom the reference forms ½·X2 + ½·X3 entry by entry, squares it, sums the 256 lanes of each of the three
  components starting from zero, takes the three square roots, sums them starting from zero and divides by the real
  three.  The kernel reads the same atom as row r of tile t, the three components side by side (column 256 k + j is
  lane j of component k), sums the three square roots and multiplies by the constant named "inv_3", which on the
  extended reals is the rational one third.  Dividing an extended real by the real three is multiplying it by one
  third, at the infinities too, and the zeros the reference's sums start from add nothing.
-/
import proofs.«412127_j15607911153865_3_alg».proof.Proof.KI.K0Point
import proofs.«412127_j15607911153865_3_alg».proof.Proof.RefReadP

noncomputable section

open scoped BigOperators

namespace Cert.KernelIdeal.Hand

open Idealize.ShloMosaic Idealize.ShloMosaic.TcCoe Idealize.ShloMosaic.ValueIdx
open Cert.Spec

namespace VmagRef

/-- The word of three is the real three. -/
theorem ofBits_three : Ideal.ofBits .f32 0x40400000#32 = ((3 : ℝ) : EReal) := by
  simp [Ideal.ofBits, Ideal.ieee, -EReal.coe_mul]
  norm_num

/-- The kernel's named third is the rational one third on the extended reals. -/
theorem inv_3 :
    Named.named (F := Ideal) Cert.KernelIdeal.κ "inv_3" (φ := .f32) 0x3EAAAAAB#32 = ((1 / 3 : ℝ) : EReal) :=
  IdealRules.named_const.ideal_named_scalar _ _ _ _ rfl

/-! ## The reference's stages at an atom -/

section Ref
variable (X2 X3 : (⟨Cert.ReferenceIdeal.S100000x3x256, .f32⟩ : BufTy).Contents (Elt Ideal))

/-- The mixed vector feature at an entry: half of each input. -/
theorem ref_mix (i : Cert.ReferenceIdeal.S100000x3x256.Idx) :
    Cert.ReferenceIdeal.Read.val_main_v144 (F := Ideal) X2 X3 i = (X2 i : EReal) * cHalf + (X3 i : EReal) * cHalf := by
  have h0 : Cert.ReferenceIdeal.Read.val_main_v140 (F := Ideal) i = cHalf :=
    (Cert.ReferenceIdeal.Read.val_main_v140_apply i).trans rfl
  have h2 : Cert.ReferenceIdeal.Read.val_main_v142 (F := Ideal) i = cHalf :=
    (Cert.ReferenceIdeal.Read.val_main_v142_apply i).trans rfl
  show (X2 i : EReal) * Cert.ReferenceIdeal.Read.val_main_v140 (F := Ideal) i
      + (X3 i : EReal) * Cert.ReferenceIdeal.Read.val_main_v142 (F := Ideal) i = _
  rw [h0, h2]

/-- The norm of component k of atom a: the square root of the sum over the lanes of the squared mixed entries. -/
theorem ref_norm (a : Fin 100000) (k : Fin 3) :
    Cert.ReferenceIdeal.Read.val_main_v145 (F := Ideal) X2 X3 (ix2 a k)
      = Ideal.sqrt (∑ j : Fin 256,
          ((X2 (ix3 a k j) : EReal) * cHalf + (X3 (ix3 a k j) : EReal) * cHalf)
            * ((X2 (ix3 a k j) : EReal) * cHalf + (X3 (ix3 a k j) : EReal) * cHalf)) := by
  rw [Cert.ReferenceIdeal.Read.val_main_v145_apply, Ideal.hostUnary_sqrt_def,
    Cert.ReferenceIdeal.Read.val_main_call9_v1_apply, Cert.ReferenceIdeal.Read.val_main_call9_cst_apply,
    Ideal.ofBits_def, Ideal.ofBits_zero_f32, zero_add]
  refine congrArg Ideal.sqrt (Finset.sum_congr rfl fun j _ => ?_)
  have hi : Cert.ReferenceIdeal.Read.idx_main_call9_v1 (ix2 a k) j = ix3 a k j :=
    funext fun d => Fin.ext (by match d with | ⟨0, _⟩ => rfl | ⟨1, _⟩ => rfl | ⟨2, _⟩ => rfl)
  rw [hi]
  show Cert.ReferenceIdeal.Read.val_main_v144 (F := Ideal) X2 X3 (ix3 a k j)
      * Cert.ReferenceIdeal.Read.val_main_v144 (F := Ideal) X2 X3 (ix3 a k j) = _
  rw [ref_mix]

/-- The mean over the three components of atom a: the three norms summed, times one third. -/
theorem ref_v148 (a : Fin 100000) :
    Cert.ReferenceIdeal.Read.val_main_v148 (F := Ideal) X2 X3 (ix1 a)
      = (Cert.ReferenceIdeal.Read.val_main_v145 (F := Ideal) X2 X3 (ix2 a (0 : Fin 3))
          + Cert.ReferenceIdeal.Read.val_main_v145 (F := Ideal) X2 X3 (ix2 a (1 : Fin 3))
          + Cert.ReferenceIdeal.Read.val_main_v145 (F := Ideal) X2 X3 (ix2 a (2 : Fin 3))) * ((1 / 3 : ℝ) : EReal) := by
  have ha : ∀ k : Fin 3, Cert.ReferenceIdeal.Read.idx_main_v146 (ix1 a) k = ix2 a k := fun k =>
    funext fun d => Fin.ext (by match d with | ⟨0, _⟩ => rfl | ⟨1, _⟩ => rfl)
  rw [Cert.ReferenceIdeal.Read.val_main_v148_apply, Ideal.hostDivf_def, Cert.ReferenceIdeal.Read.val_main_v147_apply,
    Cert.ReferenceIdeal.Read.val_main_cst_46_apply, Ideal.ofBits_def, ofBits_three,
    Ideal.div_coe (by norm_num : (3 : ℝ) ≠ 0), Cert.ReferenceIdeal.Read.val_main_v146_apply,
    Cert.ReferenceIdeal.Read.val_main_cst_45_apply, Ideal.ofBits_def, Ideal.ofBits_zero_f32, zero_add,
    Fin.sum_univ_three, ha 0, ha 1, ha 2]

end Ref

end VmagRef

/-! ## The tile row against the atom -/

section Tile
variable (X2 X3 : (⟨Cert.ReferenceIdeal.S100000x3x256, .f32⟩ : BufTy).Contents (Elt Ideal))
  (x2 x3 : Vec Ideal S1000x768 .f32) (t : Fin 100)
  (h2 : ∀ (r : Fin 1000) (k : Fin 3) (j : Fin 256),
    x2 (ix2 r ⟨256 * k.val + j.val, by omega⟩) = X2 (ix3 ⟨1000 * t.val + r.val, by omega⟩ k j))
  (h3 : ∀ (r : Fin 1000) (k : Fin 3) (j : Fin 256),
    x3 (ix2 r ⟨256 * k.val + j.val, by omega⟩) = X3 (ix3 ⟨1000 * t.val + r.val, by omega⟩ k j))

include h2 h3 in
/-- The kernel's norm of component k of row r of tile t is the reference's of atom 1000 t + r. -/
theorem vnorm0_eq_ref (r : Fin 1000) (k : Fin 3) :
    Ideal.sqrt (vsq0 x2 x3 r k)
      = Cert.ReferenceIdeal.Read.val_main_v145 (F := Ideal) X2 X3 (ix2 ⟨1000 * t.val + r.val, by omega⟩ k) := by
  rw [VmagRef.ref_norm]
  unfold vsq0
  refine congrArg Ideal.sqrt (Finset.sum_congr rfl fun j _ => ?_)
  rw [h2 r k j, h3 r k j]

include h2 h3 in
/-- The kernel's mean vector magnitude of row r of tile t is the reference's of atom 1000 t + r. -/
theorem vmag0_eq_ref (r : Fin 1000) :
    vmag0 x2 x3 r
      = Cert.ReferenceIdeal.Read.val_main_v148 (F := Ideal) X2 X3 (ix1 ⟨1000 * t.val + r.val, by omega⟩) := by
  rw [VmagRef.ref_v148]
  unfold vmag0
  rw [VmagRef.inv_3, vnorm0_eq_ref X2 X3 x2 x3 t h2 h3 r 0, vnorm0_eq_ref X2 X3 x2 x3 t h2 h3 r 1,
    vnorm0_eq_ref X2 X3 x2 x3 t h2 h3 r 2]

end Tile

end Cert.KernelIdeal.Hand

end
-- ==== Proof.KI.Args.lean ====
/-
  The sixteen arguments of the entry function as a core finds them in memory, read as the arrays the reference's
  stages are functions of, and the three tables both programs' results are written over: the atoms' fragment labels,
  the table of projected features (one row of 256 channels per atom), and the column of mean vector magnitudes (one
  number per atom).
-/
import proofs.«412127_j15607911153865_3_alg».proof.Proof.Gen.KernelIdeal
import proofs.«412127_j15607911153865_3_alg».proof.Proof.RefReadP
import Idealize.ShloMosaic.Lib.ValueIdx

noncomputable section

namespace Cert.KernelIdeal.Hand

open Idealize.ShloMosaic Idealize.ShloMosaic.TcCoe
open Idealize.SL Idealize.SL.Sem
open Idealize.ShloMosaic.ValueIdx
open Cert.KernelIdeal

variable (m : (ℓ : Loc nD τ sig) → Buf (Elt Ideal) ℓ) (c : Dev nD)

abbrev arg0 : (⟨Cert.ReferenceIdeal.S100000x256, .f32⟩ : BufTy).Contents (Elt Ideal) := m ((c : Thread nD τ).loc main_arg0)
abbrev arg1 : (⟨Cert.ReferenceIdeal.S100000x256, .f32⟩ : BufTy).Contents (Elt Ideal) := m ((c : Thread nD τ).loc main_arg1)
abbrev arg2 : (⟨Cert.ReferenceIdeal.S100000x3x256, .f32⟩ : BufTy).Contents (Elt Ideal) := m ((c : Thread nD τ).loc main_arg2)
abbrev arg3 : (⟨Cert.ReferenceIdeal.S100000x3x256, .f32⟩ : BufTy).Contents (Elt Ideal) := m ((c : Thread nD τ).loc main_arg3)
abbrev arg4 : (⟨Cert.ReferenceIdeal.S256x256, .f32⟩ : BufTy).Contents (Elt Ideal) := m ((c : Thread nD τ).loc main_arg4)
abbrev arg5 : (⟨Cert.ReferenceIdeal.S256, .f32⟩ : BufTy).Contents (Elt Ideal) := m ((c : Thread nD τ).loc main_arg5)
abbrev arg6 : (⟨Cert.ReferenceIdeal.S256, .f32⟩ : BufTy).Contents (Elt Ideal) := m ((c : Thread nD τ).loc main_arg6)
abbrev arg7 : (⟨Cert.ReferenceIdeal.S256, .f32⟩ : BufTy).Contents (Elt Ideal) := m ((c : Thread nD τ).loc main_arg7)
abbrev arg8 : (⟨Cert.ReferenceIdeal.S256x256, .f32⟩ : BufTy).Contents (Elt Ideal) := m ((c : Thread nD τ).loc main_arg8)
abbrev arg9 : (⟨Cert.ReferenceIdeal.S256, .f32⟩ : BufTy).Contents (Elt Ideal) := m ((c : Thread nD τ).loc main_arg9)
abbrev arg10 : (⟨Cert.ReferenceIdeal.S256x256, .f32⟩ : BufTy).Contents (Elt Ideal) := m ((c : Thread nD τ).loc main_arg10)
abbrev arg11 : (⟨Cert.ReferenceIdeal.S256x32, .f32⟩ : BufTy).Contents (Elt Ideal) := m ((c : Thread nD τ).loc main_arg11)
abbrev arg12 : (⟨Cert.ReferenceIdeal.S32, .f32⟩ : BufTy).Contents (Elt Ideal) := m ((c : Thread nD τ).loc main_arg12)
abbrev arg13 : (⟨Cert.ReferenceIdeal.S32x1, .f32⟩ : BufTy).Contents (Elt Ideal) := m ((c : Thread nD τ).loc main_arg13)
abbrev arg14 : (⟨Cert.ReferenceIdeal.S1, .f32⟩ : BufTy).Contents (Elt Ideal) := m ((c : Thread nD τ).loc main_arg14)
abbrev arg15 : (⟨Cert.ReferenceIdeal.S100000, .i32⟩ : BufTy).Contents (Elt Ideal) := m ((c : Thread nD τ).loc main_arg15)

/-- The fragment label of each atom, a 32-bit word. -/
abbrev labels : Fin 100000 → BitVec 32 := fun i => arg15 m c (ix1 i)

/-- The projected features of each atom, as the reference computes them. -/
abbrev projTable : Fin 100000 → Fin 256 → EReal := fun i j =>
  Cert.ReferenceIdeal.Read.val_main_v37 (F := Ideal) (arg0 m c) (arg1 m c) (arg4 m c) (arg5 m c) (arg6 m c) (arg7 m c) (arg8 m c)
    (arg9 m c) (ix2 i j)

/-- The mean vector magnitude of each atom, as the reference computes it. -/
abbrev vmagCol : Fin 100000 → EReal := fun i =>
  Cert.ReferenceIdeal.Read.val_main_v148 (F := Ideal) (arg2 m c) (arg3 m c) (ix1 i)

end Cert.KernelIdeal.Hand

end
-- ==== Proof.KI.Moments.lean ====
/-
  The table the second launch reads, column family by column family, as per-fragment moments of the reference's own
  per-atom quantities.

  The table is the sum of what the two core halves of the first launch left.  Each half's block holds, at row f and
  column col, the sum over its fifty tiles of the tile's contribution, and a tile contributes the sum over its 1000
  rows of (1 if the row's label is the word of f, else 0) times the row's feature column col.  Tile t, row r is atom
  1000 t + r: its label block entry is the atom's label, and its feature column is a function of the atom alone —
  a channel of the reference's projected row, the squared norm of that row, the constant one, the reference's mean
  vector magnitude minus the centring constant, or the square of that.  Summing over two halves of fifty tiles of
  1000 rows is summing over the 100000 atoms, which is the moment of the column over the fragment's atoms.
-/
import proofs.«412127_j15607911153865_3_alg».proof.Proof.KI.Struct0
import proofs.«412127_j15607911153865_3_alg».proof.Proof.KI.K0Point
import proofs.«412127_j15607911153865_3_alg».proof.Proof.KI.Accum0
import proofs.«412127_j15607911153865_3_alg».proof.Proof.KI.ProjRef
import proofs.«412127_j15607911153865_3_alg».proof.Proof.KI.VmagRef
import proofs.«412127_j15607911153865_3_alg».proof.Proof.KI.Args
import proofs.«412127_j15607911153865_3_alg».proof.Proof.KI.Spec
import Mathlib.Algebra.BigOperators.Fin
import Mathlib.Algebra.BigOperators.Group.Finset.Basic

noncomputable section

namespace Cert.KernelIdeal.Hand

open scoped BigOperators
open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## One tile's contribution -/

/-- What one grid point adds to the entry (f, col): over the tile's rows, the one-hot entry times the feature column. -/
def contrib0 : Acc0Contrib := fun x0 x1 x2 x3 x4 w1 b1 g be w2 b2 f col =>
  ∑ r : Fin 1000, (if (x4 (ix2 r (0 : Fin 1)) : BitVec 32) = BitVec.ofNat 32 f.val then (1 : EReal) else 0)
    * rhs0 (F := Ideal) x0 x1 x2 x3 w1 b1 g be w2 b2 (ix2 r col)

/-- A tile whose rows are the atoms base, base + 1, …: when the label column holds the atoms' labels and the feature
    column their values of a, the tile's contribution is the sum over its atoms of membership times value. -/
theorem contrib0_eq (ids : Fin 100000 → BitVec 32) (a : Fin 100000 → EReal)
    (x0 x1 : Vec Ideal S1000x256 .f32) (x2 x3 : Vec Ideal S1000x768 .f32) (x4 : Vec Ideal S1000x1 .i32)
    (w1 : Vec Ideal S256x256 .bf16) (b1 g be : Vec Ideal S1x256 .f32) (w2 : Vec Ideal S256x256 .bf16) (b2 : Vec Ideal S1x256 .f32)
    (f : Fin 2048) (col : Fin 384) (base : ℕ) (hb : base + 1000 ≤ 100000)
    (hid : ∀ r : Fin 1000, (x4 (ix2 r (0 : Fin 1)) : BitVec 32) = ids ⟨base + r.val, by omega⟩)
    (hv : ∀ r : Fin 1000, rhs0 (F := Ideal) x0 x1 x2 x3 w1 b1 g be w2 b2 (ix2 r col) = a ⟨base + r.val, by omega⟩) :
    contrib0 x0 x1 x2 x3 x4 w1 b1 g be w2 b2 f col
      = ∑ r : Fin 1000, Cert.Spec.hot ids ⟨base + r.val, by omega⟩ f * a ⟨base + r.val, by omega⟩ := by
  unfold contrib0 Cert.Spec.hot
  refine Finset.sum_congr rfl fun r _ => ?_
  rw [hid r, hv r]

variable (m : (ℓ : Loc nD τ sig) → Buf (Elt Ideal) ℓ) (c : Dev nD)

/-! ## A tile's rows are the reference's atoms -/

/-- The projected features of tile t, row r are the reference's projected row of atom 1000 t + r. -/
theorem proj_blk (t : Fin cfg0.N) (r : Fin 1000) (j : Fin 256) :
    proj0 (F := Ideal) (iblk0 (F := Ideal) (V1 m) c 0 t) (iblk0 (F := Ideal) (V1 m) c 1 t) (iblk0 (F := Ideal) (V1 m) c 5 t)
        (iblk0 (F := Ideal) (V1 m) c 6 t) (iblk0 (F := Ideal) (V1 m) c 7 t) (iblk0 (F := Ideal) (V1 m) c 8 t)
        (iblk0 (F := Ideal) (V1 m) c 9 t) (iblk0 (F := Ideal) (V1 m) c 10 t) (ix2 r j)
      = projTable m c ⟨1000 * t.val + r.val, by have := N0_lt t; omega⟩ j :=
  ProjRef.proj0_eq_ref (arg0 m c) (arg1 m c) (arg4 m c) (arg5 m c) (arg6 m c) (arg7 m c) (arg8 m c) (arg9 m c)
    (iblk0 (F := Ideal) (V1 m) c 0 t) (iblk0 (F := Ideal) (V1 m) c 1 t) (iblk0 (F := Ideal) (V1 m) c 5 t)
    (iblk0 (F := Ideal) (V1 m) c 9 t) (iblk0 (F := Ideal) (V1 m) c 6 t) (iblk0 (F := Ideal) (V1 m) c 7 t)
    (iblk0 (F := Ideal) (V1 m) c 8 t) (iblk0 (F := Ideal) (V1 m) c 10 t) ⟨t.val, N0_lt t⟩
    (blk0_scalar m c t) (blk0_scalar' m c t) (blk0_w1 m c t) (blk0_w2 m c t) (blk0_b1 m c t) (blk0_lng m c t)
    (blk0_lnb m c t) (blk0_b2 m c t) r j

/-- The mean vector magnitude of tile t, row r is the reference's of atom 1000 t + r. -/
theorem vmag_blk (t : Fin cfg0.N) (r : Fin 1000) :
    vmag0 (iblk0 (F := Ideal) (V1 m) c 2 t) (iblk0 (F := Ideal) (V1 m) c 3 t) r
      = vmagCol m c ⟨1000 * t.val + r.val, by have := N0_lt t; omega⟩ :=
  vmag0_eq_ref (arg2 m c) (arg3 m c) (iblk0 (F := Ideal) (V1 m) c 2 t) (iblk0 (F := Ideal) (V1 m) c 3 t) ⟨t.val, N0_lt t⟩
    (blk0_vec m c t) (blk0_vec' m c t) r

/-! ## A core half, then the whole table -/

section Generic
variable (f : Fin 2048) (col : Fin 384) (a : Fin 100000 → EReal)
  (ha : ∀ (t : Fin cfg0.N) (r : Fin 1000),
    rhs0 (F := Ideal) (iblk0 (F := Ideal) (V1 m) c 0 t) (iblk0 (F := Ideal) (V1 m) c 1 t) (iblk0 (F := Ideal) (V1 m) c 2 t)
        (iblk0 (F := Ideal) (V1 m) c 3 t) (iblk0 (F := Ideal) (V1 m) c 5 t) (iblk0 (F := Ideal) (V1 m) c 6 t)
        (iblk0 (F := Ideal) (V1 m) c 7 t) (iblk0 (F := Ideal) (V1 m) c 8 t) (iblk0 (F := Ideal) (V1 m) c 9 t)
        (iblk0 (F := Ideal) (V1 m) c 10 t) (ix2 r col)
      = a ⟨1000 * t.val + r.val, by have := N0_lt t; omega⟩)

include ha in
/-- Core half h: after its last point the entry (f, col) is the sum, over the half's fifty tiles and their 1000 rows,
    of the atom's membership in f times the atom's value of the column. -/
theorem half_mom (h : Fin 2) :
    outsAt0 (F := Ideal) (V1 m) c (50 * h.val + 49) (lt_N0 (by omega)) (ix3 (0 : Fin 1) f col)
      = ∑ k : Fin 50, ∑ r : Fin 1000,
          Cert.Spec.hot (labels m c) ⟨1000 * (50 * h.val + k.val) + r.val, by omega⟩ f
            * a ⟨1000 * (50 * h.val + k.val) + r.val, by omega⟩ := by
  refine (outsAt0_sum (V1 m) c contrib0
    (fun x0 x1 x2 x3 x4 w1 b1 g be w2 b2 prev f col => step0_apply x0 x1 x2 x3 x4 w1 b1 g be w2 b2 prev f col) h f col).trans ?_
  refine Finset.sum_congr rfl fun k _ => ?_
  exact contrib0_eq (labels m c) a _ _ _ _ _ _ _ _ _ _ _ f col (1000 * (50 * h.val + k.val)) (by omega)
    (fun r => blk0_ids m c ⟨50 * h.val + k.val, lt_N0 (by omega)⟩ r)
    (fun r => ha ⟨50 * h.val + k.val, lt_N0 (by omega)⟩ r)

include ha in
/-- The table at (f, col) is the moment over fragment f of the column's per-atom values. -/
theorem comb_mom :
    (V3 m c main_v18 : Vec Ideal S2048x384 .f32) (ix2 f col) = Cert.Spec.mom (labels m c) a f := by
  refine (comb_eq m c f col).trans ?_
  have e0 := half_mom m c f col a ha (0 : Fin 2)
  have e1 := half_mom m c f col a ha (1 : Fin 2)
  refine (congrArg₂ (fun u v : EReal => u + v)
    ((congrFun (outsAt0_congr (V1 m) c (show 49 = 50 * (0 : Fin 2).val + 49 from rfl) _ _) _).trans e0)
    ((congrFun (outsAt0_congr (V1 m) c (show 99 = 50 * (1 : Fin 2).val + 49 from rfl) _ _) _).trans e1)).trans ?_
  refine (Fin.sum_univ_two (fun h : Fin 2 => ∑ k : Fin 50, ∑ r : Fin 1000,
    Cert.Spec.hot (labels m c) ⟨1000 * (50 * h.val + k.val) + r.val, by omega⟩ f
      * a ⟨1000 * (50 * h.val + k.val) + r.val, by omega⟩)).symm.trans ?_
  exact sum_tiles (fun i => Cert.Spec.hot (labels m c) i f * a i)

end Generic

/-! ## The five column families -/

/-- Columns 0 … 255: the per-fragment sums of the projected channels. -/
theorem comb_proj (f : Fin 2048) (j : Fin 256) :
    (V3 m c main_v18 : Vec Ideal S2048x384 .f32) (ix2 f (Fin.castLE (by decide) j))
      = Cert.Spec.segsum (labels m c) (projTable m c) f j :=
  comb_mom m c f (Fin.castLE (by decide) j) (fun i => projTable m c i j) fun t r =>
    (rhs0_proj _ _ _ _ _ _ _ _ _ _ r j).trans (proj_blk m c t r j)

/-- Column 256: the per-fragment sum of the squared norms of the projected rows. -/
theorem comb_sq (f : Fin 2048) :
    (V3 m c main_v18 : Vec Ideal S2048x384 .f32) (ix2 f (256 : Fin 384))
      = Cert.Spec.mom (labels m c) (fun i => ∑ j, projTable m c i j * projTable m c i j) f :=
  comb_mom m c f (256 : Fin 384) (fun i => ∑ j, projTable m c i j * projTable m c i j) fun t r =>
    (rhs0_sq _ _ _ _ _ _ _ _ _ _ r).trans
      (Finset.sum_congr rfl fun j _ => congrArg₂ (fun u v : EReal => u * v) (proj_blk m c t r j) (proj_blk m c t r j))

/-- Column 257: the fragment's number of atoms. -/
theorem comb_cnt (f : Fin 2048) :
    (V3 m c main_v18 : Vec Ideal S2048x384 .f32) (ix2 f (257 : Fin 384)) = Cert.Spec.cnt (labels m c) f :=
  comb_mom m c f (257 : Fin 384) (fun _ => 1) fun t r => rhs0_one _ _ _ _ _ _ _ _ _ _ r

/-- Column 258: the per-fragment sum of the centred vector magnitudes. -/
theorem comb_vm (f : Fin 2048) :
    (V3 m c main_v18 : Vec Ideal S2048x384 .f32) (ix2 f (258 : Fin 384))
      = Cert.Spec.mom (labels m c) (fun i => vmagCol m c i - Cert.Spec.cShift) f :=
  comb_mom m c f (258 : Fin 384) (fun i => vmagCol m c i - Cert.Spec.cShift) fun t r =>
    (rhs0_vm _ _ _ _ _ _ _ _ _ _ r).trans (congrArg (fun u : EReal => u - Cert.Spec.cShift) (vmag_blk m c t r))

/-- Column 259: the per-fragment sum of the squared centred vector magnitudes. -/
theorem comb_vm2 (f : Fin 2048) :
    (V3 m c main_v18 : Vec Ideal S2048x384 .f32) (ix2 f (259 : Fin 384))
      = Cert.Spec.mom (labels m c) (fun i => (vmagCol m c i - Cert.Spec.cShift) * (vmagCol m c i - Cert.Spec.cShift)) f :=
  comb_mom m c f (259 : Fin 384)
    (fun i => (vmagCol m c i - Cert.Spec.cShift) * (vmagCol m c i - Cert.Spec.cShift)) fun t r =>
    (rhs0_vm2 _ _ _ _ _ _ _ _ _ _ r).trans
      (congrArg (fun u : EReal => (u - Cert.Spec.cShift) * (u - Cert.Spec.cShift)) (vmag_blk m c t r))

end Cert.KernelIdeal.Hand

end
-- ==== Proof.KI.Struct2.lean ====
/-
  The third launch, structurally.  Its grid is 2 × 2: point number t has coordinates (t / 2, t % 2), the first
  being the core half.  Five windows:
    0. rows of the [2048, 256] table of normalised group means, 512 at a time: the point (a, b) takes block row
       2·a + b, which is its own number t, so the block's row r is the table's row 512·t + r;
    1. the same table whole, at every point;
    2. the one-element adaptive target, at every point;
    3, 4. two [2, 1, 1] arrays of one-element accumulators (loss sum, mask count): the point (a, b) works on entry a,
       and the entry is written back when the block index is about to change or the grid ends — exactly at the odd
       points 1 and 3, the last of each core half.
  So entry h of each output array ends holding what its accumulator held after point 2·h + 1, and the accumulators
  restart from zero at the even points 0 and 2.
-/
import proofs.«412127_j15607911153865_3_alg».proof.Proof.KI.Chain
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

/-! ## The grid of the third launch -/

/-- The grid has four points. -/
theorem N2 : cfg2.N = 4 := N_2

/-- Point t has coordinates (t / 2, t % 2): twice the first plus the second is t, and the second is t's parity. -/
theorem coords2 : ∀ t : Fin cfg2.N,
    2 * ((grid2.coords t) 0).val + ((grid2.coords t) 1).val = t.val ∧ ((grid2.coords t) 1).val = t.val % 2 :=
  (by decide +kernel : ∀ t : Fin grid2.N, _)

/-- The five index maps, evaluated at every point of the grid: window 0 takes block row t; windows 1 and 2 always take
    block (0, 0); windows 3 and 4 take block (t / 2, 0, 0). -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 3) = t.val / 2 ∧ win2_3.index t (1 : Fin 3) = 0
    ∧ win2_3.index t (2 : Fin 3) = 0 :=
  (by decide +kernel : ∀ t : Fin grid2.N, _)
theorem idx2_4 : ∀ t : Fin cfg2.N, win2_4.index t (0 : Fin 3) = t.val / 2 ∧ win2_4.index t (1 : Fin 3) = 0
    ∧ win2_4.index t (2 : Fin 3) = 0 :=
  (by decide +kernel : ∀ t : Fin grid2.N, _)

/-- The value an accumulator restarts from is the zero word, read at its one index: zero. -/
theorem k2_pay3_zero : k2_pay3 (F := Ideal) (ix3 (0 : Fin 1) (0 : Fin 1) (0 : Fin 1)) = 0 := by
  show Ideal.ofBits .f32 0x00000000#32 = 0
  exact Ideal.ofBits_zero_f32

section AtV
variable {F : FTy → Type} [FloatOps F] [Named F]
variable (V : (c : Dev nD) → (b : Ref sig .tc) → Buf (Elt F) ((c : Thread nD τ).loc b))

/-- The accumulators after point n depend on n only, not on the proof that n is a point. -/
theorem outsAt2_congr (c : Dev nD) {n n' : ℕ} (e : n = n') (h : n < cfg2.N) (h' : n' < cfg2.N) :
    outsAt2 V c n h = outsAt2 V c n' h' := by subst e; rfl

/-- The accumulators point by point: points 0 and 2 start from the zero pair, points 1 and 3 continue from the point before. -/
theorem outsAt2_0 (c : Dev nD) (h : 0 < cfg2.N) :
    outsAt2 V c 0 h = point2 V c ⟨0, h⟩ (k2_pay3 (F := F), k2_pay4 (F := F)) := by
  rw [outsAt2]
theorem outsAt2_1 (c : Dev nD) (h : 1 < cfg2.N) :
    outsAt2 V c 1 h = point2 V c ⟨1, h⟩ (outsAt2 V c 0 (Nat.lt_of_succ_lt h)) := by
  rw [outsAt2]; rfl

/-- Window 0's block at point t, at row r and column j, is the table at row 512·t + r and column j. -/
theorem iblk2_rows (c : Dev nD) (t : Fin cfg2.N) (r : Fin 512) (j : Fin 256) :
    (iblk2 V c 0 t : Vec F S512x256 .f32) (ix2 r j)
      = (V c main_v23_0 : Vec F S2048x256 .f32)
          (ix2 ⟨512 * t.val + r.val, by have := lt_of_lt_of_eq t.isLt N2; have := r.isLt; omega⟩ j) := by
  obtain ⟨e0, e1⟩ := idx2_0 t
  unfold iblk2
  rw [View.read_apply]
  show V c main_v23_0 (((cfg2.win 0).blk t).view.emb (ix2 r j)) = _
  congr 1
  funext a
  apply Fin.ext
  match a with
  | ⟨0, _⟩ => show win2_0.index t (0 : Fin 2) * 512 + 1 * r.val = 512 * t.val + r.val; rw [e0]; omega
  | ⟨1, _⟩ => show win2_0.index t (1 : Fin 2) * 256 + 1 * j.val = j.val; rw [e1]; omega

/-- Window 1's block at every point is the whole table. -/
theorem iblk2_full (c : Dev nD) (t : Fin cfg2.N) :
    (iblk2 V c 1 t : Vec F S2048x256 .f32) = V c main_v23_0 := by
  obtain ⟨e0, e1⟩ := idx2_1 t
  funext i
  unfold iblk2
  rw [View.read_apply]
  show V c main_v23_0 (((cfg2.win 1).blk t).view.emb i) = V c main_v23_0 i
  congr 1
  funext a
  apply Fin.ext
  match a with
  | ⟨0, _⟩ => show win2_1.index t (0 : Fin 2) * 2048 + 1 * (i 0).val = (i 0).val; rw [e0]; omega
  | ⟨1, _⟩ => show win2_1.index t (1 : Fin 2) * 256 + 1 * (i 1).val = (i 1).val; rw [e1]; omega

/-- Window 2's block at every point is the whole one-element array. -/
theorem iblk2_tg (c : Dev nD) (t : Fin cfg2.N) :
    (iblk2 V c 2 t : Vec F S1x1 .f32) = V c main_v27 := by
  obtain ⟨e0, e1⟩ := idx2_2 t
  funext i
  unfold iblk2
  rw [View.read_apply]
  show V c main_v27 (((cfg2.win 2).blk t).view.emb i) = V c main_v27 i
  congr 1
  funext a
  apply Fin.ext
  match a with
  | ⟨0, _⟩ => show win2_2.index t (0 : Fin 2) * 1 + 1 * (i 0).val = (i 0).val; rw [e0]; omega
  | ⟨1, _⟩ => show win2_2.index t (1 : Fin 2) * 1 + 1 * (i 1).val = (i 1).val; rw [e1]; omega

/-- The last point of core half h, 2·h + 1, is a point of the grid. -/
theorem odd_lt2 (h : Fin 2) : 2 * h.val + 1 < cfg2.N := by have := h.isLt; rw [N2]; omega

/-- The one index of a one-element block. -/
abbrev z3 : S1x1x1.Idx := ix3 (0 : Fin 1) (0 : Fin 1) (0 : Fin 1)

/-- The loss-sum array after the launch: entry h is what the accumulator held after the last point of core half h. -/
abbrev G3 (c : Dev nD) : Buf (Elt F) ((c : Thread nD τ).loc main_v28_0) :=
  fun i => (outsAt2 V c (2 * (i 0).val + 1) (odd_lt2 (i 0))).1 z3
/-- The mask-count array after the launch, likewise. -/
abbrev G4 (c : Dev nD) : Buf (Elt F) ((c : Thread nD τ).loc main_v28_1) :=
  fun i => (outsAt2 V c (2 * (i 0).val + 1) (odd_lt2 (i 0))).2 z3

/-- What an odd point t writes back to the loss-sum array is its block of that array: the block is entry t / 2, and
    2·(t / 2) + 1 = t for odd t. -/
theorem flushed2_3_eq (c : Dev nD) (t : Fin cfg2.N) (hf : (cfg2.win 3).flush t = true) :
    (dat2 V c).flushed 3 t = ((cfg2.win 3).blk t).view.read (Elt F) (G3 V c) := by
  have hodd : t.val % 2 = 1 := (flush2_3 t).mp hf
  obtain ⟨e0, e1, e2⟩ := idx2_3 t
  show (cfg2.win 3).cut (grid2.coords t) ((dat2 V c).after 3 t) = _
  rw [after2_3]
  funext j
  rw [View.read_apply]
  show (outsAt2 V c t.val t.isLt).1 ((cfg2.win 3).xinj (grid2.coords t) j) = G3 V c (((cfg2.win 3).blk t).view.emb j)
  have hj0 : (j 0).val < 1 := (j 0).isLt
  have hj1 : (j 1).val < 1 := (j 1).isLt
  have hj2 : (j 2).val < 1 := (j 2).isLt
  have hx : (cfg2.win 3).xinj (grid2.coords t) j = z3 := by
    funext a
    apply Fin.ext
    match a with
    | ⟨0, _⟩ => show (j 0).val = 0; omega
    | ⟨1, _⟩ => show (j 1).val = 0; omega
    | ⟨2, _⟩ => show (j 2).val = 0; omega
  have hn : t.val = 2 * ((((cfg2.win 3).blk t).view.emb j) 0).val + 1 := by
    show t.val = 2 * (win2_3.index t (0 : Fin 3) * 1 + 1 * (j 0).val) + 1
    rw [e0]; omega
  rw [hx]
  exact congrFun (congrArg Prod.fst (outsAt2_congr V c hn t.isLt _)) z3

/-- The same for the mask-count array. -/
theorem flushed2_4_eq (c : Dev nD) (t : Fin cfg2.N) (hf : (cfg2.win 4).flush t = true) :
    (dat2 V c).flushed 4 t = ((cfg2.win 4).blk t).view.read (Elt F) (G4 V c) := by
  have hodd : t.val % 2 = 1 := (flush2_4 t).mp hf
  obtain ⟨e0, e1, e2⟩ := idx2_4 t
  show (cfg2.win 4).cut (grid2.coords t) ((dat2 V c).after 4 t) = _
  rw [after2_4]
  funext j
  rw [View.read_apply]
  show (outsAt2 V c t.val t.isLt).2 ((cfg2.win 4).xinj (grid2.coords t) j) = G4 V c (((cfg2.win 4).blk t).view.emb j)
  have hj0 : (j 0).val < 1 := (j 0).isLt
  have hj1 : (j 1).val < 1 := (j 1).isLt
  have hj2 : (j 2).val < 1 := (j 2).isLt
  have hx : (cfg2.win 4).xinj (grid2.coords t) j = z3 := by
    funext a
    apply Fin.ext
    match a with
    | ⟨0, _⟩ => show (j 0).val = 0; omega
    | ⟨1, _⟩ => show (j 1).val = 0; omega
    | ⟨2, _⟩ => show (j 2).val = 0; omega
  have hn : t.val = 2 * ((((cfg2.win 4).blk t).view.emb j) 0).val + 1 := by
    show t.val = 2 * (win2_4.index t (0 : Fin 3) * 1 + 1 * (j 0).val) + 1
    rw [e0]; omega
  rw [hx]
  exact congrFun (congrArg Prod.snd (outsAt2_congr V c hn t.isLt _)) z3

/-- Entry h of the [2, 1, 1] array lies in the block the last point of core half h writes back. -/
theorem mem_blk2_3 (h : Fin 2) :
    (ix3 h (0 : Fin 1) (0 : Fin 1) : S2x1x1.Idx) ∈ ((cfg2.win 3).blk ⟨2 * h.val + 1, odd_lt2 h⟩).view.set := by
  obtain ⟨e0, e1, e2⟩ := idx2_3 ⟨2 * h.val + 1, odd_lt2 h⟩
  show _ ∈ ((View.whole main_v28_0).slice (win2_3.rect ⟨2 * h.val + 1, odd_lt2 h⟩)).set
  rw [View.set_slice_whole, Rect.mem_set_unit]
  intro a
  match a with
  | ⟨0, _⟩ =>
    show win2_3.index ⟨2 * h.val + 1, odd_lt2 h⟩ (0 : Fin 3) * 1 ≤ h.val
      ∧ h.val < win2_3.index ⟨2 * h.val + 1, odd_lt2 h⟩ (0 : Fin 3) * 1 + 1
    rw [e0]; dsimp only; omega
  | ⟨1, _⟩ =>
    show win2_3.index ⟨2 * h.val + 1, odd_lt2 h⟩ (1 : Fin 3) * 1 ≤ 0
      ∧ 0 < win2_3.index ⟨2 * h.val + 1, odd_lt2 h⟩ (1 : Fin 3) * 1 + 1
    rw [e1]; omega
  | ⟨2, _⟩ =>
    show win2_3.index ⟨2 * h.val + 1, odd_lt2 h⟩ (2 : Fin 3) * 1 ≤ 0
      ∧ 0 < win2_3.index ⟨2 * h.val + 1, odd_lt2 h⟩ (2 : Fin 3) * 1 + 1
    rw [e2]; omega

/-- The same for the mask-count array. -/
theorem mem_blk2_4 (h : Fin 2) :
    (ix3 h (0 : Fin 1) (0 : Fin 1) : S2x1x1.Idx) ∈ ((cfg2.win 4).blk ⟨2 * h.val + 1, odd_lt2 h⟩).view.set := by
  obtain ⟨e0, e1, e2⟩ := idx2_4 ⟨2 * h.val + 1, odd_lt2 h⟩
  show _ ∈ ((View.whole main_v28_1).slice (win2_4.rect ⟨2 * h.val + 1, odd_lt2 h⟩)).set
  rw [View.set_slice_whole, Rect.mem_set_unit]
  intro a
  match a with
  | ⟨0, _⟩ =>
    show win2_4.index ⟨2 * h.val + 1, odd_lt2 h⟩ (0 : Fin 3) * 1 ≤ h.val
      ∧ h.val < win2_4.index ⟨2 * h.val + 1, odd_lt2 h⟩ (0 : Fin 3) * 1 + 1
    rw [e0]; dsimp only; omega
  | ⟨1, _⟩ =>
    show win2_4.index ⟨2 * h.val + 1, odd_lt2 h⟩ (1 : Fin 3) * 1 ≤ 0
      ∧ 0 < win2_4.index ⟨2 * h.val + 1, odd_lt2 h⟩ (1 : Fin 3) * 1 + 1
    rw [e1]; omega
  | ⟨2, _⟩ =>
    show win2_4.index ⟨2 * h.val + 1, odd_lt2 h⟩ (2 : Fin 3) * 1 ≤ 0
      ∧ 0 < win2_4.index ⟨2 * h.val + 1, odd_lt2 h⟩ (2 : Fin 3) * 1 + 1
    rw [e2]; omega

/-- The loss-sum array after the launch, entry by entry. -/
theorem arr2_3 (c : Dev nD) (h : Fin 2) :
    (dat2 V c).arrAt 3 cfg2.N (ix3 h (0 : Fin 1) (0 : Fin 1)) = (outsAt2 V c (2 * h.val + 1) (odd_lt2 h)).1 z3 :=
  (dat2 V c).arrAt_apply_of_mem 3 (G3 V c) (flushed2_3_eq V c) cfg2.N ⟨2 * h.val + 1, odd_lt2 h⟩
    (ix3 h (0 : Fin 1) (0 : Fin 1)) (odd_lt2 h)
    ((flush2_3 _).mpr (by show (2 * h.val + 1) % 2 = 1; omega)) (mem_blk2_3 h)
/-- The mask-count array after the launch, entry by entry. -/
theorem arr2_4 (c : Dev nD) (h : Fin 2) :
    (dat2 V c).arrAt 4 cfg2.N (ix3 h (0 : Fin 1) (0 : Fin 1)) = (outsAt2 V c (2 * h.val + 1) (odd_lt2 h)).2 z3 :=
  (dat2 V c).arrAt_apply_of_mem 4 (G4 V c) (flushed2_4_eq V c) cfg2.N ⟨2 * h.val + 1, odd_lt2 h⟩
    (ix3 h (0 : Fin 1) (0 : Fin 1)) (odd_lt2 h)
    ((flush2_4 _).mpr (by show (2 * h.val + 1) % 2 = 1; omega)) (mem_blk2_4 h)

theorem outsAt2_2 (c : Dev nD) (h : 2 < cfg2.N) :
    outsAt2 V c 2 h = point2 V c ⟨2, h⟩ (k2_pay3 (F := F), k2_pay4 (F := F)) := by
  rw [outsAt2]; rfl
theorem outsAt2_3 (c : Dev nD) (h : 3 < cfg2.N) :
    outsAt2 V c 3 h = point2 V c ⟨3, h⟩ (outsAt2 V c 2 (Nat.lt_of_succ_lt h)) := by
  rw [outsAt2]; rfl
/-- The four together. -/
theorem outsAt2_unfold (c : Dev nD) (h0 : 0 < cfg2.N) (h1 : 1 < cfg2.N) (h2 : 2 < cfg2.N) (h3 : 3 < cfg2.N) :
    outsAt2 V c 0 h0 = point2 V c ⟨0, h0⟩ (k2_pay3 (F := F), k2_pay4 (F := F))
    ∧ outsAt2 V c 1 h1 = point2 V c ⟨1, h1⟩ (outsAt2 V c 0 h0)
    ∧ outsAt2 V c 2 h2 = point2 V c ⟨2, h2⟩ (k2_pay3 (F := F), k2_pay4 (F := F))
    ∧ outsAt2 V c 3 h3 = point2 V c ⟨3, h3⟩ (outsAt2 V c 2 h2) :=
  ⟨outsAt2_0 V c h0, outsAt2_1 V c h1, outsAt2_2 V c h2, outsAt2_3 V c h3⟩

end AtV

theorem k2_pay4_zero : k2_pay4 (F := Ideal) (ix3 (0 : Fin 1) (0 : Fin 1) (0 : Fin 1)) = 0 := by
  show Ideal.ofBits .f32 0x00000000#32 = 0
  exact Ideal.ofBits_zero_f32

/-! ## At the contents the third launch is entered with -/

section AtM
variable (m : (ℓ : Loc nD τ sig) → Buf (Elt Ideal) ℓ)

/-- After the launch, entry h of the loss-sum array is the sum accumulator after point 2·h + 1, -/
theorem out2_sum (c : Dev nD) (h : Fin 2) :
    (W6 m c (Proc.devRef .tc main_v28_0) : Vec Ideal S2x1x1 .f32) (ix3 h (0 : Fin 1) (0 : Fin 1))
      = (outsAt2 (F := Ideal) (V5 m) c (2 * h.val + 1) (odd_lt2 h)).1 (ix3 (0 : Fin 1) (0 : Fin 1) (0 : Fin 1)) :=
  (congrFun (W6_out3 m c) _).trans (arr2_3 (V5 m) c h)
/-- and entry h of the mask-count array is the count accumulator after point 2·h + 1. -/
theorem out2_cnt (c : Dev nD) (h : Fin 2) :
    (W6 m c (Proc.devRef .tc main_v28_1) : Vec Ideal S2x1x1 .f32) (ix3 h (0 : Fin 1) (0 : Fin 1))
      = (outsAt2 (F := Ideal) (V5 m) c (2 * h.val + 1) (odd_lt2 h)).2 (ix3 (0 : Fin 1) (0 : Fin 1) (0 : Fin 1)) :=
  (congrFun (W6_out4 m c) _).trans (arr2_4 (V5 m) c h)

/-- The three input windows' blocks, at the contents the launch is entered with. -/
theorem blk2_rows (c : Dev nD) (t : Fin cfg2.N) (r : Fin 512) (j : Fin 256) :
    (iblk2 (F := Ideal) (V5 m) c 0 t : Vec Ideal S512x256 .f32) (ix2 r j)
      = (V5 m c main_v23_0 : Vec Ideal S2048x256 .f32)
          (ix2 ⟨512 * t.val + r.val, by have := lt_of_lt_of_eq t.isLt N2; have := r.isLt; omega⟩ j) :=
  iblk2_rows (V5 m) c t r j
theorem blk2_full (c : Dev nD) (t : Fin cfg2.N) :
    (iblk2 (F := Ideal) (V5 m) c 1 t : Vec Ideal S2048x256 .f32) = V5 m c main_v23_0 :=
  iblk2_full (V5 m) c t
theorem blk2_tg (c : Dev nD) (t : Fin cfg2.N) :
    (iblk2 (F := Ideal) (V5 m) c 2 t : Vec Ideal S1x1 .f32) = V5 m c main_v27 :=
  iblk2_tg (V5 m) c t

end AtM

end Cert.KernelIdeal.Hand

end
-- ==== Proof.KI.K2.lean ====
/-
  Launch 2 (the similarity loss, grid 2 × 2) read at an index on the extended reals: the mask "global row below column",
  the tile of Huber losses of the row products against the target, the two accumulators after a grid point, and the
  sums over the four tiles re-indexed to all 2048 rows.
-/
import proofs.«412127_j15607911153865_3_alg».proof.Proof.KI.Terms
import proofs.«412127_j15607911153865_3_alg».proof.Proof.KI.Spec
import Idealize.ShloMosaic.Lib.ValueIdx
import Idealize.ShloMosaic.Lib.Pipeline.Value
import Idealize.ShloMosaic.Lib.ValueLayout
import Idealize.ShloMosaic.Lib.IdealHost
import Idealize.ShloMosaic.Lib.StableHlo.Predicate
import Idealize.ShloMosaic.PureOps.Ideal.Laws
import Mathlib.Algebra.BigOperators.Fin
import Mathlib.Algebra.Order.BigOperators.Group.Finset
import Mathlib.Data.EReal.Basic
import Mathlib.Logic.Equiv.Fin.Basic

set_option Elab.async false

noncomputable section

namespace Cert.KernelIdeal.Hand

open Idealize.ShloMosaic Idealize.ShloMosaic.TcCoe Idealize.ShloMosaic.ValueIdx
open Cert.KernelIdeal Cert.KernelIdeal.Gen Cert.Spec

/-! ## The rows of a grid point -/

/-- Point (a, b) of the 2 × 2 grid takes the 512 rows from 512 · (2a + b) on: all below 2048. -/
theorem row_lt (i : grid2.Coords) (r : Fin 512) : 512 * (2 * (i 0).val + (i 1).val) + r.val < 2048 := by
  have h0 : (i 0).val < 2 := (i 0).isLt
  have h1 : (i 1).val < 2 := (i 1).isLt
  omega

/-! ## The mask: global row below column -/

/-- The row base (2a + b) · 512 plus the local row, computed on 32-bit words, is the word of the natural number. -/
theorem row_word (a b r : ℕ) (ha : a < 2) (hb : b < 2) (hr : r < 512) :
    IntOp.addi (Scalar.muli (Scalar.addi (Scalar.muli (BitVec.ofNat 32 a) 2#32) (BitVec.ofNat 32 b)) 512#32) (BitVec.ofNat 32 r)
      = BitVec.ofNat 32 (512 * (2 * a + b) + r) := by
  apply BitVec.eq_of_toNat_eq
  simp only [IntOp.addi, Scalar.muli, Scalar.addi, IntOp.muli, BitVec.toNat_add, BitVec.toNat_mul, BitVec.toNat_ofNat,
    Nat.reducePow, Nat.reduceMod]
  omega

/-- The mask bit at (r, b) is set exactly when the global row is below the column. -/
private theorem pay5_apply (i : grid2.Coords) (r : Fin 512) (b : Fin 2048) :
    k2_pay5 i (ix2 r b) = 1#1 ↔ 512 * (2 * (i 0).val + (i 1).val) + r.val < b.val := by
  have h0 : (i 0).val < 2 := (i 0).isLt
  have h1 : (i 1).val < 2 := (i 1).isLt
  have e0 : iota .tc S512x2048 32 [0] iota_S512x2048_d0_w32 (ix2 r b) = BitVec.ofNat 32 r.val :=
    iota_single_apply _ _ _ _ _ _
  have e1 : iota .tc S512x2048 32 [1] iota_S512x2048_d1_w32 (ix2 r b) = BitVec.ofNat 32 b.val :=
    iota_single_apply _ _ _ _ _ _
  unfold k2_pay5
  show IntOp.cmpi .slt
      (IntOp.addi (Scalar.muli (Scalar.addi (Scalar.muli (BitVec.ofNat 32 (i 0).val) 2#32) (BitVec.ofNat 32 (i 1).val)) 512#32)
        (iota .tc S512x2048 32 [0] iota_S512x2048_d0_w32 (ix2 r b)))
      (iota .tc S512x2048 32 [1] iota_S512x2048_d1_w32 (ix2 r b)) = 1#1 ↔ _
  rw [e0, e1, row_word _ _ _ h0 h1 r.isLt]
  have hr := r.isLt
  have hb := b.isLt
  exact Idealize.ShloMosaic.StableHlo.Predicate.slt_ofNat_iff _ _ (by omega) (by omega)

/-! ## The tile of the similarity matrix -/

theorem lhs2_0 (j : S512x2048.Idx) (q : dot_S512x256_S2048x256_S512x2048_1_1_0_0_n_n.contr.Idx) :
    (dot_S512x256_S2048x256_S512x2048_1_1_0_0_n_n.lhsIdx j q 0).val = (j 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem lhs2_1 (j : S512x2048.Idx) (q : dot_S512x256_S2048x256_S512x2048_1_1_0_0_n_n.contr.Idx) :
    (dot_S512x256_S2048x256_S512x2048_1_1_0_0_n_n.lhsIdx j q 1).val = (q ⟨0, by decide⟩).val :=
  dot_S512x256_S2048x256_S512x2048_1_1_0_0_n_n.lhsIdx_val_of_single rfl j q
theorem rhs2_0 (j : S512x2048.Idx) (q : dot_S512x256_S2048x256_S512x2048_1_1_0_0_n_n.contr.Idx) :
    (dot_S512x256_S2048x256_S512x2048_1_1_0_0_n_n.rhsIdx j q 0).val = (j 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem rhs2_1 (j : S512x2048.Idx) (q : dot_S512x256_S2048x256_S512x2048_1_1_0_0_n_n.contr.Idx) :
    (dot_S512x256_S2048x256_S512x2048_1_1_0_0_n_n.rhsIdx j q 1).val = (q ⟨0, by decide⟩).val :=
  dot_S512x256_S2048x256_S512x2048_1_1_0_0_n_n.rhsIdx_val_of_single rfl j q

/-- The product of the row block with the whole table, contracting the channels of both: entry (r, b) is the inner
    product of row r of the block with row b of the table. -/
theorem dot2_apply (rows : Vec Ideal S512x256 .f32) (full : Vec Ideal S2048x256 .f32) (r : Fin 512) (b : Fin 2048) :
    matmul (φ₁ := .f32) (φ₂ := .f32) dot_S512x256_S2048x256_S512x2048_1_1_0_0_n_n none rows full (constant (F := Ideal) S512x2048 .f32 0x00000000#32) (ix2 r b)
      = ∑ k : Fin 256, rows (ix2 r k) * full (ix2 b k) := by
  simp only [matmul]
  rw [Ideal.matmul_constant_zero_apply, ← Equiv.sum_comp (contrEquiv1 dot_S512x256_S2048x256_S512x2048_1_1_0_0_n_n 256 rfl rfl).symm]
  refine Finset.sum_congr rfl fun k _ => ?_
  have hk := contrEquiv1_symm_val dot_S512x256_S2048x256_S512x2048_1_1_0_0_n_n 256 rfl rfl k
  have el : dot_S512x256_S2048x256_S512x2048_1_1_0_0_n_n.lhsIdx (ix2 r b) ((contrEquiv1 dot_S512x256_S2048x256_S512x2048_1_1_0_0_n_n 256 rfl rfl).symm k) = ix2 r k := funext fun a => Fin.ext (by
    match a with
    | ⟨0, _⟩ => exact lhs2_0 _ _
    | ⟨1, _⟩ => exact (lhs2_1 _ _).trans hk)
  have er : dot_S512x256_S2048x256_S512x2048_1_1_0_0_n_n.rhsIdx (ix2 r b) ((contrEquiv1 dot_S512x256_S2048x256_S512x2048_1_1_0_0_n_n 256 rfl rfl).symm k) = ix2 b k := funext fun a => Fin.ext (by
    match a with
    | ⟨0, _⟩ => exact rhs2_0 _ _
    | ⟨1, _⟩ => exact (rhs2_1 _ _).trans hk)
  rw [el, er]

/-- The distance of the product, times the word of one, from the target, at an index: the larger of the difference
    and its negative. -/
private theorem dist_apply (m : FVec Ideal S512x2048 .f32) (t : Ideal .f32) (j : S512x2048.Idx) :
    absf (subf (mulf m (broadcast S512x2048 (Scalar.ofBits (F := Ideal) .f32 0x3F800000#32))) (broadcast S512x2048 t)) j
      = max (m j * c1 - t) (-(m j * c1 - t)) := rfl

/-- The Huber branch over a vector of distances, at an index: half the square below the threshold, the threshold
    times the distance less half the threshold from it on. -/
private theorem huber_apply (d : FVec Ideal S512x2048 .f32) (j : S512x2048.Idx) :
    select (cmpf .olt d (broadcast S512x2048 (Scalar.ofBits (F := Ideal) .f32 0x3DCCCCCD#32)))
        (mulf (mulf (broadcast S512x2048 (Scalar.ofBits (F := Ideal) .f32 0x3F000000#32)) d) d)
        (mulf (broadcast S512x2048 (Scalar.ofBits (F := Ideal) .f32 0x3DCCCCCD#32))
          (subf d (broadcast S512x2048 (Scalar.ofBits (F := Ideal) .f32 0x3D4CCCCD#32)))) j
      = huber (d j) := rfl

/-- The tile entry as the body computes it: the Huber loss of the distance of the (scaled) product from the target,
    kept where the mask is set. -/
private theorem pay6_eq (i : grid2.Coords) (rows : Vec Ideal S512x256 .f32) (full : Vec Ideal S2048x256 .f32) (tg : Vec Ideal S1x1 .f32)
    (j : S512x2048.Idx) :
    k2_pay6 (F := Ideal) i rows full tg j
      = Scalar.select (k2_pay5 i j)
          (huber (max (matmul (φ₁ := .f32) (φ₂ := .f32) dot_S512x256_S2048x256_S512x2048_1_1_0_0_n_n none rows full (constant (F := Ideal) S512x2048 .f32 0x00000000#32) j * c1
                        - extractAt ![0, 0] tg inpos_S1x1_p0_0)
                      (-(matmul (φ₁ := .f32) (φ₂ := .f32) dot_S512x256_S2048x256_S512x2048_1_1_0_0_n_n none rows full (constant (F := Ideal) S512x2048 .f32 0x00000000#32) j * c1
                        - extractAt ![0, 0] tg inpos_S1x1_p0_0))))
          c0 := by
  unfold k2_pay6
  rw [shapeCast_self, shapeCast_self]
  refine (select_apply (k2_pay5 i) _ _ j).trans ?_
  refine congrArg (fun x => Scalar.select (k2_pay5 i j) x c0) ?_
  exact (huber_apply _ j).trans (congrArg huber (dist_apply _ _ j))

private theorem pay6_apply (i : grid2.Coords) (rows : Vec Ideal S512x256 .f32) (full : Vec Ideal S2048x256 .f32) (tg : Vec Ideal S1x1 .f32)
    (N : Fin 2048 → Fin 256 → EReal) (hfull : ∀ b j, full (ix2 b j) = N b j)
    (hrows : ∀ (r : Fin 512) j, rows (ix2 r j) = N ⟨512 * (2 * (i 0).val + (i 1).val) + r.val, row_lt i r⟩ j)
    (r : Fin 512) (b : Fin 2048) :
    k2_pay6 (F := Ideal) i rows full tg (ix2 r b)
      = if 512 * (2 * (i 0).val + (i 1).val) + r.val < b.val
        then simEntry N (tg (ix2 (0 : Fin 1) (0 : Fin 1))) ⟨512 * (2 * (i 0).val + (i 1).val) + r.val, row_lt i r⟩ b else c0 := by
  have ht : extractAt ![0, 0] tg inpos_S1x1_p0_0 = tg (ix2 (0 : Fin 1) (0 : Fin 1)) :=
    congrArg tg (funext fun a => by match a with | ⟨0, _⟩ => rfl | ⟨1, _⟩ => rfl)
  have hm : matmul (φ₁ := .f32) (φ₂ := .f32) dot_S512x256_S2048x256_S512x2048_1_1_0_0_n_n none rows full (constant (F := Ideal) S512x2048 .f32 0x00000000#32) (ix2 r b)
      = ∑ k : Fin 256, N ⟨512 * (2 * (i 0).val + (i 1).val) + r.val, row_lt i r⟩ k * N b k :=
    (dot2_apply rows full r b).trans (Finset.sum_congr rfl fun k _ => by rw [hrows, hfull])
  rw [pay6_eq, hm, ht, show c1 = 1 from Ideal.ofBits_one_f32, mul_one]
  by_cases h : 512 * (2 * (i 0).val + (i 1).val) + r.val < b.val
  · rw [if_pos h, (pay5_apply i r b).mpr h, select_one]; rfl
  · rw [if_neg h, eq_zero_of_ne_one (fun hc => h ((pay5_apply i r b).mp hc)), select_zero]

/-! ## The two accumulators after a grid point -/

/-- The sum over every index of a [512, 2048] vector seen as [1, 512, 2048] is the double sum over rows and columns. -/
theorem sum_cast (v : S512x2048.Idx → EReal) :
    ∑ i : S1x512x2048.Idx, shapeCast S1x512x2048 v shapeCasts_S512x2048_S1x512x2048 i
      = ∑ r : Fin 512, ∑ b : Fin 2048, v (ix2 r b) :=
  (Equiv.sum_comp (Shape.reshapeEquiv shapeCasts_S512x2048_S1x512x2048) v).trans (sum_idx2 v)

/-- What the body stores, over the accumulator row `p` and the reduced vector `w` as variables: the row's entry plus
    the one entry of `w` (read at the index the two casts and the extraction compose to). -/
private theorem stored_apply (p : FVec Ideal S1x1 .f32) (w : FVec Ideal S1 .f32) :
    shapeCast S1x1x1
        (addf p (broadcast S1x1 (extractAt ![0, 0, 0] (shapeCast S1x1x1 w shapeCasts_S1_S1x1x1) inpos_S1x1x1_p0_0_0)))
        shapeCasts_S1x1_S1x1x1 (ix3 (0 : Fin 1) (0 : Fin 1) (0 : Fin 1))
      = p (ix2 (0 : Fin 1) (0 : Fin 1))
        + w (Shape.reshapeEquiv shapeCasts_S1_S1x1x1
              fun a => ⟨(![0, 0, 0] : Fin 3 → ℕ) a, inpos_S1x1x1_p0_0_0 a⟩) :=
  shapeCast_ab_1ab_apply (a := 1) (b := 1) _ _ 0 0 0

/-- The sum of a [512, 2048] vector over both axes, as the body takes it (reshaped to [1, 512, 2048] and reduced over
    the last two axes), at any index of the one-element result: the double sum over rows and columns. -/
private theorem total_apply (v : FVec Ideal S512x2048 .f32) (j : S1.Idx) :
    multiReduction (F := Ideal) .add [1, 2] S1 (shapeCast S1x512x2048 v shapeCasts_S512x2048_S1x512x2048) 0x00000000#32
        reduces_S1x512x2048_S1 (.inl rfl) rfl j
      = ∑ r : Fin 512, ∑ b : Fin 2048, v (ix2 r b) :=
  (Ideal.multiReduction_add_total _ _ reduces_S1x512x2048_S1 (by decide) _ _ j).trans (sum_cast v)

/-- The body's total: the accumulator's entry plus the sum of the whole tile. -/
private theorem pay1_apply (v : Vec Ideal S512x2048 .f32) (p : Vec Ideal S1x1 .f32) :
    k2_pay1 (F := Ideal) v p (ix3 (0 : Fin 1) (0 : Fin 1) (0 : Fin 1))
      = p (ix2 (0 : Fin 1) (0 : Fin 1)) + ∑ r : Fin 512, ∑ b : Fin 2048, v (ix2 r b) := by
  unfold k2_pay1
  refine (stored_apply p _).trans ?_
  exact congrArg (p (ix2 (0 : Fin 1) (0 : Fin 1)) + ·) (total_apply v _)

theorem sum2_apply (i : grid2.Coords) (rows : Vec Ideal S512x256 .f32) (full : Vec Ideal S2048x256 .f32) (tg : Vec Ideal S1x1 .f32)
    (prev : Vec Ideal S1x1x1 .f32) (N : Fin 2048 → Fin 256 → EReal) (hfull : ∀ b j, full (ix2 b j) = N b j)
    (hrows : ∀ (r : Fin 512) j, rows (ix2 r j) = N ⟨512 * (2 * (i 0).val + (i 1).val) + r.val, row_lt i r⟩ j) :
    sum2 (F := Ideal) i rows full tg prev (ix3 (0 : Fin 1) (0 : Fin 1) (0 : Fin 1))
      = prev (ix3 (0 : Fin 1) (0 : Fin 1) (0 : Fin 1)) + ∑ r : Fin 512, ∑ b : Fin 2048,
          (if 512 * (2 * (i 0).val + (i 1).val) + r.val < b.val
            then simEntry N (tg (ix2 (0 : Fin 1) (0 : Fin 1))) ⟨512 * (2 * (i 0).val + (i 1).val) + r.val, row_lt i r⟩ b else c0) := by
  unfold sum2
  rw [pay1_apply]
  have hp : k2_pay7 (F := Ideal) prev (ix2 (0 : Fin 1) (0 : Fin 1)) = prev (ix3 (0 : Fin 1) (0 : Fin 1) (0 : Fin 1)) := by
    unfold k2_pay7
    exact shapeCast_1ab_ab_apply _ _ 0 0
  rw [hp]
  refine congrArg (prev (ix3 (0 : Fin 1) (0 : Fin 1) (0 : Fin 1)) + ·) ?_
  exact Finset.sum_congr rfl fun r _ => Finset.sum_congr rfl fun b _ => pay6_apply i rows full tg N hfull hrows r b

/-- The mask's count: the accumulator's entry plus the sum of the mask's bits, widened and converted. -/
theorem pay2_apply (m : IVec S512x2048 1) (p : Vec Ideal S1x1x1 .f32) :
    k2_pay2 (F := Ideal) m p (ix3 (0 : Fin 1) (0 : Fin 1) (0 : Fin 1))
      = p (ix3 (0 : Fin 1) (0 : Fin 1) (0 : Fin 1))
        + ∑ r : Fin 512, ∑ b : Fin 2048, sitofp (F := Ideal) .f32 (extui 32 m natLt_1_32) (ix2 r b) := by
  unfold k2_pay2
  refine (stored_apply (shapeCast S1x1 p shapeCasts_S1x1x1_S1x1) _).trans ?_
  exact congrArg₂ (fun x y : EReal => x + y)
    (shapeCast_1ab_ab_apply (a := 1) (b := 1) p shapeCasts_S1x1x1_S1x1 0 0)
    (total_apply (sitofp (F := Ideal) .f32 (extui 32 m natLt_1_32)) _)

/-- A mask bit widened to 32 bits and converted: one when set, zero when clear. -/
private theorem bit_value (c : BitVec 1) : FloatOps.sitofp (F := Ideal) .f32 (c.setWidth 32) = if c = 1#1 then (1 : EReal) else 0 := by
  rcases BitVec.eq_zero_or_eq_one c with h | h
  · subst h
    have e : ((0#1 : BitVec 1).setWidth 32).toInt = 0 := by decide
    rw [if_neg (by decide)]
    show (((((0#1 : BitVec 1).setWidth 32).toInt : ℤ) : ℝ) : EReal) = 0
    rw [e]; simp
  · subst h
    have e : ((1#1 : BitVec 1).setWidth 32).toInt = 1 := by decide
    rw [if_pos rfl]
    show (((((1#1 : BitVec 1).setWidth 32).toInt : ℤ) : ℝ) : EReal) = 1
    rw [e]; simp

theorem cnt2_apply (i : grid2.Coords) (prev : Vec Ideal S1x1x1 .f32) :
    cnt2 (F := Ideal) i prev (ix3 (0 : Fin 1) (0 : Fin 1) (0 : Fin 1))
      = prev (ix3 (0 : Fin 1) (0 : Fin 1) (0 : Fin 1)) + ∑ r : Fin 512, ∑ b : Fin 2048,
          (if 512 * (2 * (i 0).val + (i 1).val) + r.val < b.val then (1 : EReal) else 0) := by
  unfold cnt2
  rw [pay2_apply]
  refine congrArg (prev (ix3 (0 : Fin 1) (0 : Fin 1) (0 : Fin 1)) + ·) ?_
  refine Finset.sum_congr rfl fun r _ => Finset.sum_congr rfl fun b _ => ?_
  show FloatOps.sitofp (F := Ideal) .f32 ((k2_pay5 i (ix2 r b)).setWidth 32) = _
  rw [bit_value]
  exact if_congr (pay5_apply i r b) rfl rfl

/-! ## The four tiles together are all rows -/

theorem tile_lt (p : Fin 4) (r : Fin 512) : 512 * p.val + r.val < 2048 := by omega

private theorem sum_tiles {M : Type*} [AddCommMonoid M] (f : Fin 2048 → M) :
    ∑ p : Fin 4, ∑ r : Fin 512, f ⟨512 * p.val + r.val, tile_lt p r⟩ = ∑ a : Fin 2048, f a := by
  rw [← Fintype.sum_prod_type (f := fun x : Fin 4 × Fin 512 => f ⟨512 * x.1.val + x.2.val, tile_lt x.1 x.2⟩)]
  exact Fintype.sum_equiv (finProdFinEquiv (m := 4) (n := 512)) _ _
    (fun x => congrArg f (Fin.ext (by simp only [finProdFinEquiv_apply_val]; omega)))

theorem simSum_of_tiles (N : Fin 2048 → Fin 256 → EReal) (tg : EReal) :
    (∑ p : Fin 4, ∑ r : Fin 512, ∑ b : Fin 2048,
        if 512 * p.val + r.val < b.val then simEntry N tg ⟨512 * p.val + r.val, tile_lt p r⟩ b else c0)
      = simSum N tg :=
  sum_tiles fun a => ∑ b : Fin 2048, if a.val < b.val then simEntry N tg a b else c0

theorem pairCount_of_tiles :
    (∑ p : Fin 4, ∑ r : Fin 512, ∑ b : Fin 2048, if 512 * p.val + r.val < b.val then (1 : EReal) else 0) = pairCount :=
  sum_tiles fun a => ∑ b : Fin 2048, if a.val < b.val then (1 : EReal) else 0

/-- The count as a natural number. -/
def pairs : ℕ := ∑ a : Fin 2048, ∑ b : Fin 2048, if a.val < b.val then 1 else 0

theorem pairCount_eq_pairs : pairCount = ((pairs : ℝ) : EReal) := by
  unfold pairCount pairs
  rw [EReal.coe_natCast, Nat.cast_sum]
  refine Finset.sum_congr rfl fun a _ => ?_
  rw [Nat.cast_sum]
  refine Finset.sum_congr rfl fun b _ => ?_
  rw [Nat.cast_ite, Nat.cast_one, Nat.cast_zero]

theorem pairs_pos : 0 < pairs := by
  unfold pairs
  have h1 : (∑ b : Fin 2048, if (0 : Fin 2048).val < b.val then 1 else 0)
      ≤ ∑ a : Fin 2048, ∑ b : Fin 2048, if a.val < b.val then 1 else 0 :=
    Finset.single_le_sum (f := fun a : Fin 2048 => ∑ b : Fin 2048, if a.val < b.val then 1 else 0)
      (fun _ _ => Nat.zero_le _) (Finset.mem_univ 0)
  have h2 : (if (0 : Fin 2048).val < (1 : Fin 2048).val then 1 else 0)
      ≤ ∑ b : Fin 2048, if (0 : Fin 2048).val < b.val then 1 else 0 :=
    Finset.single_le_sum (f := fun b : Fin 2048 => if (0 : Fin 2048).val < b.val then 1 else 0)
      (fun _ _ => Nat.zero_le _) (Finset.mem_univ 1)
  have h3 : (if (0 : Fin 2048).val < (1 : Fin 2048).val then 1 else 0) = 1 := by decide
  omega

theorem pairCount_ne_zero : pairCount ≠ 0 ∧ ∃ r : ℝ, pairCount = (r : EReal) := by
  refine ⟨?_, (pairs : ℝ), pairCount_eq_pairs⟩
  rw [pairCount_eq_pairs]
  intro h
  have h' : ((pairs : ℝ)) = 0 := by exact_mod_cast h
  have := pairs_pos
  have h'' : pairs = 0 := by exact_mod_cast h'
  omega

end Cert.KernelIdeal.Hand

end
-- ==== Proof.KI.Struct1.lean ====
/-
  The entry function's tail and its second launch, structurally.  The second launch has a single grid point and every
  window's block is its whole array, so each of its four output arrays ends holding the launch's result term over the
  arrays it was entered with.  The third host stretch only reshapes those results; the last one slices the third
  launch's two accumulator pairs, adds the halves, divides, and forms the weighted sum that is returned.  The second
  launch's weight windows are read back through the first two host stretches to the entry function's arguments.
-/
import proofs.«412127_j15607911153865_3_alg».proof.Proof.KI.Chain
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen
open Idealize.ShloMosaic.ValueIdx
open scoped BigOperators

variable (m : (ℓ : Loc nD τ sig) → Buf (Elt Ideal) ℓ)

/-! ## Launch 1's windows are their whole arrays

The launch has one grid point and every index map is constantly zero, so each window's block at that point is the
whole array: reading an array through the block's view gives the array back, and every index of the array lies under
the block. -/

theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)

/-- The summed table, read through window 0's block. -/
theorem blk1_0 (t : Fin cfg1.N) (X : Vec Ideal S2048x384 .f32) : ((cfg1.win 0).blk t).view.read (Elt Ideal) X = X := by
  funext y
  show X (((cfg1.win 0).blk t).view.emb y) = X y
  congr 1
  funext a; apply Fin.ext
  obtain ⟨e0, e1⟩ := idx1_0 t
  match a with
  | ⟨0, _⟩ => show win1_0.index t (0 : Fin 2) * 2048 + 1 * (y 0).val = (y 0).val; omega
  | ⟨1, _⟩ => show win1_0.index t (1 : Fin 2) * 384 + 1 * (y 1).val = (y 1).val; omega

/-- The first target weight. -/
theorem blk1_1 (t : Fin cfg1.N) (X : Vec Ideal S256x32 .bf16) : ((cfg1.win 1).blk t).view.read (Elt Ideal) X = X := by
  funext y
  show X (((cfg1.win 1).blk t).view.emb y) = X y
  congr 1
  funext a; apply Fin.ext
  obtain ⟨e0, e1⟩ := idx1_1 t
  match a with
  | ⟨0, _⟩ => show win1_1.index t (0 : Fin 2) * 256 + 1 * (y 0).val = (y 0).val; omega
  | ⟨1, _⟩ => show win1_1.index t (1 : Fin 2) * 32 + 1 * (y 1).val = (y 1).val; omega

/-- The first target bias. -/
theorem blk1_2 (t : Fin cfg1.N) (X : Vec Ideal S1x32 .f32) : ((cfg1.win 2).blk t).view.read (Elt Ideal) X = X := by
  funext y
  show X (((cfg1.win 2).blk t).view.emb y) = X y
  congr 1
  funext a; apply Fin.ext
  obtain ⟨e0, e1⟩ := idx1_2 t
  match a with
  | ⟨0, _⟩ => show win1_2.index t (0 : Fin 2) * 1 + 1 * (y 0).val = (y 0).val; omega
  | ⟨1, _⟩ => show win1_2.index t (1 : Fin 2) * 32 + 1 * (y 1).val = (y 1).val; omega

/-- The second target weight. -/
theorem blk1_3 (t : Fin cfg1.N) (X : Vec Ideal S32x1 .bf16) : ((cfg1.win 3).blk t).view.read (Elt Ideal) X = X := by
  funext y
  show X (((cfg1.win 3).blk t).view.emb y) = X y
  congr 1
  funext a; apply Fin.ext
  obtain ⟨e0, e1⟩ := idx1_3 t
  match a with
  | ⟨0, _⟩ => show win1_3.index t (0 : Fin 2) * 32 + 1 * (y 0).val = (y 0).val; omega
  | ⟨1, _⟩ => show win1_3.index t (1 : Fin 2) * 1 + 1 * (y 1).val = (y 1).val; omega

/-- The second target bias. -/
theorem blk1_4 (t : Fin cfg1.N) (X : Vec Ideal S1x1 .f32) : ((cfg1.win 4).blk t).view.read (Elt Ideal) X = X := by
  funext y
  show X (((cfg1.win 4).blk t).view.emb y) = X y
  congr 1
  funext a; apply Fin.ext
  obtain ⟨e0, e1⟩ := idx1_4 t
  match a with
  | ⟨0, _⟩ => show win1_4.index t (0 : Fin 2) * 1 + 1 * (y 0).val = (y 0).val; omega
  | ⟨1, _⟩ => show win1_4.index t (1 : Fin 2) * 1 + 1 * (y 1).val = (y 1).val; omega

/-- The squared norm of the summed vector weight. -/
theorem blk1_5 (t : Fin cfg1.N) (X : Vec Ideal S1x1 .f32) : ((cfg1.win 5).blk t).view.read (Elt Ideal) X = X := by
  funext y
  show X (((cfg1.win 5).blk t).view.emb y) = X y
  congr 1
  funext a; apply Fin.ext
  obtain ⟨e0, e1⟩ := idx1_5 t
  match a with
  | ⟨0, _⟩ => show win1_5.index t (0 : Fin 2) * 1 + 1 * (y 0).val = (y 0).val; omega
  | ⟨1, _⟩ => show win1_5.index t (1 : Fin 2) * 1 + 1 * (y 1).val = (y 1).val; omega

/-- The normalised group means. -/
theorem blk1_6 (t : Fin cfg1.N) (X : Vec Ideal S2048x256 .f32) : ((cfg1.win 6).blk t).view.read (Elt Ideal) X = X := by
  funext y
  show X (((cfg1.win 6).blk t).view.emb y) = X y
  congr 1
  funext a; apply Fin.ext
  obtain ⟨e0, e1⟩ := idx1_6 t
  match a with
  | ⟨0, _⟩ => show win1_6.index t (0 : Fin 2) * 2048 + 1 * (y 0).val = (y 0).val; omega
  | ⟨1, _⟩ => show win1_6.index t (1 : Fin 2) * 256 + 1 * (y 1).val = (y 1).val; omega

/-- The adaptive target. -/
theorem blk1_7 (t : Fin cfg1.N) (X : Vec Ideal S1x1 .f32) : ((cfg1.win 7).blk t).view.read (Elt Ideal) X = X := by
  funext y
  show X (((cfg1.win 7).blk t).view.emb y) = X y
  congr 1
  funext a; apply Fin.ext
  obtain ⟨e0, e1⟩ := idx1_7 t
  match a with
  | ⟨0, _⟩ => show win1_7.index t (0 : Fin 2) * 1 + 1 * (y 0).val = (y 0).val; omega
  | ⟨1, _⟩ => show win1_7.index t (1 : Fin 2) * 1 + 1 * (y 1).val = (y 1).val; omega

/-- The averaged scalar spread. -/
theorem blk1_8 (t : Fin cfg1.N) (X : Vec Ideal S1x1 .f32) : ((cfg1.win 8).blk t).view.read (Elt Ideal) X = X := by
  funext y
  show X (((cfg1.win 8).blk t).view.emb y) = X y
  congr 1
  funext a; apply Fin.ext
  obtain ⟨e0, e1⟩ := idx1_8 t
  match a with
  | ⟨0, _⟩ => show win1_8.index t (0 : Fin 2) * 1 + 1 * (y 0).val = (y 0).val; omega
  | ⟨1, _⟩ => show win1_8.index t (1 : Fin 2) * 1 + 1 * (y 1).val = (y 1).val; omega

/-- The averaged vector spread. -/
theorem blk1_9 (t : Fin cfg1.N) (X : Vec Ideal S1x1 .f32) : ((cfg1.win 9).blk t).view.read (Elt Ideal) X = X := by
  funext y
  show X (((cfg1.win 9).blk t).view.emb y) = X y
  congr 1
  funext a; apply Fin.ext
  obtain ⟨e0, e1⟩ := idx1_9 t
  match a with
  | ⟨0, _⟩ => show win1_9.index t (0 : Fin 2) * 1 + 1 * (y 0).val = (y 0).val; omega
  | ⟨1, _⟩ => show win1_9.index t (1 : Fin 2) * 1 + 1 * (y 1).val = (y 1).val; omega

/-- Every index of an output array lies under the block of the launch's one point. -/
theorem mem1_6 (t : Fin cfg1.N) (i : S2048x256.Idx) : i ∈ ((cfg1.win 6).blk t).view.set := by
  show i ∈ ((View.whole main_v23_0).slice (win1_6.rect t)).set
  rw [View.set_slice_whole, Rect.mem_set_unit]
  obtain ⟨e0, e1⟩ := idx1_6 t
  have h0 := idx2_lt0 i
  have h1 := idx2_lt1 i
  intro a
  match a with
  | ⟨0, _⟩ => show win1_6.index t (0 : Fin 2) * 2048 ≤ (i 0).val ∧ (i 0).val < win1_6.index t (0 : Fin 2) * 2048 + 2048; omega
  | ⟨1, _⟩ => show win1_6.index t (1 : Fin 2) * 256 ≤ (i 1).val ∧ (i 1).val < win1_6.index t (1 : Fin 2) * 256 + 256; omega
theorem mem1_7 (t : Fin cfg1.N) (i : S1x1.Idx) : i ∈ ((cfg1.win 7).blk t).view.set := by
  show i ∈ ((View.whole main_v23_1).slice (win1_7.rect t)).set
  rw [View.set_slice_whole, Rect.mem_set_unit]
  obtain ⟨e0, e1⟩ := idx1_7 t
  have h0 := idx2_lt0 i
  have h1 := idx2_lt1 i
  intro a
  match a with
  | ⟨0, _⟩ => show win1_7.index t (0 : Fin 2) * 1 ≤ (i 0).val ∧ (i 0).val < win1_7.index t (0 : Fin 2) * 1 + 1; omega
  | ⟨1, _⟩ => show win1_7.index t (1 : Fin 2) * 1 ≤ (i 1).val ∧ (i 1).val < win1_7.index t (1 : Fin 2) * 1 + 1; omega
theorem mem1_8 (t : Fin cfg1.N) (i : S1x1.Idx) : i ∈ ((cfg1.win 8).blk t).view.set := by
  show i ∈ ((View.whole main_v23_2).slice (win1_8.rect t)).set
  rw [View.set_slice_whole, Rect.mem_set_unit]
  obtain ⟨e0, e1⟩ := idx1_8 t
  have h0 := idx2_lt0 i
  have h1 := idx2_lt1 i
  intro a
  match a with
  | ⟨0, _⟩ => show win1_8.index t (0 : Fin 2) * 1 ≤ (i 0).val ∧ (i 0).val < win1_8.index t (0 : Fin 2) * 1 + 1; omega
  | ⟨1, _⟩ => show win1_8.index t (1 : Fin 2) * 1 ≤ (i 1).val ∧ (i 1).val < win1_8.index t (1 : Fin 2) * 1 + 1; omega
theorem mem1_9 (t : Fin cfg1.N) (i : S1x1.Idx) : i ∈ ((cfg1.win 9).blk t).view.set := by
  show i ∈ ((View.whole main_v23_3).slice (win1_9.rect t)).set
  rw [View.set_slice_whole, Rect.mem_set_unit]
  obtain ⟨e0, e1⟩ := idx1_9 t
  have h0 := idx2_lt0 i
  have h1 := idx2_lt1 i
  intro a
  match a with
  | ⟨0, _⟩ => show win1_9.index t (0 : Fin 2) * 1 ≤ (i 0).val ∧ (i 0).val < win1_9.index t (0 : Fin 2) * 1 + 1; omega
  | ⟨1, _⟩ => show win1_9.index t (1 : Fin 2) * 1 ≤ (i 1).val ∧ (i 1).val < win1_9.index t (1 : Fin 2) * 1 + 1; omega

/-! ## What launch 1 leaves in its four output arrays -/

/-- The normalised group means, over the summed table the launch was entered with. -/
theorem out1_nrm (c : Dev nD) :
    (W4 m c (Proc.devRef .tc main_v23_0) : Vec Ideal S2048x256 .f32) = nrm1 (F := Ideal) (V3 m c main_v18) := by
  refine (W4_arr m c 6).trans ?_
  refine (dat1 (V3 m) c).arrAt_eq_of_cover 6 _ (fun t _ => ?_) (fun i => ⟨t1_0, flush1_6 _, mem1_6 _ i⟩)
  show (cfg1.win 6).cut (grid1.coords t) ((dat1 (V3 m) c).after 6 t) = _
  rw [after1_6]
  exact (congrArg (nrm1 (F := Ideal)) (blk1_0 t _)).trans (blk1_6 t _).symm

/-- The adaptive target, over the summed table and the four target weights. -/
theorem out1_target (c : Dev nD) :
    (W4 m c (Proc.devRef .tc main_v23_1) : Vec Ideal S1x1 .f32)
      = target1 (F := Ideal) (V3 m c main_v18) (V3 m c main_v5) (V3 m c main_v11) (V3 m c main_v6) (V3 m c main_v12) := by
  refine (W4_arr m c 7).trans ?_
  refine (dat1 (V3 m) c).arrAt_eq_of_cover 7 _ (fun t _ => ?_) (fun i => ⟨t1_0, flush1_7 _, mem1_7 _ i⟩)
  show (cfg1.win 7).cut (grid1.coords t) ((dat1 (V3 m) c).after 7 t) = _
  rw [after1_7]
  unfold iblk1
  rw [blk1_0 t, blk1_1 t, blk1_2 t, blk1_3 t, blk1_4 t, blk1_7 t]
  rfl

/-- The averaged scalar spread. -/
theorem out1_intra (c : Dev nD) :
    (W4 m c (Proc.devRef .tc main_v23_2) : Vec Ideal S1x1 .f32) = intra1 (F := Ideal) (V3 m c main_v18) := by
  refine (W4_arr m c 8).trans ?_
  refine (dat1 (V3 m) c).arrAt_eq_of_cover 8 _ (fun t _ => ?_) (fun i => ⟨t1_0, flush1_8 _, mem1_8 _ i⟩)
  show (cfg1.win 8).cut (grid1.coords t) ((dat1 (V3 m) c).after 8 t) = _
  rw [after1_8]
  exact (congrArg (intra1 (F := Ideal)) (blk1_0 t _)).trans (blk1_8 t _).symm

/-- The averaged vector spread, over the summed table and the squared norm of the summed vector weight. -/
theorem out1_vecloss (c : Dev nD) :
    (W4 m c (Proc.devRef .tc main_v23_3) : Vec Ideal S1x1 .f32)
      = vecloss1 (F := Ideal) (V3 m c main_v18) (V3 m c main_v22) := by
  refine (W4_arr m c 9).trans ?_
  refine (dat1 (V3 m) c).arrAt_eq_of_cover 9 _ (fun t _ => ?_) (fun i => ⟨t1_0, flush1_9 _, mem1_9 _ i⟩)
  show (cfg1.win 9).cut (grid1.coords t) ((dat1 (V3 m) c).after 9 t) = _
  rw [after1_9]
  unfold iblk1
  rw [blk1_0 t, blk1_5 t, blk1_9 t]
  rfl

/-! ## One-element arrays read through a reshape or a slice -/

/-- A one-by-one array reshaped to a scalar reads its one element. -/
theorem scalar_of_1x1 {α : Type} (X : S1x1.Idx → α) (h : S1x1.ShapeCasts S_) : shapeCast S_ X h ix0 = X (ix2 0 0) :=
  shapeCast_apply X h ix0 (ix2 0 0) (by
    rw [Shape.rowMajor_val_two]
    show 0 * 1 + 0 = (Shape.rowMajorPi _ _).val
    rw [Shape.rowMajorPi_zero])

/-- A scalar reshaped to a one-by-one array reads the scalar. -/
theorem of_scalar_1x1 {α : Type} (X : S_.Idx → α) (h : S_.ShapeCasts S1x1) : shapeCast S1x1 X h (ix2 0 0) = X ix0 :=
  shapeCast_apply X h (ix2 0 0) ix0 (by
    rw [Shape.rowMajor_val_two]
    show (Shape.rowMajorPi _ _).val = 0 * 1 + 0
    rw [Shape.rowMajorPi_zero])

/-- Half `h` of a two-element accumulator pair, sliced out and reshaped to a scalar. -/
theorem half0_read {α : Type} (A : S2x1x1.Idx → α) :
    shapeCast S_ (extractStridedSlice S1x1x1 ![0, 0, 0] A slices_S2x1x1_S1x1x1_0_0_0) shapeCasts_S1x1x1_S_ ix0 = A (ix3 0 0 0) := by
  refine (shapeCast_apply _ _ ix0 (ix3 0 0 0) (by
    rw [Shape.rowMajor_val_three]
    show (0 * 1 + 0) * 1 + 0 = (Shape.rowMajorPi _ _).val
    rw [Shape.rowMajorPi_zero])).trans ?_
  exact extractStridedSlice_apply _ A _ _ (ix3 0 0 0) (fun a => match a with | ⟨0, _⟩ => rfl | ⟨1, _⟩ => rfl | ⟨2, _⟩ => rfl)
theorem half1_read {α : Type} (A : S2x1x1.Idx → α) :
    shapeCast S_ (extractStridedSlice S1x1x1 ![1, 0, 0] A slices_S2x1x1_S1x1x1_1_0_0) shapeCasts_S1x1x1_S_ ix0 = A (ix3 1 0 0) := by
  refine (shapeCast_apply _ _ ix0 (ix3 0 0 0) (by
    rw [Shape.rowMajor_val_three]
    show (0 * 1 + 0) * 1 + 0 = (Shape.rowMajorPi _ _).val
    rw [Shape.rowMajorPi_zero])).trans ?_
  exact extractStridedSlice_apply _ A _ _ (ix3 1 0 0) (fun a => match a with | ⟨0, _⟩ => rfl | ⟨1, _⟩ => rfl | ⟨2, _⟩ => rfl)

/-! ## The third host stretch: launch 1's scalar results reshaped -/

/-- The scalar spread as the last stretch reads it. -/
theorem v25_eq (c : Dev nD) :
    (W6 m c (Proc.devRef .tc main_v25) : Vec Ideal S_ .f32) ix0 = intra1 (F := Ideal) (V3 m c main_v18) (ix2 0 0) := by
  rw [W6_of_ne m c main_v25 (by decide) (by decide)]
  show StableHlo.after hostOps2 (W4 m c) (Proc.devRef .tc main_v25) ix0 = _
  after_results
  refine (scalar_of_1x1 _ _).trans ?_
  exact congrFun (out1_intra m c) _

/-- The vector spread as the last stretch reads it. -/
theorem v26_eq (c : Dev nD) :
    (W6 m c (Proc.devRef .tc main_v26) : Vec Ideal S_ .f32) ix0
      = vecloss1 (F := Ideal) (V3 m c main_v18) (V3 m c main_v22) (ix2 0 0) := by
  rw [W6_of_ne m c main_v26 (by decide) (by decide)]
  show StableHlo.after hostOps2 (W4 m c) (Proc.devRef .tc main_v26) ix0 = _
  after_results
  refine (scalar_of_1x1 _ _).trans ?_
  exact congrFun (out1_vecloss m c) _

/-- The adaptive target as launch 2 is entered with it. -/
theorem target_in2 (c : Dev nD) :
    (V5 m c main_v27 : Vec Ideal S1x1 .f32) (ix2 0 0) = (W4 m c (Proc.devRef .tc main_v23_1) : Vec Ideal S1x1 .f32) (ix2 0 0) := by
  show StableHlo.after hostOps2 (W4 m c) (Proc.devRef .tc main_v27) (ix2 0 0) = _
  after_results
  refine (of_scalar_1x1 _ _).trans ?_
  exact scalar_of_1x1 _ _

/-! ## The last host stretch -/

/-- The returned scalar: the weighted sum of the scalar spread, the masked loss average over both core halves, and
    the vector spread. -/
theorem result_eq (c : Dev nD) (S N : Fin 2 → EReal)
    (hS : ∀ h : Fin 2, (W6 m c (Proc.devRef .tc main_v28_0) : Vec Ideal S2x1x1 .f32) (ix3 h 0 0) = S h)
    (hN : ∀ h : Fin 2, (W6 m c (Proc.devRef .tc main_v28_1) : Vec Ideal S2x1x1 .f32) (ix3 h 0 0) = N h) :
    (W7 m c (Proc.devRef .tc main_v45) : Vec Ideal S_ .f32) ix0
      = Ideal.ofBits .f32 0x3D4CCCCD#32 *
          ((Ideal.ofBits .f32 0x3E99999A#32 * intra1 (F := Ideal) (V3 m c main_v18) (ix2 0 0)
            + Ideal.ofBits .f32 0x3F333333#32 * Ideal.div (S 0 + S 1) (N 0 + N 1))
           + Ideal.ofBits .f32 0x3DCCCCCD#32 * vecloss1 (F := Ideal) (V3 m c main_v18) (V3 m c main_v22) (ix2 0 0)) := by
  show StableHlo.after hostOps3 (W6 m c) (Proc.devRef .tc main_v45) ix0 = _
  after_results_simp
  rw [mulf_apply, constant_apply, addf_apply, addf_apply, mulf_apply, constant_apply, mulf_apply, constant_apply,
    hostDivf_apply, addf_apply, addf_apply, mulf_apply, constant_apply]
  -- the four halves, written back as the slices the stretch takes (the reshapes' result shape is spelled through the
  -- buffers' types there, so the two sides agree by unfolding, not letter by letter)
  rw [v25_eq, v26_eq, ← hS 0, ← hS 1, ← hN 0, ← hN 1,
    ← half0_read (W6 m c (Proc.devRef .tc main_v28_0)), ← half1_read (W6 m c (Proc.devRef .tc main_v28_0)),
    ← half0_read (W6 m c (Proc.devRef .tc main_v28_1)), ← half1_read (W6 m c (Proc.devRef .tc main_v28_1))]
  rfl

/-! ## What launch 1's weight windows hold, from the entry function's arguments -/

/-- A buffer the first stretch wrote and nothing later touched, as launch 1 finds it. -/
theorem V3_back (c : Dev nD) (r : Ref sig .tc) (h1 : r ∉ hostOps1_W) (h0 : ∀ w, Pipeline.arrRef spec0 w ≠ r) :
    V3 m c r = StableHlo.after hostOps0 (W0 m c) (Proc.devRef .tc r) :=
  (W3_of m c r h1).trans (W2_of_ne m c r h0)

/-- The first target weight is the argument's, narrowed. -/
theorem in1_wt1 (c : Dev nD) :
    (V3 m c main_v5 : Vec Ideal S256x32 .bf16)
      = truncf (F := Ideal) (s := S256x32) (φ := .f32) .bf16 (m ((c : Thread nD τ).loc main_arg11)) bitsLt_bf16_f32 := by
  rw [V3_back m c main_v5 (by decide) (by decide)]
  after_results

/-- The second target weight likewise. -/
theorem in1_wt2 (c : Dev nD) :
    (V3 m c main_v6 : Vec Ideal S32x1 .bf16)
      = truncf (F := Ideal) (s := S32x1) (φ := .f32) .bf16 (m ((c : Thread nD τ).loc main_arg13)) bitsLt_bf16_f32 := by
  rw [V3_back m c main_v6 (by decide) (by decide)]
  after_results

/-- The first target bias is the argument's, as a row. -/
theorem in1_bt1 (c : Dev nD) (j : Fin 32) :
    (V3 m c main_v11 : Vec Ideal S1x32 .f32) (ix2 0 j) = (m ((c : Thread nD τ).loc main_arg12) : Vec Ideal S32 .f32) (ix1 j) := by
  rw [V3_back m c main_v11 (by decide) (by decide)]
  after_results
  exact shapeCast_a_1a_apply _ _ 0 j

/-- The second target bias is the argument's one element. -/
theorem in1_bt2 (c : Dev nD) :
    (V3 m c main_v12 : Vec Ideal S1x1 .f32) (ix2 0 0) = (m ((c : Thread nD τ).loc main_arg14) : Vec Ideal S1 .f32) (ix1 0) := by
  rw [V3_back m c main_v12 (by decide) (by decide)]
  after_results
  exact shapeCast_a_1a_apply _ _ 0 0

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The host's sum of squares of the column sums of a 256 × 256 matrix, each sum started from zero. -/
theorem sumsq_cols (Wv : Vec Ideal S256x256 .f32) :
    Host.reduceAdd
        (mulf (Host.reduceAdd Wv (constant (F := Ideal) S_ .f32 0x00000000#32) reducesTo_S256x256_S256_d0 h_S_)
          (Host.reduceAdd Wv (constant (F := Ideal) S_ .f32 0x00000000#32) reducesTo_S256x256_S256_d0 h_S_))
        (constant (F := Ideal) S_ .f32 0x00000000#32) reducesTo_S256_S_d0 h_S_ ix0
      = ∑ j : Fin 256, (∑ k : Fin 256, Wv (ix2 k j)) * (∑ k : Fin 256, Wv (ix2 k j)) := by
  have hcol : ∀ j : Fin 256,
      Host.reduceAdd Wv (constant (F := Ideal) S_ .f32 0x00000000#32) reducesTo_S256x256_S256_d0 h_S_ (ix1 j)
        = ∑ k : Fin 256, Wv (ix2 k j) := by
    intro j
    rw [hostReduceAdd_apply, Ideal.hostReduceAdd_single reducesTo_S256x256_S256_d0 (by decide : S256x256.Reduces [0] S256),
      constant_apply, Ideal.ofBits_zero_f32, zero_add]
    refine Finset.sum_congr rfl fun k _ => congrArg Wv ?_
    funext a
    match a with
    | ⟨0, _⟩ => exact Fin.ext rfl
    | ⟨1, _⟩ => exact Fin.ext rfl
  -- the outer sum reduces every axis: its one result is the initial value plus the sum over all 256 columns
  rw [hostReduceAdd_apply, Ideal.hostReduceAdd_total reducesTo_S256_S_d0 (fun b => b.elim0),
    constant_apply, Ideal.ofBits_zero_f32, zero_add]
  refine (sum_idx1 _).trans ?_
  refine Finset.sum_congr rfl fun j _ => ?_
  rw [mulf_apply, hcol]

/-- The squared norm of the summed vector weight, from the argument. -/
theorem in1_nw (c : Dev nD) (Wv : Vec Ideal S256x256 .f32) (hW : m ((c : Thread nD τ).loc main_arg10) = Wv) :
    (V3 m c main_v22 : Vec Ideal S1x1 .f32) (ix2 0 0)
      = ∑ j : Fin 256, (∑ k : Fin 256, Wv (ix2 k j)) * (∑ k : Fin 256, Wv (ix2 k j)) := by
  have ha : W2 m c (Proc.devRef .tc main_arg10) = Wv :=
    ((W2_of_ne m c main_arg10 (by decide)).trans (W1_of m c main_arg10 (by decide))).trans hW
  show StableHlo.after hostOps1 (W2 m c) (Proc.devRef .tc main_v22) (ix2 0 0) = _
  after_results
  rw [ha]
  refine (of_scalar_1x1 _ _).trans ?_
  exact sumsq_cols Wv

/-- Launch 1's weight windows in terms of the arguments. -/
theorem tail_inputs (c : Dev nD) :
    (∀ i, (V3 m c main_v5 : Vec Ideal S256x32 .bf16) i = (m ((c : Thread nD τ).loc main_arg11) : Vec Ideal S256x32 .f32) i)
    ∧ (∀ j : Fin 32, (V3 m c main_v11 : Vec Ideal S1x32 .f32) (ix2 0 j) = (m ((c : Thread nD τ).loc main_arg12) : Vec Ideal S32 .f32) (ix1 j))
    ∧ (∀ i, (V3 m c main_v6 : Vec Ideal S32x1 .bf16) i = (m ((c : Thread nD τ).loc main_arg13) : Vec Ideal S32x1 .f32) i)
    ∧ (V3 m c main_v12 : Vec Ideal S1x1 .f32) (ix2 0 0) = (m ((c : Thread nD τ).loc main_arg14) : Vec Ideal S1 .f32) (ix1 0)
    ∧ (∀ Wv : Vec Ideal S256x256 .f32, m ((c : Thread nD τ).loc main_arg10) = Wv →
        (V3 m c main_v22 : Vec Ideal S1x1 .f32) (ix2 0 0)
          = ∑ j : Fin 256, (∑ k : Fin 256, Wv (ix2 k j)) * (∑ k : Fin 256, Wv (ix2 k j))) :=
  ⟨fun i => (congrFun (in1_wt1 m c) i).trans (truncf_apply _ _ i), in1_bt1 m c,
    fun i => (congrFun (in1_wt2 m c) i).trans (truncf_apply _ _ i), in1_bt2 m c, in1_nw m c⟩

end Cert.KernelIdeal.Hand

end
-- ==== Proof.KI.K1.lean ====
/-
  Launch 1 (the finishing step) read at an index, on the extended reals, for an arbitrary table of per-fragment sums.

  Row f of the table holds, in columns 0 … 255, the sum of the fragment's projected rows; in column 256 the sum of
  their squared norms; in column 257 the fragment's atom count; in columns 258 and 259 the sums of the centred vector
  magnitudes and of their squares.  The step divides by max(count, 1), forms the one-pass variances
  (mean square minus squared mean), clips them at zero, takes square roots and averages them over the fragments
  with at least two atoms, the average being zero when there is no such fragment.
-/
import proofs.«412127_j15607911153865_3_alg».proof.Proof.KI.Terms
import proofs.«412127_j15607911153865_3_alg».proof.Proof.KI.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.Spec
open Cert.KernelIdeal Cert.KernelIdeal.Gen

/-! ## Layout steps at the literal shapes -/

section Layout
variable {α : Type}

/-- One column of the table, cut out as a [2048, 1] vector, reads the table at that column. -/
theorem col_apply (o : Nat) (X : S2048x384.Idx → α) (h : S2048x384.Slices ![0, o] S2048x1) (f : Fin 2048) (u : Fin 1)
    (k : Fin 384) (hk : k.val = o) : extractStridedSlice S2048x1 ![0, o] X h (ix2 f u) = X (ix2 f k) :=
  slice2_axis1_apply o X h f u k (by have := u.isLt; omega)

/-- A [2048, 1] column spread over 256 lanes reads the column's entry of the row. -/
theorem spread_col_apply (v : S2048x1.Idx → α) (h : S2048x1.Broadcasts S2048x256) (f : Fin 2048) (j : Fin 256) :
    broadcastTo S2048x256 v h (ix2 f j) = v (ix2 f (0 : Fin 1)) := by
  refine broadcastTo_apply v h (ix2 f j) (ix2 f (0 : Fin 1)) fun a => ?_
  match a with
  | ⟨0, _⟩ => rfl
  | ⟨1, _⟩ => rfl

/-- A [2048] vector seen as a [2048, 1] column. -/
theorem as_col_apply (x : S2048.Idx → α) (h : S2048.ShapeCasts S2048x1) (f : Fin 2048) (u : Fin 1) :
    shapeCast S2048x1 x h (ix2 f u) = x (ix1 f) :=
  shapeCast_apply x h _ _ (by
    have hu : u.val = 0 := by omega
    rw [Shape.rowMajor_val_two, Shape.rowMajor_val_one]
    show f.val = f.val * 1 + u.val
    rw [hu, Nat.mul_one, Nat.add_zero])

/-- A one-element vector seen as a [1, 1] matrix. -/
theorem as_cell_apply (x : S1.Idx → α) (h : S1.ShapeCasts S1x1) (u v : Fin 1) :
    shapeCast S1x1 x h (ix2 u v) = x (ix1 v) :=
  shapeCast_a_1a_apply x h u v

end Layout

/-- The sum over the 256 lanes of a row. -/
theorem lanesum_apply (src : FVec Ideal S2048x256 .f32) (hφ : FKind.Formats .f32)
    (hacc : (0x00000000#32 : BitVec 32) = FKind.add.neutral .f32 hφ) (f : Fin 2048) :
    multiReduction .add [1] S2048 src 0x00000000#32 reduces_S2048x256_S2048 hφ hacc (ix1 f)
      = ∑ k : Fin 256, src (ix2 f k) := by
  refine (Ideal.multiReduction_add_single src 0x00000000#32 reduces_S2048x256_S2048 hφ hacc (ix1 f)).trans ?_
  refine Finset.sum_congr rfl fun k _ => congrArg src (funext fun a => Fin.ext ?_)
  match a with
  | ⟨0, _⟩ => rfl
  | ⟨1, _⟩ => rfl

/-- The sum down a [2048, 1] column. -/
theorem colsum_apply (src : FVec Ideal S2048x1 .f32) (hφ : FKind.Formats .f32)
    (hacc : (0x00000000#32 : BitVec 32) = FKind.add.neutral .f32 hφ) (u : Fin 1) :
    multiReduction .add [0] S1 src 0x00000000#32 reduces_S2048x1_S1 hφ hacc (ix1 u)
      = ∑ f : Fin 2048, src (ix2 f (0 : Fin 1)) := by
  refine (Ideal.multiReduction_add_single src 0x00000000#32 reduces_S2048x1_S1 hφ hacc (ix1 u)).trans ?_
  refine Finset.sum_congr rfl fun k _ => congrArg src (funext fun a => Fin.ext ?_)
  match a with
  | ⟨0, _⟩ => rfl
  | ⟨1, _⟩ =>
    have := u.isLt
    show u.val = 0
    omega

/-! ## Words -/

/-- A one-bit word widened to 32 bits and read as a signed number is 1 or 0. -/
private theorem bit_value : ∀ b : BitVec 1, (b.setWidth 32).toInt = if b = 1#1 then 1 else 0 := by decide

/-- … and so is its conversion to an extended real. -/
theorem bit_ereal (b : BitVec 1) : (((b.setWidth 32).toInt : ℝ) : EReal) = if b = 1#1 then 1 else 0 := by
  rw [bit_value]
  split <;> simp

/-- A select on a bit is the `if` on "the bit is one". -/
theorem select_ite {α : Type} (c : BitVec 1) (a b : α) : Scalar.select c a b = if c = 1#1 then a else b := rfl

/-- A select between equal first choices. -/
theorem select_congr {α : Type} (c : BitVec 1) {a a' : α} (b : α) (h : a = a') :
    Scalar.select c a b = Scalar.select c a' b := congrArg (fun t => Scalar.select c t b) h

/-- The guarded average both spreads end with: from the flags "at least two atoms" and the per-fragment terms, the sum
    of the flagged terms over max(number of flagged fragments, 1) when that number is positive, else zero. -/
theorem avg_eq (ids : Fin 100000 → BitVec 32) (b : Fin 2048 → BitVec 1)
    (hb : ∀ f, b f = Ideal.cmp .oge (cnt ids f) c2) (term : Fin 2048 → EReal) :
    Scalar.select (Ideal.cmp .ogt (nvalid ids) c0)
        (Ideal.div (∑ f : Fin 2048, Scalar.select (b f) (term f) c0) (max (nvalid ids) c1)) c0
      = avgValid ids term := by
  have hs : (∑ f : Fin 2048, Scalar.select (b f) (term f) c0) = ∑ f : Fin 2048, if valid ids f then term f else c0 := by
    refine Finset.sum_congr rfl fun f _ => ?_
    rw [select_ite, hb f]
    by_cases hv : valid ids f
    · have h1 : (if Ideal.cmp .oge (cnt ids f) c2 = 1#1 then term f else c0) = term f := if_pos hv
      have h2 : (if valid ids f then term f else c0) = term f := if_pos hv
      exact h1.trans h2.symm
    · have h1 : (if Ideal.cmp .oge (cnt ids f) c2 = 1#1 then term f else c0) = c0 := if_neg hv
      have h2 : (if valid ids f then term f else c0) = c0 := if_neg hv
      exact h1.trans h2.symm
  unfold avgValid
  rw [hs, select_ite]

/-- The number of flagged fragments, as the sum of the flags converted to numbers. -/
theorem nvalid_eq (ids : Fin 100000 → BitVec 32) (b : Fin 2048 → BitVec 1)
    (hb : ∀ f, b f = Ideal.cmp .oge (cnt ids f) c2) :
    (∑ f : Fin 2048, ((((b f).setWidth 32).toInt : ℝ) : EReal)) = nvalid ids := by
  unfold nvalid
  refine Finset.sum_congr rfl fun f _ => ?_
  rw [bit_ereal, hb f]
  by_cases hv : valid ids f
  · have h1 : (if Ideal.cmp .oge (cnt ids f) c2 = 1#1 then (1 : EReal) else 0) = 1 := if_pos hv
    have h2 : (if valid ids f then (1 : EReal) else 0) = 1 := if_pos hv
    exact h1.trans h2.symm
  · have h1 : (if Ideal.cmp .oge (cnt ids f) c2 = 1#1 then (1 : EReal) else 0) = 0 := if_neg hv
    have h2 : (if valid ids f then (1 : EReal) else 0) = 0 := if_neg hv
    exact h1.trans h2.symm

/-! ## The payloads at an index -/

section Payloads
variable (comb : Vec Ideal S2048x384 .f32)

theorem pay2_eq : k1_pay2 (F := Ideal) comb = comb := shapeCast_self comb _

/-- The count column. -/
theorem pay3_apply (f : Fin 2048) (u : Fin 1) :
    k1_pay3 (F := Ideal) comb (ix2 f u) = comb (ix2 f (257 : Fin 384)) := by
  unfold k1_pay3
  rw [pay2_eq]
  exact col_apply 257 comb _ f u _ rfl

/-- max(count, 1). -/
theorem pay4_apply (f : Fin 2048) (u : Fin 1) :
    k1_pay4 (F := Ideal) comb (ix2 f u) = max (comb (ix2 f (257 : Fin 384))) c1 := by
  show max (k1_pay3 (F := Ideal) comb (ix2 f u)) c1 = _
  rw [pay3_apply]

/-- The group means: the summed rows over max(count, 1). -/
theorem group1_apply (f : Fin 2048) (j : Fin 256) :
    k1_pay5 (F := Ideal) comb (ix2 f j)
      = Ideal.div (comb (ix2 f (Fin.castLE (by decide) j))) (max (comb (ix2 f (257 : Fin 384))) c1) := by
  have e1 : extractStridedSlice S2048x256 ![0, 0] (k1_pay2 (F := Ideal) comb) slices_S2048x384_o0_0_S2048x256 (ix2 f j)
      = comb (ix2 f (Fin.castLE (by decide) j)) := by
    rw [pay2_eq]
    exact slice2_axis1_apply 0 comb _ f j _ (by simp)
  have e2 : broadcastTo S2048x256 (k1_pay4 (F := Ideal) comb) broadcasts_S2048x1_S2048x256 (ix2 f j)
      = max (comb (ix2 f (257 : Fin 384))) c1 :=
    (spread_col_apply _ _ f j).trans (pay4_apply comb f 0)
  exact congrArg₂ Ideal.div e1 e2

/-- The flag "at least two atoms". -/
private theorem pay7_apply (f : Fin 2048) (u : Fin 1) :
    k1_pay7 (F := Ideal) comb (ix2 f u) = Ideal.cmp .oge (comb (ix2 f (257 : Fin 384))) c2 := by
  show Ideal.cmp .oge (k1_pay3 (F := Ideal) comb (ix2 f u)) c2 = _
  rw [pay3_apply]

/-- The number of flagged fragments. -/
private theorem pay8_apply (ids : Fin 100000 → BitVec 32) (hcnt : ∀ f : Fin 2048, comb (ix2 f (257 : Fin 384)) = cnt ids f)
    (u v : Fin 1) : k1_pay8 (F := Ideal) comb (ix2 u v) = nvalid ids := by
  unfold k1_pay8
  refine (as_cell_apply _ _ u v).trans ?_
  refine (colsum_apply _ _ _ v).trans ?_
  exact nvalid_eq ids (fun f => k1_pay7 (F := Ideal) comb (ix2 f (0 : Fin 1)))
    (fun f => (pay7_apply comb f 0).trans (by rw [hcnt f]))

end Payloads

/-! ## The three column shapes the two spreads are built from, over arbitrary vectors -/

/-- The clipped, shifted square root at an index. -/
theorem rootcol_apply (V : FVec Ideal S2048x1 .f32) (i : S2048x1.Idx) :
    sqrt (addf (maximumf V (broadcast S2048x1 (Scalar.ofBits .f32 0x00000000#32)))
      (broadcast S2048x1 (Scalar.ofBits .f32 0x322BCC77#32))) i = Ideal.sqrt (max (V i) c0 + cEps8) := rfl

/-- The flag-selected column summed and divided by max(number, 1). -/
theorem avgcol_apply (T : FVec Ideal S2048x1 .f32) (bits : IVec S2048x1 1) (nv : FVec Ideal S1x1 .f32)
    (hφ : FKind.Formats .f32) (hacc : (0x00000000#32 : BitVec 32) = FKind.add.neutral .f32 hφ) (u v : Fin 1) :
    divf (shapeCast S1x1 (multiReduction .add [0] S1
        (select bits T (broadcast S2048x1 (Scalar.ofBits .f32 0x00000000#32))) 0x00000000#32 reduces_S2048x1_S1 hφ hacc)
        shapeCasts_S1_S1x1) (maximumf nv (broadcast S1x1 (Scalar.ofBits .f32 0x3F800000#32))) (ix2 u v)
      = Ideal.div (∑ f : Fin 2048, Scalar.select (bits (ix2 f (0 : Fin 1))) (T (ix2 f (0 : Fin 1))) c0)
          (max (nv (ix2 u v)) c1) :=
  congrArg₂ Ideal.div ((as_cell_apply _ _ u v).trans (colsum_apply _ _ _ v)) rfl

/-- Mean square minus the squared norm of the mean, from the table, the group means and the divisor. -/
theorem varcol_apply (X : FVec Ideal S2048x384 .f32) (G : FVec Ideal S2048x256 .f32) (D : FVec Ideal S2048x1 .f32)
    (hφ : FKind.Formats .f32) (hacc : (0x00000000#32 : BitVec 32) = FKind.add.neutral .f32 hφ) (f : Fin 2048) (u : Fin 1) :
    subf (divf (extractStridedSlice S2048x1 ![0, 256] X slices_S2048x384_o0_256_S2048x1) D)
      (shapeCast S2048x1 (multiReduction .add [1] S2048 (mulf G G) 0x00000000#32 reduces_S2048x256_S2048 hφ hacc)
        shapeCasts_S2048_S2048x1) (ix2 f u)
      = Ideal.div (X (ix2 f (256 : Fin 384))) (D (ix2 f u)) - ∑ k : Fin 256, G (ix2 f k) * G (ix2 f k) :=
  congrArg₂ (fun a b : EReal => a - b) (congrArg₂ Ideal.div (col_apply 256 X _ f u _ rfl) rfl)
    ((as_col_apply _ _ f u).trans (lanesum_apply _ _ _ f))

/-- The vector branch's one-pass variance, scaled. -/
theorem veccol_apply (X : FVec Ideal S2048x384 .f32) (D : FVec Ideal S2048x1 .f32) (w : FVec Ideal S1x1 .f32)
    (f : Fin 2048) (u : Fin 1) :
    mulf (subf (divf (extractStridedSlice S2048x1 ![0, 259] X slices_S2048x384_o0_259_S2048x1) D)
        (mulf (divf (extractStridedSlice S2048x1 ![0, 258] X slices_S2048x384_o0_258_S2048x1) D)
          (divf (extractStridedSlice S2048x1 ![0, 258] X slices_S2048x384_o0_258_S2048x1) D)))
      (broadcast S2048x1 (extractAt ![0, 0] w inpos_S1x1_p0_0)) (ix2 f u)
      = (Ideal.div (X (ix2 f (259 : Fin 384))) (D (ix2 f u))
          - Ideal.div (X (ix2 f (258 : Fin 384))) (D (ix2 f u)) * Ideal.div (X (ix2 f (258 : Fin 384))) (D (ix2 f u)))
        * w (ix2 (0 : Fin 1) (0 : Fin 1)) := by
  have e8 := col_apply 258 X slices_S2048x384_o0_258_S2048x1 f u (258 : Fin 384) rfl
  have e9 := col_apply 259 X slices_S2048x384_o0_259_S2048x1 f u (259 : Fin 384) rfl
  have ew : extractAt ![0, 0] w inpos_S1x1_p0_0 = w (ix2 (0 : Fin 1) (0 : Fin 1)) :=
    congrArg w (funext fun a => Fin.ext (by
      match a with
      | ⟨0, _⟩ => rfl
      | ⟨1, _⟩ => rfl))
  show (Ideal.div (extractStridedSlice S2048x1 ![0, 259] X slices_S2048x384_o0_259_S2048x1 (ix2 f u)) (D (ix2 f u))
      - Ideal.div (extractStridedSlice S2048x1 ![0, 258] X slices_S2048x384_o0_258_S2048x1 (ix2 f u)) (D (ix2 f u))
        * Ideal.div (extractStridedSlice S2048x1 ![0, 258] X slices_S2048x384_o0_258_S2048x1 (ix2 f u)) (D (ix2 f u)))
      * extractAt ![0, 0] w inpos_S1x1_p0_0 = _
  rw [e8, e9, ew]

/-- The guard "the number is positive" choosing a value against zero, at an index. -/
theorem guard_apply (nv a : FVec Ideal S1x1 .f32) (i : S1x1.Idx) :
    select (cmpf .ogt nv (broadcast S1x1 (Scalar.ofBits .f32 0x00000000#32))) a
        (broadcast S1x1 (Scalar.ofBits .f32 0x00000000#32)) i
      = Scalar.select (Ideal.cmp .ogt (nv i) c0) (a i) c0 := rfl

/-- The vector branch's closing step over arbitrary vectors: the clipped, shifted square roots of the flagged entries,
    averaged, under the guard. -/
theorem pay12_apply (T : FVec Ideal S2048x1 .f32) (bits : IVec S2048x1 1) (nv : FVec Ideal S1x1 .f32) (u v : Fin 1) :
    k1_pay12 (F := Ideal) T bits nv (ix2 u v)
      = Scalar.select (Ideal.cmp .ogt (nv (ix2 u v)) c0)
          (Ideal.div (∑ f : Fin 2048, Scalar.select (bits (ix2 f (0 : Fin 1)))
              (Ideal.sqrt (max (T (ix2 f (0 : Fin 1))) c0 + cEps8)) c0) (max (nv (ix2 u v)) c1)) c0 := by
  unfold k1_pay12
  refine (guard_apply _ _ _).trans ?_
  refine select_congr _ _ ?_
  refine (avgcol_apply _ _ _ _ _ u v).trans ?_
  refine congrArg₂ Ideal.div (Finset.sum_congr rfl fun f _ => ?_) rfl
  exact select_congr _ _ (rootcol_apply _ _)

/-! ## The two spreads -/

section Spreads
variable (comb : Vec Ideal S2048x384 .f32) (ids : Fin 100000 → BitVec 32)
  (hcnt : ∀ f : Fin 2048, comb (ix2 f (257 : Fin 384)) = cnt ids f)
include hcnt

/-- The one-pass variance of a fragment's projected rows, in the table's words. -/
theorem var_apply (f : Fin 2048) :
    Ideal.div (comb (ix2 f (256 : Fin 384))) (max (comb (ix2 f (257 : Fin 384))) c1)
        - ∑ k : Fin 256, k1_pay5 (F := Ideal) comb (ix2 f k) * k1_pay5 (F := Ideal) comb (ix2 f k)
      = var1 ids (fun f j => comb (ix2 f (Fin.castLE (by decide) j))) (fun f => comb (ix2 f (256 : Fin 384))) f := by
  unfold var1 safe
  rw [← hcnt f]
  refine congrArg (fun t : EReal => _ - t) (Finset.sum_congr rfl fun k _ => ?_)
  rw [group1_apply]

/-- The flags in the reference's words. -/
theorem flags_eq (f : Fin 2048) : k1_pay7 (F := Ideal) comb (ix2 f (0 : Fin 1)) = Ideal.cmp .oge (cnt ids f) c2 :=
  (pay7_apply comb f 0).trans (congrArg (fun t : EReal => Ideal.cmp .oge t c2) (hcnt f))

theorem intra1_eq :
    intra1 (F := Ideal) comb (ix2 (0 : Fin 1) (0 : Fin 1))
      = spreadOfMoments ids (fun f j => comb (ix2 f (Fin.castLE (by decide) j))) (fun f => comb (ix2 f (256 : Fin 384))) := by
  have hn : k1_pay8 (F := Ideal) comb (ix2 (0 : Fin 1) (0 : Fin 1)) = nvalid ids := pay8_apply comb ids hcnt 0 0
  unfold spreadOfMoments
  refine Eq.trans ?_ (avg_eq ids (fun f => k1_pay7 (F := Ideal) comb (ix2 f (0 : Fin 1))) (flags_eq comb ids hcnt) _)
  refine (guard_apply (k1_pay8 (F := Ideal) comb) (k1_pay10 (F := Ideal) comb) (ix2 (0 : Fin 1) (0 : Fin 1))).trans ?_
  rw [hn]
  refine select_congr _ _ ?_
  unfold k1_pay10
  refine (avgcol_apply _ _ _ _ _ 0 0).trans ?_
  refine congrArg₂ Ideal.div (Finset.sum_congr rfl fun f _ => ?_) (congrArg (fun t : EReal => max t c1) hn)
  refine select_congr _ _ ?_
  refine (rootcol_apply _ _).trans ?_
  refine congrArg (fun t : EReal => Ideal.sqrt (max t c0 + cEps8)) ?_
  refine (varcol_apply _ _ _ _ _ f 0).trans ?_
  rw [pay2_eq, pay4_apply]
  exact var_apply comb ids hcnt f

/-- The vector branch's scaled variance of a fragment, in the table's words. -/
private theorem pay6_apply (nw : Vec Ideal S1x1 .f32) (f : Fin 2048) (u : Fin 1) :
    k1_pay6 (F := Ideal) comb nw (ix2 f u)
      = varVec ids (fun f => comb (ix2 f (258 : Fin 384))) (fun f => comb (ix2 f (259 : Fin 384)))
          (nw (ix2 (0 : Fin 1) (0 : Fin 1))) f := by
  unfold k1_pay6
  refine (veccol_apply _ _ _ f u).trans ?_
  rw [pay2_eq, pay4_apply, hcnt f]
  rfl

theorem vecloss1_eq (nw : Vec Ideal S1x1 .f32) :
    vecloss1 (F := Ideal) comb nw (ix2 (0 : Fin 1) (0 : Fin 1))
      = spreadVec ids (fun f => comb (ix2 f (258 : Fin 384))) (fun f => comb (ix2 f (259 : Fin 384)))
          (nw (ix2 (0 : Fin 1) (0 : Fin 1))) := by
  have hn : k1_pay8 (F := Ideal) comb (ix2 (0 : Fin 1) (0 : Fin 1)) = nvalid ids := pay8_apply comb ids hcnt 0 0
  unfold spreadVec
  refine Eq.trans ?_ (avg_eq ids (fun f => k1_pay7 (F := Ideal) comb (ix2 f (0 : Fin 1))) (flags_eq comb ids hcnt) _)
  unfold vecloss1
  refine (pay12_apply _ _ _ 0 0).trans ?_
  rw [hn]
  refine select_congr _ _ ?_
  refine congrArg₂ Ideal.div (Finset.sum_congr rfl fun f _ => ?_) rfl
  refine select_congr _ _ ?_
  exact congrArg (fun t : EReal => Ideal.sqrt (max t c0 + cEps8)) (pay6_apply comb ids hcnt nw f 0)

end Spreads

end Cert.KernelIdeal.Hand

end
-- ==== Proof.KI.TargetRef.lean ====
/-
  Launch 1's normalised rows and its adaptive target are the reference's stages 112 and 107, given that the kernel's
  group means are the reference's stage 49.  Both sides are read against the same plain quantities over tables of
  extended reals: a row over the larger of its Euclidean norm and a floor word; and the sum over the rows of the
  clipped logistic of a two-layer head (a gated hidden layer), which the kernel multiplies by the word of 2⁻¹¹ and
  the reference divides by the word of 2048.
-/
import proofs.«412127_j15607911153865_3_alg».proof.Proof.KI.Terms
import proofs.«412127_j15607911153865_3_alg».proof.Proof.RefReadP
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.TargetRef

open Idealize.ShloMosaic Idealize.ShloMosaic.TcCoe Idealize.ShloMosaic.ValueIdx
open Cert.KernelIdeal Cert.KernelIdeal.Gen Cert.KernelIdeal.Hand

/-! ## The two quantities, over plain tables of extended reals -/

/-- A row of the table over the larger of its Euclidean norm and the floor word. -/
def nrmOf (y : Fin 2048 → Fin 256 → EReal) (a : Fin 2048) (j : Fin 256) : EReal :=
  Ideal.div (y a j) (max (Ideal.sqrt (∑ k, y a k * y a k)) (Ideal.ofBits .f32 0x2B8CBCCC#32))

/-- The hidden layer of the target head before its gate. -/
def hidOf (y : Fin 2048 → Fin 256 → EReal) (w1 : Fin 256 → Fin 32 → EReal) (b1 : Fin 32 → EReal)
    (f : Fin 2048) (c : Fin 32) : EReal :=
  (∑ k, y f k * w1 k c) + b1 c

/-- The head's output for one row: the gated hidden layer against the second weight, plus its bias. -/
def outOf (h : Fin 2048 → Fin 32 → EReal) (w2 : Fin 32 → EReal) (b2 : EReal) (f : Fin 2048) : EReal :=
  (∑ k, (h f k * Ideal.logistic (h f k)) * w2 k) + b2

/-- The logistic of a value, kept between the words of 0.2 and 0.8. -/
def clipOf (t : EReal) : EReal :=
  min (Ideal.ofBits .f32 0x3F4CCCCD#32) (max (Ideal.ofBits .f32 0x3E4CCCCD#32) (Ideal.logistic t))

/-- The sum over the rows of the clipped outputs. -/
def tgtSum (y : Fin 2048 → Fin 256 → EReal) (w1 : Fin 256 → Fin 32 → EReal) (b1 : Fin 32 → EReal)
    (w2 : Fin 32 → EReal) (b2 : EReal) : EReal :=
  ∑ f, clipOf (outOf (hidOf y w1 b1) w2 b2 f)

/-! ## Layout operations at an index -/

/-- A column `[n, 1]` broadcast along its unit axis reads, at `(p, c)`, the column at `p`. -/
theorem bcast_col_apply {α : Type} {n m : ℕ} (v : (⟨2, ![n, 1]⟩ : Shape).Idx → α)
    (h : (⟨2, ![n, 1]⟩ : Shape).Broadcasts ⟨2, ![n, m]⟩) (p : Fin n) (c : Fin m) :
    broadcastTo ⟨2, ![n, m]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ => rfl

/-- A vector `[n]` cast to a column `[n, 1]` reads, at `(p, u)`, the vector at `p`. -/
theorem cast_col_apply {α : Type} {n : ℕ} (x : (⟨1, ![n]⟩ : Shape).Idx → α)
    (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector shape's index set is its one coordinate range … -/
def idxEquiv1 {n : ℕ} : (⟨1, ![n]⟩ : Shape).Idx ≃ Fin n where
  toFun i := i 0
  invFun a := ix1 a
  left_inv i := (eq_ix1 i).symm
  right_inv _ := rfl
/-- … so a sum over it is the sum over that coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## The kernel's two reductions -/

/-- The lane sum of a `[2048, 256]` table at row `a`. -/
theorem rowsum_apply (v : FVec Ideal S2048x256 .f32) (h : S2048x256.Reduces [1] S2048) (hφ : FKind.Formats .f32)
    (hacc : (0x00000000#32 : BitVec 32) = FKind.add.neutral .f32 hφ) (a : Fin 2048) :
    multiReduction .add [1] S2048 v 0x00000000#32 h hφ hacc (ix1 a) = ∑ k : Fin 256, v (ix2 a k) := by
  refine (Ideal.multiReduction_add_single v 0x00000000#32 h hφ hacc (ix1 a)).trans ?_
  refine Finset.sum_congr rfl fun k _ => congrArg v ?_
  exact funext fun d => Fin.ext (by match d with | ⟨0, _⟩ => rfl | ⟨1, _⟩ => rfl)

/-- The sum of a column `[2048, 1]` over its rows. -/
theorem colsum_apply (v : FVec Ideal S2048x1 .f32) (h : S2048x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ f : Fin 2048, v (ix2 f (0 : Fin 1)) := by
  refine (Ideal.multiReduction_add_single v 0x00000000#32 h hφ hacc (ix1 u)).trans ?_
  refine Finset.sum_congr rfl fun k _ => congrArg v ?_
  exact funext fun d => Fin.ext (by
    match d with
    | ⟨0, _⟩ => rfl
    | ⟨1, _⟩ => show u.val = 0; omega)

/-! ## The two matrix products of the target head -/

theorem lhs_mmA_0 (i : S2048x32.Idx) (q : dot_S2048x256_S256x32_S2048x32_1_0_0_1_n_n.contr.Idx) :
    (dot_S2048x256_S256x32_S2048x32_1_0_0_1_n_n.lhsIdx i q 0).val = (i 0).val := by
  unfold DotDims.lhsIdx
  rw [dif_neg (show ¬(0 : Fin S2048x256.rank) ∈ dot_S2048x256_S256x32_S2048x32_1_0_0_1_n_n.lhsBatch by decide), dif_pos (show (0 : Fin S2048x256.rank) ∈ dot_S2048x256_S256x32_S2048x32_1_0_0_1_n_n.lhsNonContracting by decide)]
  rfl
theorem lhs_mmA_1 (i : S2048x32.Idx) (q : dot_S2048x256_S256x32_S2048x32_1_0_0_1_n_n.contr.Idx) :
    (dot_S2048x256_S256x32_S2048x32_1_0_0_1_n_n.lhsIdx i q 1).val = (q ⟨0, by decide⟩).val :=
  dot_S2048x256_S256x32_S2048x32_1_0_0_1_n_n.lhsIdx_val_of_single rfl i q
theorem rhs_mmA_0 (i : S2048x32.Idx) (q : dot_S2048x256_S256x32_S2048x32_1_0_0_1_n_n.contr.Idx) :
    (dot_S2048x256_S256x32_S2048x32_1_0_0_1_n_n.rhsIdx i q 0).val = (q ⟨0, by decide⟩).val :=
  dot_S2048x256_S256x32_S2048x32_1_0_0_1_n_n.rhsIdx_val_of_single rfl i q
theorem rhs_mmA_1 (i : S2048x32.Idx) (q : dot_S2048x256_S256x32_S2048x32_1_0_0_1_n_n.contr.Idx) :
    (dot_S2048x256_S256x32_S2048x32_1_0_0_1_n_n.rhsIdx i q 1).val = (i 1).val := by
  unfold DotDims.rhsIdx
  rw [dif_neg (show ¬(1 : Fin S256x32.rank) ∈ dot_S2048x256_S256x32_S2048x32_1_0_0_1_n_n.rhsBatch by decide), dif_pos (show (1 : Fin S256x32.rank) ∈ dot_S2048x256_S256x32_S2048x32_1_0_0_1_n_n.rhsNonContracting by decide)]
  rfl

/-- The product into a zero accumulator, at `(f, c)`: the sum over the contracted axis. -/
theorem mmA_apply (l : FVec Ideal S2048x256 .bf16) (r : FVec Ideal S256x32 .bf16) (f : Fin 2048) (c : Fin 32) :
    matmul dot_S2048x256_S256x32_S2048x32_1_0_0_1_n_n none l r (constant (F := Ideal) S2048x32 .f32 0x00000000#32) (ix2 f c)
      = ∑ k : Fin 256, l (ix2 f k) * r (ix2 k c) := by
  refine (Ideal.matmul_constant_zero_apply dot_S2048x256_S256x32_S2048x32_1_0_0_1_n_n none l r (ix2 f c)).trans ?_
  rw [← Equiv.sum_comp (ValueIdx.contrEquiv1 dot_S2048x256_S256x32_S2048x32_1_0_0_1_n_n 256 rfl rfl).symm]
  refine Finset.sum_congr rfl fun k _ => ?_
  have hk := ValueIdx.contrEquiv1_symm_val dot_S2048x256_S256x32_S2048x32_1_0_0_1_n_n 256 rfl rfl k
  have el : dot_S2048x256_S256x32_S2048x32_1_0_0_1_n_n.lhsIdx (ix2 f c) ((ValueIdx.contrEquiv1 dot_S2048x256_S256x32_S2048x32_1_0_0_1_n_n 256 rfl rfl).symm k) = ix2 f k := funext fun a => Fin.ext (by
    match a with
    | ⟨0, _⟩ => exact lhs_mmA_0 _ _
    | ⟨1, _⟩ => exact (lhs_mmA_1 _ _).trans hk)
  have er : dot_S2048x256_S256x32_S2048x32_1_0_0_1_n_n.rhsIdx (ix2 f c) ((ValueIdx.contrEquiv1 dot_S2048x256_S256x32_S2048x32_1_0_0_1_n_n 256 rfl rfl).symm k) = ix2 k c := funext fun a => Fin.ext (by
    match a with
    | ⟨0, _⟩ => exact (rhs_mmA_0 _ _).trans hk
    | ⟨1, _⟩ => exact rhs_mmA_1 _ _)
  rw [el, er]

theorem lhs_mmB_0 (i : S2048x1.Idx) (q : dot_S2048x32_S32x1_S2048x1_1_0_0_1_n_n.contr.Idx) :
    (dot_S2048x32_S32x1_S2048x1_1_0_0_1_n_n.lhsIdx i q 0).val = (i 0).val := by
  unfold DotDims.lhsIdx
  rw [dif_neg (show ¬(0 : Fin S2048x32.rank) ∈ dot_S2048x32_S32x1_S2048x1_1_0_0_1_n_n.lhsBatch by decide), dif_pos (show (0 : Fin S2048x32.rank) ∈ dot_S2048x32_S32x1_S2048x1_1_0_0_1_n_n.lhsNonContracting by decide)]
  rfl
theorem lhs_mmB_1 (i : S2048x1.Idx) (q : dot_S2048x32_S32x1_S2048x1_1_0_0_1_n_n.contr.Idx) :
    (dot_S2048x32_S32x1_S2048x1_1_0_0_1_n_n.lhsIdx i q 1).val = (q ⟨0, by decide⟩).val :=
  dot_S2048x32_S32x1_S2048x1_1_0_0_1_n_n.lhsIdx_val_of_single rfl i q
theorem rhs_mmB_0 (i : S2048x1.Idx) (q : dot_S2048x32_S32x1_S2048x1_1_0_0_1_n_n.contr.Idx) :
    (dot_S2048x32_S32x1_S2048x1_1_0_0_1_n_n.rhsIdx i q 0).val = (q ⟨0, by decide⟩).val :=
  dot_S2048x32_S32x1_S2048x1_1_0_0_1_n_n.rhsIdx_val_of_single rfl i q
theorem rhs_mmB_1 (i : S2048x1.Idx) (q : dot_S2048x32_S32x1_S2048x1_1_0_0_1_n_n.contr.Idx) :
    (dot_S2048x32_S32x1_S2048x1_1_0_0_1_n_n.rhsIdx i q 1).val = (i 1).val := by
  unfold DotDims.rhsIdx
  rw [dif_neg (show ¬(1 : Fin S32x1.rank) ∈ dot_S2048x32_S32x1_S2048x1_1_0_0_1_n_n.rhsBatch by decide), dif_pos (show (1 : Fin S32x1.rank) ∈ dot_S2048x32_S32x1_S2048x1_1_0_0_1_n_n.rhsNonContracting by decide)]
  rfl

/-- The product into a zero accumulator, at `(f, c)`: the sum over the contracted axis. -/
theorem mmB_apply (l : FVec Ideal S2048x32 .bf16) (r : FVec Ideal S32x1 .bf16) (f : Fin 2048) (c : Fin 1) :
    matmul dot_S2048x32_S32x1_S2048x1_1_0_0_1_n_n none l r (constant (F := Ideal) S2048x1 .f32 0x00000000#32) (ix2 f c)
      = ∑ k : Fin 32, l (ix2 f k) * r (ix2 k c) := by
  refine (Ideal.matmul_constant_zero_apply dot_S2048x32_S32x1_S2048x1_1_0_0_1_n_n none l r (ix2 f c)).trans ?_
  rw [← Equiv.sum_comp (ValueIdx.contrEquiv1 dot_S2048x32_S32x1_S2048x1_1_0_0_1_n_n 32 rfl rfl).symm]
  refine Finset.sum_congr rfl fun k _ => ?_
  have hk := ValueIdx.contrEquiv1_symm_val dot_S2048x32_S32x1_S2048x1_1_0_0_1_n_n 32 rfl rfl k
  have el : dot_S2048x32_S32x1_S2048x1_1_0_0_1_n_n.lhsIdx (ix2 f c) ((ValueIdx.contrEquiv1 dot_S2048x32_S32x1_S2048x1_1_0_0_1_n_n 32 rfl rfl).symm k) = ix2 f k := funext fun a => Fin.ext (by
    match a with
    | ⟨0, _⟩ => exact lhs_mmB_0 _ _
    | ⟨1, _⟩ => exact (lhs_mmB_1 _ _).trans hk)
  have er : dot_S2048x32_S32x1_S2048x1_1_0_0_1_n_n.rhsIdx (ix2 f c) ((ValueIdx.contrEquiv1 dot_S2048x32_S32x1_S2048x1_1_0_0_1_n_n 32 rfl rfl).symm k) = ix2 k c := funext fun a => Fin.ext (by
    match a with
    | ⟨0, _⟩ => exact (rhs_mmB_0 _ _).trans hk
    | ⟨1, _⟩ => exact rhs_mmB_1 _ _)
  rw [el, er]

/-! ## The kernel's three payloads at an index -/

/-- The normalised rows: each entry over the larger of its row's norm and the floor word. -/
theorem pay13_apply (g : FVec Ideal S2048x256 .f32) (a : Fin 2048) (j : Fin 256) :
    k1_pay13 (F := Ideal) g (ix2 a j) = nrmOf (fun f q => g (ix2 f q)) a j := by
  unfold k1_pay13 nrmOf
  refine (divf_apply _ _ _).trans (congrArg (Ideal.div (g (ix2 a j))) ?_)
  refine (bcast_col_apply _ _ a j).trans ?_
  refine (maximumf_apply _ _ _).trans (congrArg (fun t => max (Ideal.sqrt t) (Ideal.ofBits .f32 0x2B8CBCCC#32)) ?_)
  refine (cast_col_apply _ _ a 0).trans ?_
  exact rowsum_apply _ _ _ _ a

/-- The hidden layer: the table against the first weight, plus the bias row. -/
theorem pay14_apply (g : FVec Ideal S2048x256 .f32) (wt1 : Vec Ideal S256x32 .bf16) (bt1 : Vec Ideal S1x32 .f32)
    (f : Fin 2048) (c : Fin 32) :
    k1_pay14 (F := Ideal) g wt1 bt1 (ix2 f c)
      = hidOf (fun f q => g (ix2 f q)) (fun k c => wt1 (ix2 k c)) (fun c => bt1 (ix2 (0 : Fin 1) c)) f c := by
  unfold k1_pay14 hidOf
  refine (addf_apply _ _ _).trans (congrArg₂ (· + ·) ?_ ?_)
  · refine (mmA_apply _ _ f c).trans (Finset.sum_congr rfl fun k _ => ?_)
    rw [shapeCast_self]
    rfl
  · refine (broadcastTo_1b_ab_apply _ _ f c).trans ?_
    rw [shapeCast_self]

/-- The target: the clipped logistic of the head's output summed over the rows, times the word of 2⁻¹¹. -/
theorem pay1_apply (v : FVec Ideal S2048x32 .f32) (wt2 : Vec Ideal S32x1 .bf16) (bt2 : Vec Ideal S1x1 .f32) :
    k1_pay1 (F := Ideal) v wt2 bt2 (ix2 (0 : Fin 1) (0 : Fin 1))
      = (∑ f : Fin 2048, clipOf (outOf (fun f k => v (ix2 f k)) (fun k => wt2 (ix2 k (0 : Fin 1)))
          (bt2 (ix2 (0 : Fin 1) (0 : Fin 1))) f)) * Ideal.ofBits .f32 0x3A000000#32 := by
  unfold k1_pay1
  refine (mulf_apply _ _ _).trans (congrArg (· * Ideal.ofBits .f32 0x3A000000#32) ?_)
  refine (shapeCast_a_1a_apply _ _ 0 0).trans ?_
  refine (colsum_apply _ _ _ _ 0).trans (Finset.sum_congr rfl fun f _ => ?_)
  unfold clipOf outOf
  refine (minimumf_apply _ _ _).trans (congrArg (min (Ideal.ofBits .f32 0x3F4CCCCD#32)) ?_)
  refine (maximumf_apply _ _ _).trans (congrArg (fun t => max (Ideal.ofBits .f32 0x3E4CCCCD#32) (Ideal.logistic t)) ?_)
  refine (addf_apply _ _ _).trans (congrArg₂ (· + ·) ?_ ?_)
  · refine (mmB_apply _ _ f 0).trans (Finset.sum_congr rfl fun k _ => ?_)
    rw [shapeCast_self]
    rfl
  · refine (broadcastTo_1b_ab_apply _ _ f 0).trans ?_
    rw [shapeCast_self]

/-! ## Two words as reals -/

/-- The word `0x45000000` is 2048. -/
theorem ofBits_2048 : Ideal.ofBits .f32 0x45000000#32 = ((2048 : ℝ) : EReal) := by
  simp [Ideal.ofBits, Ideal.ieee, -EReal.coe_mul]; norm_num

/-- The word `0x3A000000` is 2⁻¹¹, the reciprocal of 2048. -/
theorem ofBits_inv_2048 : Ideal.ofBits .f32 0x3A000000#32 = ((1 / 2048 : ℝ) : EReal) := by
  simp [Ideal.ofBits, Ideal.ieee, -EReal.coe_mul]; norm_num

/-- Dividing by the word of 2048 is multiplying by the word of its reciprocal. -/
theorem div_2048 (s : EReal) :
    Ideal.div s (Ideal.ofBits .f32 0x45000000#32) = s * Ideal.ofBits .f32 0x3A000000#32 := by
  rw [ofBits_2048, ofBits_inv_2048]
  exact Ideal.div_coe (by norm_num) s

/-! ## The reference's composed index maps, as coordinate pairs -/

namespace R
open Cert.ReferenceIdeal.Read

theorem idx111 (a : Fin 2048) (j : Fin 256) : idx_main_v111 (ix2 a j) = ix2 a (0 : Fin 1) :=
  funext fun d => Fin.ext (by match d with | ⟨0, _⟩ => rfl | ⟨1, _⟩ => rfl)
theorem idxc2 (a : Fin 2048) : idx_main_call5_v2 (ix2 a (0 : Fin 1)) = ix1 a :=
  funext fun d => Fin.ext (by match d with | ⟨0, _⟩ => rfl)
theorem idxc1 (a : Fin 2048) (k : Fin 256) : idx_main_call5_v1 (ix1 a) k = ix2 a k :=
  funext fun d => Fin.ext (by match d with | ⟨0, _⟩ => rfl | ⟨1, _⟩ => rfl)
theorem idx98 (f : Fin 2048) : idx_main_v98 (ix1 f) = ix2 f (0 : Fin 1) :=
  funext fun d => Fin.ext (by match d with | ⟨0, _⟩ => exact Nat.div_one _ | ⟨1, _⟩ => rfl)
theorem idx96 (f : Fin 2048) : idx_main_v96 (ix2 f (0 : Fin 1)) = ix2 (0 : Fin 1) (0 : Fin 1) :=
  funext fun d => Fin.ext (by match d with | ⟨0, _⟩ => rfl | ⟨1, _⟩ => rfl)
theorem idx95 : idx_main_v95 (ix2 (0 : Fin 1) (0 : Fin 1)) = ix1 (0 : Fin 1) :=
  funext fun d => Fin.ext (by match d with | ⟨0, _⟩ => rfl)
theorem lidx94 (f : Fin 2048) (k : Fin 32) : lidx_main_v94 (ix2 f (0 : Fin 1)) k = ix2 f k :=
  funext fun d => Fin.ext (by match d with | ⟨0, _⟩ => rfl | ⟨1, _⟩ => rfl)
theorem ridx94 (f : Fin 2048) (k : Fin 32) : ridx_main_v94 (ix2 f (0 : Fin 1)) k = ix2 k (0 : Fin 1) :=
  funext fun d => Fin.ext (by match d with | ⟨0, _⟩ => rfl | ⟨1, _⟩ => rfl)
theorem idx91 (f : Fin 2048) (k : Fin 32) : idx_main_v91 (ix2 f k) = ix2 (0 : Fin 1) k :=
  funext fun d => Fin.ext (by match d with | ⟨0, _⟩ => rfl | ⟨1, _⟩ => rfl)
theorem idx90 (k : Fin 32) : idx_main_v90 (ix2 (0 : Fin 1) k) = ix1 k :=
  funext fun d => Fin.ext (by match d with | ⟨0, _⟩ => rfl)
theorem lidx89 (f : Fin 2048) (k : Fin 32) (q : Fin 256) : lidx_main_v89 (ix2 f k) q = ix2 f q :=
  funext fun d => Fin.ext (by match d with | ⟨0, _⟩ => rfl | ⟨1, _⟩ => rfl)
theorem ridx89 (f : Fin 2048) (k : Fin 32) (q : Fin 256) : ridx_main_v89 (ix2 f k) q = ix2 q k :=
  funext fun d => Fin.ext (by match d with | ⟨0, _⟩ => rfl | ⟨1, _⟩ => rfl)

end R

/-! ## The reference's two stages at an index, over its group-mean table kept as it is -/

namespace R
open Cert.ReferenceIdeal.Read

/-- The reference's normalised rows (stage 112) are `nrmOf` of its group means (stage 49). -/
theorem v112_apply (x0 x1 : (⟨Cert.ReferenceIdeal.S100000x256, .f32⟩ : BufTy).Contents (Elt Ideal))
    (x4 : (⟨Cert.ReferenceIdeal.S256x256, .f32⟩ : BufTy).Contents (Elt Ideal))
    (x5 x6 x7 : (⟨Cert.ReferenceIdeal.S256, .f32⟩ : BufTy).Contents (Elt Ideal))
    (x8 : (⟨Cert.ReferenceIdeal.S256x256, .f32⟩ : BufTy).Contents (Elt Ideal))
    (x9 : (⟨Cert.ReferenceIdeal.S256, .f32⟩ : BufTy).Contents (Elt Ideal))
    (x15 : (⟨Cert.ReferenceIdeal.S100000, .i32⟩ : BufTy).Contents (Elt Ideal)) (a : Fin 2048) (j : Fin 256) :
    val_main_v112 (F := Ideal) x0 x1 x4 x5 x6 x7 x8 x9 x15 (ix2 a j)
      = nrmOf (fun f q => val_main_v49 (F := Ideal) x0 x1 x4 x5 x6 x7 x8 x9 x15 (ix2 f q)) a j := by
  rw [val_main_v112_apply, val_main_v111_apply, val_main_v110_apply, val_main_v108_apply, val_main_call5_v2_apply,
    val_main_call5_v1_apply, val_main_v109_apply, val_main_cst_31_apply, val_main_call5_cst_apply]
  simp only [idx111, idxc2, idxc1, val_main_call5_v0_apply]
  generalize val_main_v49 (F := Ideal) x0 x1 x4 x5 x6 x7 x8 x9 x15 = y
  unfold nrmOf
  simp only [Ideal.hostDivf_def, Ideal.maximumf_def, Ideal.hostUnary_sqrt_def, Ideal.ofBits_def, Ideal.mulf_def,
    Ideal.ofBits_zero_f32, zero_add]

/-- The logistic as the reference spells it, with the word of one for its two ones. -/
theorem logistic_spelt (t : EReal) :
    Ideal.div (Ideal.ofBits .f32 0x3F800000#32) (Ideal.ofBits .f32 0x3F800000#32 + Ideal.exp (-t)) = Ideal.logistic t := by
  rw [Ideal.ofBits_one_f32]; rfl

/-- The reference's adaptive target (stage 107): the same sum, over the word of 2048. -/
theorem v107_apply (x0 x1 : (⟨Cert.ReferenceIdeal.S100000x256, .f32⟩ : BufTy).Contents (Elt Ideal))
    (x4 : (⟨Cert.ReferenceIdeal.S256x256, .f32⟩ : BufTy).Contents (Elt Ideal))
    (x5 x6 x7 : (⟨Cert.ReferenceIdeal.S256, .f32⟩ : BufTy).Contents (Elt Ideal))
    (x8 : (⟨Cert.ReferenceIdeal.S256x256, .f32⟩ : BufTy).Contents (Elt Ideal))
    (x9 : (⟨Cert.ReferenceIdeal.S256, .f32⟩ : BufTy).Contents (Elt Ideal))
    (x11 : (⟨Cert.ReferenceIdeal.S256x32, .f32⟩ : BufTy).Contents (Elt Ideal))
    (x12 : (⟨Cert.ReferenceIdeal.S32, .f32⟩ : BufTy).Contents (Elt Ideal))
    (x13 : (⟨Cert.ReferenceIdeal.S32x1, .f32⟩ : BufTy).Contents (Elt Ideal))
    (x14 : (⟨Cert.ReferenceIdeal.S1, .f32⟩ : BufTy).Contents (Elt Ideal))
    (x15 : (⟨Cert.ReferenceIdeal.S100000, .i32⟩ : BufTy).Contents (Elt Ideal)) :
    val_main_v107 (F := Ideal) x0 x1 x4 x5 x6 x7 x8 x9 x11 x12 x13 x14 x15 ix0
      = Ideal.div (tgtSum (fun f q => val_main_v49 (F := Ideal) x0 x1 x4 x5 x6 x7 x8 x9 x15 (ix2 f q)) (fun k c => x11 (ix2 k c))
          (fun c => x12 (ix1 c)) (fun k => x13 (ix2 k (0 : Fin 1))) (x14 (ix1 (0 : Fin 1))))
        (Ideal.ofBits .f32 0x45000000#32) := by
  rw [val_main_v107_apply, val_main_v106_apply, val_main_cst_30_apply, val_main_cst_29_apply, sum_idx1]
  simp only [val_main_v105_apply, val_main_call4_v4_apply, val_main_call4_v3_apply, val_main_cst_28_apply,
    val_main_call4_v2_apply, val_main_call4_v1_apply, val_main_call4_v0_apply, val_main_cst_27_apply,
    val_main_v104_apply, val_main_v103_apply, val_main_cst_26_apply, val_main_v102_apply, val_main_v101_apply,
    val_main_cst_25_apply, val_main_v100_apply, val_main_v99_apply, val_main_v98_apply, idx98,
    val_main_v97_apply, val_main_v96_apply, idx96, val_main_v95_apply, idx95, val_main_v94_apply, lidx94, ridx94,
    val_main_v93_apply, val_main_call3_v5_apply, val_main_call3_v4_apply, val_main_call3_cst_0_apply,
    val_main_call3_v3_apply, val_main_call3_v2_apply, val_main_call3_cst_apply, val_main_call3_v1_apply,
    val_main_call3_v0_apply, val_main_v92_apply, val_main_v91_apply, idx91, val_main_v90_apply, idx90,
    val_main_v89_apply, lidx89, ridx89]
  generalize val_main_v49 (F := Ideal) x0 x1 x4 x5 x6 x7 x8 x9 x15 = y
  unfold tgtSum clipOf outOf hidOf
  simp only [Ideal.hostDivf_def, Ideal.maximumf_def, Ideal.minimumf_def, Ideal.hostUnary_exp_def, Ideal.hostNegf_def,
    Ideal.negf_def, Ideal.ofBits_def, Ideal.mulf_def, Ideal.addf_def, Ideal.ofBits_zero_f32, zero_add, logistic_spelt]

end R

/-! ## Launch 1's normalised rows and target are the reference's stages 112 and 107 -/

open Cert.ReferenceIdeal.Read in
theorem nrm1_eq_ref (comb : Vec Ideal S2048x384 .f32)
    (x0 x1 : (⟨Cert.ReferenceIdeal.S100000x256, .f32⟩ : BufTy).Contents (Elt Ideal))
    (x4 : (⟨Cert.ReferenceIdeal.S256x256, .f32⟩ : BufTy).Contents (Elt Ideal))
    (x5 x6 x7 : (⟨Cert.ReferenceIdeal.S256, .f32⟩ : BufTy).Contents (Elt Ideal))
    (x8 : (⟨Cert.ReferenceIdeal.S256x256, .f32⟩ : BufTy).Contents (Elt Ideal))
    (x9 : (⟨Cert.ReferenceIdeal.S256, .f32⟩ : BufTy).Contents (Elt Ideal))
    (x15 : (⟨Cert.ReferenceIdeal.S100000, .i32⟩ : BufTy).Contents (Elt Ideal))
    (hgroup : ∀ (f : Fin 2048) (j : Fin 256), k1_pay5 (F := Ideal) comb (ix2 f j)
      = val_main_v49 (F := Ideal) x0 x1 x4 x5 x6 x7 x8 x9 x15 (ix2 f j))
    (a : Fin 2048) (j : Fin 256) :
    nrm1 (F := Ideal) comb (ix2 a j) = val_main_v112 (F := Ideal) x0 x1 x4 x5 x6 x7 x8 x9 x15 (ix2 a j) := by
  rw [R.v112_apply]
  unfold nrm1
  rw [pay13_apply]
  simp only [hgroup]

open Cert.ReferenceIdeal.Read in
theorem target1_eq_ref (comb : Vec Ideal S2048x384 .f32) (wt1 : Vec Ideal S256x32 .bf16) (bt1 : Vec Ideal S1x32 .f32)
    (wt2 : Vec Ideal S32x1 .bf16) (bt2 : Vec Ideal S1x1 .f32)
    (x0 x1 : (⟨Cert.ReferenceIdeal.S100000x256, .f32⟩ : BufTy).Contents (Elt Ideal))
    (x4 : (⟨Cert.ReferenceIdeal.S256x256, .f32⟩ : BufTy).Contents (Elt Ideal))
    (x5 x6 x7 : (⟨Cert.ReferenceIdeal.S256, .f32⟩ : BufTy).Contents (Elt Ideal))
    (x8 : (⟨Cert.ReferenceIdeal.S256x256, .f32⟩ : BufTy).Contents (Elt Ideal))
    (x9 : (⟨Cert.ReferenceIdeal.S256, .f32⟩ : BufTy).Contents (Elt Ideal))
    (x11 : (⟨Cert.ReferenceIdeal.S256x32, .f32⟩ : BufTy).Contents (Elt Ideal))
    (x12 : (⟨Cert.ReferenceIdeal.S32, .f32⟩ : BufTy).Contents (Elt Ideal))
    (x13 : (⟨Cert.ReferenceIdeal.S32x1, .f32⟩ : BufTy).Contents (Elt Ideal))
    (x14 : (⟨Cert.ReferenceIdeal.S1, .f32⟩ : BufTy).Contents (Elt Ideal))
    (x15 : (⟨Cert.ReferenceIdeal.S100000, .i32⟩ : BufTy).Contents (Elt Ideal))
    (hgroup : ∀ (f : Fin 2048) (j : Fin 256), k1_pay5 (F := Ideal) comb (ix2 f j)
      = val_main_v49 (F := Ideal) x0 x1 x4 x5 x6 x7 x8 x9 x15 (ix2 f j))
    (hwt1 : ∀ (k : Fin 256) (j : Fin 32), wt1 (ix2 k j) = x11 (ix2 k j))
    (hbt1 : ∀ j : Fin 32, bt1 (ix2 (0 : Fin 1) j) = x12 (ix1 j))
    (hwt2 : ∀ k : Fin 32, wt2 (ix2 k (0 : Fin 1)) = x13 (ix2 k (0 : Fin 1)))
    (hbt2 : bt2 (ix2 (0 : Fin 1) (0 : Fin 1)) = x14 (ix1 (0 : Fin 1))) :
    target1 (F := Ideal) comb wt1 bt1 wt2 bt2 (ix2 (0 : Fin 1) (0 : Fin 1))
      = val_main_v107 (F := Ideal) x0 x1 x4 x5 x6 x7 x8 x9 x11 x12 x13 x14 x15 ix0 := by
  rw [R.v107_apply, div_2048]
  unfold target1
  rw [pay1_apply]
  simp only [pay14_apply, hgroup, hwt1, hbt1, hwt2, hbt2, tgtSum]

end Cert.TargetRef

end
-- ==== Proof.LibScatterRead.lean ====
/-
  The two accumulating scatters and the row gather of a sparse-times-dense product, read at an index on the extended
  reals.

  An accumulating scatter leaves, at every element of its operand, that element plus the sum of the updates that land
  on it; an update lands where its start index, read signed and not clamped, plus its window coordinate says, and is
  dropped when that is outside the operand. Two layouts occur here. CELLS: the operand is a matrix [R, C], the start
  indices are pairs (row, column) in an array [N, 2], and update `k` of a vector [N] lands on the cell its pair names.
  ROWS: the operand is [R, B], the start indices a column [N, 1] of rows, and the updates an array [N, B] whose row
  `k` lands, entry by entry, on the operand row its start index names. The gather is the inverse reading: an operand
  [S, B] at a column [N, 1] of start indices gives [N, B], row `k` the operand's row at the start index, read signed
  and clamped into [0, S - 1].
-/
import Idealize.ShloMosaic.Lib.ValueIdx

noncomputable section

open scoped BigOperators

namespace Cert.SparseMM

open Idealize.ShloMosaic Idealize.ShloMosaic.ValueIdx

/-! ## Where an update lands, for any dimension numbers -/

/-- An update index lands on operand index `i` exactly when on every axis its start plus its window coordinate is
    `i`'s coordinate: inside the operand the landing index is those sums, and outside it there is none. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

/-- A vector's indices are its positions. -/
def idxEquiv1 {n : Nat} : (⟨1, ![n]⟩ : Shape).Idx ≃ Fin n where
  toFun i := i 0
  invFun k := ix1 k
  left_inv i := (eq_ix1 i).symm
  right_inv _ := rfl

/-! ## Cells: pairs (row, column) name the cell each update lands on -/

section Cells

/-- The dimension numbers of the scatter onto cells: no window axes, both operand axes inserted and named, in order,
    by the two entries of a start index, the index vector along axis 1. -/
abbrev cellDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N w : Nat} (wf : ScatterDims.WF ⟨2, ![R, C]⟩ ⟨2, ![N, 2]⟩ ⟨1, ![N]⟩ [] [0, 1] [0, 1] 1)

/-- On the row axis update `k` starts at the first entry of its pair. -/
theorem cell_start0 (idx : IVec ⟨2, ![N, 2]⟩ w) (k : Fin N) :
    (cellDims R C N wf).start (ix1 k) idx 0 = (idx (ix2 k 0)).toInt := by
  unfold ScatterDims.start
  rw [dif_pos (show (0 : Fin 2) ∈ ([0, 1] : List (Fin 2)) by decide)]
  have hsi : (cellDims R C N wf).siIdx (ix1 k) ⟨List.idxOf (0 : Fin 2) (cellDims R C N wf).scatterDimsToOperandDims,
      List.idxOf_lt_length_iff.2 (show (0 : Fin 2) ∈ ([0, 1] : List (Fin 2)) by decide)⟩ = ix2 k 0 := by
    funext b; refine Fin.ext ?_
    match b with
    | ⟨0, _⟩ => rfl
    | ⟨1, _⟩ => rfl
  rw [hsi]

/-- On the column axis it starts at the second entry. -/
theorem cell_start1 (idx : IVec ⟨2, ![N, 2]⟩ w) (k : Fin N) :
    (cellDims R C N wf).start (ix1 k) idx 1 = (idx (ix2 k 1)).toInt := by
  unfold ScatterDims.start
  rw [dif_pos (show (1 : Fin 2) ∈ ([0, 1] : List (Fin 2)) by decide)]
  have hsi : (cellDims R C N wf).siIdx (ix1 k) ⟨List.idxOf (1 : Fin 2) (cellDims R C N wf).scatterDimsToOperandDims,
      List.idxOf_lt_length_iff.2 (show (1 : Fin 2) ∈ ([0, 1] : List (Fin 2)) by decide)⟩ = ix2 k 1 := by
    funext b; refine Fin.ext ?_
    match b with
    | ⟨0, _⟩ => rfl
    | ⟨1, _⟩ => rfl
  rw [hsi]

/-- There is no window: both operand axes are inserted. -/
theorem cell_window (j : (⟨1, ![N]⟩ : Shape).Idx) (a : Fin 2) : (cellDims R C N wf).window j a = 0 := by
  unfold ScatterDims.window
  refine dif_neg ?_
  show ¬ (a ∈ ((List.finRange 2).filter (· ∉ ([0, 1] : List (Fin 2)))))
  revert a
  decide

/-- Update `k` lands on cell (r, c) exactly when its pair, read signed, is (r, c). -/
theorem cell_lands_iff (idx : IVec ⟨2, ![N, 2]⟩ w) (k : Fin N) (r : Fin R) (c : Fin C) :
    (cellDims R C N wf).resultIdx? (ix1 k) idx = some (ix2 r c) ↔
      (idx (ix2 k 0)).toInt = (r.val : Int) ∧ (idx (ix2 k 1)).toInt = (c.val : Int) := by
  rw [resultIdx?_eq_some_iff]
  constructor
  · intro h
    have h0 := h 0
    have h1 := h 1
    rw [cell_start0, cell_window, Nat.cast_zero, add_zero] at h0
    rw [cell_start1, cell_window, Nat.cast_zero, add_zero] at h1
    exact ⟨h0, h1⟩
  · intro h a
    match a with
    | ⟨0, _⟩ =>
      show (cellDims R C N wf).start (ix1 k) idx 0 + ((cellDims R C N wf).window (ix1 k) 0 : Int) = (r.val : Int)
      rw [cell_start0, cell_window, Nat.cast_zero, add_zero]; exact h.1
    | ⟨1, _⟩ =>
      show (cellDims R C N wf).start (ix1 k) idx 1 + ((cellDims R C N wf).window (ix1 k) 1 : Int) = (c.val : Int)
      rw [cell_start1, cell_window, Nat.cast_zero, add_zero]; exact h.2

/-- THE SCATTER ONTO CELLS READ AT (r, c): the operand's cell plus the sum of the updates whose pair is (r, c). -/
theorem scatterAdd_cells_apply {φ : FTy} (x : FVec Ideal ⟨2, ![R, C]⟩ φ) (idx : IVec ⟨2, ![N, 2]⟩ w)
    (upd : FVec Ideal ⟨1, ![N]⟩ φ) (r : Fin R) (c : Fin C) :
    Host.scatterAdd (cellDims R C N wf) x idx upd (ix2 r c)
      = x (ix2 r c) + ∑ k ∈ Finset.univ.filter (fun k : Fin N =>
          (idx (ix2 k 0)).toInt = (r.val : Int) ∧ (idx (ix2 k 1)).toInt = (c.val : Int)), upd (ix1 k) := by
  show Ideal.hostScatterAdd (cellDims R C N wf) x idx upd (ix2 r c) = _
  unfold Ideal.hostScatterAdd
  refine congrArg (x (ix2 r c) + ·) ?_
  refine Finset.sum_equiv idxEquiv1 (fun j => ?_) (fun j _ => congrArg upd (eq_ix1 j))
  rw [Finset.mem_filter, Finset.mem_filter]
  refine and_congr (by simp) ?_
  rw [eq_ix1 j]
  exact cell_lands_iff wf idx (j 0) r c

end Cells

/-! ## Rows: a column of row numbers names the operand row each update row lands on -/

section Rows

/-- The dimension numbers of the scatter onto rows: the updates' axis 1 is the window, the operand's axis 0 is inserted
    and named by the one entry of a start index, the index vector along axis 1. -/
abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

/-- On the row axis update (k, b) starts at entry `k` of the column of row numbers. -/
theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

/-- On the other axis it starts at zero: no entry names it. -/
theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

/-- The row axis is inserted: no window coordinate there. -/
theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

/-- On the other axis the window coordinate is the update's own. -/
theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

/-- Update (k, b') lands on (r, b) exactly when entry `k` of the row numbers, read signed, is `r`, and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

/-- THE SCATTER ONTO ROWS READ AT (r, b): the operand's entry plus the sum, over the update rows `k` whose row number is
    `r`, of entry `b` of update row `k`. -/
theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

/-! ## The row gather -/

section RowGather
variable {α : Type}

/-- The dimension numbers of the row gather for an operand [S, B], start indices [N, 1] and a result [N, B]: the
    result's axis 1 is the offset axis, the operand's axis 0 is collapsed and named by the one entry of a start index,
    slices of shape [1, B]. -/
abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- THE ROW GATHER READ AT (k, b): the operand at the row start index `k` names, read signed and clamped into
    [0, S - 1], and at column `b`. -/
theorem gather_rows_apply {S B N w : Nat} (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (k : Fin N) (b : Fin B) :
    Host.gather (rowGatherDims S B N wf) x idx (ix2 k b)
      = x (ix2 ⟨min (idx (ix2 k 0)).toInt.toNat (S - 1), by omega⟩ b) := by
  unfold Host.gather
  congr 1
  funext a
  refine Fin.ext ?_
  match a with
  | ⟨0, _⟩ =>
    show (rowGatherDims S B N wf).start (ix2 k b) idx 0 + (rowGatherDims S B N wf).batchCoord (ix2 k b) 0
      + (rowGatherDims S B N wf).offCoord (ix2 k b) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (rowGatherDims S B N wf).siIdx (ix2 k b) ⟨List.idxOf (0 : Fin 2) (rowGatherDims S B N wf).startIndexMap,
        List.idxOf_lt_length_iff.2 (show (0 : Fin 2) ∈ ([0] : List (Fin 2)) by decide)⟩ = ix2 k 0 := by
      funext c; refine Fin.ext ?_
      match c with
      | ⟨0, _⟩ => rfl
      | ⟨1, _⟩ => rfl
    rw [hsi]
    rfl
  | ⟨1, _⟩ =>
    show (rowGatherDims S B N wf).start (ix2 k b) idx 1 + (rowGatherDims S B N wf).batchCoord (ix2 k b) 1
      + (rowGatherDims S B N wf).offCoord (ix2 k b) 1 = b.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

end RowGather

end Cert.SparseMM

end
-- ==== Proof.LibScatterVec.lean ====
/-
  An accumulating scatter onto a VECTOR and a gather from a vector, read at an index on the extended reals.

  The operand is a vector [R], the start indices a column [N, 1], the updates a vector [N]: update `k` is added to the
  entry its start index names (read signed, not clamped), and is dropped when that is outside the vector. The gather
  is the inverse reading: entry `k` of the result is the operand's entry at start index `k`, read signed and clamped
  into [0, S - 1].
-/
import Idealize.ShloMosaic.Lib.ValueIdx
import proofs.«412127_j15607911153865_3_alg».proof.Proof.LibScatterRead

noncomputable section

open scoped BigOperators

namespace Cert.SparseVec

open Idealize.ShloMosaic Idealize.ShloMosaic.ValueIdx

/-- The dimension numbers of the scatter onto a vector: no window axis, the operand's one axis inserted and named by
    the one entry of a start index, the index vector along axis 1. -/
abbrev vecDims (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- On the vector's one axis update `k` starts at entry `k` of the column of start indices, read signed. -/
theorem vec_start0 {R N w : Nat} (wf : ScatterDims.WF ⟨1, ![R]⟩ ⟨2, ![N, 1]⟩ ⟨1, ![N]⟩ [] [0] [0] 1)
    (idx : IVec ⟨2, ![N, 1]⟩ w) (k : Fin N) :
    (vecDims R N wf).start (ix1 k) idx 0 = (idx (ix2 k 0)).toInt := by
  unfold ScatterDims.start
  rw [dif_pos (show (0 : Fin 1) ∈ ([0] : List (Fin 1)) by decide)]
  have hsi : (vecDims R N wf).siIdx (ix1 k) ⟨List.idxOf (0 : Fin 1) (vecDims R N wf).scatterDimsToOperandDims,
      List.idxOf_lt_length_iff.2 (show (0 : Fin 1) ∈ ([0] : List (Fin 1)) by decide)⟩ = ix2 k 0 := by
    funext b; refine Fin.ext ?_
    match b with
    | ⟨0, _⟩ => rfl
    | ⟨1, _⟩ => rfl
  rw [hsi]

/-- There is no window: the vector's one axis is inserted. -/
theorem vec_window {R N : Nat} (wf : ScatterDims.WF ⟨1, ![R]⟩ ⟨2, ![N, 1]⟩ ⟨1, ![N]⟩ [] [0] [0] 1)
    (j : (⟨1, ![N]⟩ : Shape).Idx) (a : Fin 1) : (vecDims R N wf).window j a = 0 := by
  unfold ScatterDims.window
  refine dif_neg ?_
  show ¬ (a ∈ ((List.finRange 1).filter (· ∉ ([0] : List (Fin 1)))))
  revert a
  decide

/-- Update `k` lands on entry `r` exactly when its start index, read signed, is `r`. -/
theorem vec_lands_iff {R N w : Nat} (wf : ScatterDims.WF ⟨1, ![R]⟩ ⟨2, ![N, 1]⟩ ⟨1, ![N]⟩ [] [0] [0] 1)
    (idx : IVec ⟨2, ![N, 1]⟩ w) (k : Fin N) (r : Fin R) :
    (vecDims R N wf).resultIdx? (ix1 k) idx = some (ix1 r) ↔ (idx (ix2 k 0)).toInt = (r.val : Int) := by
  rw [Cert.SparseMM.resultIdx?_eq_some_iff]
  constructor
  · intro h
    have h0 := h 0
    rw [vec_start0, vec_window, Nat.cast_zero, add_zero] at h0
    exact h0
  · intro h a
    match a with
    | ⟨0, _⟩ =>
      show (vecDims R N wf).start (ix1 k) idx 0 + ((vecDims R N wf).window (ix1 k) 0 : Int) = (r.val : Int)
      rw [vec_start0, vec_window, Nat.cast_zero, add_zero]; exact h

/-- THE SCATTER ONTO A VECTOR READ AT r: the operand's entry plus the sum of the updates whose start index is r. -/
theorem scatterAdd_vec_apply {R N w : Nat} (wf : ScatterDims.WF ⟨1, ![R]⟩ ⟨2, ![N, 1]⟩ ⟨1, ![N]⟩ [] [0] [0] 1) {φ : FTy}
    (x : FVec Ideal ⟨1, ![R]⟩ φ) (idx : IVec ⟨2, ![N, 1]⟩ w) (upd : FVec Ideal ⟨1, ![N]⟩ φ) (r : Fin R) :
    Host.scatterAdd (vecDims R N wf) x idx upd (ix1 r)
      = x (ix1 r) + ∑ k ∈ Finset.univ.filter (fun k : Fin N => (idx (ix2 k 0)).toInt = (r.val : Int)), upd (ix1 k) := by
  show Ideal.hostScatterAdd (vecDims R N wf) x idx upd (ix1 r) = _
  unfold Ideal.hostScatterAdd
  refine congrArg (x (ix1 r) + ·) ?_
  -- the update indices are the positions 0 … N - 1: re-index the sum by them
  refine Finset.sum_equiv Cert.SparseMM.idxEquiv1 (fun j => ?_) (fun j _ => congrArg upd (eq_ix1 j))
  rw [Finset.mem_filter, Finset.mem_filter]
  refine and_congr (by simp) ?_
  rw [eq_ix1 j]
  exact vec_lands_iff wf idx (j 0) r

/-- The dimension numbers of the gather from a vector [S] at start indices [N, 1] into [N]. -/
abbrev vecGatherDims (S N : Nat) (wf : GatherDims.WF ⟨1, ![S]⟩ ⟨2, ![N, 1]⟩ ⟨1, ![N]⟩ [] [0] [] [0] [] 1 ![1]) :
    GatherDims ⟨1, ![S]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- THE GATHER FROM A VECTOR READ AT k: the operand at start index `k`, read signed and clamped into [0, S - 1]. -/
theorem gather_vec_apply {α : Type} {S N w : Nat} (hS : 0 < S)
    (wf : GatherDims.WF ⟨1, ![S]⟩ ⟨2, ![N, 1]⟩ ⟨1, ![N]⟩ [] [0] [] [0] [] 1 ![1])
    (x : (⟨1, ![S]⟩ : Shape).Idx → α) (idx : IVec ⟨2, ![N, 1]⟩ w) (k : Fin N) :
    Host.gather (vecGatherDims S N wf) x idx (ix1 k)
      = x (ix1 ⟨min (idx (ix2 k 0)).toInt.toNat (S - 1), by omega⟩) := by
  unfold Host.gather
  congr 1
  funext a
  refine Fin.ext ?_
  match a with
  | ⟨0, _⟩ =>
    -- the one axis is collapsed and is no batching axis: the operand coordinate is the clamped start alone
    show (vecGatherDims S N wf).start (ix1 k) idx 0 + (vecGatherDims S N wf).batchCoord (ix1 k) 0
      + (vecGatherDims S N wf).offCoord (ix1 k) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 1) ∈ ([0] : List (Fin 1)) by decide))]
    simp only [Nat.add_zero]
    unfold GatherDims.start
    rw [dif_pos (show (0 : Fin 1) ∈ ([0] : List (Fin 1)) by decide)]
    have hsi : (vecGatherDims S N wf).siIdx (ix1 k) ⟨List.idxOf (0 : Fin 1) (vecGatherDims S N wf).startIndexMap,
        List.idxOf_lt_length_iff.2 (show (0 : Fin 1) ∈ ([0] : List (Fin 1)) by decide)⟩ = ix2 k 0 := by
      funext c; refine Fin.ext ?_
      match c with
      | ⟨0, _⟩ => rfl
      | ⟨1, _⟩ => rfl
    rw [hsi]
    rfl

end Cert.SparseVec

end
-- ==== Proof.KI.RefSim.lean ====
/-
  The reference's fragment means and its similarity loss, read back in the neutral vocabulary.

  MEANS. The reference counts each fragment's atoms by an accumulating scatter of ones onto a vector of zeros, and adds
  up each fragment's feature rows by an accumulating scatter of the rows onto a table of zeros; both scatters are
  steered by the atoms' labels. An update lands on fragment `f` exactly when its label, read as a signed word, is
  `f`; for `f` below 2048 that says the word is the word of `f`, so the two scatters are the count and the row
  sum of the vocabulary. The mean row is their quotient, the count floored at one.

  SIMILARITY. The rows are multiplied with their own transpose: entry (a, b) is the inner product of rows a and b. It
  is divided by one, the target is subtracted, the absolute value goes through the Huber function, the entries on or
  below the diagonal are replaced by zero, and the sum over all entries is divided by the number of entries above the
  diagonal, itself computed as the sum of the mask turned into ones and zeros. The mask is built from two
  coordinate tables compared as signed words; the coordinates are below 2048, so the words order as the numbers.
-/
import proofs.«412127_j15607911153865_3_alg».proof.Proof.RefReadP
import proofs.«412127_j15607911153865_3_alg».proof.Proof.KI.Spec
import proofs.«412127_j15607911153865_3_alg».proof.Proof.LibScatterRead
import proofs.«412127_j15607911153865_3_alg».proof.Proof.LibScatterVec
import Idealize.ShloMosaic.Lib.IdealHost
import Idealize.ShloMosaic.Lib.StableHlo.Predicate

noncomputable section

open scoped BigOperators

namespace Cert.RefSim

open Cert.ReferenceIdeal Cert.ReferenceIdeal.Gen Cert.ReferenceIdeal.Read Idealize.ShloMosaic Idealize.ShloMosaic.ValueIdx
  Idealize.SL.Sem Idealize.ShloMosaic.StableHlo

/-! ## Words and sums that name no stage of the program -/

/-- A label read signed is the number of fragment `f` exactly when it is the word of `f`. -/
theorem toInt_eq_iff (w : BitVec 32) (f : Fin 2048) : w.toInt = (f.val : Int) ↔ w = BitVec.ofNat 32 f.val := by
  constructor
  · intro h
    have e := BitVec.ofInt_toInt (x := w)
    rw [h, BitVec.ofInt_natCast] at e
    exact e.symm
  · intro h
    rw [h]
    exact StableHlo.Predicate.toInt_ofNat_small f.val (by have := f.isLt; omega)

/-- The sum of `a` over the atoms whose start index, read signed, is `f`, is the vocabulary's sum over the atoms of
    fragment `f`. -/
theorem sum_landing (idx : IVec ⟨2, ![100000, 1]⟩ 32) (ids : Fin 100000 → BitVec 32)
    (h : ∀ k, idx (ix2 k 0) = ids k) (a : Fin 100000 → EReal) (f : Fin 2048) :
    ∑ k ∈ Finset.univ.filter (fun k : Fin 100000 => (idx (ix2 k 0)).toInt = (f.val : Int)), a k
      = Cert.Spec.mom ids a f := by
  unfold Cert.Spec.mom Cert.Spec.hot
  rw [Finset.sum_filter]
  refine Finset.sum_congr rfl fun k _ => ?_
  rw [h k]
  by_cases e : ids k = BitVec.ofNat 32 f.val
  · rw [if_pos ((toInt_eq_iff _ f).mpr e), if_pos e, one_mul]
  · rw [if_neg (fun h' => e ((toInt_eq_iff _ f).mp h')), if_neg e, zero_mul]

/-- A quotient by one is the dividend. -/
theorem div_by_one (x : EReal) : Ideal.div x 1 = x := by
  unfold Ideal.div
  rw [if_neg one_ne_zero, inv_one, mul_one]

/-- A decided bit turned into a float is one or zero. -/
theorem uitofp_bit (c : Prop) [Decidable c] :
    FloatOps.uitofp (F := Ideal) .f32 (if c then 1#1 else 0#1) = if c then (1 : EReal) else 0 := by
  by_cases h : c
  · rw [if_pos h, if_pos h]; show (((1#1 : BitVec 1).toNat : ℝ) : EReal) = 1; simp
  · rw [if_neg h, if_neg h]; show (((0#1 : BitVec 1).toNat : ℝ) : EReal) = 0; simp

/-- The mask of the pairs at (a, b): "row plus zero is at least column" selects false, else true; so it is set
    exactly when a is below b. -/
theorem mask_bit (a b : Fin 2048) :
    Scalar.select (IntOp.cmpi .sge (IntOp.addi (BitVec.ofNat 32 a.val) 0#32) (BitVec.ofNat 32 b.val)) (0#1 : BitVec 1) 1#1
      = if a.val < b.val then 1#1 else 0#1 := by
  have ha : (BitVec.ofNat 32 a.val).toNat = a.val := by
    rw [BitVec.toNat_ofNat]; have := a.isLt; omega
  have hb : (BitVec.ofNat 32 b.val).toNat = b.val := by
    rw [BitVec.toNat_ofNat]; have := b.isLt; omega
  have h0 : IntOp.addi (BitVec.ofNat 32 a.val) 0#32 = BitVec.ofNat 32 a.val := by
    unfold IntOp.addi; exact BitVec.add_zero _
  rw [h0]
  have key := StableHlo.Predicate.sge_iff_toNat (a := BitVec.ofNat 32 a.val) (b := BitVec.ofNat 32 b.val)
    (by rw [ha]; have := a.isLt; omega) (by rw [hb]; have := b.isLt; omega)
  rw [ha, hb] at key
  by_cases h : a.val < b.val
  · rw [if_pos h, eq_zero_of_ne_one (fun e => absurd (key.mp e) (by omega)), select_zero]
  · rw [if_neg h, key.mpr (by omega), select_one]

/-! ## The fragment means -/

section Stages

variable (x0 x1 : (⟨S100000x256, .f32⟩ : BufTy).Contents (Elt Ideal)) (x4 : (⟨S256x256, .f32⟩ : BufTy).Contents (Elt Ideal))
  (x5 x6 x7 : (⟨S256, .f32⟩ : BufTy).Contents (Elt Ideal)) (x8 : (⟨S256x256, .f32⟩ : BufTy).Contents (Elt Ideal))
  (x9 : (⟨S256, .f32⟩ : BufTy).Contents (Elt Ideal)) (x11 : (⟨S256x32, .f32⟩ : BufTy).Contents (Elt Ideal))
  (x12 : (⟨S32, .f32⟩ : BufTy).Contents (Elt Ideal)) (x13 : (⟨S32x1, .f32⟩ : BufTy).Contents (Elt Ideal))
  (x14 : (⟨S1, .f32⟩ : BufTy).Contents (Elt Ideal)) (x15 : (⟨S100000, .i32⟩ : BufTy).Contents (Elt Ideal))

/-- The column of start indices of the count's scatter holds the labels. -/
theorem idx40 (k : Fin 100000) : idx_main_v40 (ix2 k (0 : Fin 1)) = ix1 k := by
  funext a; match a with | ⟨0, _⟩ => rfl

/-- So does the column of the row sum's scatter. -/
theorem idx43 (k : Fin 100000) : idx_main_v43 (ix2 k (0 : Fin 1)) = ix1 k := by
  funext a; match a with | ⟨0, _⟩ => rfl

/-- The floored count is broadcast along the channels: entry (f, j) reads fragment f. -/
theorem idx48 (f : Fin 2048) (j : Fin 256) : idx_main_v47 (idx_main_v48 (ix2 f j)) = ix1 f := by
  funext a; match a with | ⟨0, _⟩ => rfl

/-- The scatter of ones onto zeros is the fragment's count. -/
theorem count_read (f : Fin 2048) :
    val_main_v41 (F := Ideal) x15 (ix1 f) = Cert.Spec.cnt (fun i => x15 (ix1 i)) f := by
  have e : val_main_v41 (F := Ideal) x15 (ix1 f)
      = val_main_v39 (F := Ideal) (ix1 f)
        + ∑ k ∈ Finset.univ.filter (fun k : Fin 100000 =>
            (val_main_v40 (F := Ideal) x15 (ix2 k 0)).toInt = (f.val : Int)), val_main_v38 (F := Ideal) (ix1 k) :=
    Cert.SparseVec.scatterAdd_vec_apply (R := 2048) (N := 100000) _ (val_main_v39 (F := Ideal))
      (val_main_v40 (F := Ideal) x15) (val_main_v38 (F := Ideal)) f
  rw [e, sum_landing (val_main_v40 (F := Ideal) x15) (fun i => x15 (ix1 i))
      (fun k => (val_main_v40_apply x15 (ix2 k 0)).trans (congrArg x15 (idx40 k))),
    val_main_v39_apply, val_main_cst_7_apply, Ideal.ofBits_def, Ideal.ofBits_zero_f32, zero_add]
  unfold Cert.Spec.cnt
  refine congrArg (fun a => Cert.Spec.mom (fun i => x15 (ix1 i)) a f) (funext fun k => ?_)
  rw [val_main_v38_apply, val_main_cst_6_apply, Ideal.ofBits_def, Ideal.ofBits_one_f32]

/-- The scatter of the feature rows onto zeros is the fragment's row sum; the rows themselves are not opened. -/
theorem rows_read (f : Fin 2048) (j : Fin 256) :
    val_main_v44 (F := Ideal) x0 x1 x4 x5 x6 x7 x8 x9 x15 (ix2 f j)
      = Cert.Spec.segsum (fun i => x15 (ix1 i))
          (fun i j => val_main_v37 (F := Ideal) x0 x1 x4 x5 x6 x7 x8 x9 (ix2 i j)) f j := by
  have e : val_main_v44 (F := Ideal) x0 x1 x4 x5 x6 x7 x8 x9 x15 (ix2 f j)
      = val_main_v42 (F := Ideal) (ix2 f j)
        + ∑ k ∈ Finset.univ.filter (fun k : Fin 100000 =>
            (val_main_v43 (F := Ideal) x15 (ix2 k 0)).toInt = (f.val : Int)),
            val_main_v37 (F := Ideal) x0 x1 x4 x5 x6 x7 x8 x9 (ix2 k j) :=
    Cert.SparseMM.scatterAdd_rows_apply (R := 2048) (B := 256) (N := 100000) _ (val_main_v42 (F := Ideal))
      (val_main_v43 (F := Ideal) x15) (val_main_v37 (F := Ideal) x0 x1 x4 x5 x6 x7 x8 x9) f j
  rw [e, sum_landing (val_main_v43 (F := Ideal) x15) (fun i => x15 (ix1 i))
      (fun k => (val_main_v43_apply x15 (ix2 k 0)).trans (congrArg x15 (idx43 k))),
    val_main_v42_apply, val_main_cst_8_apply, Ideal.ofBits_def, Ideal.ofBits_zero_f32, zero_add]
  rfl

/-- THE FRAGMENT MEANS: the row sum over the count floored at one. -/
theorem ref_group (f : Fin 2048) (j : Fin 256) :
    val_main_v49 (F := Ideal) x0 x1 x4 x5 x6 x7 x8 x9 x15 (ix2 f j)
      = Cert.Spec.mean (fun i => x15 (ix1 i))
          (fun i j => val_main_v37 (F := Ideal) x0 x1 x4 x5 x6 x7 x8 x9 (ix2 i j)) f j := by
  rw [val_main_v49_apply, Ideal.hostDivf_def, rows_read, val_main_v48_apply, val_main_v47_apply, idx48,
    val_main_v46_apply, Ideal.maximumf_def, count_read, val_main_v45_apply, val_main_cst_9_apply, Ideal.ofBits_def]
  rfl

/-! ## The similarity loss -/

/-- The left factor of entry (a, b) of the product is row a. -/
theorem lidx114 (a b : Fin 2048) (k : Fin 256) : lidx_main_v114 (ix2 a b) k = ix2 a k := by
  funext x; match x with | ⟨0, _⟩ => rfl | ⟨1, _⟩ => rfl

/-- The right factor, read through the transpose, is row b. -/
theorem ridx114 (a b : Fin 2048) (k : Fin 256) : idx_main_v113 (ridx_main_v114 (ix2 a b) k) = ix2 b k := by
  funext x; match x with | ⟨0, _⟩ => rfl | ⟨1, _⟩ => rfl

/-- The mask at (a, b) is set exactly when a is below b. -/
theorem mask_read (a b : Fin 2048) :
    val_main_v118 (F := Ideal) (ix2 a b) = if a.val < b.val then 1#1 else 0#1 := by
  rw [val_main_v118_apply, val_main_call6_v4_apply, val_main_call6_v2_apply, val_main_call6_v0_apply,
    val_main_call6_v1_apply, val_main_call6_c_apply, val_main_call6_v3_apply, val_main_call6_v5_apply,
    val_main_call6_c_0_apply, val_main_v117_apply, val_main_c_33_apply]
  exact mask_bit a b

/-- Entry (a, b) of the product of the rows with their transpose, divided by one: the inner product of rows a, b. -/
theorem dot_read (a b : Fin 2048) :
    val_main_v116 (F := Ideal) x0 x1 x4 x5 x6 x7 x8 x9 x15 (ix2 a b)
      = ∑ k : Fin 256, val_main_v112 (F := Ideal) x0 x1 x4 x5 x6 x7 x8 x9 x15 (ix2 a k)
          * val_main_v112 (F := Ideal) x0 x1 x4 x5 x6 x7 x8 x9 x15 (ix2 b k) := by
  rw [val_main_v116_apply, val_main_v115_apply, val_main_cst_32_apply, Ideal.ofBits_def, Ideal.ofBits_one_f32,
    Ideal.hostDivf_def, div_by_one, val_main_v114_apply]
  refine Finset.sum_congr rfl fun k _ => ?_
  rw [val_main_v113_apply, lidx114, ridx114]

/-- The Huber loss of the distance of entry (a, b) to the target, before the mask. -/
theorem entry_read (a b : Fin 2048) :
    val_main_v131 (F := Ideal) x0 x1 x4 x5 x6 x7 x8 x9 x11 x12 x13 x14 x15 (ix2 a b)
      = Cert.Spec.simEntry (fun a j => val_main_v112 (F := Ideal) x0 x1 x4 x5 x6 x7 x8 x9 x15 (ix2 a j))
          (val_main_v107 (F := Ideal) x0 x1 x4 x5 x6 x7 x8 x9 x11 x12 x13 x14 x15 ix0) a b := by
  rw [val_main_v131_apply, val_main_v123_apply, val_main_v126_apply, val_main_v125_apply, val_main_v130_apply,
    val_main_v128_apply, val_main_v121_apply, val_main_v120_apply, dot_read, val_main_v119_apply,
    val_main_v122_apply, val_main_cst_34_apply, val_main_v124_apply, val_main_cst_35_apply, val_main_v127_apply,
    val_main_cst_36_apply, val_main_v129_apply, val_main_cst_37_apply]
  rfl

/-- THE SIMILARITY LOSS: the sum of the masked entries over the number of pairs. -/
theorem ref_gsl :
    val_main_v136 (F := Ideal) x0 x1 x4 x5 x6 x7 x8 x9 x11 x12 x13 x14 x15 ix0
      = Ideal.div
          (Cert.Spec.simSum (fun a j => val_main_v112 (F := Ideal) x0 x1 x4 x5 x6 x7 x8 x9 x15 (ix2 a j))
            (val_main_v107 (F := Ideal) x0 x1 x4 x5 x6 x7 x8 x9 x11 x12 x13 x14 x15 ix0))
          Cert.Spec.pairCount := by
  rw [val_main_v136_apply, Ideal.hostDivf_def, val_main_v133_apply, val_main_v135_apply, val_main_cst_39_apply,
    val_main_cst_40_apply, Ideal.ofBits_def, Ideal.ofBits_zero_f32, zero_add, zero_add, sum_idx2, sum_idx2]
  unfold Cert.Spec.simSum Cert.Spec.pairCount
  refine congrArg₂ Ideal.div ?_ ?_
  · refine Finset.sum_congr rfl fun a _ => Finset.sum_congr rfl fun b _ => ?_
    rw [val_main_v132_apply, mask_read, entry_read, val_main_call8_v1_apply, val_main_call8_v0_apply,
      val_main_cst_38_apply, Ideal.ofBits_def]
    by_cases h : a.val < b.val
    · rw [if_pos h, if_pos h, select_one]
    · rw [if_neg h, if_neg h, select_zero]
  · refine Finset.sum_congr rfl fun a _ => Finset.sum_congr rfl fun b _ => ?_
    rw [val_main_v134_apply, mask_read]
    exact uitofp_bit _

end Stages

end Cert.RefSim

end
-- ==== Proof.KI.Gsl.lean ====
/-
  The similarity loss, end to end.  The kernel's last host stretch adds the two core halves of the third launch's
  loss-sum accumulator, adds the two halves of its mask-count accumulator, and divides the first total by the second.
  This quotient is the reference's stage 136.

  Each half of an accumulator ends holding what two consecutive grid points added to zero: a point adds the masked
  Huber losses (or the mask bits) of its 512 rows of the similarity matrix against all 2048 columns.  The four points'
  tiles are the four quarters of the rows, so the totals are the sum of the loss over all pairs a < b and the number
  of such pairs.  The table of rows the launch reads is the second launch's table of normalised group means, and the
  target its adaptive target; given that the summed table the second launch starts from holds the fragments' row sums
  and counts, the group means are the reference's stage 49, hence the normalised rows its stage 112 and the target
  its stage 107 — the very table and target the reference's loss is written over.
-/
import proofs.«412127_j15607911153865_3_alg».proof.Proof.KI.Struct2
import proofs.«412127_j15607911153865_3_alg».proof.Proof.KI.K2
import proofs.«412127_j15607911153865_3_alg».proof.Proof.KI.Struct1
import proofs.«412127_j15607911153865_3_alg».proof.Proof.KI.K1
import proofs.«412127_j15607911153865_3_alg».proof.Proof.KI.TargetRef
import proofs.«412127_j15607911153865_3_alg».proof.Proof.KI.RefSim
import proofs.«412127_j15607911153865_3_alg».proof.Proof.KI.Args
import proofs.«412127_j15607911153865_3_alg».proof.Proof.KI.Spec
import Idealize.ShloMosaic.Lib.ValueIdx
import Mathlib.Algebra.BigOperators.Fin

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.Spec

namespace Gsl

/-! ## The group means from the summed table -/

/-- If the summed table holds the fragments' row sums in its first 256 columns and their counts in column 257, the
    launch's group means are the fragments' mean rows. -/
theorem group_mean (comb : Vec Ideal S2048x384 .f32) (ids : Fin 100000 → BitVec 32) (P : Fin 100000 → Fin 256 → EReal)
    (hproj : ∀ (f : Fin 2048) (j : Fin 256), comb (ix2 f (Fin.castLE (by decide) j)) = segsum ids P f j)
    (hcnt : ∀ f : Fin 2048, comb (ix2 f (257 : Fin 384)) = cnt ids f) (f : Fin 2048) (j : Fin 256) :
    k1_pay5 (F := Ideal) comb (ix2 f j) = mean ids P f j := by
  refine (group1_apply comb f j).trans ?_
  exact congrArg₂ Ideal.div (hproj f j) (congrArg (fun t : EReal => max t c1) (hcnt f))

/-! ## One tile of the similarity matrix -/

/-- The masked loss of the 512 rows of quarter p against all columns. -/
def tileSum (N : Fin 2048 → Fin 256 → EReal) (tg : EReal) (p : Fin 4) : EReal :=
  ∑ r : Fin 512, ∑ b : Fin 2048,
    if 512 * p.val + r.val < b.val then simEntry N tg ⟨512 * p.val + r.val, tile_lt p r⟩ b else c0

/-- The number of pairs (row, column) of quarter p with the row below the column. -/
def tileCount (p : Fin 4) : EReal :=
  ∑ r : Fin 512, ∑ b : Fin 2048, if 512 * p.val + r.val < b.val then (1 : EReal) else 0

/-- A masked entry depends on the row's number only. -/
theorem entry_congr (N : Fin 2048 → Fin 256 → EReal) (tg : EReal) (b : Fin 2048) (x y : ℕ) (hx : x < 2048) (hy : y < 2048)
    (e : x = y) :
    (if x < b.val then simEntry N tg ⟨x, hx⟩ b else c0) = (if y < b.val then simEntry N tg ⟨y, hy⟩ b else c0) := by
  subst e; rfl

/-- A grid point whose coordinates number quarter p adds that quarter's masked loss to the sum accumulator. -/
theorem sum2_tile (i : grid2.Coords) (p : Fin 4) (hp : 2 * (i 0).val + (i 1).val = p.val)
    (rows : Vec Ideal S512x256 .f32) (full : Vec Ideal S2048x256 .f32) (tgv : Vec Ideal S1x1 .f32)
    (prev : Vec Ideal S1x1x1 .f32) (N : Fin 2048 → Fin 256 → EReal) (tg : EReal)
    (hfull : ∀ b j, full (ix2 b j) = N b j)
    (hrows : ∀ (r : Fin 512) j, rows (ix2 r j) = N ⟨512 * p.val + r.val, tile_lt p r⟩ j)
    (htg : tgv (ix2 (0 : Fin 1) (0 : Fin 1)) = tg) :
    sum2 (F := Ideal) i rows full tgv prev (ix3 (0 : Fin 1) (0 : Fin 1) (0 : Fin 1))
      = prev (ix3 (0 : Fin 1) (0 : Fin 1) (0 : Fin 1)) + tileSum N tg p := by
  have hrows' : ∀ (r : Fin 512) (j : Fin 256),
      rows (ix2 r j) = N ⟨512 * (2 * (i 0).val + (i 1).val) + r.val, row_lt i r⟩ j := fun r j =>
    (hrows r j).trans (congrArg (fun a => N a j) (Fin.ext (by
      show 512 * p.val + r.val = 512 * (2 * (i 0).val + (i 1).val) + r.val
      rw [hp])))
  refine (sum2_apply i rows full tgv prev N hfull hrows').trans ?_
  refine congrArg (fun s : EReal => prev (ix3 (0 : Fin 1) (0 : Fin 1) (0 : Fin 1)) + s) ?_
  unfold tileSum
  refine Finset.sum_congr rfl fun r _ => Finset.sum_congr rfl fun b _ => ?_
  rw [htg]
  exact entry_congr N tg b _ _ (row_lt i r) (tile_lt p r) (by rw [hp])

/-- … and that quarter's pair count to the count accumulator. -/
theorem cnt2_tile (i : grid2.Coords) (p : Fin 4) (hp : 2 * (i 0).val + (i 1).val = p.val) (prev : Vec Ideal S1x1x1 .f32) :
    cnt2 (F := Ideal) i prev (ix3 (0 : Fin 1) (0 : Fin 1) (0 : Fin 1))
      = prev (ix3 (0 : Fin 1) (0 : Fin 1) (0 : Fin 1)) + tileCount p := by
  refine (cnt2_apply i prev).trans ?_
  refine congrArg (fun s : EReal => prev (ix3 (0 : Fin 1) (0 : Fin 1) (0 : Fin 1)) + s) ?_
  unfold tileCount
  refine Finset.sum_congr rfl fun r _ => Finset.sum_congr rfl fun b _ => ?_
  rw [hp]

/-- Two halves, each two tiles added to zero, make the sum over the four quarters. -/
theorem four_tiles {M : Type*} [AddCommMonoid M] (T : Fin 4 → M) :
    ((0 + T 0) + T 1) + ((0 + T 2) + T 3) = ∑ p : Fin 4, T p := by
  rw [Fin.sum_univ_four, zero_add, zero_add]
  exact (add_assoc _ _ _).symm

/-! ## The third launch's accumulators, at the contents it is entered with -/

section AtM
variable (m : (ℓ : Loc nD τ sig) → Buf (Elt Ideal) ℓ) (c : Dev nD)

/-- Point t, numbered as quarter p, adds that quarter's masked loss over the table and target the launch reads. -/
theorem point2_fst (t : Fin cfg2.N) (p : Fin 4) (hp : t.val = p.val)
    (prev : Vec Ideal S1x1x1 .f32 × Vec Ideal S1x1x1 .f32) (N : Fin 2048 → Fin 256 → EReal) (tg : EReal)
    (hN : ∀ (a : Fin 2048) (j : Fin 256), (V5 m c main_v23_0 : Vec Ideal S2048x256 .f32) (ix2 a j) = N a j)
    (htg : (V5 m c main_v27 : Vec Ideal S1x1 .f32) (ix2 (0 : Fin 1) (0 : Fin 1)) = tg) :
    (point2 (F := Ideal) (V5 m) c t prev).1 (ix3 (0 : Fin 1) (0 : Fin 1) (0 : Fin 1))
      = prev.1 (ix3 (0 : Fin 1) (0 : Fin 1) (0 : Fin 1)) + tileSum N tg p := by
  have hc : 2 * ((grid2.coords t) 0).val + ((grid2.coords t) 1).val = p.val := (coords2 t).1.trans hp
  exact sum2_tile (grid2.coords t) p hc (iblk2 (F := Ideal) (V5 m) c 0 t) (iblk2 (F := Ideal) (V5 m) c 1 t)
    (iblk2 (F := Ideal) (V5 m) c 2 t) prev.1 N tg
    (fun b j => (congrFun (blk2_full m c t) (ix2 b j)).trans (hN b j))
    (fun r j => (blk2_rows m c t r j).trans ((hN _ j).trans (congrArg (fun a => N a j) (Fin.ext (by
      show 512 * t.val + r.val = 512 * p.val + r.val
      rw [hp])))))
    ((congrFun (blk2_tg m c t) (ix2 (0 : Fin 1) (0 : Fin 1))).trans htg)

/-- … and that quarter's pair count. -/
theorem point2_snd (t : Fin cfg2.N) (p : Fin 4) (hp : t.val = p.val)
    (prev : Vec Ideal S1x1x1 .f32 × Vec Ideal S1x1x1 .f32) :
    (point2 (F := Ideal) (V5 m) c t prev).2 (ix3 (0 : Fin 1) (0 : Fin 1) (0 : Fin 1))
      = prev.2 (ix3 (0 : Fin 1) (0 : Fin 1) (0 : Fin 1)) + tileCount p :=
  cnt2_tile (grid2.coords t) p ((coords2 t).1.trans hp) prev.2

theorem lt2_0 : 0 < cfg2.N := by rw [N2]; decide
theorem lt2_1 : 1 < cfg2.N := by rw [N2]; decide
theorem lt2_2 : 2 < cfg2.N := by rw [N2]; decide
theorem lt2_3 : 3 < cfg2.N := by rw [N2]; decide

/-- The accumulators after the last point of the first core half: quarters 0 and 1 added to zero. -/
theorem acc_half0 (N : Fin 2048 → Fin 256 → EReal) (tg : EReal)
    (hN : ∀ (a : Fin 2048) (j : Fin 256), (V5 m c main_v23_0 : Vec Ideal S2048x256 .f32) (ix2 a j) = N a j)
    (htg : (V5 m c main_v27 : Vec Ideal S1x1 .f32) (ix2 (0 : Fin 1) (0 : Fin 1)) = tg) :
    (outsAt2 (F := Ideal) (V5 m) c 1 lt2_1).1 (ix3 (0 : Fin 1) (0 : Fin 1) (0 : Fin 1))
        = (0 + tileSum N tg 0) + tileSum N tg 1
    ∧ (outsAt2 (F := Ideal) (V5 m) c 1 lt2_1).2 (ix3 (0 : Fin 1) (0 : Fin 1) (0 : Fin 1))
        = (0 + tileCount 0) + tileCount 1 := by
  obtain ⟨e0, e1, -, -⟩ := outsAt2_unfold (F := Ideal) (V5 m) c lt2_0 lt2_1 lt2_2 lt2_3
  rw [e1, e0]
  constructor
  · refine (point2_fst m c ⟨1, lt2_1⟩ 1 rfl _ N tg hN htg).trans ?_
    refine congrArg (fun s : EReal => s + tileSum N tg 1) ?_
    refine (point2_fst m c ⟨0, lt2_0⟩ 0 rfl _ N tg hN htg).trans ?_
    exact congrArg (fun s : EReal => s + tileSum N tg 0) k2_pay3_zero
  · refine (point2_snd m c ⟨1, lt2_1⟩ 1 rfl _).trans ?_
    refine congrArg (fun s : EReal => s + tileCount 1) ?_
    refine (point2_snd m c ⟨0, lt2_0⟩ 0 rfl _).trans ?_
    exact congrArg (fun s : EReal => s + tileCount 0) k2_pay4_zero

/-- The accumulators after the last point of the second core half: quarters 2 and 3 added to zero. -/
theorem acc_half1 (N : Fin 2048 → Fin 256 → EReal) (tg : EReal)
    (hN : ∀ (a : Fin 2048) (j : Fin 256), (V5 m c main_v23_0 : Vec Ideal S2048x256 .f32) (ix2 a j) = N a j)
    (htg : (V5 m c main_v27 : Vec Ideal S1x1 .f32) (ix2 (0 : Fin 1) (0 : Fin 1)) = tg) :
    (outsAt2 (F := Ideal) (V5 m) c 3 lt2_3).1 (ix3 (0 : Fin 1) (0 : Fin 1) (0 : Fin 1))
        = (0 + tileSum N tg 2) + tileSum N tg 3
    ∧ (outsAt2 (F := Ideal) (V5 m) c 3 lt2_3).2 (ix3 (0 : Fin 1) (0 : Fin 1) (0 : Fin 1))
        = (0 + tileCount 2) + tileCount 3 := by
  obtain ⟨-, -, e2, e3⟩ := outsAt2_unfold (F := Ideal) (V5 m) c lt2_0 lt2_1 lt2_2 lt2_3
  rw [e3, e2]
  constructor
  · refine (point2_fst m c ⟨3, lt2_3⟩ 3 rfl _ N tg hN htg).trans ?_
    refine congrArg (fun s : EReal => s + tileSum N tg 3) ?_
    refine (point2_fst m c ⟨2, lt2_2⟩ 2 rfl _ N tg hN htg).trans ?_
    exact congrArg (fun s : EReal => s + tileSum N tg 2) k2_pay3_zero
  · refine (point2_snd m c ⟨3, lt2_3⟩ 3 rfl _).trans ?_
    refine congrArg (fun s : EReal => s + tileCount 3) ?_
    refine (point2_snd m c ⟨2, lt2_2⟩ 2 rfl _).trans ?_
    exact congrArg (fun s : EReal => s + tileCount 2) k2_pay4_zero

/-- The two totals the last host stretch divides: with the two halves of the loss-sum array named S and those of the
    mask-count array named C, over any table and target the launch's inputs are read as, S 0 + S 1 is the loss summed
    over all pairs a < b, and C 0 + C 1 the number of such pairs. -/
theorem totals2 (N : Fin 2048 → Fin 256 → EReal) (tg : EReal)
    (hN : ∀ (a : Fin 2048) (j : Fin 256), (V5 m c main_v23_0 : Vec Ideal S2048x256 .f32) (ix2 a j) = N a j)
    (htg : (V5 m c main_v27 : Vec Ideal S1x1 .f32) (ix2 (0 : Fin 1) (0 : Fin 1)) = tg)
    (S C : Fin 2 → EReal)
    (hS : ∀ h : Fin 2, (W6 m c (Proc.devRef .tc main_v28_0) : Vec Ideal S2x1x1 .f32) (ix3 h 0 0) = S h)
    (hC : ∀ h : Fin 2, (W6 m c (Proc.devRef .tc main_v28_1) : Vec Ideal S2x1x1 .f32) (ix3 h 0 0) = C h) :
    S 0 + S 1 = simSum N tg ∧ C 0 + C 1 = pairCount := by
  obtain ⟨s0, n0⟩ := acc_half0 m c N tg hN htg
  obtain ⟨s1, n1⟩ := acc_half1 m c N tg hN htg
  have a0 : S 0 = (0 + tileSum N tg 0) + tileSum N tg 1 := (hS 0).symm.trans ((out2_sum m c 0).trans
    ((congrArg (fun q : Vec Ideal S1x1x1 .f32 × Vec Ideal S1x1x1 .f32 => q.1 (ix3 (0 : Fin 1) (0 : Fin 1) (0 : Fin 1)))
      (outsAt2_congr (F := Ideal) (V5 m) c (show 2 * (0 : Fin 2).val + 1 = 1 from rfl) (odd_lt2 0) lt2_1)).trans s0))
  have a1 : S 1 = (0 + tileSum N tg 2) + tileSum N tg 3 := (hS 1).symm.trans ((out2_sum m c 1).trans
    ((congrArg (fun q : Vec Ideal S1x1x1 .f32 × Vec Ideal S1x1x1 .f32 => q.1 (ix3 (0 : Fin 1) (0 : Fin 1) (0 : Fin 1)))
      (outsAt2_congr (F := Ideal) (V5 m) c (show 2 * (1 : Fin 2).val + 1 = 3 from rfl) (odd_lt2 1) lt2_3)).trans s1))
  have b0 : C 0 = (0 + tileCount 0) + tileCount 1 := (hC 0).symm.trans ((out2_cnt m c 0).trans
    ((congrArg (fun q : Vec Ideal S1x1x1 .f32 × Vec Ideal S1x1x1 .f32 => q.2 (ix3 (0 : Fin 1) (0 : Fin 1) (0 : Fin 1)))
      (outsAt2_congr (F := Ideal) (V5 m) c (show 2 * (0 : Fin 2).val + 1 = 1 from rfl) (odd_lt2 0) lt2_1)).trans n0))
  have b1 : C 1 = (0 + tileCount 2) + tileCount 3 := (hC 1).symm.trans ((out2_cnt m c 1).trans
    ((congrArg (fun q : Vec Ideal S1x1x1 .f32 × Vec Ideal S1x1x1 .f32 => q.2 (ix3 (0 : Fin 1) (0 : Fin 1) (0 : Fin 1)))
      (outsAt2_congr (F := Ideal) (V5 m) c (show 2 * (1 : Fin 2).val + 1 = 3 from rfl) (odd_lt2 1) lt2_3)).trans n1))
  constructor
  · rw [a0, a1]
    exact (four_tiles (tileSum N tg)).trans (simSum_of_tiles N tg)
  · rw [b0, b1]
    exact (four_tiles tileCount).trans pairCount_of_tiles

end AtM

end Gsl

/-! ## The quotient is the reference's stage 136 -/

section AtM
variable (m : (ℓ : Loc nD τ sig) → Buf (Elt Ideal) ℓ) (c : Dev nD)

/-- The masked similarity loss averaged over both core halves, as the last host stretch forms it from the two halves
    S of the loss-sum array and the two halves N of the mask-count array, is the reference's stage 136 — given that the
    summed table the second launch starts from holds the fragments' row sums and counts. -/
theorem gsl_eq (S N : Fin 2 → EReal)
    (hS : ∀ h : Fin 2, (W6 m c (Proc.devRef .tc main_v28_0) : Vec Ideal S2x1x1 .f32) (ix3 h 0 0) = S h)
    (hN : ∀ h : Fin 2, (W6 m c (Proc.devRef .tc main_v28_1) : Vec Ideal S2x1x1 .f32) (ix3 h 0 0) = N h)
    (hproj : ∀ (f : Fin 2048) (j : Fin 256), (V3 m c main_v18 : Vec Ideal S2048x384 .f32) (ix2 f (Fin.castLE (by decide) j)) = Cert.Spec.segsum (labels m c) (projTable m c) f j)
    (hcnt : ∀ f : Fin 2048, (V3 m c main_v18 : Vec Ideal S2048x384 .f32) (ix2 f (257 : Fin 384)) = Cert.Spec.cnt (labels m c) f) :
    Ideal.div (S 0 + S 1) (N 0 + N 1)
      = Cert.ReferenceIdeal.Read.val_main_v136 (F := Ideal) (arg0 m c) (arg1 m c) (arg4 m c) (arg5 m c) (arg6 m c) (arg7 m c) (arg8 m c) (arg9 m c) (arg11 m c) (arg12 m c) (arg13 m c) (arg14 m c) (arg15 m c) ix0 := by
  -- the group means are the reference's stage 49
  have hgroup : ∀ (f : Fin 2048) (j : Fin 256), k1_pay5 (F := Ideal) (V3 m c main_v18) (ix2 f j)
      = Cert.ReferenceIdeal.Read.val_main_v49 (F := Ideal) (arg0 m c) (arg1 m c) (arg4 m c) (arg5 m c) (arg6 m c) (arg7 m c)
          (arg8 m c) (arg9 m c) (arg15 m c) (ix2 f j) :=
    fun f j => (Gsl.group_mean (V3 m c main_v18) (labels m c) (projTable m c) hproj hcnt f j).trans
      (Cert.RefSim.ref_group (arg0 m c) (arg1 m c) (arg4 m c) (arg5 m c) (arg6 m c) (arg7 m c) (arg8 m c) (arg9 m c)
        (arg15 m c) f j).symm
  -- the table the third launch reads is the reference's stage 112
  have hT : ∀ (a : Fin 2048) (j : Fin 256), (V5 m c main_v23_0 : Vec Ideal S2048x256 .f32) (ix2 a j)
      = Cert.ReferenceIdeal.Read.val_main_v112 (F := Ideal) (arg0 m c) (arg1 m c) (arg4 m c) (arg5 m c) (arg6 m c) (arg7 m c)
          (arg8 m c) (arg9 m c) (arg15 m c) (ix2 a j) :=
    fun a j => (congrFun ((W5_of m c main_v23_0 (by decide)).trans (out1_nrm m c)) (ix2 a j)).trans
      (Cert.TargetRef.nrm1_eq_ref (V3 m c main_v18) (arg0 m c) (arg1 m c) (arg4 m c) (arg5 m c) (arg6 m c) (arg7 m c)
        (arg8 m c) (arg9 m c) (arg15 m c) hgroup a j)
  -- the target it reads is the reference's stage 107
  obtain ⟨hw1, hb1, hw2, hb2, -⟩ := tail_inputs m c
  have htg : (V5 m c main_v27 : Vec Ideal S1x1 .f32) (ix2 (0 : Fin 1) (0 : Fin 1))
      = Cert.ReferenceIdeal.Read.val_main_v107 (F := Ideal) (arg0 m c) (arg1 m c) (arg4 m c) (arg5 m c) (arg6 m c) (arg7 m c)
          (arg8 m c) (arg9 m c) (arg11 m c) (arg12 m c) (arg13 m c) (arg14 m c) (arg15 m c) ix0 :=
    (target_in2 m c).trans ((congrFun (out1_target m c) (ix2 (0 : Fin 1) (0 : Fin 1))).trans
      (Cert.TargetRef.target1_eq_ref (V3 m c main_v18) (V3 m c main_v5) (V3 m c main_v11) (V3 m c main_v6) (V3 m c main_v12)
        (arg0 m c) (arg1 m c) (arg4 m c) (arg5 m c) (arg6 m c) (arg7 m c) (arg8 m c) (arg9 m c) (arg11 m c) (arg12 m c)
        (arg13 m c) (arg14 m c) (arg15 m c) hgroup (fun k j => hw1 (ix2 k j)) hb1 (fun k => hw2 (ix2 k (0 : Fin 1))) hb2))
  obtain ⟨hs, hn⟩ := Gsl.totals2 m c
    (fun a j => Cert.ReferenceIdeal.Read.val_main_v112 (F := Ideal) (arg0 m c) (arg1 m c) (arg4 m c) (arg5 m c) (arg6 m c)
      (arg7 m c) (arg8 m c) (arg9 m c) (arg15 m c) (ix2 a j))
    (Cert.ReferenceIdeal.Read.val_main_v107 (F := Ideal) (arg0 m c) (arg1 m c) (arg4 m c) (arg5 m c) (arg6 m c) (arg7 m c)
      (arg8 m c) (arg9 m c) (arg11 m c) (arg12 m c) (arg13 m c) (arg14 m c) (arg15 m c) ix0) hT htg S N hS hN
  exact (congrArg₂ Ideal.div hs hn).trans
    (Cert.RefSim.ref_gsl (arg0 m c) (arg1 m c) (arg4 m c) (arg5 m c) (arg6 m c) (arg7 m c) (arg8 m c) (arg9 m c)
      (arg11 m c) (arg12 m c) (arg13 m c) (arg14 m c) (arg15 m c)).symm

end AtM

end Cert.KernelIdeal.Hand

end
-- ==== Proof.KI.Algebra.lean ====
/-
  Pure algebra on the extended reals for the two spreads.

  Over real-valued features every quantity of the vocabulary is the coercion of a real number: a fragment's
  indicator is 0 or 1, so a moment is a finite real sum over the fragment's atoms, the guarded count
  max(count, 1) is a real that is at least 1, and dividing by it is multiplying by its reciprocal.  What is left
  is an identity of real numbers for one fragment: with s = max(n, 1) and n the number of atoms,
  (1/s) Σ_i Σ_j (x_ij − μ_j)² = (1/s) Σ_i Σ_j x_ij² − Σ_j μ_j²  for μ_j = (1/s) Σ_i x_ij,
  because either the fragment is empty (every sum vanishes) or s = n.  The left side is a sum of squares over a
  positive number, so clipping the right side below at zero changes nothing.
-/
import proofs.«412127_j15607911153865_3_alg».proof.Proof.KI.Spec
import Idealize.ShloMosaic.Lib.IdealHost
import Mathlib.Data.EReal.Basic
import Mathlib.Data.EReal.Operations
import Mathlib.Data.EReal.Inv
import Mathlib.Algebra.BigOperators.Ring.Finset
import Mathlib.Algebra.Order.BigOperators.Group.Finset
import Mathlib.Tactic.Ring
import Mathlib.Tactic.FieldSimp
import Mathlib.Tactic.Positivity
import Mathlib.Tactic.NormNum

noncomputable section

namespace Cert.Spec

open Idealize.ShloMosaic

/-! ## The constants -/

theorem c0_eq : c0 = 0 := Ideal.ofBits_zero_f32

theorem c1_eq : c1 = 1 := Ideal.ofBits_one_f32

theorem c2_eq : c2 = 2 := by
  rw [show (2 : EReal) = ((2 : ℝ) : EReal) by norm_cast]
  simp [Ideal.ofBits, Ideal.ieee, -EReal.coe_mul]; norm_num

theorem cShift_real : ∃ r : ℝ, cShift = (r : EReal) := by
  simp [Ideal.ofBits, Ideal.ieee, -EReal.coe_mul]

namespace Algebra

/-! ## Real identities for one fragment -/

/-- One channel: the mean squared distance to the mean is the mean square minus the squared mean, as soon as the
    divisor is the number of points (or there are no points at all). -/
theorem real_var_1d {ι : Type*} (S : Finset ι) (a : ι → ℝ) (s : ℝ) (hs : s ≠ 0)
    (h : S = ∅ ∨ s = (S.card : ℝ)) :
    (∑ i ∈ S, (a i - (∑ i' ∈ S, a i') * (1 / s)) * (a i - (∑ i' ∈ S, a i') * (1 / s))) * (1 / s)
      = (∑ i ∈ S, a i * a i) * (1 / s) - ((∑ i ∈ S, a i) * (1 / s)) * ((∑ i ∈ S, a i) * (1 / s)) := by
  rcases h with h | h
  · subst h; simp
  · have key : ∀ i, (a i - (∑ i' ∈ S, a i') * (1 / s)) * (a i - (∑ i' ∈ S, a i') * (1 / s))
        = a i * a i - 2 * ((∑ i' ∈ S, a i') * (1 / s)) * a i
          + ((∑ i' ∈ S, a i') * (1 / s)) * ((∑ i' ∈ S, a i') * (1 / s)) := by
      intro i; ring
    simp only [key]
    rw [Finset.sum_add_distrib, Finset.sum_sub_distrib, ← Finset.mul_sum, Finset.sum_const, nsmul_eq_mul, ← h]
    field_simp
    ring

/-- The two-pass variance of a table of reals over a set of rows, with divisor `s`. -/
def rv2 {ι κ : Type*} (S : Finset ι) (J : Finset κ) (r : ι → κ → ℝ) (s : ℝ) : ℝ :=
  (∑ i ∈ S, ∑ j ∈ J, (r i j - (∑ i' ∈ S, r i' j) * (1 / s)) * (r i j - (∑ i' ∈ S, r i' j) * (1 / s))) * (1 / s)

/-- The one-pass variance: the mean squared norm minus the squared norm of the mean. -/
def rv1 {ι κ : Type*} (S : Finset ι) (J : Finset κ) (r : ι → κ → ℝ) (s : ℝ) : ℝ :=
  (∑ i ∈ S, ∑ j ∈ J, r i j * r i j) * (1 / s)
    - ∑ j ∈ J, ((∑ i ∈ S, r i j) * (1 / s)) * ((∑ i ∈ S, r i j) * (1 / s))

theorem rv2_eq_rv1 {ι κ : Type*} (S : Finset ι) (J : Finset κ) (r : ι → κ → ℝ) (s : ℝ) (hs : s ≠ 0)
    (h : S = ∅ ∨ s = (S.card : ℝ)) : rv2 S J r s = rv1 S J r s := by
  unfold rv2 rv1
  calc (∑ i ∈ S, ∑ j ∈ J, (r i j - (∑ i' ∈ S, r i' j) * (1 / s)) * (r i j - (∑ i' ∈ S, r i' j) * (1 / s))) * (1 / s)
      = ∑ j ∈ J, (∑ i ∈ S, (r i j - (∑ i' ∈ S, r i' j) * (1 / s)) * (r i j - (∑ i' ∈ S, r i' j) * (1 / s))) * (1 / s) := by
        rw [Finset.sum_comm, Finset.sum_mul]
    _ = ∑ j ∈ J, ((∑ i ∈ S, r i j * r i j) * (1 / s)
          - ((∑ i ∈ S, r i j) * (1 / s)) * ((∑ i ∈ S, r i j) * (1 / s))) :=
        Finset.sum_congr rfl fun j _ => real_var_1d S (fun i => r i j) s hs h
    _ = _ := by
        rw [Finset.sum_sub_distrib, ← Finset.sum_mul, Finset.sum_comm (s := J) (t := S)]

theorem rv2_nonneg {ι κ : Type*} (S : Finset ι) (J : Finset κ) (r : ι → κ → ℝ) (s : ℝ) (hs : 0 < s) :
    0 ≤ rv2 S J r s := by
  unfold rv2
  exact mul_nonneg (Finset.sum_nonneg fun i _ => Finset.sum_nonneg fun j _ => mul_self_nonneg _)
    (by positivity)

/-- Shifting every point by the same constant does not change the variance. -/
theorem real_var_shift {ι : Type*} (S : Finset ι) (v : ι → ℝ) (c s : ℝ) (hs : s ≠ 0)
    (h : S = ∅ ∨ s = (S.card : ℝ)) :
    (∑ i ∈ S, (v i - (∑ i' ∈ S, v i') * (1 / s)) * (v i - (∑ i' ∈ S, v i') * (1 / s))) * (1 / s)
      = (∑ i ∈ S, (v i - c) * (v i - c)) * (1 / s)
        - ((∑ i ∈ S, (v i - c)) * (1 / s)) * ((∑ i ∈ S, (v i - c)) * (1 / s)) := by
  have e := real_var_1d S (fun i => v i - c) s hs h
  simp only at e
  rw [← e]
  rcases h with h | h
  · subst h; simp
  · have hm : (∑ i' ∈ S, (v i' - c)) * (1 / s) = (∑ i' ∈ S, v i') * (1 / s) - c := by
      rw [Finset.sum_sub_distrib, Finset.sum_const, nsmul_eq_mul, ← h]
      field_simp
    rw [hm]
    congr 1
    refine Finset.sum_congr rfl fun i _ => ?_
    ring

/-- A table whose rows are multiples `v i` of one row of column sums: its two-pass variance is the variance of
    the (shifted) multipliers times the squared norm of the column sums. -/
theorem rv2_vec {ι κ μ : Type*} (S : Finset ι) (J : Finset κ) (K : Finset μ) (v : ι → ℝ) (W : μ → κ → ℝ)
    (c s : ℝ) (hs : s ≠ 0) (h : S = ∅ ∨ s = (S.card : ℝ)) :
    rv2 S J (fun i j => ∑ k ∈ K, v i * W k j) s
      = ((∑ i ∈ S, (v i - c) * (v i - c)) * (1 / s)
          - ((∑ i ∈ S, (v i - c)) * (1 / s)) * ((∑ i ∈ S, (v i - c)) * (1 / s)))
        * (∑ j ∈ J, (∑ k ∈ K, W k j) * (∑ k ∈ K, W k j)) := by
  rw [← real_var_shift S v c s hs h]
  unfold rv2
  have e : ∀ i j, (∑ k ∈ K, v i * W k j - (∑ i' ∈ S, ∑ k ∈ K, v i' * W k j) * (1 / s))
      = (v i - (∑ i' ∈ S, v i') * (1 / s)) * (∑ k ∈ K, W k j) := by
    intro i j
    simp only [← Finset.mul_sum, ← Finset.sum_mul]
    ring
  simp only [e]
  have e2 : ∀ i, ∑ j ∈ J, ((v i - (∑ i' ∈ S, v i') * (1 / s)) * (∑ k ∈ K, W k j))
        * ((v i - (∑ i' ∈ S, v i') * (1 / s)) * (∑ k ∈ K, W k j))
      = ((v i - (∑ i' ∈ S, v i') * (1 / s)) * (v i - (∑ i' ∈ S, v i') * (1 / s)))
        * ∑ j ∈ J, (∑ k ∈ K, W k j) * (∑ k ∈ K, W k j) := by
    intro i
    rw [Finset.mul_sum]
    exact Finset.sum_congr rfl fun j _ => by ring
  simp only [e2, ← Finset.sum_mul]
  ring

/-! ## The vocabulary over real-valued features -/

/-- The coercion of a finite sum of reals is the sum of the coercions. -/
theorem coe_finsum {ι : Type*} (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The atoms of fragment `f`. -/
def frag (ids : Fin 100000 → BitVec 32) (f : Fin 2048) : Finset (Fin 100000) :=
  Finset.univ.filter fun i => ids i = BitVec.ofNat 32 f.val

/-- A moment of real values is the real sum over the fragment's atoms. -/
theorem mom_coe (ids : Fin 100000 → BitVec 32) (r : Fin 100000 → ℝ) (f : Fin 2048) :
    mom ids (fun i => (r i : EReal)) f = ((∑ i ∈ frag ids f, r i : ℝ) : EReal) := by
  simp only [mom, hot, frag]
  rw [Finset.sum_filter, coe_finsum]
  refine Finset.sum_congr rfl fun i _ => ?_
  by_cases h : ids i = BitVec.ofNat 32 f.val
  · rw [if_pos h, if_pos h, one_mul]
  · rw [if_neg h, if_neg h, zero_mul, EReal.coe_zero]

/-- The guarded count of a fragment as a real: max(number of atoms, 1). -/
def sreal (ids : Fin 100000 → BitVec 32) (f : Fin 2048) : ℝ := max ((frag ids f).card : ℝ) 1

theorem sreal_pos (ids : Fin 100000 → BitVec 32) (f : Fin 2048) : 0 < sreal ids f :=
  lt_of_lt_of_le one_pos (le_max_right _ _)

/-- Either the fragment has no atom, or the guarded count is the count. -/
theorem sreal_cases (ids : Fin 100000 → BitVec 32) (f : Fin 2048) :
    frag ids f = ∅ ∨ sreal ids f = ((frag ids f).card : ℝ) := by
  rcases Finset.eq_empty_or_nonempty (frag ids f) with h | h
  · exact Or.inl h
  · refine Or.inr (max_eq_left ?_)
    exact Nat.one_le_cast.mpr (Finset.card_pos.mpr h)

theorem safe_coe (ids : Fin 100000 → BitVec 32) (f : Fin 2048) : safe ids f = ((sreal ids f : ℝ) : EReal) := by
  have hc : cnt ids f = (((frag ids f).card : ℝ) : EReal) := by
    have h := mom_coe ids (fun _ => (1 : ℝ)) f
    rw [Finset.sum_const, nsmul_eq_mul, mul_one] at h
    exact h
  unfold safe sreal
  rw [hc, c1_eq, ← EReal.coe_one]
  exact (EReal.coe_strictMono.monotone.map_max).symm

/-- Dividing a real by a nonzero real, on the extended reals. -/
theorem div_coe_coe (a s : ℝ) (hs : s ≠ 0) :
    Ideal.div (a : EReal) (s : EReal) = ((a * (1 / s) : ℝ) : EReal) := by
  rw [Ideal.div_coe hs, ← EReal.coe_mul]

theorem var2_coe (ids : Fin 100000 → BitVec 32) (r : Fin 100000 → Fin 256 → ℝ) (f : Fin 2048) :
    var2 ids (fun i j => (r i j : EReal)) f
      = ((rv2 (frag ids f) Finset.univ r (sreal ids f) : ℝ) : EReal) := by
  have hs0 : sreal ids f ≠ 0 := (sreal_pos ids f).ne'
  have hmean : ∀ j, mean ids (fun i j => (r i j : EReal)) f j
      = (((∑ i ∈ frag ids f, r i j) * (1 / sreal ids f) : ℝ) : EReal) := by
    intro j
    have h1 : segsum ids (fun i j => (r i j : EReal)) f j = ((∑ i ∈ frag ids f, r i j : ℝ) : EReal) :=
      mom_coe ids (fun i => r i j) f
    unfold mean
    rw [h1, safe_coe, div_coe_coe _ _ hs0]
  unfold var2 rv2
  simp only [hmean, ← EReal.coe_sub, ← EReal.coe_mul, ← coe_finsum]
  rw [mom_coe, safe_coe, div_coe_coe _ _ hs0]

theorem var1_coe (ids : Fin 100000 → BitVec 32) (r : Fin 100000 → Fin 256 → ℝ) (f : Fin 2048) :
    var1 ids (fun f j => segsum ids (fun i j => (r i j : EReal)) f j)
        (fun f => mom ids (fun i => ∑ j, (r i j : EReal) * (r i j : EReal)) f) f
      = ((rv1 (frag ids f) Finset.univ r (sreal ids f) : ℝ) : EReal) := by
  have hs0 : sreal ids f ≠ 0 := (sreal_pos ids f).ne'
  have h1 : ∀ j, segsum ids (fun i j => (r i j : EReal)) f j = ((∑ i ∈ frag ids f, r i j : ℝ) : EReal) :=
    fun j => mom_coe ids (fun i => r i j) f
  unfold var1 rv1
  simp only [h1, mom_coe, safe_coe, div_coe_coe _ _ hs0, ← EReal.coe_mul, ← coe_finsum, ← EReal.coe_sub]

theorem varVec_coe (ids : Fin 100000 → BitVec 32) (v : Fin 100000 → ℝ) (c : ℝ) (W : Fin 256 → Fin 256 → ℝ)
    (f : Fin 2048) :
    varVec ids (fun f => mom ids (fun i => (v i : EReal) - (c : EReal)) f)
        (fun f => mom ids (fun i => ((v i : EReal) - (c : EReal)) * ((v i : EReal) - (c : EReal))) f)
        (∑ j, (∑ k, (W k j : EReal)) * (∑ k, (W k j : EReal))) f
      = (((((∑ i ∈ frag ids f, (v i - c) * (v i - c)) * (1 / sreal ids f)
            - ((∑ i ∈ frag ids f, (v i - c)) * (1 / sreal ids f))
              * ((∑ i ∈ frag ids f, (v i - c)) * (1 / sreal ids f)))
          * (∑ j, (∑ k, W k j) * (∑ k, W k j)) : ℝ)) : EReal) := by
  have hs0 : sreal ids f ≠ 0 := (sreal_pos ids f).ne'
  unfold varVec
  simp only [← EReal.coe_sub, ← EReal.coe_mul, ← coe_finsum, mom_coe, safe_coe, div_coe_coe _ _ hs0]

end Algebra

open Algebra

/-! ## The two spreads -/

/-- One pass equals two passes over real-valued features. -/
theorem spread_of_moments (ids : Fin 100000 → BitVec 32) (x : Fin 100000 → Fin 256 → EReal)
    (hx : ∀ i j, ∃ r : ℝ, x i j = (r : EReal)) :
    spreadOfMoments ids (fun f j => segsum ids x f j) (fun f => mom ids (fun i => ∑ j, x i j * x i j) f)
      = spread ids x := by
  obtain ⟨r, rfl⟩ : ∃ r : Fin 100000 → Fin 256 → ℝ, x = fun i j => (r i j : EReal) := by
    choose r hr using hx
    exact ⟨r, funext fun i => funext fun j => hr i j⟩
  have key : ∀ f, max (var1 ids (fun f j => segsum ids (fun i j => (r i j : EReal)) f j)
        (fun f => mom ids (fun i => ∑ j, (r i j : EReal) * (r i j : EReal)) f) f) c0
      = var2 ids (fun i j => (r i j : EReal)) f := by
    intro f
    rw [var1_coe, var2_coe, c0_eq,
      ← rv2_eq_rv1 (frag ids f) Finset.univ r (sreal ids f) (sreal_pos ids f).ne' (sreal_cases ids f)]
    exact max_eq_left (EReal.coe_nonneg.mpr (rv2_nonneg _ _ _ _ (sreal_pos ids f)))
  unfold spreadOfMoments spread
  simp only [key]

/-- The vector branch: every atom's 256 features are one real magnitude times the column sums of a real weight
    table, so the two-pass spread is the one-pass variance of the (shifted) magnitudes times the squared norm of
    the column sums; the shift cancels. -/
theorem spread_vec (ids : Fin 100000 → BitVec 32) (vm : Fin 100000 → EReal)
    (hvm : ∀ i, ∃ r : ℝ, vm i = (r : EReal)) (w : Fin 256 → Fin 256 → EReal)
    (hw : ∀ k j, ∃ r : ℝ, w k j = (r : EReal)) :
    spreadVec ids (fun f => mom ids (fun i => vm i - cShift) f)
        (fun f => mom ids (fun i => (vm i - cShift) * (vm i - cShift)) f)
        (∑ j, (∑ k, w k j) * (∑ k, w k j))
      = spread ids (fun i j => ∑ k, vm i * w k j) := by
  obtain ⟨v, rfl⟩ : ∃ v : Fin 100000 → ℝ, vm = fun i => (v i : EReal) := by
    choose v hv using hvm
    exact ⟨v, funext fun i => hv i⟩
  obtain ⟨W, rfl⟩ : ∃ W : Fin 256 → Fin 256 → ℝ, w = fun k j => (W k j : EReal) := by
    choose W hW using hw
    exact ⟨W, funext fun k => funext fun j => hW k j⟩
  obtain ⟨c, hc⟩ := cShift_real
  rw [hc]
  have hx : (fun (i : Fin 100000) (j : Fin 256) => ∑ k, (v i : EReal) * (W k j : EReal))
      = fun i j => ((∑ k, v i * W k j : ℝ) : EReal) := by
    funext i j
    simp only [← EReal.coe_mul, ← coe_finsum]
  have key : ∀ f, max (varVec ids (fun f => mom ids (fun i => (v i : EReal) - (c : EReal)) f)
        (fun f => mom ids (fun i => ((v i : EReal) - (c : EReal)) * ((v i : EReal) - (c : EReal))) f)
        (∑ j, (∑ k, (W k j : EReal)) * (∑ k, (W k j : EReal))) f) c0
      = var2 ids (fun i j => ((∑ k, v i * W k j : ℝ) : EReal)) f := by
    intro f
    rw [varVec_coe, var2_coe, c0_eq,
      ← rv2_vec (frag ids f) Finset.univ Finset.univ v W c (sreal ids f) (sreal_pos ids f).ne'
        (sreal_cases ids f)]
    exact max_eq_left (EReal.coe_nonneg.mpr (rv2_nonneg _ _ _ _ (sreal_pos ids f)))
  unfold spreadVec spread
  simp only [hx, key]

end Cert.Spec

end
-- ==== Proof.KI.PreReal.lean ====
/-
  The certificate's precondition, read back on the extended reals.

  The precondition is a conjunction of fifteen tests, one per float argument: "every entry x of the array has
  |x| < +∞".  Each test is an and-reduction of the array of comparison bits down to a single bit, and the fifteen
  bits are and-ed together; the hypothesis says the final bit is 1.  On the extended reals |x| = max x (-x), and
  max x (-x) < ⊤ excludes both x = ⊤ and x = ⊥ (since -⊥ = ⊤), so x is a real number.  The theorem below states that
  conclusion for every entry of every float argument.
-/
import proofs.«412127_j15607911153865_3_alg».proof.Pre_finite_inputs
import Idealize.ShloMosaic.Lib.ReduceAll
import Idealize.ShloMosaic.Lib.ValueIdx
import Idealize.ShloMosaic.PureOps.Ideal

noncomputable section

namespace Cert.PreReal

open Idealize.ShloMosaic
open Cert.Pre_finite_inputs

/-- The shape with no axes has exactly one index. -/
instance : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    simp [Ideal.cmp, hn] at h
  induction x using EReal.rec with
  | bot => simp at hlt
  | coe r => exact ⟨r, rfl⟩
  | top => simp at hlt

/-- The bit of an elementwise and is 1 only where both operands' bits are. -/
theorem and_bits {s : Shape} (x y : IVec s 1) (i : s.Idx) (h : andi x y i = 1#1) : x i = 1#1 ∧ y i = 1#1 :=
  IntOp.andi_eq_one.1 h

/-- One test of the precondition: if the and-reduction of the bits "|x i| < +∞" over all axes is 1, every entry
    of x is a real number. -/
theorem real_of_all {s : Shape} {axes : List (Fin s.rank)} (hb : S_.BroadcastsInDim s (![] : Fin 0 → Fin s.rank))
    (hr : s.ReducesTo axes S_) (hu : 0 < S_.numel) (x : FVec Ideal s .f32) (j : S_.Idx)
    (e : Host.reduce IntOp.andi
          (cmpf .olt (Host.absf x) (broadcastInDim s ![] hb (constant (F := Ideal) S_ .f32 0x7F800000#32)))
          (constantI S_ 1 1#1) hr hu j = 1#1)
    (i : s.Idx) : ∃ r : ℝ, x i = (r : EReal) :=
  real_of_abs_lt (x i) (Host.reduce_andi_all _ _ hr hu j e i)

/-- The precondition read back: if the printed predicate evaluates to the all-ones bit on the sixteen arguments,
    every entry of each of the fifteen float arguments is a real number.  The final bit is a left-nested and of
    the fifteen tests' bits; peeling the ands off from the outside yields the tests in the order 14, 13, …, 1, 0. -/
theorem real_of_pre [Facts]
    (a0 a1 : FVec Ideal S100000x256 .f32) (a2 a3 : FVec Ideal S100000x3x256 .f32)
    (a4 : FVec Ideal S256x256 .f32) (a5 a6 a7 : FVec Ideal S256 .f32) (a8 : FVec Ideal S256x256 .f32)
    (a9 : FVec Ideal S256 .f32) (a10 : FVec Ideal S256x256 .f32) (a11 : FVec Ideal S256x32 .f32)
    (a12 : FVec Ideal S32 .f32) (a13 : FVec Ideal S32x1 .f32) (a14 : FVec Ideal S1 .f32) (a15 : IVec S100000 32)
    (h : fn (F := Ideal) a0 a1 a2 a3 a4 a5 a6 a7 a8 a9 a10 a11 a12 a13 a14 a15 = (fun _ => 1#1)) :
      (∀ i : S100000x256.Idx, ∃ r : ℝ, a0 i = (r : EReal)) ∧ (∀ i : S100000x256.Idx, ∃ r : ℝ, a1 i = (r : EReal)) ∧
      (∀ i : S100000x3x256.Idx, ∃ r : ℝ, a2 i = (r : EReal)) ∧ (∀ i : S100000x3x256.Idx, ∃ r : ℝ, a3 i = (r : EReal)) ∧
      (∀ i : S256x256.Idx, ∃ r : ℝ, a4 i = (r : EReal)) ∧ (∀ i : S256.Idx, ∃ r : ℝ, a5 i = (r : EReal)) ∧
      (∀ i : S256.Idx, ∃ r : ℝ, a6 i = (r : EReal)) ∧ (∀ i : S256.Idx, ∃ r : ℝ, a7 i = (r : EReal)) ∧
      (∀ i : S256x256.Idx, ∃ r : ℝ, a8 i = (r : EReal)) ∧ (∀ i : S256.Idx, ∃ r : ℝ, a9 i = (r : EReal)) ∧
      (∀ i : S256x256.Idx, ∃ r : ℝ, a10 i = (r : EReal)) ∧ (∀ i : S256x32.Idx, ∃ r : ℝ, a11 i = (r : EReal)) ∧
      (∀ i : S32.Idx, ∃ r : ℝ, a12 i = (r : EReal)) ∧ (∀ i : S32x1.Idx, ∃ r : ℝ, a13 i = (r : EReal)) ∧
      (∀ i : S1.Idx, ∃ r : ℝ, a14 i = (r : EReal)) := by
  have h0 := congrFun h ValueIdx.ix0
  dsimp only [fn, fn_part1, fn_part2, fn_part3, fn_part4] at h0
  obtain ⟨h0, h14⟩ := and_bits _ _ _ h0
  obtain ⟨h0, h13⟩ := and_bits _ _ _ h0
  obtain ⟨h0, h12⟩ := and_bits _ _ _ h0
  obtain ⟨h0, h11⟩ := and_bits _ _ _ h0
  obtain ⟨h0, h10⟩ := and_bits _ _ _ h0
  obtain ⟨h0, h9⟩ := and_bits _ _ _ h0
  obtain ⟨h0, h8⟩ := and_bits _ _ _ h0
  obtain ⟨h0, h7⟩ := and_bits _ _ _ h0
  obtain ⟨h0, h6⟩ := and_bits _ _ _ h0
  obtain ⟨h0, h5⟩ := and_bits _ _ _ h0
  obtain ⟨h0, h4⟩ := and_bits _ _ _ h0
  obtain ⟨h0, h3⟩ := and_bits _ _ _ h0
  obtain ⟨h0, h2⟩ := and_bits _ _ _ h0
  obtain ⟨h0, h1⟩ := and_bits _ _ _ h0
  exact ⟨fun i => real_of_all _ _ _ a0 _ h0 i,
    fun i => real_of_all _ _ _ a1 _ h1 i,
    fun i => real_of_all _ _ _ a2 _ h2 i,
    fun i => real_of_all _ _ _ a3 _ h3 i,
    fun i => real_of_all _ _ _ a4 _ h4 i,
    fun i => real_of_all _ _ _ a5 _ h5 i,
    fun i => real_of_all _ _ _ a6 _ h6 i,
    fun i => real_of_all _ _ _ a7 _ h7 i,
    fun i => real_of_all _ _ _ a8 _ h8 i,
    fun i => real_of_all _ _ _ a9 _ h9 i,
    fun i => real_of_all _ _ _ a10 _ h10 i,
    fun i => real_of_all _ _ _ a11 _ h11 i,
    fun i => real_of_all _ _ _ a12 _ h12 i,
    fun i => real_of_all _ _ _ a13 _ h13 i,
    fun i => real_of_all _ _ _ a14 _ h14 i⟩

end Cert.PreReal

end
-- ==== Proof.KI.RefReal.lean ====
/-
  Over real-valued inputs the reference's projected feature table and its vector magnitudes are real-valued: no
  infinity arises anywhere on the way.

  The projector is a linear map, a layer normalisation, a gated unit and a second linear map.  Sums, differences,
  products and finite sums of reals are reals; a division by the word of 256 is a division by a nonzero real; the
  variance of a row is a mean of squares, so it is not negative, and adding the positive epsilon makes the argument of
  the reciprocal square root positive; the gate divides one by one plus an exponential, which is positive.  The vector
  magnitude is a mean over three square roots of sums of squares, each sum not negative.
-/
import proofs.«412127_j15607911153865_3_alg».proof.Proof.RefReadP
import Idealize.ShloMosaic.PureOps.Ideal
import Idealize.ShloMosaic.Lib.ValueIdx
import Mathlib.Data.EReal.Operations
import Mathlib.Data.EReal.Inv
import Mathlib.Analysis.Real.Sqrt
import Mathlib.Analysis.SpecialFunctions.Exp
import Mathlib.Algebra.BigOperators.Group.Finset.Basic

noncomputable section

namespace Cert.RefReal

open Idealize.ShloMosaic Idealize.ShloMosaic.ValueIdx Cert.ReferenceIdeal Cert.ReferenceIdeal.Gen Cert.ReferenceIdeal.Read

open Idealize.ShloMosaic

/-- An extended real that is an ordinary real. -/
def IsReal (x : EReal) : Prop := ∃ r : ℝ, x = (r : EReal)

/-- An ordinary real that is not negative. -/
def IsNonneg (x : EReal) : Prop := ∃ r : ℝ, 0 ≤ r ∧ x = (r : EReal)

/-- An ordinary real that is positive. -/
def IsPos (x : EReal) : Prop := ∃ r : ℝ, 0 < r ∧ x = (r : EReal)

theorem IsReal.coe (r : ℝ) : IsReal (r : EReal) := ⟨r, rfl⟩

theorem IsNonneg.isReal {x : EReal} (h : IsNonneg x) : IsReal x := by
  obtain ⟨r, _, e⟩ := h; exact ⟨r, e⟩

theorem IsPos.isReal {x : EReal} (h : IsPos x) : IsReal x := by
  obtain ⟨r, _, e⟩ := h; exact ⟨r, e⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is a real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The square of a real is a real that is not negative. -/
theorem IsReal.mul_self {x : EReal} (hx : IsReal x) : IsNonneg (x * x) := by
  obtain ⟨a, rfl⟩ := hx; exact ⟨a * a, mul_self_nonneg a, (EReal.coe_mul a a).symm⟩

theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩

theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- A finite sum of reals that are not negative is one. -/
theorem IsNonneg.sum {ι : Type} (s : Finset ι) (f : ι → EReal) (h : ∀ i ∈ s, IsNonneg (f i)) :
    IsNonneg (∑ i ∈ s, f i) := by
  classical
  induction s using Finset.induction_on with
  | empty => exact ⟨0, le_refl 0, by simp⟩
  | insert a s ha ih =>
    rw [Finset.sum_insert ha]
    exact (h a (Finset.mem_insert_self a s)).add (ih fun i hi => h i (Finset.mem_insert_of_mem hi))

/-- A real divided by a real that is not zero is a real. -/
theorem IsReal.div_coe {x : EReal} (hx : IsReal x) {y : ℝ} (hy : y ≠ 0) : IsReal (Ideal.div x (y : EReal)) := by
  rw [Ideal.div_coe hy]; exact hx.mul (IsReal.coe _)

/-- A real that is not negative, divided by a positive real, is not negative. -/
theorem IsNonneg.div_coe {x : EReal} (hx : IsNonneg x) {y : ℝ} (hy : 0 < y) : IsNonneg (Ideal.div x (y : EReal)) := by
  obtain ⟨a, ha, rfl⟩ := hx
  rw [Ideal.div_coe hy.ne']
  exact ⟨a * (1 / y), mul_nonneg ha (one_div_nonneg.mpr hy.le), (EReal.coe_mul a (1 / y)).symm⟩

/-- A real divided by a positive real is a real. -/
theorem IsReal.div_pos {x y : EReal} (hx : IsReal x) (hy : IsPos y) : IsReal (Ideal.div x y) := by
  obtain ⟨b, hb, rfl⟩ := hy
  exact hx.div_coe hb.ne'

/-- The square root of a real that is not negative is such a real. -/
theorem IsNonneg.sqrt {x : EReal} (hx : IsNonneg x) : IsNonneg (Ideal.sqrt x) := by
  obtain ⟨a, ha, rfl⟩ := hx
  rw [Ideal.sqrt_coe, if_neg (not_lt.mpr ha)]
  exact ⟨Real.sqrt a, Real.sqrt_nonneg a, rfl⟩

/-- The reciprocal square root of a positive real is a real. -/
theorem IsPos.rsqrt {x : EReal} (hx : IsPos x) : IsReal (Ideal.rsqrt x) := by
  obtain ⟨a, ha, rfl⟩ := hx
  rw [Ideal.rsqrt_coe, if_neg (not_lt.mpr ha.le), if_neg ha.ne']
  exact ⟨_, rfl⟩

/-- The exponential of a real is a positive real. -/
theorem IsReal.exp {x : EReal} (hx : IsReal x) : IsPos (Ideal.exp x) := by
  obtain ⟨a, rfl⟩ := hx
  exact ⟨Real.exp a, Real.exp_pos a, Ideal.exp_coe a⟩

/-! The words of the constants the two stretches carry. -/

theorem word_zero : Ideal.ofBits .f32 0x00000000#32 = ((0 : ℝ) : EReal) := by
  simp [Ideal.ofBits, Ideal.ieee]

theorem word_half : Ideal.ofBits .f32 0x3F000000#32 = (((1 : ℝ) / 2 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

theorem word_three : Ideal.ofBits .f32 0x40400000#32 = ((3 : ℝ) : EReal) := by
  simp [Ideal.ofBits, Ideal.ieee, -EReal.coe_mul]; norm_num

theorem word_256 : Ideal.ofBits .f32 0x43800000#32 = ((256 : ℝ) : EReal) := by
  simp [Ideal.ofBits, Ideal.ieee, -EReal.coe_mul]; norm_num

theorem word_eps : IsPos (Ideal.ofBits .f32 0x3727C5AC#32) := by
  refine ⟨10995116 * (2 : ℝ) ^ (-40 : ℤ), by positivity, ?_⟩
  simp [Ideal.ofBits, Ideal.ieee, -EReal.coe_mul]

/-! ## The projector, stage by stage -/

section Projector

variable (x0 x1 : (⟨S100000x256, .f32⟩ : BufTy).Contents (Elt Ideal))
  (x4 : (⟨S256x256, .f32⟩ : BufTy).Contents (Elt Ideal))
  (x5 x6 x7 : (⟨S256, .f32⟩ : BufTy).Contents (Elt Ideal))
  (x8 : (⟨S256x256, .f32⟩ : BufTy).Contents (Elt Ideal))
  (x9 : (⟨S256, .f32⟩ : BufTy).Contents (Elt Ideal))

/-- The blend of the two scalar tables, half of each. -/
theorem real_v4 (h0 : ∀ i, IsReal (x0 i)) (h1 : ∀ i, IsReal (x1 i)) :
    ∀ i, IsReal (val_main_v4 (F := Ideal) x0 x1 i) := fun i => by
  rw [val_main_v4_apply, val_main_v1_apply, val_main_v3_apply, val_main_v0_apply, val_main_v2_apply,
    val_main_cst_apply, val_main_cst_0_apply]
  simp only [Ideal.addf_def, Ideal.mulf_def, Ideal.ofBits_def, word_half]
  exact ((h0 i).mul (IsReal.coe _)).add ((h1 i).mul (IsReal.coe _))

/-- The first linear map with its bias. -/
theorem real_v8 (h0 : ∀ i, IsReal (x0 i)) (h1 : ∀ i, IsReal (x1 i)) (h4 : ∀ i, IsReal (x4 i))
    (h5 : ∀ i, IsReal (x5 i)) : ∀ i, IsReal (val_main_v8 (F := Ideal) x0 x1 x4 x5 i) := fun i => by
  rw [val_main_v8_apply, val_main_v5_apply, val_main_v7_apply, val_main_v6_apply]
  simp only [Ideal.addf_def]
  exact IsReal.add (IsReal.sum _ _ fun k _ => IsReal.mul (real_v4 x0 x1 h0 h1 _) (h4 _)) (h5 _)

/-- The row mean. -/
theorem real_v12 (h0 : ∀ i, IsReal (x0 i)) (h1 : ∀ i, IsReal (x1 i)) (h4 : ∀ i, IsReal (x4 i))
    (h5 : ∀ i, IsReal (x5 i)) : ∀ i, IsReal (val_main_v12 (F := Ideal) x0 x1 x4 x5 i) := fun i => by
  rw [val_main_v12_apply, val_main_v10_apply, val_main_v9_apply, val_main_v11_apply, val_main_cst_1_apply,
    val_main_cst_2_apply]
  simp only [Ideal.hostDivf_def, Ideal.ofBits_def, word_zero, word_256]
  exact IsReal.div_coe (IsReal.add (IsReal.coe _) (IsReal.sum _ _ fun k _ => real_v8 x0 x1 x4 x5 h0 h1 h4 h5 _))
    (by norm_num)

/-- The centred row, as the variance reads it. -/
theorem real_v14 (h0 : ∀ i, IsReal (x0 i)) (h1 : ∀ i, IsReal (x1 i)) (h4 : ∀ i, IsReal (x4 i))
    (h5 : ∀ i, IsReal (x5 i)) : ∀ i, IsReal (val_main_v14 (F := Ideal) x0 x1 x4 x5 i) := fun i => by
  rw [val_main_v14_apply, val_main_v13_apply]
  simp only [Ideal.subf_def]
  exact (real_v8 x0 x1 x4 x5 h0 h1 h4 h5 _).sub (real_v12 x0 x1 x4 x5 h0 h1 h4 h5 _)

/-- The variance plus the epsilon: a mean of squares is not negative and the epsilon is positive. -/
theorem pos_v23 (h0 : ∀ i, IsReal (x0 i)) (h1 : ∀ i, IsReal (x1 i)) (h4 : ∀ i, IsReal (x4 i))
    (h5 : ∀ i, IsReal (x5 i)) : ∀ i, IsPos (val_main_v23 (F := Ideal) x0 x1 x4 x5 i) := fun i => by
  rw [val_main_v23_apply, val_main_v19_apply, val_main_v17_apply, val_main_v16_apply, val_main_v18_apply,
    val_main_v22_apply, val_main_cst_3_apply, val_main_cst_4_apply, val_main_cst_5_apply]
  simp only [Ideal.addf_def, Ideal.hostDivf_def, Ideal.ofBits_def, word_zero, word_256]
  refine IsNonneg.add_pos (IsNonneg.div_coe (IsNonneg.add ⟨0, le_refl 0, rfl⟩ (IsNonneg.sum _ _ fun k _ => ?_))
    (by norm_num)) word_eps
  rw [val_main_v15_apply]
  simp only [Ideal.mulf_def]
  exact (real_v14 x0 x1 x4 x5 h0 h1 h4 h5 _).mul_self

/-- The normalised row, scaled and shifted. -/
theorem real_v32 (h0 : ∀ i, IsReal (x0 i)) (h1 : ∀ i, IsReal (x1 i)) (h4 : ∀ i, IsReal (x4 i))
    (h5 : ∀ i, IsReal (x5 i)) (h6 : ∀ i, IsReal (x6 i)) (h7 : ∀ i, IsReal (x7 i)) :
    ∀ i, IsReal (val_main_v32 (F := Ideal) x0 x1 x4 x5 x6 x7 i) := fun i => by
  rw [val_main_v32_apply, val_main_v29_apply, val_main_v26_apply, val_main_v21_apply, val_main_v20_apply,
    val_main_v25_apply, val_main_v24_apply, val_main_v28_apply, val_main_v27_apply, val_main_v31_apply,
    val_main_v30_apply]
  simp only [Ideal.addf_def, Ideal.mulf_def, Ideal.subf_def, Ideal.hostUnary_rsqrt_def]
  exact ((((real_v8 x0 x1 x4 x5 h0 h1 h4 h5 _).sub (real_v12 x0 x1 x4 x5 h0 h1 h4 h5 _)).mul
    (pos_v23 x0 x1 x4 x5 h0 h1 h4 h5 _).rsqrt).mul (h6 _)).add (h7 _)

/-- The gated unit: the row times one over one plus the exponential of its negative. -/
theorem real_v33 (h0 : ∀ i, IsReal (x0 i)) (h1 : ∀ i, IsReal (x1 i)) (h4 : ∀ i, IsReal (x4 i))
    (h5 : ∀ i, IsReal (x5 i)) (h6 : ∀ i, IsReal (x6 i)) (h7 : ∀ i, IsReal (x7 i)) :
    ∀ i, IsReal (val_main_v33 (F := Ideal) x0 x1 x4 x5 x6 x7 i) := fun i => by
  have hr := real_v32 x0 x1 x4 x5 x6 x7 h0 h1 h4 h5 h6 h7 i
  rw [val_main_v33_apply, val_main_call0_v5_apply, val_main_call0_v4_apply, val_main_call0_v3_apply,
    val_main_call0_v2_apply, val_main_call0_v1_apply, val_main_call0_v0_apply, val_main_call0_cst_apply,
    val_main_call0_cst_0_apply]
  simp only [Ideal.addf_def, Ideal.mulf_def, Ideal.hostDivf_def, Ideal.hostUnary_exp_def, Ideal.hostNegf_def,
    Ideal.negf_def, Ideal.ofBits_def, word_one]
  exact hr.mul (IsReal.div_pos (IsReal.coe 1)
    (IsNonneg.add_pos (show IsNonneg ((1 : ℝ) : EReal) from ⟨1, zero_le_one, rfl⟩) hr.neg.exp))

/-- The projected table. -/
theorem real_v37 (h0 : ∀ i, IsReal (x0 i)) (h1 : ∀ i, IsReal (x1 i)) (h4 : ∀ i, IsReal (x4 i))
    (h5 : ∀ i, IsReal (x5 i)) (h6 : ∀ i, IsReal (x6 i)) (h7 : ∀ i, IsReal (x7 i)) (h8 : ∀ i, IsReal (x8 i))
    (h9 : ∀ i, IsReal (x9 i)) : ∀ i, IsReal (val_main_v37 (F := Ideal) x0 x1 x4 x5 x6 x7 x8 x9 i) := fun i => by
  rw [val_main_v37_apply, val_main_v34_apply, val_main_v36_apply, val_main_v35_apply]
  simp only [Ideal.addf_def]
  exact IsReal.add (IsReal.sum _ _ fun k _ => IsReal.mul (real_v33 x0 x1 x4 x5 x6 x7 h0 h1 h4 h5 h6 h7 _) (h8 _))
    (h9 _)

end Projector

/-! ## The vector magnitude -/

section Magnitude

variable (x2 x3 : (⟨S100000x3x256, .f32⟩ : BufTy).Contents (Elt Ideal))

/-- The blend of the two vector tables. -/
theorem real_v144 (h2 : ∀ i, IsReal (x2 i)) (h3 : ∀ i, IsReal (x3 i)) :
    ∀ i, IsReal (val_main_v144 (F := Ideal) x2 x3 i) := fun i => by
  rw [val_main_v144_apply, val_main_v141_apply, val_main_v143_apply, val_main_v140_apply, val_main_v142_apply,
    val_main_cst_43_apply, val_main_cst_44_apply]
  simp only [Ideal.addf_def, Ideal.mulf_def, Ideal.ofBits_def, word_half]
  exact ((h2 i).mul (IsReal.coe _)).add ((h3 i).mul (IsReal.coe _))

/-- The length of each of the three components: the square root of a sum of squares. -/
theorem nonneg_v145 (h2 : ∀ i, IsReal (x2 i)) (h3 : ∀ i, IsReal (x3 i)) :
    ∀ i, IsNonneg (val_main_v145 (F := Ideal) x2 x3 i) := fun i => by
  rw [val_main_v145_apply, val_main_call9_v1_apply, val_main_call9_cst_apply]
  simp only [Ideal.hostUnary_sqrt_def, Ideal.ofBits_def, word_zero]
  refine IsNonneg.sqrt (IsNonneg.add ⟨0, le_refl 0, rfl⟩ (IsNonneg.sum _ _ fun k _ => ?_))
  rw [val_main_call9_v0_apply]
  simp only [Ideal.mulf_def]
  exact (real_v144 x2 x3 h2 h3 _).mul_self

/-- The mean of the three lengths. -/
theorem real_v148 (h2 : ∀ i, IsReal (x2 i)) (h3 : ∀ i, IsReal (x3 i)) :
    ∀ i, IsReal (val_main_v148 (F := Ideal) x2 x3 i) := fun i => by
  rw [val_main_v148_apply, val_main_v146_apply, val_main_v147_apply, val_main_cst_45_apply, val_main_cst_46_apply]
  simp only [Ideal.hostDivf_def, Ideal.ofBits_def, word_zero, word_three]
  exact IsReal.div_coe (IsReal.add (IsReal.coe _) (IsReal.sum _ _ fun k _ => (nonneg_v145 x2 x3 h2 h3 _).isReal))
    (by norm_num)

end Magnitude

/-! ## The two statements -/

/-- Over real-valued inputs every entry of the projected table is a real. -/
theorem proj_real (x0 x1 : (⟨S100000x256, .f32⟩ : BufTy).Contents (Elt Ideal))
    (x4 : (⟨S256x256, .f32⟩ : BufTy).Contents (Elt Ideal))
    (x5 x6 x7 : (⟨S256, .f32⟩ : BufTy).Contents (Elt Ideal))
    (x8 : (⟨S256x256, .f32⟩ : BufTy).Contents (Elt Ideal))
    (x9 : (⟨S256, .f32⟩ : BufTy).Contents (Elt Ideal))
    (h0 : ∀ i, ∃ r : ℝ, x0 i = (r : EReal)) (h1 : ∀ i, ∃ r : ℝ, x1 i = (r : EReal))
    (h4 : ∀ i, ∃ r : ℝ, x4 i = (r : EReal)) (h5 : ∀ i, ∃ r : ℝ, x5 i = (r : EReal))
    (h6 : ∀ i, ∃ r : ℝ, x6 i = (r : EReal)) (h7 : ∀ i, ∃ r : ℝ, x7 i = (r : EReal))
    (h8 : ∀ i, ∃ r : ℝ, x8 i = (r : EReal)) (h9 : ∀ i, ∃ r : ℝ, x9 i = (r : EReal)) :
    ∀ (i : Fin 100000) (j : Fin 256), ∃ r : ℝ,
      Cert.ReferenceIdeal.Read.val_main_v37 (F := Ideal) x0 x1 x4 x5 x6 x7 x8 x9 (ix2 i j) = (r : EReal) :=
  fun i j => real_v37 x0 x1 x4 x5 x6 x7 x8 x9 h0 h1 h4 h5 h6 h7 h8 h9 (ix2 i j)

/-- Over real-valued inputs every atom's vector magnitude is a real. -/
theorem vmag_real (x2 x3 : (⟨S100000x3x256, .f32⟩ : BufTy).Contents (Elt Ideal))
    (h2 : ∀ i, ∃ r : ℝ, x2 i = (r : EReal)) (h3 : ∀ i, ∃ r : ℝ, x3 i = (r : EReal)) :
    ∀ i : Fin 100000, ∃ r : ℝ, Cert.ReferenceIdeal.Read.val_main_v148 (F := Ideal) x2 x3 (ix1 i) = (r : EReal) :=
  fun i => real_v148 x2 x3 h2 h3 (ix1 i)

end Cert.RefReal
-- ==== Proof.KI.RefIntra.lean ====
/-
  The reference's first spread is the two-pass spread of the projected feature table.

  The reference counts each fragment's atoms by adding a one per atom at the atom's label, sums the fragment's rows the
  same way, divides to get the fragment's mean row, fetches for every atom the mean row at its label, sums the squared
  differences along the channels, adds those sums up per fragment again, divides by the count, and averages the square
  roots over the fragments with at least two atoms. Each accumulation at a label is the specification's `mom`: the
  updates that land on fragment `f` are exactly those of the atoms whose label is the word of `f`. The one place where
  the two readings differ is the fetched mean row of an atom whose label names no fragment; such an atom's squared
  distance is multiplied by a zero weight, and a zero weight times anything is zero on the extended reals.
-/
import proofs.«412127_j15607911153865_3_alg».proof.Proof.RefReadP
import proofs.«412127_j15607911153865_3_alg».proof.Proof.KI.Spec
import proofs.«412127_j15607911153865_3_alg».proof.Proof.LibScatterRead
import proofs.«412127_j15607911153865_3_alg».proof.Proof.LibScatterVec
import Idealize.ShloMosaic.Lib.IdealHost

noncomputable section

open scoped BigOperators

namespace Cert.RefIntra

open Cert.ReferenceIdeal Cert.ReferenceIdeal.Gen Cert.ReferenceIdeal.Read Idealize.ShloMosaic Idealize.ShloMosaic.ValueIdx

/-! ## Words and fragment numbers -/

/-- A 32-bit word read signed is a fragment number exactly when it is that number's word. -/
theorem toInt_eq_frag (b : BitVec 32) (f : Fin 2048) : b.toInt = (f.val : Int) ↔ b = BitVec.ofNat 32 f.val := by
  have hb := b.isLt
  have hf := f.isLt
  rw [BitVec.toInt_eq_toNat_cond, ← BitVec.toNat_inj, BitVec.toNat_ofNat]
  constructor
  · intro h; split at h <;> omega
  · intro h; split <;> omega

/-- A fragment's word is not negative. -/
theorem frag_word_nonneg (f : Fin 2048) : IntOp.cmpi .slt (BitVec.ofNat 32 f.val) 0#32 = 0#1 := by
  have h := (toInt_eq_frag (BitVec.ofNat 32 f.val) f).mpr rfl
  show BitVec.ofBool ((BitVec.ofNat 32 f.val).slt 0#32) = 0#1
  unfold BitVec.slt
  have hn : ¬ ((f.val : Int) < 0) := by omega
  rw [h, show (0#32 : BitVec 32).toInt = 0 from rfl, decide_eq_false hn]
  rfl

/-- Clamping a fragment's word into the table of fragments gives the fragment's number back. -/
theorem frag_word_clamp (f : Fin 2048) : min (BitVec.ofNat 32 f.val).toInt.toNat (2048 - 1) = f.val := by
  have h := (toInt_eq_frag (BitVec.ofNat 32 f.val) f).mpr rfl
  rw [h]
  have := f.isLt
  omega

/-- An `i1` read as a float is one when set and zero when clear. -/
theorem uitofp_bit (b : BitVec 1) : FloatOps.uitofp (F := Ideal) .f32 b = if b = 1#1 then (1 : EReal) else 0 := by
  by_cases h : b = 1#1
  · subst h; rw [if_pos rfl]; show (((1#1 : BitVec 1).toNat : ℝ) : EReal) = 1; simp
  · have h0 := eq_zero_of_ne_one h
    subst h0; rw [if_neg (by decide)]; show (((0#1 : BitVec 1).toNat : ℝ) : EReal) = 0; simp

/-- A sum over the indices of a vector is the sum over its positions. -/
theorem sum_idx1 {n : Nat} (g : (⟨1, ![n]⟩ : Shape).Idx → EReal) : ∑ j, g j = ∑ f : Fin n, g (ix1 f) :=
  Fintype.sum_equiv Cert.SparseMM.idxEquiv1 _ _ (fun j => congrArg g (eq_ix1 j))

/-! ## An accumulation at the labels is a moment -/

/-- The updates whose start index, read signed, is fragment `f` are those of the atoms labelled with the word of `f`:
    their sum is the fragment's moment. -/
theorem sum_landing (ids : Fin 100000 → BitVec 32) (idx : IVec ⟨2, ![100000, 1]⟩ 32)
    (hidx : ∀ k : Fin 100000, idx (ix2 k 0) = ids k) (a : Fin 100000 → EReal) (f : Fin 2048) :
    ∑ k ∈ Finset.univ.filter (fun k : Fin 100000 => (idx (ix2 k 0)).toInt = (f.val : Int)), a k
      = Cert.Spec.mom ids a f := by
  unfold Cert.Spec.mom Cert.Spec.hot
  rw [Finset.sum_filter]
  refine Finset.sum_congr rfl fun k _ => ?_
  by_cases h : ids k = BitVec.ofNat 32 f.val
  · rw [if_pos (show (idx (ix2 k 0)).toInt = (f.val : Int) by rw [hidx k]; exact (toInt_eq_frag _ _).mpr h), if_pos h,
      one_mul]
  · rw [if_neg (show ¬ (idx (ix2 k 0)).toInt = (f.val : Int) by
        rw [hidx k]; exact fun h' => h ((toInt_eq_frag _ _).mp h')), if_neg h, zero_mul]

/-- The accumulation of a vector of updates at the labels, read at fragment `f`: the start plus the moment. -/
theorem scatter_vec_at (ids : Fin 100000 → BitVec 32) (z : FVec Ideal ⟨1, ![2048]⟩ .f32) (idx : IVec ⟨2, ![100000, 1]⟩ 32)
    (u : FVec Ideal ⟨1, ![100000]⟩ .f32) (hidx : ∀ k : Fin 100000, idx (ix2 k 0) = ids k) (f : Fin 2048) :
    Host.scatterAdd (F := Ideal) scatter_S2048_S100000x1_S100000_n_0_0_1 z idx u (ix1 f)
      = z (ix1 f) + Cert.Spec.mom ids (fun i => u (ix1 i)) f := by
  have e : scatter_S2048_S100000x1_S100000_n_0_0_1
      = Cert.SparseVec.vecDims 2048 100000 Facts₀.scatter_S2048_S100000x1_S100000_n_0_0_1_wf := rfl
  rw [e, Cert.SparseVec.scatterAdd_vec_apply, sum_landing ids idx hidx]

/-- The accumulation of the rows of a table at the labels, read at fragment `f` and channel `j`. -/
theorem scatter_rows_at (ids : Fin 100000 → BitVec 32) (z : FVec Ideal ⟨2, ![2048, 256]⟩ .f32)
    (idx : IVec ⟨2, ![100000, 1]⟩ 32) (u : FVec Ideal ⟨2, ![100000, 256]⟩ .f32)
    (hidx : ∀ k : Fin 100000, idx (ix2 k 0) = ids k) (f : Fin 2048) (j : Fin 256) :
    Host.scatterAdd (F := Ideal) scatter_S2048x256_S100000x1_S100000x256_1_0_0_1 z idx u (ix2 f j)
      = z (ix2 f j) + Cert.Spec.mom ids (fun i => u (ix2 i j)) f := by
  have e : scatter_S2048x256_S100000x1_S100000x256_1_0_0_1
      = Cert.SparseMM.rowDims 2048 256 100000 Facts₀.scatter_S2048x256_S100000x1_S100000x256_1_0_0_1_wf := rfl
  rw [e, Cert.SparseMM.scatterAdd_rows_apply, sum_landing ids idx hidx]

/-- The row fetched for an atom whose start index is the word of fragment `f` is row `f`. -/
theorem gather_at_frag {α : Type} (x : (⟨2, ![2048, 256]⟩ : Shape).Idx → α) (idx : IVec ⟨2, ![100000, 1]⟩ 32) (k : Fin 100000)
    (f : Fin 2048) (h : idx (ix2 k 0) = BitVec.ofNat 32 f.val) (j : Fin 256) :
    Host.gather gather_S2048x256_S100000x1_S100000x256_1_0_n_n_0_1_1256 x idx (ix2 k j) = x (ix2 f j) := by
  have e : gather_S2048x256_S100000x1_S100000x256_1_0_n_n_0_1_1256
      = Cert.SparseMM.rowGatherDims 2048 256 100000 Facts₀.gather_S2048x256_S100000x1_S100000x256_1_0_n_n_0_1_1256_wf := rfl
  rw [e, Cert.SparseMM.gather_rows_apply (by decide)]
  refine congrArg x (congrArg (fun r : Fin 2048 => ix2 r j) (Fin.ext ?_))
  show min (idx (ix2 k 0)).toInt.toNat (2048 - 1) = f.val
  rw [h]
  exact frag_word_clamp f

/-! ## The stages -/

/-- The labels by atom, and a table by atom and channel. -/
abbrev labels (x15 : (⟨S100000, .i32⟩ : BufTy).Contents (Elt Ideal)) : Fin 100000 → BitVec 32 := fun i => x15 (ix1 i)
abbrev table (P : (⟨S100000x256, .f32⟩ : BufTy).Contents (Elt Ideal)) : Fin 100000 → Fin 256 → EReal :=
  fun i j => P (ix2 i j)

section Stages

variable (x0 x1 : (⟨S100000x256, .f32⟩ : BufTy).Contents (Elt Ideal)) (x4 : (⟨S256x256, .f32⟩ : BufTy).Contents (Elt Ideal))
  (x5 x6 x7 : (⟨S256, .f32⟩ : BufTy).Contents (Elt Ideal)) (x8 : (⟨S256x256, .f32⟩ : BufTy).Contents (Elt Ideal))
  (x9 : (⟨S256, .f32⟩ : BufTy).Contents (Elt Ideal)) (x15 : (⟨S100000, .i32⟩ : BufTy).Contents (Elt Ideal))

/-- The three columns of start indices are the labels. -/
theorem col52 (k : Fin 100000) : val_main_v52 (F := Ideal) x15 (ix2 k 0) = labels x15 k := by
  rw [val_main_v52_apply]
  exact congrArg x15 (funext fun a => Fin.ext (by match a with | ⟨0, _⟩ => rfl))
theorem col57 (k : Fin 100000) : val_main_v57 (F := Ideal) x15 (ix2 k 0) = labels x15 k := by
  rw [val_main_v57_apply]
  exact congrArg x15 (funext fun a => Fin.ext (by match a with | ⟨0, _⟩ => rfl))
theorem col73 (k : Fin 100000) : val_main_v73 (F := Ideal) x15 (ix2 k 0) = labels x15 k := by
  rw [val_main_v73_apply]
  exact congrArg x15 (funext fun a => Fin.ext (by match a with | ⟨0, _⟩ => rfl))

/-- The count of a fragment: a one for every atom that lands on it. -/
theorem cnt_eq (f : Fin 2048) : val_main_v53 (F := Ideal) x15 (ix1 f) = Cert.Spec.cnt (labels x15) f := by
  unfold val_main_v53
  rw [scatter_vec_at (labels x15) _ _ _ (col52 x15) f, val_main_v51_apply, val_main_cst_11_apply, Ideal.ofBits_def,
    Ideal.ofBits_zero_f32, zero_add]
  unfold Cert.Spec.cnt
  refine congrArg (fun a => Cert.Spec.mom (labels x15) a f) (funext fun i => ?_)
  show val_main_v50 (F := Ideal) (ix1 i) = 1
  rw [val_main_v50_apply, val_main_cst_10_apply, Ideal.ofBits_def, Ideal.ofBits_one_f32]

/-- The count floored at one. -/
theorem safe_eq (f : Fin 2048) : val_main_v55 (F := Ideal) x15 (ix1 f) = Cert.Spec.safe (labels x15) f := by
  rw [val_main_v55_apply, cnt_eq, val_main_v54_apply, val_main_cst_12_apply]
  rfl

/-- The sum of a fragment's rows. -/
theorem seg_eq (f : Fin 2048) (j : Fin 256) :
    val_main_v58 (F := Ideal) x0 x1 x4 x5 x6 x7 x8 x9 x15 (ix2 f j)
      = Cert.Spec.segsum (labels x15) (table (val_main_v37 (F := Ideal) x0 x1 x4 x5 x6 x7 x8 x9)) f j := by
  unfold val_main_v58
  generalize val_main_v37 (F := Ideal) x0 x1 x4 x5 x6 x7 x8 x9 = P
  rw [scatter_rows_at (labels x15) _ _ _ (col57 x15) f j, val_main_v56_apply, val_main_cst_13_apply, Ideal.ofBits_def,
    Ideal.ofBits_zero_f32, zero_add]
  rfl

/-- The fragment's mean row. -/
theorem mean_eq (f : Fin 2048) (j : Fin 256) :
    val_main_v61 (F := Ideal) x0 x1 x4 x5 x6 x7 x8 x9 x15 (ix2 f j)
      = Cert.Spec.mean (labels x15) (table (val_main_v37 (F := Ideal) x0 x1 x4 x5 x6 x7 x8 x9)) f j := by
  have e60 : idx_main_v59 (idx_main_v60 (ix2 f j)) = ix1 f :=
    funext fun a => Fin.ext (by match a with | ⟨0, _⟩ => rfl)
  rw [val_main_v61_apply, val_main_v60_apply, val_main_v59_apply, e60, seg_eq, safe_eq]
  rfl

/-- The label of an atom of fragment `f` is not negative, so the wrapped label is the label itself. -/
theorem wrapped_label (k : Fin 100000) (f : Fin 2048) (h : labels x15 k = BitVec.ofNat 32 f.val) :
    val_main_v67 (F := Ideal) x15 (ix2 k 0) = BitVec.ofNat 32 f.val := by
  have ei : idx_main_v67 (ix2 k (0 : Fin 1)) = ix1 k := funext fun a => Fin.ext (by match a with | ⟨0, _⟩ => rfl)
  have h' : x15 (ix1 k) = BitVec.ofNat 32 f.val := h
  rw [val_main_v67_apply, ei, val_main_v66_apply, val_main_v63_apply, val_main_v62_apply, val_main_c_apply, h',
    frag_word_nonneg, select_zero]

/-- The mean row fetched for an atom of fragment `f` is the mean row of `f`. -/
theorem fetched_eq (k : Fin 100000) (f : Fin 2048) (h : labels x15 k = BitVec.ofNat 32 f.val) (j : Fin 256) :
    val_main_v68 (F := Ideal) x0 x1 x4 x5 x6 x7 x8 x9 x15 (ix2 k j)
      = Cert.Spec.mean (labels x15) (table (val_main_v37 (F := Ideal) x0 x1 x4 x5 x6 x7 x8 x9)) f j := by
  unfold val_main_v68
  rw [gather_at_frag _ _ k f (wrapped_label x15 k f h) j, mean_eq]

/-- An atom's squared distance to the row fetched for it. -/
theorem sqdist_eq (k : Fin 100000) :
    val_main_v71 (F := Ideal) x0 x1 x4 x5 x6 x7 x8 x9 x15 (ix1 k)
      = ∑ j : Fin 256,
          (val_main_v37 (F := Ideal) x0 x1 x4 x5 x6 x7 x8 x9 (ix2 k j)
              - val_main_v68 (F := Ideal) x0 x1 x4 x5 x6 x7 x8 x9 x15 (ix2 k j))
            * (val_main_v37 (F := Ideal) x0 x1 x4 x5 x6 x7 x8 x9 (ix2 k j)
              - val_main_v68 (F := Ideal) x0 x1 x4 x5 x6 x7 x8 x9 x15 (ix2 k j)) := by
  rw [val_main_v71_apply, val_main_cst_15_apply, Ideal.ofBits_def, Ideal.ofBits_zero_f32, zero_add]
  refine Finset.sum_congr rfl fun j _ => ?_
  have e : idx_main_v71 (ix1 k) j = ix2 k j :=
    funext fun a => Fin.ext (by match a with | ⟨0, _⟩ => rfl | ⟨1, _⟩ => rfl)
  rw [e, val_main_v70_apply, val_main_v69_apply]
  rfl

/-- The sum over a fragment's atoms of their squared distances to the fragment's mean row: an atom of another
    fragment, or of none, carries the weight zero, whatever row was fetched for it. -/
theorem momdist_eq (f : Fin 2048) :
    val_main_v74 (F := Ideal) x0 x1 x4 x5 x6 x7 x8 x9 x15 (ix1 f)
      = Cert.Spec.mom (labels x15) (fun i => ∑ j : Fin 256,
          (table (val_main_v37 (F := Ideal) x0 x1 x4 x5 x6 x7 x8 x9) i j
              - Cert.Spec.mean (labels x15) (table (val_main_v37 (F := Ideal) x0 x1 x4 x5 x6 x7 x8 x9)) f j)
            * (table (val_main_v37 (F := Ideal) x0 x1 x4 x5 x6 x7 x8 x9) i j
              - Cert.Spec.mean (labels x15) (table (val_main_v37 (F := Ideal) x0 x1 x4 x5 x6 x7 x8 x9)) f j)) f := by
  unfold val_main_v74
  rw [scatter_vec_at (labels x15) _ _ _ (col73 x15) f, val_main_v72_apply, val_main_cst_16_apply, Ideal.ofBits_def,
    Ideal.ofBits_zero_f32, zero_add]
  unfold Cert.Spec.mom
  beta_reduce
  refine Finset.sum_congr rfl fun i _ => ?_
  by_cases h : labels x15 i = BitVec.ofNat 32 f.val
  · refine congrArg (Cert.Spec.hot (labels x15) i f * ·) ?_
    rw [sqdist_eq]
    refine Finset.sum_congr rfl fun j _ => ?_
    rw [fetched_eq x0 x1 x4 x5 x6 x7 x8 x9 x15 i f h j]
  · have h0 : Cert.Spec.hot (labels x15) i f = 0 := if_neg h
    rw [h0, zero_mul, zero_mul]

/-- The fragment's two-pass variance. -/
theorem var_eq (f : Fin 2048) :
    val_main_v75 (F := Ideal) x0 x1 x4 x5 x6 x7 x8 x9 x15 (ix1 f)
      = Cert.Spec.var2 (labels x15) (table (val_main_v37 (F := Ideal) x0 x1 x4 x5 x6 x7 x8 x9)) f := by
  rw [val_main_v75_apply, momdist_eq, safe_eq]
  rfl

/-- The test for at least two atoms. -/
theorem valid_eq (f : Fin 2048) :
    val_main_v77 (F := Ideal) x15 (ix1 f) = Ideal.cmp .oge (Cert.Spec.cnt (labels x15) f) Cert.Spec.c2 := by
  rw [val_main_v77_apply, cnt_eq, val_main_v76_apply, val_main_cst_17_apply]
  rfl

/-- The guarded square root of a fragment. -/
theorem term_eq (f : Fin 2048) :
    val_main_v81 (F := Ideal) x0 x1 x4 x5 x6 x7 x8 x9 x15 (ix1 f)
      = if Cert.Spec.valid (labels x15) f then
          Ideal.sqrt (Cert.Spec.var2 (labels x15) (table (val_main_v37 (F := Ideal) x0 x1 x4 x5 x6 x7 x8 x9)) f
            + Cert.Spec.cEps8)
        else Cert.Spec.c0 := by
  rw [val_main_v81_apply, valid_eq, val_main_v80_apply, val_main_v79_apply, var_eq, val_main_v78_apply,
    val_main_cst_18_apply, val_main_call1_v1_apply, val_main_call1_v0_apply, val_main_cst_19_apply]
  by_cases hv : Cert.Spec.valid (labels x15) f
  · rw [if_pos hv, show Ideal.cmp .oge (Cert.Spec.cnt (labels x15) f) Cert.Spec.c2 = 1#1 from hv, select_one,
      Ideal.hostUnary_sqrt_def, Ideal.addf_def, Ideal.ofBits_def]
  · rw [if_neg hv, eq_zero_of_ne_one (show ¬ Ideal.cmp .oge (Cert.Spec.cnt (labels x15) f) Cert.Spec.c2 = 1#1 from hv),
      select_zero, Ideal.ofBits_def]

/-- The number of fragments with at least two atoms. -/
theorem nvalid_eq : val_main_v84 (F := Ideal) x15 ix0 = Cert.Spec.nvalid (labels x15) := by
  rw [val_main_v84_apply, val_main_cst_21_apply, Ideal.ofBits_def, Ideal.ofBits_zero_f32, zero_add, sum_idx1]
  unfold Cert.Spec.nvalid
  refine Finset.sum_congr rfl fun f _ => ?_
  rw [val_main_v83_apply, valid_eq, uitofp_bit]
  by_cases hv : Cert.Spec.valid (labels x15) f
  · rw [if_pos hv, if_pos (show Ideal.cmp .oge (Cert.Spec.cnt (labels x15) f) Cert.Spec.c2 = 1#1 from hv)]
  · rw [if_neg hv, if_neg (show ¬ Ideal.cmp .oge (Cert.Spec.cnt (labels x15) f) Cert.Spec.c2 = 1#1 from hv)]

/-- The sum of the guarded square roots over the fragments. -/
theorem total_eq :
    val_main_v82 (F := Ideal) x0 x1 x4 x5 x6 x7 x8 x9 x15 ix0
      = ∑ f : Fin 2048, if Cert.Spec.valid (labels x15) f then
          Ideal.sqrt (Cert.Spec.var2 (labels x15) (table (val_main_v37 (F := Ideal) x0 x1 x4 x5 x6 x7 x8 x9)) f
            + Cert.Spec.cEps8)
        else Cert.Spec.c0 := by
  rw [val_main_v82_apply, val_main_cst_20_apply, Ideal.ofBits_def, Ideal.ofBits_zero_f32, zero_add, sum_idx1]
  exact Finset.sum_congr rfl fun f _ => term_eq x0 x1 x4 x5 x6 x7 x8 x9 x15 f

/-- THE REFERENCE'S FIRST SPREAD is the two-pass spread of the projected table under the labels. -/
theorem ref_intra :
    val_main_v88 (F := Ideal) x0 x1 x4 x5 x6 x7 x8 x9 x15 ix0
      = Cert.Spec.spread (fun i => x15 (ix1 i))
          (fun i j => val_main_v37 (F := Ideal) x0 x1 x4 x5 x6 x7 x8 x9 (ix2 i j)) := by
  show _ = Cert.Spec.spread (labels x15) (table (val_main_v37 (F := Ideal) x0 x1 x4 x5 x6 x7 x8 x9))
  rw [val_main_v88_apply, val_main_v85_apply, nvalid_eq, val_main_cst_22_apply, val_main_v87_apply, total_eq,
    val_main_v86_apply, nvalid_eq, val_main_cst_23_apply, val_main_call2_v0_apply, val_main_cst_24_apply]
  unfold Cert.Spec.spread Cert.Spec.avgValid
  beta_reduce
  rw [Ideal.cmpf_def, Ideal.hostDivf_def, Ideal.maximumf_def, Ideal.ofBits_def, Ideal.ofBits_def]
  by_cases hn : Ideal.cmp .ogt (Cert.Spec.nvalid (labels x15)) Cert.Spec.c0 = 1#1
  · rw [if_pos hn, hn, select_one]
  · rw [if_neg hn, eq_zero_of_ne_one hn, select_zero]

end Stages

end Cert.RefIntra

end
-- ==== Proof.KI.RefVec.lean ====
import proofs.«412127_j15607911153865_3_alg».proof.Proof.RefReadP
import proofs.«412127_j15607911153865_3_alg».proof.Proof.KI.Spec
import proofs.«412127_j15607911153865_3_alg».proof.Proof.LibScatterRead
import proofs.«412127_j15607911153865_3_alg».proof.Proof.LibScatterVec
import Idealize.ShloMosaic.Lib.IdealHost

/-!
  The reference's second spread, read against the neutral vocabulary.

  The reference computes, for the table of projected vector magnitudes (one row of 256 channels per atom), the
  per-fragment count, the per-fragment sum of rows, the mean row, the squared distance of every atom's row to the mean
  row of the atom's own fragment, the per-fragment mean of those distances, its guarded square root, and the average
  of the roots over the fragments with at least two atoms.  Every one of these is the quantity of the same name in
  the neutral vocabulary; the table itself is kept as a symbol throughout, and only at the end is one of its entries
  read as a sum over the contracted axis.

  The three accumulating scatters add, at a fragment, the contributions of the atoms whose label reads that
  fragment's number (an atom whose label names no fragment is dropped), which is the vocabulary's sum over the atoms
  of the fragment.  The gather reads, for an atom of fragment `f`, row `f` of the table of means: the label is not
  negative, so it is neither wrapped nor clamped.  For an atom of no fragment the gathered row is irrelevant: the
  last scatter drops that atom.
-/

noncomputable section

open scoped BigOperators

namespace Cert.RefVec

open Cert.ReferenceIdeal Cert.ReferenceIdeal.Gen Cert.ReferenceIdeal.Read Idealize.ShloMosaic Idealize.ShloMosaic.ValueIdx Cert.Spec

/-- The word of a fragment's number reads, signed, that number: the number is below 2048, far below the sign bit. -/
theorem toInt_word (f : Fin 2048) : (BitVec.ofNat 32 f.val).toInt = (f.val : Int) := by
  have hf := f.isLt
  rw [BitVec.toInt_eq_toNat_cond, BitVec.toNat_ofNat]
  have h1 : f.val % 2 ^ 32 = f.val := Nat.mod_eq_of_lt (by omega)
  rw [h1, if_pos (by omega)]

/-- A label reads, signed, the number of fragment `f` exactly when it is that fragment's word. -/
theorem toInt_eq_iff (w : BitVec 32) (f : Fin 2048) :
    w.toInt = (f.val : Int) ↔ w = BitVec.ofNat 32 f.val :=
  ⟨fun h => BitVec.eq_of_toInt_eq (h.trans (toInt_word f).symm), fun h => h ▸ toInt_word f⟩

/-- A sum over the atoms whose label reads `f` is the sum over the atoms of fragment `f`. -/
theorem sum_filter_eq_mom (ids : Fin 100000 → BitVec 32) (a : Fin 100000 → EReal) (f : Fin 2048) :
    ∑ k ∈ Finset.univ.filter (fun k : Fin 100000 => (ids k).toInt = (f.val : Int)), a k = mom ids a f := by
  unfold mom hot
  rw [Finset.sum_filter]
  refine Finset.sum_congr rfl fun k _ => ?_
  by_cases h : ids k = BitVec.ofNat 32 f.val
  · rw [if_pos ((toInt_eq_iff _ _).mpr h), if_pos h, one_mul]
  · rw [if_neg (fun h' => h ((toInt_eq_iff _ _).mp h')), if_neg h, zero_mul]

/-- Two sums over the atoms of a fragment agree when their terms agree on the fragment's atoms. -/
theorem mom_congr (ids : Fin 100000 → BitVec 32) (a b : Fin 100000 → EReal) (f : Fin 2048)
    (h : ∀ i, ids i = BitVec.ofNat 32 f.val → a i = b i) : mom ids a f = mom ids b f := by
  unfold mom hot
  refine Finset.sum_congr rfl fun i _ => ?_
  by_cases hi : ids i = BitVec.ofNat 32 f.val
  · rw [h i hi]
  · rw [if_neg hi, zero_mul, zero_mul]

/-- An atom of fragment `f` has a label that is not negative, so the wrap of negative labels leaves it alone, and the
    clamp into the table leaves its row number `f`. -/
theorem wrap_word (f : Fin 2048) :
    Scalar.select (IntOp.cmpi .slt (BitVec.ofNat 32 f.val) 0#32) (IntOp.addi (BitVec.ofNat 32 f.val) 2048#32)
      (BitVec.ofNat 32 f.val) = BitVec.ofNat 32 f.val := by
  have hs : (BitVec.ofNat 32 f.val).slt 0#32 = false := by
    rw [BitVec.slt, toInt_word]
    simp
  show (if IntOp.cmpi .slt (BitVec.ofNat 32 f.val) 0#32 = 1 then _ else _) = _
  rw [if_neg]
  show ¬ BitVec.ofBool ((BitVec.ofNat 32 f.val).slt 0#32) = 1#1
  rw [hs]
  decide

theorem clamp_word (f : Fin 2048) : min (BitVec.ofNat 32 f.val).toInt.toNat (2048 - 1) = f.val := by
  rw [toInt_word, Int.toNat_natCast]
  have := f.isLt
  omega

/-- The reference selects by the bit of the comparison "the count is at least two"; the vocabulary asks whether the
    fragment counts, which is that bit being set. Each side is decided in its own way, so the two are compared by
    cases and not by unfolding. -/
theorem select_valid {α : Type} (ids : Fin 100000 → BitVec 32) (f : Fin 2048) (a b : α) :
    Scalar.select (Ideal.cmp .oge (cnt ids f) c2) a b = if valid ids f then a else b := by
  unfold Scalar.select
  by_cases h : valid ids f
  · have h' : Ideal.cmp .oge (cnt ids f) c2 = 1 := h
    rw [if_pos h, if_pos h']
  · have h' : ¬ Ideal.cmp .oge (cnt ids f) c2 = 1 := h
    rw [if_neg h, if_neg h']

/-- A bit read as a number is one when it is set and zero when it is clear. -/
theorem bit_toReal (c : BitVec 1) : (((c.toNat : ℝ)) : EReal) = Scalar.select c (1 : EReal) 0 := by
  unfold Scalar.select
  rcases BitVec.eq_zero_or_eq_one c with h | h
  · rw [h, if_neg (by decide)]; simp
  · rw [h, if_pos (by decide)]; simp

/-! ## The stages of the reference -/

section Stages

variable (x2 x3 : (⟨S100000x3x256, .f32⟩ : BufTy).Contents (Elt Ideal))
  (x10 : (⟨S256x256, .f32⟩ : BufTy).Contents (Elt Ideal))
  (x15 : (⟨S100000, .i32⟩ : BufTy).Contents (Elt Ideal))

/-- The labels by atom number. -/
abbrev ids : Fin 100000 → BitVec 32 := fun i => x15 (ix1 i)

/-- The table of projected magnitudes by atom number and channel. -/
abbrev tab : Fin 100000 → Fin 256 → EReal := fun i j => val_main_v151 (F := Ideal) x2 x3 x10 (ix2 i j)

/-- The column of labels is read at the atom's number. -/
theorem idx_col (k : Fin 100000) : idx_main_v154 (ix2 k 0) = ix1 k :=
  funext fun a => match a with | ⟨0, _⟩ => rfl
theorem idx_col' (k : Fin 100000) : idx_main_v159 (ix2 k 0) = ix1 k :=
  funext fun a => match a with | ⟨0, _⟩ => rfl
theorem idx_col'' (k : Fin 100000) : idx_main_v169 (ix2 k 0) = ix1 k :=
  funext fun a => match a with | ⟨0, _⟩ => rfl
theorem idx_col''' (k : Fin 100000) : idx_main_v175 (ix2 k 0) = ix1 k :=
  funext fun a => match a with | ⟨0, _⟩ => rfl
/-- The divisor of an entry of the mean row is the fragment's. -/
theorem idx_div (f : Fin 2048) (j : Fin 256) : idx_main_v161 (idx_main_v162 (ix2 f j)) = ix1 f :=
  funext fun a => match a with | ⟨0, _⟩ => rfl
/-- The sum over the channels reads the atom's row. -/
theorem idx_row (i : Fin 100000) (k : Fin 256) : idx_main_v173 (ix1 i) k = ix2 i k :=
  funext fun a => match a with | ⟨0, _⟩ => rfl | ⟨1, _⟩ => rfl

/-- %155: the scatter of ones counts the atoms of each fragment. -/
theorem v155_eq (f : Fin 2048) : val_main_v155 (F := Ideal) x15 (ix1 f) = cnt (ids x15) f := by
  unfold val_main_v155
  refine (Cert.SparseVec.scatterAdd_vec_apply scatter_S2048_S100000x1_S100000_n_0_0_1_wf (val_main_v153 (F := Ideal))
    (val_main_v154 (F := Ideal) x15) (val_main_v152 (F := Ideal)) f).trans ?_
  rw [val_main_v153_apply, val_main_cst_48_apply, Ideal.ofBits_def, Ideal.ofBits_zero_f32, zero_add]
  simp only [val_main_v154_apply, idx_col, val_main_v152_apply, val_main_cst_47_apply, Ideal.ofBits_def,
    Ideal.ofBits_one_f32]
  exact sum_filter_eq_mom (ids x15) (fun _ => 1) f

/-- %157: the count, at least one. -/
theorem v157_eq (f : Fin 2048) : val_main_v157 (F := Ideal) x15 (ix1 f) = safe (ids x15) f := by
  rw [val_main_v157_apply, v155_eq, val_main_v156_apply, val_main_cst_49_apply]
  rfl

/-- %160: the scatter of the table's rows sums the rows of each fragment. -/
theorem v160_eq (f : Fin 2048) (j : Fin 256) :
    val_main_v160 (F := Ideal) x2 x3 x10 x15 (ix2 f j) = segsum (ids x15) (tab x2 x3 x10) f j := by
  unfold val_main_v160
  refine (Cert.SparseMM.scatterAdd_rows_apply scatter_S2048x256_S100000x1_S100000x256_1_0_0_1_wf
    (val_main_v158 (F := Ideal)) (val_main_v159 (F := Ideal) x15) (val_main_v151 (F := Ideal) x2 x3 x10) f j).trans ?_
  rw [val_main_v158_apply, val_main_cst_50_apply, Ideal.ofBits_def, Ideal.ofBits_zero_f32, zero_add]
  simp only [val_main_v159_apply, idx_col']
  exact sum_filter_eq_mom (ids x15) (fun i => tab x2 x3 x10 i j) f

/-- %163: the mean row. -/
theorem v163_eq (f : Fin 2048) (j : Fin 256) :
    val_main_v163 (F := Ideal) x2 x3 x10 x15 (ix2 f j) = mean (ids x15) (tab x2 x3 x10) f j := by
  rw [val_main_v163_apply, v160_eq, val_main_v162_apply, val_main_v161_apply, idx_div, v157_eq]
  rfl

/-- %170: an atom of fragment `f` gathers the mean row of `f`. -/
theorem v170_eq (i : Fin 100000) (f : Fin 2048) (j : Fin 256) (h : x15 (ix1 i) = BitVec.ofNat 32 f.val) :
    val_main_v170 (F := Ideal) x2 x3 x10 x15 (ix2 i j) = mean (ids x15) (tab x2 x3 x10) f j := by
  unfold val_main_v170
  refine (Cert.SparseMM.gather_rows_apply (by decide) gather_S2048x256_S100000x1_S100000x256_1_0_n_n_0_1_1256_wf
    (val_main_v163 (F := Ideal) x2 x3 x10 x15) (val_main_v169 (F := Ideal) x15) i j).trans ?_
  have hw : val_main_v169 (F := Ideal) x15 (ix2 i 0) = BitVec.ofNat 32 f.val := by
    rw [val_main_v169_apply, idx_col'', val_main_v168_apply, val_main_v165_apply, val_main_v167_apply,
      val_main_v164_apply, val_main_v166_apply, val_main_c_51_apply, val_main_c_52_apply, h]
    exact wrap_word f
  refine (congrArg (fun r : Fin 2048 => val_main_v163 (F := Ideal) x2 x3 x10 x15 (ix2 r j))
    (Fin.ext ?_ : _ = f)).trans (v163_eq x2 x3 x10 x15 f j)
  show min (val_main_v169 (F := Ideal) x15 (ix2 i 0)).toInt.toNat (2048 - 1) = f.val
  rw [hw]
  exact clamp_word f

/-- %173: the squared distance of an atom's row to the row it gathered. -/
theorem v173_eq (i : Fin 100000) :
    val_main_v173 (F := Ideal) x2 x3 x10 x15 (ix1 i)
      = ∑ j : Fin 256, (tab x2 x3 x10 i j - val_main_v170 (F := Ideal) x2 x3 x10 x15 (ix2 i j))
          * (tab x2 x3 x10 i j - val_main_v170 (F := Ideal) x2 x3 x10 x15 (ix2 i j)) := by
  rw [val_main_v173_apply, val_main_cst_53_apply, Ideal.ofBits_def, Ideal.ofBits_zero_f32, zero_add]
  simp only [idx_row, val_main_v172_apply, val_main_v171_apply, Ideal.mulf_def, Ideal.subf_def]

/-- %176: the scatter of the squared distances sums, over the atoms of each fragment, the squared distance to the
    fragment's own mean row. -/
theorem v176_eq (f : Fin 2048) :
    val_main_v176 (F := Ideal) x2 x3 x10 x15 (ix1 f)
      = mom (ids x15) (fun i => ∑ j, (tab x2 x3 x10 i j - mean (ids x15) (tab x2 x3 x10) f j)
          * (tab x2 x3 x10 i j - mean (ids x15) (tab x2 x3 x10) f j)) f := by
  unfold val_main_v176
  refine (Cert.SparseVec.scatterAdd_vec_apply scatter_S2048_S100000x1_S100000_n_0_0_1_wf (val_main_v174 (F := Ideal))
    (val_main_v175 (F := Ideal) x15) (val_main_v173 (F := Ideal) x2 x3 x10 x15) f).trans ?_
  rw [val_main_v174_apply, val_main_cst_54_apply, Ideal.ofBits_def, Ideal.ofBits_zero_f32, zero_add]
  simp only [val_main_v175_apply, idx_col''']
  refine (sum_filter_eq_mom (ids x15) (fun i => val_main_v173 (F := Ideal) x2 x3 x10 x15 (ix1 i)) f).trans ?_
  refine mom_congr _ _ _ f fun i hi => ?_
  show val_main_v173 (F := Ideal) x2 x3 x10 x15 (ix1 i) = _
  rw [v173_eq]
  refine Finset.sum_congr rfl fun j _ => ?_
  rw [v170_eq x2 x3 x10 x15 i f j hi]

/-- %177: the fragment's mean squared distance. -/
theorem v177_eq (f : Fin 2048) :
    val_main_v177 (F := Ideal) x2 x3 x10 x15 (ix1 f) = var2 (ids x15) (tab x2 x3 x10) f := by
  rw [val_main_v177_apply, v176_eq, v157_eq]
  rfl

/-- %179: the fragment has at least two atoms. -/
theorem v179_eq (f : Fin 2048) :
    val_main_v179 (F := Ideal) x15 (ix1 f) = Ideal.cmp .oge (cnt (ids x15) f) c2 := by
  rw [val_main_v179_apply, v155_eq, val_main_v178_apply, val_main_cst_55_apply]
  rfl

/-- %183: the guarded square root, zero at a fragment that does not count. -/
theorem v183_eq (f : Fin 2048) :
    val_main_v183 (F := Ideal) x2 x3 x10 x15 (ix1 f)
      = if valid (ids x15) f then Ideal.sqrt (var2 (ids x15) (tab x2 x3 x10) f + cEps8) else c0 := by
  rw [val_main_v183_apply, v179_eq, val_main_v182_apply, val_main_v181_apply, v177_eq, val_main_v180_apply,
    val_main_cst_56_apply, val_main_call10_v1_apply, val_main_call10_v0_apply, val_main_cst_57_apply]
  simp only [Ideal.hostUnary_sqrt_def, Ideal.addf_def, Ideal.ofBits_def]
  exact select_valid (ids x15) f _ _

/-- A sum over a vector's indices is the sum over its positions. -/
theorem sum_vec {n : Nat} (g : (⟨1, ![n]⟩ : Shape).Idx → EReal) : ∑ j, g j = ∑ k : Fin n, g (ix1 k) :=
  (Equiv.sum_comp (Cert.SparseMM.idxEquiv1 (n := n)).symm g).symm

/-- %184: the sum of the guarded roots. -/
theorem v184_eq :
    val_main_v184 (F := Ideal) x2 x3 x10 x15 ix0
      = ∑ f : Fin 2048, if valid (ids x15) f then Ideal.sqrt (var2 (ids x15) (tab x2 x3 x10) f + cEps8) else c0 := by
  rw [val_main_v184_apply, val_main_cst_58_apply, Ideal.ofBits_def, Ideal.ofBits_zero_f32, zero_add, sum_vec]
  exact Finset.sum_congr rfl fun f _ => v183_eq x2 x3 x10 x15 f

/-- %185: one at a fragment that counts, zero elsewhere. -/
theorem v185_eq (f : Fin 2048) :
    val_main_v185 (F := Ideal) x15 (ix1 f) = if valid (ids x15) f then (1 : EReal) else 0 := by
  rw [val_main_v185_apply, v179_eq]
  show (((Ideal.cmp .oge (cnt (ids x15) f) c2).toNat : ℝ) : EReal) = _
  exact (bit_toReal _).trans (select_valid (ids x15) f 1 0)

/-- %186: the number of fragments that count. -/
theorem v186_eq (i : S_.Idx) : val_main_v186 (F := Ideal) x15 i = nvalid (ids x15) := by
  rw [val_main_v186_apply, val_main_cst_59_apply, Ideal.ofBits_def, Ideal.ofBits_zero_f32, zero_add, sum_vec]
  exact Finset.sum_congr rfl fun f _ => v185_eq x15 f

end Stages

/-! ## The two deliverables -/

/-- The reference's second spread is the two-pass spread of the table of projected magnitudes. -/
theorem ref_vecloss (x2 x3 : (⟨S100000x3x256, .f32⟩ : BufTy).Contents (Elt Ideal))
    (x10 : (⟨S256x256, .f32⟩ : BufTy).Contents (Elt Ideal)) (x15 : (⟨S100000, .i32⟩ : BufTy).Contents (Elt Ideal)) :
    Cert.ReferenceIdeal.Read.val_main_v190 (F := Ideal) x2 x3 x10 x15 ix0
      = Cert.Spec.spread (fun i => x15 (ix1 i))
          (fun i j => Cert.ReferenceIdeal.Read.val_main_v151 (F := Ideal) x2 x3 x10 (ix2 i j)) := by
  rw [val_main_v190_apply, val_main_v187_apply, v186_eq, val_main_cst_60_apply, val_main_v189_apply, v184_eq,
    val_main_v188_apply, v186_eq, val_main_cst_61_apply, val_main_call11_v0_apply, val_main_cst_62_apply]
  unfold spread avgValid Scalar.select
  rfl

/-- An entry of the table of projected magnitudes: the atom's magnitude times a column of the weight, summed. -/
theorem ref_vproj (x2 x3 : (⟨S100000x3x256, .f32⟩ : BufTy).Contents (Elt Ideal))
    (x10 : (⟨S256x256, .f32⟩ : BufTy).Contents (Elt Ideal)) (i : Fin 100000) (j : Fin 256) :
    Cert.ReferenceIdeal.Read.val_main_v151 (F := Ideal) x2 x3 x10 (ix2 i j)
      = ∑ k : Fin 256, Cert.ReferenceIdeal.Read.val_main_v148 (F := Ideal) x2 x3 (ix1 i) * x10 (ix2 k j) := by
  rw [val_main_v151_apply]
  refine Finset.sum_congr rfl fun k _ => ?_
  rw [val_main_v150_apply, val_main_v149_apply]
  have e1 : idx_main_v149 (idx_main_v150 (lidx_main_v151 (ix2 i j) k)) = ix1 i :=
    funext fun a => match a with | ⟨0, _⟩ => rfl
  have e2 : ridx_main_v151 (ix2 i j) k = ix2 k j :=
    funext fun a => match a with | ⟨0, _⟩ => rfl | ⟨1, _⟩ => rfl
  rw [e1, e2]

end Cert.RefVec

end
-- ==== Proof.KI.RefFinal.lean ====
/-
  The end of the reference: its result is the weighted sum of three loss terms.

  The last operations of the reference multiply the first term by the word of 0.3 and the second by the word of
  0.7 and add them, add the third term times the word of 0.1, and multiply the total by the word of 0.05.  Each of
  these is an elementwise operation on arrays with a single entry, so reading the result at its one index gives
  the same expression on the three terms read at that index; on the extended reals the float product and sum are
  the exact ones.  The three terms themselves are left as they are.
-/
import proofs.«412127_j15607911153865_3_alg».proof.Proof.RefReadP
import Idealize.ShloMosaic.Lib.ValueIdx
import Idealize.ShloMosaic.PureOps.Ideal

noncomputable section

namespace Cert.RefFinal

open Cert.ReferenceIdeal Cert.ReferenceIdeal.Gen Idealize.ShloMosaic Idealize.ShloMosaic.TcCoe Idealize.SL.Sem
  Idealize.ShloMosaic.StableHlo Idealize.ShloMosaic.ValueIdx
open Cert.ReferenceIdeal.Read

/-- The reference's result at its one index: 0.05 · ((0.3 · first term + 0.7 · second term) + 0.1 · third term),
    the constants as the words the program carries. -/
theorem ref_final (x0 x1 : (⟨S100000x256, .f32⟩ : BufTy).Contents (Elt Ideal)) (x2 x3 : (⟨S100000x3x256, .f32⟩ : BufTy).Contents (Elt Ideal))
    (x4 : (⟨S256x256, .f32⟩ : BufTy).Contents (Elt Ideal)) (x5 x6 x7 : (⟨S256, .f32⟩ : BufTy).Contents (Elt Ideal))
    (x8 : (⟨S256x256, .f32⟩ : BufTy).Contents (Elt Ideal)) (x9 : (⟨S256, .f32⟩ : BufTy).Contents (Elt Ideal))
    (x10 : (⟨S256x256, .f32⟩ : BufTy).Contents (Elt Ideal)) (x11 : (⟨S256x32, .f32⟩ : BufTy).Contents (Elt Ideal))
    (x12 : (⟨S32, .f32⟩ : BufTy).Contents (Elt Ideal)) (x13 : (⟨S32x1, .f32⟩ : BufTy).Contents (Elt Ideal))
    (x14 : (⟨S1, .f32⟩ : BufTy).Contents (Elt Ideal)) (x15 : (⟨S100000, .i32⟩ : BufTy).Contents (Elt Ideal)) :
    val_main_v193 (F := Ideal) x0 x1 x2 x3 x4 x5 x6 x7 x8 x9 x10 x11 x12 x13 x14 x15 ix0
      = Ideal.ofBits .f32 0x3D4CCCCD#32
        * ((Ideal.ofBits .f32 0x3E99999A#32 * val_main_v88 (F := Ideal) x0 x1 x4 x5 x6 x7 x8 x9 x15 ix0
            + Ideal.ofBits .f32 0x3F333333#32
              * val_main_v136 (F := Ideal) x0 x1 x4 x5 x6 x7 x8 x9 x11 x12 x13 x14 x15 ix0)
          + Ideal.ofBits .f32 0x3DCCCCCD#32 * val_main_v190 (F := Ideal) x2 x3 x10 x15 ix0) := by
  rw [val_main_v193_apply, val_main_v192_apply, val_main_v139_apply, val_main_v137_apply, val_main_v138_apply,
    val_main_v191_apply, val_main_cst_64_apply, val_main_cst_41_apply, val_main_cst_42_apply,
    val_main_cst_63_apply]
  generalize val_main_v88 (F := Ideal) x0 x1 x4 x5 x6 x7 x8 x9 x15 ix0 = t1
  generalize val_main_v136 (F := Ideal) x0 x1 x4 x5 x6 x7 x8 x9 x11 x12 x13 x14 x15 ix0 = t2
  generalize val_main_v190 (F := Ideal) x2 x3 x10 x15 ix0 = t3
  simp only [Ideal.ofBits_def, Ideal.mulf_def, Ideal.addf_def]

/-- What the run of the reference leaves in its result buffer is the last stage, as a function of the sixteen
    arguments found in memory. -/
theorem ref_result (m : (ℓ : Loc nD τ sig) → Buf (Elt Ideal) ℓ) (c : Dev nD) :
    Cert.ReferenceIdeal.Value.res_main_v193 m c
      = val_main_v193 (F := Ideal)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15)) :=
  val_main_v193_eq m c

end Cert.RefFinal

end
-- ==== Proof.KI.Final.lean ====
/-
  The kernel's returned number is the reference's.

  The entry function ends in a weighted sum of three terms: the averaged spread of the projected features within
  fragments, the similarity loss of the normalised fragment means, and the averaged spread of the projected vector
  magnitudes.  For the two spreads the kernel works from one-pass moments (per fragment: the count, the sum of rows,
  the sum of squared norms; for the magnitudes the sums of the centred values and of their squares) while the reference
  makes two passes (means first, then squared distances to the means).  Over real numbers the mean squared distance to
  the mean is the mean square minus the squared mean, it is never negative, and it does not change when a constant is
  subtracted from every value; so the two forms agree once every argument entry is a real number, which is what the
  precondition says.  The similarity loss is the same sum arranged by tiles of rows.  The weights of the final sum are
  the same words in both programs.
-/
import proofs.«412127_j15607911153865_3_alg».proof.Proof.KI.Moments
import proofs.«412127_j15607911153865_3_alg».proof.Proof.KI.Gsl
import proofs.«412127_j15607911153865_3_alg».proof.Proof.KI.K1
import proofs.«412127_j15607911153865_3_alg».proof.Proof.KI.Struct1
import proofs.«412127_j15607911153865_3_alg».proof.Proof.KI.Algebra
import proofs.«412127_j15607911153865_3_alg».proof.Proof.KI.PreReal
import proofs.«412127_j15607911153865_3_alg».proof.Proof.KI.RefReal
import proofs.«412127_j15607911153865_3_alg».proof.Proof.KI.RefIntra
import proofs.«412127_j15607911153865_3_alg».proof.Proof.KI.RefVec
import proofs.«412127_j15607911153865_3_alg».proof.Proof.KI.RefFinal
import proofs.«412127_j15607911153865_3_alg».proof.Proof.KI.Args
import proofs.«412127_j15607911153865_3_alg».proof.Proof.Gen.Pre_finite_inputs

noncomputable section

namespace Cert.KernelIdeal.Hand

open Idealize.ShloMosaic Idealize.ShloMosaic.TcCoe
open Idealize.SL Idealize.SL.Sem
open Idealize.ShloMosaic.ValueIdx
open Cert.KernelIdeal Cert.KernelIdeal.Gen
open Cert.Spec

variable (m : (ℓ : Loc nD τ sig) → Buf (Elt Ideal) ℓ) (c : Dev nD)

/-- The first spread: the kernel's one-pass form over the summed table is the reference's two-pass spread of the
    projected features, because those are real numbers. -/
theorem intra_eq
    (hP : ∀ (i : Fin 100000) (j : Fin 256), ∃ r : ℝ, projTable m c i j = (r : EReal)) :
    intra1 (F := Ideal) (V3 m c main_v18) (ix2 (0 : Fin 1) (0 : Fin 1))
      = Cert.ReferenceIdeal.Read.val_main_v88 (F := Ideal) (arg0 m c) (arg1 m c) (arg4 m c) (arg5 m c) (arg6 m c) (arg7 m c) (arg8 m c)
          (arg9 m c) (arg15 m c) ix0 := by
  refine (intra1_eq (V3 m c main_v18) (labels m c) (comb_cnt m c)).trans ?_
  have e1 : (fun (f : Fin 2048) (j : Fin 256) =>
        (V3 m c main_v18 : Vec Ideal S2048x384 .f32) (ix2 f (Fin.castLE (by decide) j)))
      = fun f j => segsum (labels m c) (projTable m c) f j :=
    funext fun f => funext fun j => comb_proj m c f j
  have e2 : (fun f : Fin 2048 => (V3 m c main_v18 : Vec Ideal S2048x384 .f32) (ix2 f (256 : Fin 384)))
      = fun f => mom (labels m c) (fun i => ∑ j, projTable m c i j * projTable m c i j) f :=
    funext fun f => comb_sq m c f
  refine (congrArg₂ (spreadOfMoments (labels m c)) e1 e2).trans ?_
  refine (spread_of_moments (labels m c) (projTable m c) hP).trans ?_
  exact (Cert.RefIntra.ref_intra (arg0 m c) (arg1 m c) (arg4 m c) (arg5 m c) (arg6 m c) (arg7 m c) (arg8 m c) (arg9 m c) (arg15 m c)).symm

/-- The second spread: the kernel's one-pass form over the centred magnitudes, scaled by the squared norm of the
    weight's column sums, is the reference's two-pass spread of the table of magnitudes times weight columns. -/
theorem vec_eq
    (hvm : ∀ i : Fin 100000, ∃ r : ℝ, vmagCol m c i = (r : EReal))
    (hw : ∀ k j : Fin 256, ∃ r : ℝ, arg10 m c (ix2 k j) = (r : EReal)) :
    vecloss1 (F := Ideal) (V3 m c main_v18) (V3 m c main_v22) (ix2 (0 : Fin 1) (0 : Fin 1))
      = Cert.ReferenceIdeal.Read.val_main_v190 (F := Ideal) (arg2 m c) (arg3 m c) (arg10 m c) (arg15 m c) ix0 := by
  refine (vecloss1_eq (V3 m c main_v18) (labels m c) (comb_cnt m c) (V3 m c main_v22)).trans ?_
  have e1 : (fun f : Fin 2048 => (V3 m c main_v18 : Vec Ideal S2048x384 .f32) (ix2 f (258 : Fin 384)))
      = fun f => mom (labels m c) (fun i => vmagCol m c i - cShift) f :=
    funext fun f => comb_vm m c f
  have e2 : (fun f : Fin 2048 => (V3 m c main_v18 : Vec Ideal S2048x384 .f32) (ix2 f (259 : Fin 384)))
      = fun f => mom (labels m c) (fun i => (vmagCol m c i - cShift) * (vmagCol m c i - cShift)) f :=
    funext fun f => comb_vm2 m c f
  have e3 : (V3 m c main_v22 : Vec Ideal S1x1 .f32) (ix2 (0 : Fin 1) (0 : Fin 1))
      = ∑ j : Fin 256, (∑ k : Fin 256, arg10 m c (ix2 k j)) * (∑ k : Fin 256, arg10 m c (ix2 k j)) :=
    in1_nw m c (arg10 m c) rfl
  rw [e1, e2, e3]
  refine (spread_vec (labels m c) (vmagCol m c) hvm (fun k j => arg10 m c (ix2 k j)) hw).trans ?_
  refine Eq.trans ?_ (Cert.RefVec.ref_vecloss (arg2 m c) (arg3 m c) (arg10 m c) (arg15 m c)).symm
  exact congrArg (spread (labels m c))
    (funext fun i => funext fun j => (Cert.RefVec.ref_vproj (arg2 m c) (arg3 m c) (arg10 m c) i j).symm)

/-- The returned number, at its one index, is the reference's last stage on the same sixteen arguments. -/
theorem kernel_result
    (hpre : Cert.Pre_finite_inputs.fn (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) = (fun _ => 1#1)) :
    (W7 m c (Proc.devRef .tc main_v45) : Vec Ideal S_ .f32) ix0
      = Cert.ReferenceIdeal.Read.val_main_v193 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) ix0 := by
  obtain ⟨r0, r1, r2, r3, r4, r5, r6, r7, r8, r9, r10, r11, r12, r13, r14⟩ :=
    Cert.PreReal.real_of_pre _ _ _ _ _ _ _ _ _ _ _ _ _ _ _ _ hpre
  have hP := Cert.RefReal.proj_real (arg0 m c) (arg1 m c) (arg4 m c) (arg5 m c) (arg6 m c) (arg7 m c) (arg8 m c) (arg9 m c) r0 r1 r4 r5 r6 r7 r8 r9
  have hvm := Cert.RefReal.vmag_real (arg2 m c) (arg3 m c) r2 r3
  rw [result_eq m c
      (fun h => (W6 m c (Proc.devRef .tc main_v28_0) : Vec Ideal S2x1x1 .f32) (ix3 h 0 0))
      (fun h => (W6 m c (Proc.devRef .tc main_v28_1) : Vec Ideal S2x1x1 .f32) (ix3 h 0 0))
      (fun _ => rfl) (fun _ => rfl),
    intra_eq m c hP, vec_eq m c hvm (fun k j => r10 (ix2 k j)),
    gsl_eq m c
      (fun h => (W6 m c (Proc.devRef .tc main_v28_0) : Vec Ideal S2x1x1 .f32) (ix3 h 0 0))
      (fun h => (W6 m c (Proc.devRef .tc main_v28_1) : Vec Ideal S2x1x1 .f32) (ix3 h 0 0))
      (fun _ => rfl) (fun _ => rfl) (comb_proj m c) (comb_cnt m c)]
  exact (Cert.RefFinal.ref_final (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c)).symm

/-- The same as an equation of one-entry arrays. -/
theorem kernel_result_fun
    (hpre : Cert.Pre_finite_inputs.fn (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) = (fun _ => 1#1)) :
    (W7 m c (Proc.devRef .tc main_v45) : Vec Ideal S_ .f32)
      = Cert.ReferenceIdeal.Read.val_main_v193 (F := Ideal) (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) := by
  funext i
  have hi : i = ix0 := funext fun d => d.elim0
  rw [hi]
  exact kernel_result m c hpre

end Cert.KernelIdeal.Hand

end
-- ==== Proof.RefRead.lean ====
/-
  The reference program's run and its stages read one operation at a time: this module only brings the two
  modules into the build, so that the modules that compare the reference with the kernel can cite them.
-/
import proofs.«412127_j15607911153865_3_alg».proof.Proof.RefRunP
import proofs.«412127_j15607911153865_3_alg».proof.Proof.RefReadP
-- ==== Proof.lean ====
/-
  The certificate of a fused fragment-loss kernel against its array-level reference.

  The kernel runs three launches with host operations between them.  The first walks the hundred tiles of a thousand
  atoms, projects each atom's mixed scalar features through a two-layer network, and adds to a table with one row per
  fragment the tile's rows selected by a one-hot matrix of the fragment labels: the projected channels, their squared
  norm, a one, the centred mean vector magnitude and its square.  The second turns the table into the normalised
  fragment means, an adaptive target and two averaged spreads; the third sums a thresholded loss over the pairs of
  fragment means tile by tile.  The reference computes the same loss with segment sums, gathers and whole-array
  operations, taking two passes where the kernel takes one.

  Each of the two kernel programs runs to the end, faults nowhere and leaves its sixteen arguments as they were: every
  launch's body keeps its obligations at every grid point, and the launches and host stretches are chained over the
  contents each leaves behind.  The reference is a host program and its run is read back operation by operation.  The
  idealized kernel differs from the word-level one in one constant, the named third, which denotes the rational 1/3.
  At the exact instance the two idealized programs return the same number when every argument entry is real.
-/
import proofs.«412127_j15607911153865_3_alg».proof.Defs
import proofs.«412127_j15607911153865_3_alg».proof.Proof.Gen.Kernel
import proofs.«412127_j15607911153865_3_alg».proof.Proof.Gen.KernelIdeal
import proofs.«412127_j15607911153865_3_alg».proof.Proof.Gen.ReferenceIdeal
import proofs.«412127_j15607911153865_3_alg».proof.Proof.Gen.Pre_finite_inputs
import proofs.«412127_j15607911153865_3_alg».proof.Proof.K.Body0
import proofs.«412127_j15607911153865_3_alg».proof.Proof.K.Body1
import proofs.«412127_j15607911153865_3_alg».proof.Proof.K.Body2
import proofs.«412127_j15607911153865_3_alg».proof.Proof.K.Run
import proofs.«412127_j15607911153865_3_alg».proof.Proof.KI.Body0
import proofs.«412127_j15607911153865_3_alg».proof.Proof.KI.Body1
import proofs.«412127_j15607911153865_3_alg».proof.Proof.KI.Body2
import proofs.«412127_j15607911153865_3_alg».proof.Proof.KI.Run
import proofs.«412127_j15607911153865_3_alg».proof.Proof.KI.Final
import proofs.«412127_j15607911153865_3_alg».proof.Proof.RefRead
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_k : Cert.frame_Kernel := fun m ρ _ =>
  Cert.Kernel.Hand.frame_all (F := Bits) m ρ (fun V c => Cert.Kernel.Hand.body_obligation0 V c)
    (fun V c => Cert.Kernel.Hand.body_obligation1 V c) (fun V c => Cert.Kernel.Hand.body_obligation2 V c)

/-- The idealized kernel runs and keeps its arguments. -/
theorem frame_ki : Cert.frame_KernelIdeal := fun m ρ _ =>
  Cert.KernelIdeal.Hand.frame_all (F := Ideal) m ρ (fun V c => Cert.KernelIdeal.Hand.body_obligation0 V c)
    (fun V c => Cert.KernelIdeal.Hand.body_obligation1 V c) (fun V c => Cert.KernelIdeal.Hand.body_obligation2 V c)

/-- The reference runs and keeps its arguments: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one constant the idealization names: the third denotes the rational 1/3. -/
theorem preserves : Cert.preserves_Kernel_KernelIdeal :=
  IdealRules.named_const.statement Cert.KernelIdeal.κ "inv_3" .f32 0x3EAAAAAB#32 ((1 / 3 : ℝ) : EReal) rfl

/-- From memories that agree on the sixteen arguments both idealized programs end with the same number. -/
theorem algebraic : Cert.algebraic_KernelIdeal_ReferenceIdeal := by
  intro m ρ m' ρ' hpre hagree
  refine ⟨fun c => Cert.KernelIdeal.Hand.W7 m c (Proc.devRef .tc Cert.KernelIdeal.main_v45),
    Cert.KernelIdeal.Hand.run_all (F := Ideal) m ρ (fun V c => Cert.KernelIdeal.Hand.body_obligation0 V c)
      (fun V c => Cert.KernelIdeal.Hand.body_obligation1 V c) (fun V c => Cert.KernelIdeal.Hand.body_obligation2 V c), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.RefFinal.ref_result m' c, h0, h1, h2, h3, h4, h5, h6, h7, h8, h9, h10, h11, h12, h13, h14, h15]
  exact (Cert.KernelIdeal.Hand.kernel_result_fun m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
